-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x512 : Shape := ⟨3, ![32, 4096, 512]⟩
abbrev S32x4096 : Shape := ⟨2, ![32, 4096]⟩
abbrev S_ : Shape := ⟨0, ![]⟩

class Facts : Prop where
  bcast_S_S32x4096x512 : S_.BroadcastsInDim S32x4096x512 (![] : Fin 0 → Fin S32x4096x512.rank)
  reducesTo_S32x4096x512_S_d0_1_2 : S32x4096x512.ReducesTo [0, 1, 2] S_
  h_S_ : 0 < S_.numel
  bcast_S_S32x4096 : S_.BroadcastsInDim S32x4096 (![] : Fin 0 → Fin S32x4096.rank)
  reducesTo_S32x4096_S_d0_1 : S32x4096.ReducesTo [0, 1] S_

variable [Facts]

def fn {F : FTy → Type} [FloatOps F] (main_arg0 : FVec F S32x4096x512 .f32) (main_arg1 : IVec S32x4096 32) : IVec S_ 1 :=
  let main_v0 : FVec F S32x4096x512 .f32 := Host.absf main_arg0
  let main_cst : FVec F S_ .f32 := constant S_ .f32 0x7F800000#32
  let main_v1 : FVec F S32x4096x512 .f32 := broadcastInDim S32x4096x512 ![] bcast_S_S32x4096x512 main_cst
  let main_v2 : IVec S32x4096x512 1 := cmpf .olt main_v0 main_v1
  let main_c : IVec S_ 1 := constantI S_ 1 1#1
  let main_v3 : IVec S_ 1 := (fun x v => Host.reduce IntOp.andi x v reducesTo_S32x4096x512_S_d0_1_2 h_S_) main_v2 main_c
  let main_c_0 : IVec S_ 32 := constantI S_ 32 0#32
  let main_v4 : IVec S32x4096 32 := broadcastInDim S32x4096 ![] bcast_S_S32x4096 main_c_0
  let main_v5 : IVec S32x4096 1 := cmpi .eq main_arg1 main_v4
  let main_c_1 : IVec S_ 32 := constantI S_ 32 1#32
  let main_v6 : IVec S32x4096 32 := broadcastInDim S32x4096 ![] bcast_S_S32x4096 main_c_1
  let main_v7 : IVec S32x4096 1 := cmpi .eq main_arg1 main_v6
  let main_v8 : IVec S32x4096 1 := ori main_v5 main_v7
  let main_c_2 : IVec S_ 1 := constantI S_ 1 1#1
  let main_v9 : IVec S_ 1 := (fun x v => Host.reduce IntOp.andi x v reducesTo_S32x4096_S_d0_1 h_S_) main_v8 main_c_2
  let main_v10 : IVec S_ 1 := andi main_v3 main_v9
  main_v10
-- ==== Kernel.lean ====
abbrev S32x4096x512 : Shape := ⟨3, ![32, 4096, 512]⟩
abbrev S32x4096 : Shape := ⟨2, ![32, 4096]⟩
abbrev S_ : Shape := ⟨0, ![]⟩
abbrev S32 : Shape := ⟨1, ![32]⟩
abbrev S32x512 : Shape := ⟨2, ![32, 512]⟩
abbrev S1 : Shape := ⟨1, ![1]⟩
abbrev S1x512 : Shape := ⟨2, ![1, 512]⟩
abbrev S512 : Shape := ⟨1, ![512]⟩
abbrev S1x1x512 : Shape := ⟨3, ![1, 1, 512]⟩

abbrev nBuf : Space → Nat
  | .hbm => 15
  | .vmem => 2
  | .smem => 1
  | _ => 0

abbrev bufTy : (tb : Table) → Fin (tcTables nBuf tb) → BufTy
  | .hbm, ⟨0, _⟩ => ⟨S32x4096x512, .f32⟩
  | .hbm, ⟨1, _⟩ => ⟨S32x4096, .i32⟩
  | .hbm, ⟨2, _⟩ => ⟨S_, .i32⟩
  | .hbm, ⟨3, _⟩ => ⟨S32, .i32⟩
  | .hbm, ⟨4, _⟩ => ⟨S_, .i32⟩
  | .hbm, ⟨5, _⟩ => ⟨S32, .i32⟩
  | .hbm, ⟨6, _⟩ => ⟨S32, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S32, .i32⟩
  | .hbm, ⟨14, _⟩ => ⟨S32x512, .f32⟩
  | .local _ .vmem, ⟨0, _⟩ => ⟨S32x512, .f32⟩
  | .local _ .vmem, ⟨1, _⟩ => ⟨S32x512, .f32⟩
  | .local _ .smem, ⟨0, _⟩ => ⟨S32, .i32⟩
  | _, _ => ⟨S32x4096x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_c_2 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v4 : Ref sig .tc := ⟨.hbm, 14, rfl⟩
abbrev main_v3 : Ref sig .tc := ⟨.smem, 0, rfl⟩
abbrev cc0_stg0_0 : Ref sig .tc := ⟨.vmem, 0, rfl⟩
abbrev cc0_scratch0 : Ref sig .tc := ⟨.vmem, 1, rfl⟩
abbrev cc0_sem0_0 : DmaSem sig := 0

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def k0_off1 (v0 : BitVec 32) : Fin 3 → Nat :=
  let c0_i32 : BitVec 32 := 0#32
  let c0_i32_3 : BitVec 32 := 0#32
  ![0, v0.toNat, 0]

def k0_off2 (v7 : BitVec 32) : Fin 3 → Nat :=
  let c1_i32 : BitVec 32 := 1#32
  let c0_i32_7 : BitVec 32 := 0#32
  ![1, v7.toNat, 0]

def k0_off3 (v14 : BitVec 32) : Fin 3 → Nat :=
  let c2_i32 : BitVec 32 := 2#32
  let c0_i32_11 : BitVec 32 := 0#32
  ![2, v14.toNat, 0]

def k0_off4 (v21 : BitVec 32) : Fin 3 → Nat :=
  let c3_i32 : BitVec 32 := 3#32
  let c0_i32_15 : BitVec 32 := 0#32
  ![3, v21.toNat, 0]

def k0_off5 (v28 : BitVec 32) : Fin 3 → Nat :=
  let c4_i32 : BitVec 32 := 4#32
  let c0_i32_19 : BitVec 32 := 0#32
  ![4, v28.toNat, 0]

def k0_off6 (v35 : BitVec 32) : Fin 3 → Nat :=
  let c5_i32 : BitVec 32 := 5#32
  let c0_i32_23 : BitVec 32 := 0#32
  ![5, v35.toNat, 0]

def k0_off7 (v42 : BitVec 32) : Fin 3 → Nat :=
  let c6_i32 : BitVec 32 := 6#32
  let c0_i32_27 : BitVec 32 := 0#32
  ![6, v42.toNat, 0]

def k0_off8 (v49 : BitVec 32) : Fin 3 → Nat :=
  let c7_i32 : BitVec 32 := 7#32
  let c0_i32_31 : BitVec 32 := 0#32
  ![7, v49.toNat, 0]

def k0_off9 (v56 : BitVec 32) : Fin 3 → Nat :=
  let c8_i32 : BitVec 32 := 8#32
  let c0_i32_35 : BitVec 32 := 0#32
  ![8, v56.toNat, 0]

def k0_off10 (v63 : BitVec 32) : Fin 3 → Nat :=
  let c9_i32 : BitVec 32 := 9#32
  let c0_i32_39 : BitVec 32 := 0#32
  ![9, v63.toNat, 0]

def k0_off11 (v70 : BitVec 32) : Fin 3 → Nat :=
  let c10_i32 : BitVec 32 := 10#32
  let c0_i32_43 : BitVec 32 := 0#32
  ![10, v70.toNat, 0]

def k0_off12 (v77 : BitVec 32) : Fin 3 → Nat :=
  let c11_i32 : BitVec 32 := 11#32
  let c0_i32_47 : BitVec 32 := 0#32
  ![11, v77.toNat, 0]

def k0_off13 (v84 : BitVec 32) : Fin 3 → Nat :=
  let c12_i32 : BitVec 32 := 12#32
  let c0_i32_51 : BitVec 32 := 0#32
  ![12, v84.toNat, 0]

def k0_off14 (v91 : BitVec 32) : Fin 3 → Nat :=
  let c13_i32 : BitVec 32 := 13#32
  let c0_i32_55 : BitVec 32 := 0#32
  ![13, v91.toNat, 0]

def k0_off15 (v98 : BitVec 32) : Fin 3 → Nat :=
  let c14_i32 : BitVec 32 := 14#32
  let c0_i32_59 : BitVec 32 := 0#32
  ![14, v98.toNat, 0]

def k0_off16 (v105 : BitVec 32) : Fin 3 → Nat :=
  let c15_i32 : BitVec 32 := 15#32
  let c0_i32_63 : BitVec 32 := 0#32
  ![15, v105.toNat, 0]

def k0_off17 (v112 : BitVec 32) : Fin 3 → Nat :=
  let c16_i32 : BitVec 32 := 16#32
  let c0_i32_67 : BitVec 32 := 0#32
  ![16, v112.toNat, 0]

def k0_off18 (v119 : BitVec 32) : Fin 3 → Nat :=
  let c17_i32 : BitVec 32 := 17#32
  let c0_i32_71 : BitVec 32 := 0#32
  ![17, v119.toNat, 0]

def k0_off19 (v126 : BitVec 32) : Fin 3 → Nat :=
  let c18_i32 : BitVec 32 := 18#32
  let c0_i32_75 : BitVec 32 := 0#32
  ![18, v126.toNat, 0]

def k0_off20 (v133 : BitVec 32) : Fin 3 → Nat :=
  let c19_i32 : BitVec 32 := 19#32
  let c0_i32_79 : BitVec 32 := 0#32
  ![19, v133.toNat, 0]

def k0_off21 (v140 : BitVec 32) : Fin 3 → Nat :=
  let c20_i32 : BitVec 32 := 20#32
  let c0_i32_83 : BitVec 32 := 0#32
  ![20, v140.toNat, 0]

def k0_off22 (v147 : BitVec 32) : Fin 3 → Nat :=
  let c21_i32 : BitVec 32 := 21#32
  let c0_i32_87 : BitVec 32 := 0#32
  ![21, v147.toNat, 0]

def k0_off23 (v154 : BitVec 32) : Fin 3 → Nat :=
  let c22_i32 : BitVec 32 := 22#32
  let c0_i32_91 : BitVec 32 := 0#32
  ![22, v154.toNat, 0]

def k0_off24 (v161 : BitVec 32) : Fin 3 → Nat :=
  let c23_i32 : BitVec 32 := 23#32
  let c0_i32_95 : BitVec 32 := 0#32
  ![23, v161.toNat, 0]

def k0_off25 (v168 : BitVec 32) : Fin 3 → Nat :=
  let c24_i32 : BitVec 32 := 24#32
  let c0_i32_99 : BitVec 32 := 0#32
  ![24, v168.toNat, 0]

def k0_off26 (v175 : BitVec 32) : Fin 3 → Nat :=
  let c25_i32 : BitVec 32 := 25#32
  let c0_i32_103 : BitVec 32 := 0#32
  ![25, v175.toNat, 0]

def k0_off27 (v182 : BitVec 32) : Fin 3 → Nat :=
  let c26_i32 : BitVec 32 := 26#32
  let c0_i32_107 : BitVec 32 := 0#32
  ![26, v182.toNat, 0]

def k0_off28 (v189 : BitVec 32) : Fin 3 → Nat :=
  let c27_i32 : BitVec 32 := 27#32
  let c0_i32_111 : BitVec 32 := 0#32
  ![27, v189.toNat, 0]

def k0_off29 (v196 : BitVec 32) : Fin 3 → Nat :=
  let c28_i32 : BitVec 32 := 28#32
  let c0_i32_115 : BitVec 32 := 0#32
  ![28, v196.toNat, 0]

def k0_off30 (v203 : BitVec 32) : Fin 3 → Nat :=
  let c29_i32 : BitVec 32 := 29#32
  let c0_i32_119 : BitVec 32 := 0#32
  ![29, v203.toNat, 0]

def k0_off31 (v210 : BitVec 32) : Fin 3 → Nat :=
  let c30_i32 : BitVec 32 := 30#32
  let c0_i32_123 : BitVec 32 := 0#32
  ![30, v210.toNat, 0]

def k0_off32 (v217 : BitVec 32) : Fin 3 → Nat :=
  let c31_i32 : BitVec 32 := 31#32
  let c0_i32_127 : BitVec 32 := 0#32
  ![31, v217.toNat, 0]

def k0_chk32 (v217 : BitVec 32) : Prop :=
  (∀ a, (k0_off32 v217) a + S1x1x512.size a ≤ S32x4096x512.size a)
instance k0_chk32.dec : ∀ (v217 : BitVec 32), Decidable (k0_chk32 v217) := fun v217 => decidable_of_iff' _ (Iff.of_eq (k0_chk32.eq_1 v217))
theorem k0_off32_inb : ∀ (v217 : BitVec 32) (k0_hw32 : k0_chk32 v217), ∀ a, (k0_off32 v217) a + S1x1x512.size a ≤ S32x4096x512.size a := fun v217 k0_hw32 => k0_hw32

def k0_off33 (v0 : BitVec 32) : Fin 3 → Nat :=
  let c0_i32_128 : BitVec 32 := 0#32
  let c0_i32_132 : BitVec 32 := 0#32
  ![0, v0.toNat, 0]

def k0_chk1 (v0 : BitVec 32) : Prop :=
  (∀ a, (k0_off1 v0) a + S1x1x512.size a ≤ S32x4096x512.size a) ∧
  (∀ a, (k0_off33 v0) a + S1x1x512.size a ≤ S32x4096x512.size a)
instance k0_chk1.dec : ∀ (v0 : BitVec 32), Decidable (k0_chk1 v0) := fun v0 => decidable_of_iff' _ (Iff.of_eq (k0_chk1.eq_1 v0))
theorem k0_off1_inb : ∀ (v0 : BitVec 32) (k0_hw1 : k0_chk1 v0), ∀ a, (k0_off1 v0) a + S1x1x512.size a ≤ S32x4096x512.size a := fun v0 k0_hw1 => k0_hw1.1
theorem k0_off33_inb : ∀ (v0 : BitVec 32) (k0_hw1 : k0_chk1 v0), ∀ a, (k0_off33 v0) a + S1x1x512.size a ≤ S32x4096x512.size a := fun v0 k0_hw1 => k0_hw1.2

def k0_off34 (v7 : BitVec 32) : Fin 3 → Nat :=
  let c1_i32_133 : BitVec 32 := 1#32
  let c0_i32_137 : BitVec 32 := 0#32
  ![1, v7.toNat, 0]

def k0_chk2 (v7 : BitVec 32) : Prop :=
  (∀ a, (k0_off2 v7) a + S1x1x512.size a ≤ S32x4096x512.size a) ∧
  (∀ a, (k0_off34 v7) a + S1x1x512.size a ≤ S32x4096x512.size a)
instance k0_chk2.dec : ∀ (v7 : BitVec 32), Decidable (k0_chk2 v7) := fun v7 => decidable_of_iff' _ (Iff.of_eq (k0_chk2.eq_1 v7))
theorem k0_off2_inb : ∀ (v7 : BitVec 32) (k0_hw2 : k0_chk2 v7), ∀ a, (k0_off2 v7) a + S1x1x512.size a ≤ S32x4096x512.size a := fun v7 k0_hw2 => k0_hw2.1
theorem k0_off34_inb : ∀ (v7 : BitVec 32) (k0_hw2 : k0_chk2 v7), ∀ a, (k0_off34 v7) a + S1x1x512.size a ≤ S32x4096x512.size a := fun v7 k0_hw2 => k0_hw2.2

def k0_off35 (v14 : BitVec 32) : Fin 3 → Nat :=
  let c2_i32_138 : BitVec 32 := 2#32
  let c0_i32_142 : BitVec 32 := 0#32
  ![2, v14.toNat, 0]

def k0_chk3 (v14 : BitVec 32) : Prop :=
  (∀ a, (k0_off3 v14) a + S1x1x512.size a ≤ S32x4096x512.size a) ∧
  (∀ a, (k0_off35 v14) a + S1x1x512.size a ≤ S32x4096x512.size a)
instance k0_chk3.dec : ∀ (v14 : BitVec 32), Decidable (k0_chk3 v14) := fun v14 => decidable_of_iff' _ (Iff.of_eq (k0_chk3.eq_1 v14))
theorem k0_off3_inb : ∀ (v14 : BitVec 32) (k0_hw3 : k0_chk3 v14), ∀ a, (k0_off3 v14) a + S1x1x512.size a ≤ S32x4096x512.size a := fun v14 k0_hw3 => k0_hw3.1
theorem k0_off35_inb : ∀ (v14 : BitVec 32) (k0_hw3 : k0_chk3 v14), ∀ a, (k0_off35 v14) a + S1x1x512.size a ≤ S32x4096x512.size a := fun v14 k0_hw3 => k0_hw3.2

def k0_off36 (v21 : BitVec 32) : Fin 3 → Nat :=
  let c3_i32_143 : BitVec 32 := 3#32
  let c0_i32_147 : BitVec 32 := 0#32
  ![3, v21.toNat, 0]

def k0_chk4 (v21 : BitVec 32) : Prop :=
  (∀ a, (k0_off4 v21) a + S1x1x512.size a ≤ S32x4096x512.size a) ∧
  (∀ a, (k0_off36 v21) a + S1x1x512.size a ≤ S32x4096x512.size a)
instance k0_chk4.dec : ∀ (v21 : BitVec 32), Decidable (k0_chk4 v21) := fun v21 => decidable_of_iff' _ (Iff.of_eq (k0_chk4.eq_1 v21))
theorem k0_off4_inb : ∀ (v21 : BitVec 32) (k0_hw4 : k0_chk4 v21), ∀ a, (k0_off4 v21) a + S1x1x512.size a ≤ S32x4096x512.size a := fun v21 k0_hw4 => k0_hw4.1
theorem k0_off36_inb : ∀ (v21 : BitVec 32) (k0_hw4 : k0_chk4 v21), ∀ a, (k0_off36 v21) a + S1x1x512.size a ≤ S32x4096x512.size a := fun v21 k0_hw4 => k0_hw4.2

def k0_off37 (v28 : BitVec 32) : Fin 3 → Nat :=
  let c4_i32_148 : BitVec 32 := 4#32
  let c0_i32_152 : BitVec 32 := 0#32
  ![4, v28.toNat, 0]

def k0_chk5 (v28 : BitVec 32) : Prop :=
  (∀ a, (k0_off5 v28) a + S1x1x512.size a ≤ S32x4096x512.size a) ∧
  (∀ a, (k0_off37 v28) a + S1x1x512.size a ≤ S32x4096x512.size a)
instance k0_chk5.dec : ∀ (v28 : BitVec 32), Decidable (k0_chk5 v28) := fun v28 => decidable_of_iff' _ (Iff.of_eq (k0_chk5.eq_1 v28))
theorem k0_off5_inb : ∀ (v28 : BitVec 32) (k0_hw5 : k0_chk5 v28), ∀ a, (k0_off5 v28) a + S1x1x512.size a ≤ S32x4096x512.size a := fun v28 k0_hw5 => k0_hw5.1
theorem k0_off37_inb : ∀ (v28 : BitVec 32) (k0_hw5 : k0_chk5 v28), ∀ a, (k0_off37 v28) a + S1x1x512.size a ≤ S32x4096x512.size a := fun v28 k0_hw5 => k0_hw5.2

def k0_off38 (v35 : BitVec 32) : Fin 3 → Nat :=
  let c5_i32_153 : BitVec 32 := 5#32
  let c0_i32_157 : BitVec 32 := 0#32
  ![5, v35.toNat, 0]

def k0_chk6 (v35 : BitVec 32) : Prop :=
  (∀ a, (k0_off6 v35) a + S1x1x512.size a ≤ S32x4096x512.size a) ∧
  (∀ a, (k0_off38 v35) a + S1x1x512.size a ≤ S32x4096x512.size a)
instance k0_chk6.dec : ∀ (v35 : BitVec 32), Decidable (k0_chk6 v35) := fun v35 => decidable_of_iff' _ (Iff.of_eq (k0_chk6.eq_1 v35))
theorem k0_off6_inb : ∀ (v35 : BitVec 32) (k0_hw6 : k0_chk6 v35), ∀ a, (k0_off6 v35) a + S1x1x512.size a ≤ S32x4096x512.size a := fun v35 k0_hw6 => k0_hw6.1
theorem k0_off38_inb : ∀ (v35 : BitVec 32) (k0_hw6 : k0_chk6 v35), ∀ a, (k0_off38 v35) a + S1x1x512.size a ≤ S32x4096x512.size a := fun v35 k0_hw6 => k0_hw6.2

def k0_off39 (v42 : BitVec 32) : Fin 3 → Nat :=
  let c6_i32_158 : BitVec 32 := 6#32
  let c0_i32_162 : BitVec 32 := 0#32
  ![6, v42.toNat, 0]

def k0_chk7 (v42 : BitVec 32) : Prop :=
  (∀ a, (k0_off7 v42) a + S1x1x512.size a ≤ S32x4096x512.size a) ∧
  (∀ a, (k0_off39 v42) a + S1x1x512.size a ≤ S32x4096x512.size a)
instance k0_chk7.dec : ∀ (v42 : BitVec 32), Decidable (k0_chk7 v42) := fun v42 => decidable_of_iff' _ (Iff.of_eq (k0_chk7.eq_1 v42))
theorem k0_off7_inb : ∀ (v42 : BitVec 32) (k0_hw7 : k0_chk7 v42), ∀ a, (k0_off7 v42) a + S1x1x512.size a ≤ S32x4096x512.size a := fun v42 k0_hw7 => k0_hw7.1
theorem k0_off39_inb : ∀ (v42 : BitVec 32) (k0_hw7 : k0_chk7 v42), ∀ a, (k0_off39 v42) a + S1x1x512.size a ≤ S32x4096x512.size a := fun v42 k0_hw7 => k0_hw7.2

def k0_off40 (v49 : BitVec 32) : Fin 3 → Nat :=
  let c7_i32_163 : BitVec 32 := 7#32
  let c0_i32_167 : BitVec 32 := 0#32
  ![7, v49.toNat, 0]

def k0_chk8 (v49 : BitVec 32) : Prop :=
  (∀ a, (k0_off8 v49) a + S1x1x512.size a ≤ S32x4096x512.size a) ∧
  (∀ a, (k0_off40 v49) a + S1x1x512.size a ≤ S32x4096x512.size a)
instance k0_chk8.dec : ∀ (v49 : BitVec 32), Decidable (k0_chk8 v49) := fun v49 => decidable_of_iff' _ (Iff.of_eq (k0_chk8.eq_1 v49))
theorem k0_off8_inb : ∀ (v49 : BitVec 32) (k0_hw8 : k0_chk8 v49), ∀ a, (k0_off8 v49) a + S1x1x512.size a ≤ S32x4096x512.size a := fun v49 k0_hw8 => k0_hw8.1
theorem k0_off40_inb : ∀ (v49 : BitVec 32) (k0_hw8 : k0_chk8 v49), ∀ a, (k0_off40 v49) a + S1x1x512.size a ≤ S32x4096x512.size a := fun v49 k0_hw8 => k0_hw8.2

def k0_off41 (v56 : BitVec 32) : Fin 3 → Nat :=
  let c8_i32_168 : BitVec 32 := 8#32
  let c0_i32_172 : BitVec 32 := 0#32
  ![8, v56.toNat, 0]

def k0_chk9 (v56 : BitVec 32) : Prop :=
  (∀ a, (k0_off9 v56) a + S1x1x512.size a ≤ S32x4096x512.size a) ∧
  (∀ a, (k0_off41 v56) a + S1x1x512.size a ≤ S32x4096x512.size a)
instance k0_chk9.dec : ∀ (v56 : BitVec 32), Decidable (k0_chk9 v56) := fun v56 => decidable_of_iff' _ (Iff.of_eq (k0_chk9.eq_1 v56))
theorem k0_off9_inb : ∀ (v56 : BitVec 32) (k0_hw9 : k0_chk9 v56), ∀ a, (k0_off9 v56) a + S1x1x512.size a ≤ S32x4096x512.size a := fun v56 k0_hw9 => k0_hw9.1
theorem k0_off41_inb : ∀ (v56 : BitVec 32) (k0_hw9 : k0_chk9 v56), ∀ a, (k0_off41 v56) a + S1x1x512.size a ≤ S32x4096x512.size a := fun v56 k0_hw9 => k0_hw9.2

def k0_off42 (v63 : BitVec 32) : Fin 3 → Nat :=
  let c9_i32_173 : BitVec 32 := 9#32
  let c0_i32_177 : BitVec 32 := 0#32
  ![9, v63.toNat, 0]

def k0_chk10 (v63 : BitVec 32) : Prop :=
  (∀ a, (k0_off10 v63) a + S1x1x512.size a ≤ S32x4096x512.size a) ∧
  (∀ a, (k0_off42 v63) a + S1x1x512.size a ≤ S32x4096x512.size a)
instance k0_chk10.dec : ∀ (v63 : BitVec 32), Decidable (k0_chk10 v63) := fun v63 => decidable_of_iff' _ (Iff.of_eq (k0_chk10.eq_1 v63))
theorem k0_off10_inb : ∀ (v63 : BitVec 32) (k0_hw10 : k0_chk10 v63), ∀ a, (k0_off10 v63) a + S1x1x512.size a ≤ S32x4096x512.size a := fun v63 k0_hw10 => k0_hw10.1
theorem k0_off42_inb : ∀ (v63 : BitVec 32) (k0_hw10 : k0_chk10 v63), ∀ a, (k0_off42 v63) a + S1x1x512.size a ≤ S32x4096x512.size a := fun v63 k0_hw10 => k0_hw10.2

def k0_off43 (v70 : BitVec 32) : Fin 3 → Nat :=
  let c10_i32_178 : BitVec 32 := 10#32
  let c0_i32_182 : BitVec 32 := 0#32
  ![10, v70.toNat, 0]

def k0_chk11 (v70 : BitVec 32) : Prop :=
  (∀ a, (k0_off11 v70) a + S1x1x512.size a ≤ S32x4096x512.size a) ∧
  (∀ a, (k0_off43 v70) a + S1x1x512.size a ≤ S32x4096x512.size a)
instance k0_chk11.dec : ∀ (v70 : BitVec 32), Decidable (k0_chk11 v70) := fun v70 => decidable_of_iff' _ (Iff.of_eq (k0_chk11.eq_1 v70))
theorem k0_off11_inb : ∀ (v70 : BitVec 32) (k0_hw11 : k0_chk11 v70), ∀ a, (k0_off11 v70) a + S1x1x512.size a ≤ S32x4096x512.size a := fun v70 k0_hw11 => k0_hw11.1
theorem k0_off43_inb : ∀ (v70 : BitVec 32) (k0_hw11 : k0_chk11 v70), ∀ a, (k0_off43 v70) a + S1x1x512.size a ≤ S32x4096x512.size a := fun v70 k0_hw11 => k0_hw11.2

def k0_off44 (v77 : BitVec 32) : Fin 3 → Nat :=
  let c11_i32_183 : BitVec 32 := 11#32
  let c0_i32_187 : BitVec 32 := 0#32
  ![11, v77.toNat, 0]

def k0_chk12 (v77 : BitVec 32) : Prop :=
  (∀ a, (k0_off12 v77) a + S1x1x512.size a ≤ S32x4096x512.size a) ∧
  (∀ a, (k0_off44 v77) a + S1x1x512.size a ≤ S32x4096x512.size a)
instance k0_chk12.dec : ∀ (v77 : BitVec 32), Decidable (k0_chk12 v77) := fun v77 => decidable_of_iff' _ (Iff.of_eq (k0_chk12.eq_1 v77))
theorem k0_off12_inb : ∀ (v77 : BitVec 32) (k0_hw12 : k0_chk12 v77), ∀ a, (k0_off12 v77) a + S1x1x512.size a ≤ S32x4096x512.size a := fun v77 k0_hw12 => k0_hw12.1
theorem k0_off44_inb : ∀ (v77 : BitVec 32) (k0_hw12 : k0_chk12 v77), ∀ a, (k0_off44 v77) a + S1x1x512.size a ≤ S32x4096x512.size a := fun v77 k0_hw12 => k0_hw12.2

def k0_off45 (v84 : BitVec 32) : Fin 3 → Nat :=
  let c12_i32_188 : BitVec 32 := 12#32
  let c0_i32_192 : BitVec 32 := 0#32
  ![12, v84.toNat, 0]

def k0_chk13 (v84 : BitVec 32) : Prop :=
  (∀ a, (k0_off13 v84) a + S1x1x512.size a ≤ S32x4096x512.size a) ∧
  (∀ a, (k0_off45 v84) a + S1x1x512.size a ≤ S32x4096x512.size a)
instance k0_chk13.dec : ∀ (v84 : BitVec 32), Decidable (k0_chk13 v84) := fun v84 => decidable_of_iff' _ (Iff.of_eq (k0_chk13.eq_1 v84))
theorem k0_off13_inb : ∀ (v84 : BitVec 32) (k0_hw13 : k0_chk13 v84), ∀ a, (k0_off13 v84) a + S1x1x512.size a ≤ S32x4096x512.size a := fun v84 k0_hw13 => k0_hw13.1
theorem k0_off45_inb : ∀ (v84 : BitVec 32) (k0_hw13 : k0_chk13 v84), ∀ a, (k0_off45 v84) a + S1x1x512.size a ≤ S32x4096x512.size a := fun v84 k0_hw13 => k0_hw13.2

def k0_off46 (v91 : BitVec 32) : Fin 3 → Nat :=
  let c13_i32_193 : BitVec 32 := 13#32
  let c0_i32_197 : BitVec 32 := 0#32
  ![13, v91.toNat, 0]

def k0_chk14 (v91 : BitVec 32) : Prop :=
  (∀ a, (k0_off14 v91) a + S1x1x512.size a ≤ S32x4096x512.size a) ∧
  (∀ a, (k0_off46 v91) a + S1x1x512.size a ≤ S32x4096x512.size a)
instance k0_chk14.dec : ∀ (v91 : BitVec 32), Decidable (k0_chk14 v91) := fun v91 => decidable_of_iff' _ (Iff.of_eq (k0_chk14.eq_1 v91))
theorem k0_off14_inb : ∀ (v91 : BitVec 32) (k0_hw14 : k0_chk14 v91), ∀ a, (k0_off14 v91) a + S1x1x512.size a ≤ S32x4096x512.size a := fun v91 k0_hw14 => k0_hw14.1
theorem k0_off46_inb : ∀ (v91 : BitVec 32) (k0_hw14 : k0_chk14 v91), ∀ a, (k0_off46 v91) a + S1x1x512.size a ≤ S32x4096x512.size a := fun v91 k0_hw14 => k0_hw14.2

def k0_off47 (v98 : BitVec 32) : Fin 3 → Nat :=
  let c14_i32_198 : BitVec 32 := 14#32
  let c0_i32_202 : BitVec 32 := 0#32
  ![14, v98.toNat, 0]

def k0_chk15 (v98 : BitVec 32) : Prop :=
  (∀ a, (k0_off15 v98) a + S1x1x512.size a ≤ S32x4096x512.size a) ∧
  (∀ a, (k0_off47 v98) a + S1x1x512.size a ≤ S32x4096x512.size a)
instance k0_chk15.dec : ∀ (v98 : BitVec 32), Decidable (k0_chk15 v98) := fun v98 => decidable_of_iff' _ (Iff.of_eq (k0_chk15.eq_1 v98))
theorem k0_off15_inb : ∀ (v98 : BitVec 32) (k0_hw15 : k0_chk15 v98), ∀ a, (k0_off15 v98) a + S1x1x512.size a ≤ S32x4096x512.size a := fun v98 k0_hw15 => k0_hw15.1
theorem k0_off47_inb : ∀ (v98 : BitVec 32) (k0_hw15 : k0_chk15 v98), ∀ a, (k0_off47 v98) a + S1x1x512.size a ≤ S32x4096x512.size a := fun v98 k0_hw15 => k0_hw15.2

def k0_off48 (v105 : BitVec 32) : Fin 3 → Nat :=
  let c15_i32_203 : BitVec 32 := 15#32
  let c0_i32_207 : BitVec 32 := 0#32
  ![15, v105.toNat, 0]

def k0_chk16 (v105 : BitVec 32) : Prop :=
  (∀ a, (k0_off16 v105) a + S1x1x512.size a ≤ S32x4096x512.size a) ∧
  (∀ a, (k0_off48 v105) a + S1x1x512.size a ≤ S32x4096x512.size a)
instance k0_chk16.dec : ∀ (v105 : BitVec 32), Decidable (k0_chk16 v105) := fun v105 => decidable_of_iff' _ (Iff.of_eq (k0_chk16.eq_1 v105))
theorem k0_off16_inb : ∀ (v105 : BitVec 32) (k0_hw16 : k0_chk16 v105), ∀ a, (k0_off16 v105) a + S1x1x512.size a ≤ S32x4096x512.size a := fun v105 k0_hw16 => k0_hw16.1
theorem k0_off48_inb : ∀ (v105 : BitVec 32) (k0_hw16 : k0_chk16 v105), ∀ a, (k0_off48 v105) a + S1x1x512.size a ≤ S32x4096x512.size a := fun v105 k0_hw16 => k0_hw16.2

def k0_off49 (v112 : BitVec 32) : Fin 3 → Nat :=
  let c16_i32_208 : BitVec 32 := 16#32
  let c0_i32_212 : BitVec 32 := 0#32
  ![16, v112.toNat, 0]

def k0_chk17 (v112 : BitVec 32) : Prop :=
  (∀ a, (k0_off17 v112) a + S1x1x512.size a ≤ S32x4096x512.size a) ∧
  (∀ a, (k0_off49 v112) a + S1x1x512.size a ≤ S32x4096x512.size a)
instance k0_chk17.dec : ∀ (v112 : BitVec 32), Decidable (k0_chk17 v112) := fun v112 => decidable_of_iff' _ (Iff.of_eq (k0_chk17.eq_1 v112))
theorem k0_off17_inb : ∀ (v112 : BitVec 32) (k0_hw17 : k0_chk17 v112), ∀ a, (k0_off17 v112) a + S1x1x512.size a ≤ S32x4096x512.size a := fun v112 k0_hw17 => k0_hw17.1
theorem k0_off49_inb : ∀ (v112 : BitVec 32) (k0_hw17 : k0_chk17 v112), ∀ a, (k0_off49 v112) a + S1x1x512.size a ≤ S32x4096x512.size a := fun v112 k0_hw17 => k0_hw17.2

def k0_off50 (v119 : BitVec 32) : Fin 3 → Nat :=
  let c17_i32_213 : BitVec 32 := 17#32
  let c0_i32_217 : BitVec 32 := 0#32
  ![17, v119.toNat, 0]

def k0_chk18 (v119 : BitVec 32) : Prop :=
  (∀ a, (k0_off18 v119) a + S1x1x512.size a ≤ S32x4096x512.size a) ∧
  (∀ a, (k0_off50 v119) a + S1x1x512.size a ≤ S32x4096x512.size a)
instance k0_chk18.dec : ∀ (v119 : BitVec 32), Decidable (k0_chk18 v119) := fun v119 => decidable_of_iff' _ (Iff.of_eq (k0_chk18.eq_1 v119))
theorem k0_off18_inb : ∀ (v119 : BitVec 32) (k0_hw18 : k0_chk18 v119), ∀ a, (k0_off18 v119) a + S1x1x512.size a ≤ S32x4096x512.size a := fun v119 k0_hw18 => k0_hw18.1
theorem k0_off50_inb : ∀ (v119 : BitVec 32) (k0_hw18 : k0_chk18 v119), ∀ a, (k0_off50 v119) a + S1x1x512.size a ≤ S32x4096x512.size a := fun v119 k0_hw18 => k0_hw18.2

def k0_off51 (v126 : BitVec 32) : Fin 3 → Nat :=
  let c18_i32_218 : BitVec 32 := 18#32
  let c0_i32_222 : BitVec 32 := 0#32
  ![18, v126.toNat, 0]

def k0_chk19 (v126 : BitVec 32) : Prop :=
  (∀ a, (k0_off19 v126) a + S1x1x512.size a ≤ S32x4096x512.size a) ∧
  (∀ a, (k0_off51 v126) a + S1x1x512.size a ≤ S32x4096x512.size a)
instance k0_chk19.dec : ∀ (v126 : BitVec 32), Decidable (k0_chk19 v126) := fun v126 => decidable_of_iff' _ (Iff.of_eq (k0_chk19.eq_1 v126))
theorem k0_off19_inb : ∀ (v126 : BitVec 32) (k0_hw19 : k0_chk19 v126), ∀ a, (k0_off19 v126) a + S1x1x512.size a ≤ S32x4096x512.size a := fun v126 k0_hw19 => k0_hw19.1
theorem k0_off51_inb : ∀ (v126 : BitVec 32) (k0_hw19 : k0_chk19 v126), ∀ a, (k0_off51 v126) a + S1x1x512.size a ≤ S32x4096x512.size a := fun v126 k0_hw19 => k0_hw19.2

def k0_off52 (v133 : BitVec 32) : Fin 3 → Nat :=
  let c19_i32_223 : BitVec 32 := 19#32
  let c0_i32_227 : BitVec 32 := 0#32
  ![19, v133.toNat, 0]

def k0_chk20 (v133 : BitVec 32) : Prop :=
  (∀ a, (k0_off20 v133) a + S1x1x512.size a ≤ S32x4096x512.size a) ∧
  (∀ a, (k0_off52 v133) a + S1x1x512.size a ≤ S32x4096x512.size a)
instance k0_chk20.dec : ∀ (v133 : BitVec 32), Decidable (k0_chk20 v133) := fun v133 => decidable_of_iff' _ (Iff.of_eq (k0_chk20.eq_1 v133))
theorem k0_off20_inb : ∀ (v133 : BitVec 32) (k0_hw20 : k0_chk20 v133), ∀ a, (k0_off20 v133) a + S1x1x512.size a ≤ S32x4096x512.size a := fun v133 k0_hw20 => k0_hw20.1
theorem k0_off52_inb : ∀ (v133 : BitVec 32) (k0_hw20 : k0_chk20 v133), ∀ a, (k0_off52 v133) a + S1x1x512.size a ≤ S32x4096x512.size a := fun v133 k0_hw20 => k0_hw20.2

def k0_off53 (v140 : BitVec 32) : Fin 3 → Nat :=
  let c20_i32_228 : BitVec 32 := 20#32
  let c0_i32_232 : BitVec 32 := 0#32
  ![20, v140.toNat, 0]

def k0_chk21 (v140 : BitVec 32) : Prop :=
  (∀ a, (k0_off21 v140) a + S1x1x512.size a ≤ S32x4096x512.size a) ∧
  (∀ a, (k0_off53 v140) a + S1x1x512.size a ≤ S32x4096x512.size a)
instance k0_chk21.dec : ∀ (v140 : BitVec 32), Decidable (k0_chk21 v140) := fun v140 => decidable_of_iff' _ (Iff.of_eq (k0_chk21.eq_1 v140))
theorem k0_off21_inb : ∀ (v140 : BitVec 32) (k0_hw21 : k0_chk21 v140), ∀ a, (k0_off21 v140) a + S1x1x512.size a ≤ S32x4096x512.size a := fun v140 k0_hw21 => k0_hw21.1
theorem k0_off53_inb : ∀ (v140 : BitVec 32) (k0_hw21 : k0_chk21 v140), ∀ a, (k0_off53 v140) a + S1x1x512.size a ≤ S32x4096x512.size a := fun v140 k0_hw21 => k0_hw21.2

def k0_off54 (v147 : BitVec 32) : Fin 3 → Nat :=
  let c21_i32_233 : BitVec 32 := 21#32
  let c0_i32_237 : BitVec 32 := 0#32
  ![21, v147.toNat, 0]

def k0_chk22 (v147 : BitVec 32) : Prop :=
  (∀ a, (k0_off22 v147) a + S1x1x512.size a ≤ S32x4096x512.size a) ∧
  (∀ a, (k0_off54 v147) a + S1x1x512.size a ≤ S32x4096x512.size a)
instance k0_chk22.dec : ∀ (v147 : BitVec 32), Decidable (k0_chk22 v147) := fun v147 => decidable_of_iff' _ (Iff.of_eq (k0_chk22.eq_1 v147))
theorem k0_off22_inb : ∀ (v147 : BitVec 32) (k0_hw22 : k0_chk22 v147), ∀ a, (k0_off22 v147) a + S1x1x512.size a ≤ S32x4096x512.size a := fun v147 k0_hw22 => k0_hw22.1
theorem k0_off54_inb : ∀ (v147 : BitVec 32) (k0_hw22 : k0_chk22 v147), ∀ a, (k0_off54 v147) a + S1x1x512.size a ≤ S32x4096x512.size a := fun v147 k0_hw22 => k0_hw22.2

def k0_off55 (v154 : BitVec 32) : Fin 3 → Nat :=
  let c22_i32_238 : BitVec 32 := 22#32
  let c0_i32_242 : BitVec 32 := 0#32
  ![22, v154.toNat, 0]

def k0_chk23 (v154 : BitVec 32) : Prop :=
  (∀ a, (k0_off23 v154) a + S1x1x512.size a ≤ S32x4096x512.size a) ∧
  (∀ a, (k0_off55 v154) a + S1x1x512.size a ≤ S32x4096x512.size a)
instance k0_chk23.dec : ∀ (v154 : BitVec 32), Decidable (k0_chk23 v154) := fun v154 => decidable_of_iff' _ (Iff.of_eq (k0_chk23.eq_1 v154))
theorem k0_off23_inb : ∀ (v154 : BitVec 32) (k0_hw23 : k0_chk23 v154), ∀ a, (k0_off23 v154) a + S1x1x512.size a ≤ S32x4096x512.size a := fun v154 k0_hw23 => k0_hw23.1
theorem k0_off55_inb : ∀ (v154 : BitVec 32) (k0_hw23 : k0_chk23 v154), ∀ a, (k0_off55 v154) a + S1x1x512.size a ≤ S32x4096x512.size a := fun v154 k0_hw23 => k0_hw23.2

def k0_off56 (v161 : BitVec 32) : Fin 3 → Nat :=
  let c23_i32_243 : BitVec 32 := 23#32
  let c0_i32_247 : BitVec 32 := 0#32
  ![23, v161.toNat, 0]

def k0_chk24 (v161 : BitVec 32) : Prop :=
  (∀ a, (k0_off24 v161) a + S1x1x512.size a ≤ S32x4096x512.size a) ∧
  (∀ a, (k0_off56 v161) a + S1x1x512.size a ≤ S32x4096x512.size a)
instance k0_chk24.dec : ∀ (v161 : BitVec 32), Decidable (k0_chk24 v161) := fun v161 => decidable_of_iff' _ (Iff.of_eq (k0_chk24.eq_1 v161))
theorem k0_off24_inb : ∀ (v161 : BitVec 32) (k0_hw24 : k0_chk24 v161), ∀ a, (k0_off24 v161) a + S1x1x512.size a ≤ S32x4096x512.size a := fun v161 k0_hw24 => k0_hw24.1
theorem k0_off56_inb : ∀ (v161 : BitVec 32) (k0_hw24 : k0_chk24 v161), ∀ a, (k0_off56 v161) a + S1x1x512.size a ≤ S32x4096x512.size a := fun v161 k0_hw24 => k0_hw24.2

def k0_off57 (v168 : BitVec 32) : Fin 3 → Nat :=
  let c24_i32_248 : BitVec 32 := 24#32
  let c0_i32_252 : BitVec 32 := 0#32
  ![24, v168.toNat, 0]

def k0_chk25 (v168 : BitVec 32) : Prop :=
  (∀ a, (k0_off25 v168) a + S1x1x512.size a ≤ S32x4096x512.size a) ∧
  (∀ a, (k0_off57 v168) a + S1x1x512.size a ≤ S32x4096x512.size a)
instance k0_chk25.dec : ∀ (v168 : BitVec 32), Decidable (k0_chk25 v168) := fun v168 => decidable_of_iff' _ (Iff.of_eq (k0_chk25.eq_1 v168))
theorem k0_off25_inb : ∀ (v168 : BitVec 32) (k0_hw25 : k0_chk25 v168), ∀ a, (k0_off25 v168) a + S1x1x512.size a ≤ S32x4096x512.size a := fun v168 k0_hw25 => k0_hw25.1
theorem k0_off57_inb : ∀ (v168 : BitVec 32) (k0_hw25 : k0_chk25 v168), ∀ a, (k0_off57 v168) a + S1x1x512.size a ≤ S32x4096x512.size a := fun v168 k0_hw25 => k0_hw25.2

def k0_off58 (v175 : BitVec 32) : Fin 3 → Nat :=
  let c25_i32_253 : BitVec 32 := 25#32
  let c0_i32_257 : BitVec 32 := 0#32
  ![25, v175.toNat, 0]

def k0_chk26 (v175 : BitVec 32) : Prop :=
  (∀ a, (k0_off26 v175) a + S1x1x512.size a ≤ S32x4096x512.size a) ∧
  (∀ a, (k0_off58 v175) a + S1x1x512.size a ≤ S32x4096x512.size a)
instance k0_chk26.dec : ∀ (v175 : BitVec 32), Decidable (k0_chk26 v175) := fun v175 => decidable_of_iff' _ (Iff.of_eq (k0_chk26.eq_1 v175))
theorem k0_off26_inb : ∀ (v175 : BitVec 32) (k0_hw26 : k0_chk26 v175), ∀ a, (k0_off26 v175) a + S1x1x512.size a ≤ S32x4096x512.size a := fun v175 k0_hw26 => k0_hw26.1
theorem k0_off58_inb : ∀ (v175 : BitVec 32) (k0_hw26 : k0_chk26 v175), ∀ a, (k0_off58 v175) a + S1x1x512.size a ≤ S32x4096x512.size a := fun v175 k0_hw26 => k0_hw26.2

def k0_off59 (v182 : BitVec 32) : Fin 3 → Nat :=
  let c26_i32_258 : BitVec 32 := 26#32
  let c0_i32_262 : BitVec 32 := 0#32
  ![26, v182.toNat, 0]

def k0_chk27 (v182 : BitVec 32) : Prop :=
  (∀ a, (k0_off27 v182) a + S1x1x512.size a ≤ S32x4096x512.size a) ∧
  (∀ a, (k0_off59 v182) a + S1x1x512.size a ≤ S32x4096x512.size a)
instance k0_chk27.dec : ∀ (v182 : BitVec 32), Decidable (k0_chk27 v182) := fun v182 => decidable_of_iff' _ (Iff.of_eq (k0_chk27.eq_1 v182))
theorem k0_off27_inb : ∀ (v182 : BitVec 32) (k0_hw27 : k0_chk27 v182), ∀ a, (k0_off27 v182) a + S1x1x512.size a ≤ S32x4096x512.size a := fun v182 k0_hw27 => k0_hw27.1
theorem k0_off59_inb : ∀ (v182 : BitVec 32) (k0_hw27 : k0_chk27 v182), ∀ a, (k0_off59 v182) a + S1x1x512.size a ≤ S32x4096x512.size a := fun v182 k0_hw27 => k0_hw27.2

def k0_off60 (v189 : BitVec 32) : Fin 3 → Nat :=
  let c27_i32_263 : BitVec 32 := 27#32
  let c0_i32_267 : BitVec 32 := 0#32
  ![27, v189.toNat, 0]

def k0_chk28 (v189 : BitVec 32) : Prop :=
  (∀ a, (k0_off28 v189) a + S1x1x512.size a ≤ S32x4096x512.size a) ∧
  (∀ a, (k0_off60 v189) a + S1x1x512.size a ≤ S32x4096x512.size a)
instance k0_chk28.dec : ∀ (v189 : BitVec 32), Decidable (k0_chk28 v189) := fun v189 => decidable_of_iff' _ (Iff.of_eq (k0_chk28.eq_1 v189))
theorem k0_off28_inb : ∀ (v189 : BitVec 32) (k0_hw28 : k0_chk28 v189), ∀ a, (k0_off28 v189) a + S1x1x512.size a ≤ S32x4096x512.size a := fun v189 k0_hw28 => k0_hw28.1
theorem k0_off60_inb : ∀ (v189 : BitVec 32) (k0_hw28 : k0_chk28 v189), ∀ a, (k0_off60 v189) a + S1x1x512.size a ≤ S32x4096x512.size a := fun v189 k0_hw28 => k0_hw28.2

def k0_off61 (v196 : BitVec 32) : Fin 3 → Nat :=
  let c28_i32_268 : BitVec 32 := 28#32
  let c0_i32_272 : BitVec 32 := 0#32
  ![28, v196.toNat, 0]

def k0_chk29 (v196 : BitVec 32) : Prop :=
  (∀ a, (k0_off29 v196) a + S1x1x512.size a ≤ S32x4096x512.size a) ∧
  (∀ a, (k0_off61 v196) a + S1x1x512.size a ≤ S32x4096x512.size a)
instance k0_chk29.dec : ∀ (v196 : BitVec 32), Decidable (k0_chk29 v196) := fun v196 => decidable_of_iff' _ (Iff.of_eq (k0_chk29.eq_1 v196))
theorem k0_off29_inb : ∀ (v196 : BitVec 32) (k0_hw29 : k0_chk29 v196), ∀ a, (k0_off29 v196) a + S1x1x512.size a ≤ S32x4096x512.size a := fun v196 k0_hw29 => k0_hw29.1
theorem k0_off61_inb : ∀ (v196 : BitVec 32) (k0_hw29 : k0_chk29 v196), ∀ a, (k0_off61 v196) a + S1x1x512.size a ≤ S32x4096x512.size a := fun v196 k0_hw29 => k0_hw29.2

def k0_off62 (v203 : BitVec 32) : Fin 3 → Nat :=
  let c29_i32_273 : BitVec 32 := 29#32
  let c0_i32_277 : BitVec 32 := 0#32
  ![29, v203.toNat, 0]

def k0_chk30 (v203 : BitVec 32) : Prop :=
  (∀ a, (k0_off30 v203) a + S1x1x512.size a ≤ S32x4096x512.size a) ∧
  (∀ a, (k0_off62 v203) a + S1x1x512.size a ≤ S32x4096x512.size a)
instance k0_chk30.dec : ∀ (v203 : BitVec 32), Decidable (k0_chk30 v203) := fun v203 => decidable_of_iff' _ (Iff.of_eq (k0_chk30.eq_1 v203))
theorem k0_off30_inb : ∀ (v203 : BitVec 32) (k0_hw30 : k0_chk30 v203), ∀ a, (k0_off30 v203) a + S1x1x512.size a ≤ S32x4096x512.size a := fun v203 k0_hw30 => k0_hw30.1
theorem k0_off62_inb : ∀ (v203 : BitVec 32) (k0_hw30 : k0_chk30 v203), ∀ a, (k0_off62 v203) a + S1x1x512.size a ≤ S32x4096x512.size a := fun v203 k0_hw30 => k0_hw30.2

def k0_off63 (v210 : BitVec 32) : Fin 3 → Nat :=
  let c30_i32_278 : BitVec 32 := 30#32
  let c0_i32_282 : BitVec 32 := 0#32
  ![30, v210.toNat, 0]

def k0_chk31 (v210 : BitVec 32) : Prop :=
  (∀ a, (k0_off31 v210) a + S1x1x512.size a ≤ S32x4096x512.size a) ∧
  (∀ a, (k0_off63 v210) a + S1x1x512.size a ≤ S32x4096x512.size a)
instance k0_chk31.dec : ∀ (v210 : BitVec 32), Decidable (k0_chk31 v210) := fun v210 => decidable_of_iff' _ (Iff.of_eq (k0_chk31.eq_1 v210))
theorem k0_off31_inb : ∀ (v210 : BitVec 32) (k0_hw31 : k0_chk31 v210), ∀ a, (k0_off31 v210) a + S1x1x512.size a ≤ S32x4096x512.size a := fun v210 k0_hw31 => k0_hw31.1
theorem k0_off63_inb : ∀ (v210 : BitVec 32) (k0_hw31 : k0_chk31 v210), ∀ a, (k0_off63 v210) a + S1x1x512.size a ≤ S32x4096x512.size a := fun v210 k0_hw31 => k0_hw31.2

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

class Facts₀ : Prop where
  reducesTo_S32x4096_S32_d1 : S32x4096.ReducesTo [1] S32
  h_S_ : 0 < S_.numel
  bcast_S_S32 : S_.BroadcastsInDim S32 (![] : Fin 0 → Fin S32.rank)
  inb_S32_S1_0 : ∀ a, (![0] : Fin 1 → Nat) a + S1.size a ≤ S32.size a
  numel1_S1 : S1.numel = 1
  squeezes_S1_S_ : S1.Squeezes S_
  inb_S32x512_S1x512_0_0 : ∀ a, (![0, 0] : Fin 2 → Nat) a + S1x512.size a ≤ S32x512.size a
  squeezes_S1x512_S512 : S1x512.Squeezes S512
  squeezes_S1x1x512_S512 : S1x1x512.Squeezes S512
  inb_S32_S1_1 : ∀ a, (![1] : Fin 1 → Nat) a + S1.size a ≤ S32.size a
  inb_S32x512_S1x512_1_0 : ∀ a, (![1, 0] : Fin 2 → Nat) a + S1x512.size a ≤ S32x512.size a
  inb_S32_S1_2 : ∀ a, (![2] : Fin 1 → Nat) a + S1.size a ≤ S32.size a
  inb_S32x512_S1x512_2_0 : ∀ a, (![2, 0] : Fin 2 → Nat) a + S1x512.size a ≤ S32x512.size a
  inb_S32_S1_3 : ∀ a, (![3] : Fin 1 → Nat) a + S1.size a ≤ S32.size a
  inb_S32x512_S1x512_3_0 : ∀ a, (![3, 0] : Fin 2 → Nat) a + S1x512.size a ≤ S32x512.size a
  inb_S32_S1_4 : ∀ a, (![4] : Fin 1 → Nat) a + S1.size a ≤ S32.size a
  inb_S32x512_S1x512_4_0 : ∀ a, (![4, 0] : Fin 2 → Nat) a + S1x512.size a ≤ S32x512.size a
  inb_S32_S1_5 : ∀ a, (![5] : Fin 1 → Nat) a + S1.size a ≤ S32.size a
  inb_S32x512_S1x512_5_0 : ∀ a, (![5, 0] : Fin 2 → Nat) a + S1x512.size a ≤ S32x512.size a
  inb_S32_S1_6 : ∀ a, (![6] : Fin 1 → Nat) a + S1.size a ≤ S32.size a
  inb_S32x512_S1x512_6_0 : ∀ a, (![6, 0] : Fin 2 → Nat) a + S1x512.size a ≤ S32x512.size a
  inb_S32_S1_7 : ∀ a, (![7] : Fin 1 → Nat) a + S1.size a ≤ S32.size a
  inb_S32x512_S1x512_7_0 : ∀ a, (![7, 0] : Fin 2 → Nat) a + S1x512.size a ≤ S32x512.size a
  inb_S32_S1_8 : ∀ a, (![8] : Fin 1 → Nat) a + S1.size a ≤ S32.size a
  inb_S32x512_S1x512_8_0 : ∀ a, (![8, 0] : Fin 2 → Nat) a + S1x512.size a ≤ S32x512.size a
  inb_S32_S1_9 : ∀ a, (![9] : Fin 1 → Nat) a + S1.size a ≤ S32.size a
  inb_S32x512_S1x512_9_0 : ∀ a, (![9, 0] : Fin 2 → Nat) a + S1x512.size a ≤ S32x512.size a
  inb_S32_S1_10 : ∀ a, (![10] : Fin 1 → Nat) a + S1.size a ≤ S32.size a
  inb_S32x512_S1x512_10_0 : ∀ a, (![10, 0] : Fin 2 → Nat) a + S1x512.size a ≤ S32x512.size a
  inb_S32_S1_11 : ∀ a, (![11] : Fin 1 → Nat) a + S1.size a ≤ S32.size a
  inb_S32x512_S1x512_11_0 : ∀ a, (![11, 0] : Fin 2 → Nat) a + S1x512.size a ≤ S32x512.size a
  inb_S32_S1_12 : ∀ a, (![12] : Fin 1 → Nat) a + S1.size a ≤ S32.size a
  inb_S32x512_S1x512_12_0 : ∀ a, (![12, 0] : Fin 2 → Nat) a + S1x512.size a ≤ S32x512.size a
  inb_S32_S1_13 : ∀ a, (![13] : Fin 1 → Nat) a + S1.size a ≤ S32.size a
  inb_S32x512_S1x512_13_0 : ∀ a, (![13, 0] : Fin 2 → Nat) a + S1x512.size a ≤ S32x512.size a
  inb_S32_S1_14 : ∀ a, (![14] : Fin 1 → Nat) a + S1.size a ≤ S32.size a
  inb_S32x512_S1x512_14_0 : ∀ a, (![14, 0] : Fin 2 → Nat) a + S1x512.size a ≤ S32x512.size a
  inb_S32_S1_15 : ∀ a, (![15] : Fin 1 → Nat) a + S1.size a ≤ S32.size a
  inb_S32x512_S1x512_15_0 : ∀ a, (![15, 0] : Fin 2 → Nat) a + S1x512.size a ≤ S32x512.size a
  inb_S32_S1_16 : ∀ a, (![16] : Fin 1 → Nat) a + S1.size a ≤ S32.size a
  inb_S32x512_S1x512_16_0 : ∀ a, (![16, 0] : Fin 2 → Nat) a + S1x512.size a ≤ S32x512.size a
  inb_S32_S1_17 : ∀ a, (![17] : Fin 1 → Nat) a + S1.size a ≤ S32.size a
  inb_S32x512_S1x512_17_0 : ∀ a, (![17, 0] : Fin 2 → Nat) a + S1x512.size a ≤ S32x512.size a
  inb_S32_S1_18 : ∀ a, (![18] : Fin 1 → Nat) a + S1.size a ≤ S32.size a
  inb_S32x512_S1x512_18_0 : ∀ a, (![18, 0] : Fin 2 → Nat) a + S1x512.size a ≤ S32x512.size a
  inb_S32_S1_19 : ∀ a, (![19] : Fin 1 → Nat) a + S1.size a ≤ S32.size a
  inb_S32x512_S1x512_19_0 : ∀ a, (![19, 0] : Fin 2 → Nat) a + S1x512.size a ≤ S32x512.size a
  inb_S32_S1_20 : ∀ a, (![20] : Fin 1 → Nat) a + S1.size a ≤ S32.size a
  inb_S32x512_S1x512_20_0 : ∀ a, (![20, 0] : Fin 2 → Nat) a + S1x512.size a ≤ S32x512.size a
  inb_S32_S1_21 : ∀ a, (![21] : Fin 1 → Nat) a + S1.size a ≤ S32.size a
  inb_S32x512_S1x512_21_0 : ∀ a, (![21, 0] : Fin 2 → Nat) a + S1x512.size a ≤ S32x512.size a
  inb_S32_S1_22 : ∀ a, (![22] : Fin 1 → Nat) a + S1.size a ≤ S32.size a
  inb_S32x512_S1x512_22_0 : ∀ a, (![22, 0] : Fin 2 → Nat) a + S1x512.size a ≤ S32x512.size a
  inb_S32_S1_23 : ∀ a, (![23] : Fin 1 → Nat) a + S1.size a ≤ S32.size a
  inb_S32x512_S1x512_23_0 : ∀ a, (![23, 0] : Fin 2 → Nat) a + S1x512.size a ≤ S32x512.size a
  inb_S32_S1_24 : ∀ a, (![24] : Fin 1 → Nat) a + S1.size a ≤ S32.size a
  inb_S32x512_S1x512_24_0 : ∀ a, (![24, 0] : Fin 2 → Nat) a + S1x512.size a ≤ S32x512.size a
  inb_S32_S1_25 : ∀ a, (![25] : Fin 1 → Nat) a + S1.size a ≤ S32.size a
  inb_S32x512_S1x512_25_0 : ∀ a, (![25, 0] : Fin 2 → Nat) a + S1x512.size a ≤ S32x512.size a
  inb_S32_S1_26 : ∀ a, (![26] : Fin 1 → Nat) a + S1.size a ≤ S32.size a
  inb_S32x512_S1x512_26_0 : ∀ a, (![26, 0] : Fin 2 → Nat) a + S1x512.size a ≤ S32x512.size a
  inb_S32_S1_27 : ∀ a, (![27] : Fin 1 → Nat) a + S1.size a ≤ S32.size a
  inb_S32x512_S1x512_27_0 : ∀ a, (![27, 0] : Fin 2 → Nat) a + S1x512.size a ≤ S32x512.size a
  inb_S32_S1_28 : ∀ a, (![28] : Fin 1 → Nat) a + S1.size a ≤ S32.size a
  inb_S32x512_S1x512_28_0 : ∀ a, (![28, 0] : Fin 2 → Nat) a + S1x512.size a ≤ S32x512.size a
  inb_S32_S1_29 : ∀ a, (![29] : Fin 1 → Nat) a + S1.size a ≤ S32.size a
  inb_S32x512_S1x512_29_0 : ∀ a, (![29, 0] : Fin 2 → Nat) a + S1x512.size a ≤ S32x512.size a
  inb_S32_S1_30 : ∀ a, (![30] : Fin 1 → Nat) a + S1.size a ≤ S32.size a
  inb_S32x512_S1x512_30_0 : ∀ a, (![30, 0] : Fin 2 → Nat) a + S1x512.size a ≤ S32x512.size a
  inb_S32_S1_31 : ∀ a, (![31] : Fin 1 → Nat) a + S1.size a ≤ S32.size a
  inb_S32x512_S1x512_31_0 : ∀ a, (![31, 0] : Fin 2 → Nat) a + S1x512.size a ≤ S32x512.size a
  inb_S32x512_S32x512_0_0 : ∀ a, (![0, 0] : Fin 2 → Nat) a + S32x512.size a ≤ S32x512.size a
  h_S32x512 : 0 < S32x512.numel
  hcc0_scratch1 : 1 + S32.numel ≤ 33
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_1 i = cc0_transform_1 i'
  hinb0_0 : ∀ (i : grid0.Coords) a, (cc0_transform_1 i a + 1) * S32x512.size a ≤ S32x512.size a
  hwx0_0 : ∀ i : grid0.Coords, EltTy.bits .f32 = 32 ∨ (Rect.block (s := S32x512) S32x512.size (cc0_transform_1 i) (hinb0_0 i)).WholeWords (EltTy.packing .f32)

variable [Facts₀]

abbrev cc0_scratch1 : DmaSems sig S32 := SemArray.consecutive 1 S32 hcc0_scratch1

abbrev spec0_0 : Pipeline.WinSpec sig grid0.rank :=
  Pipeline.WinSpec.ofSpec (Memref.whole main_v4) S32x512.size reads0_0 true true 1 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_1 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))

class Facts : Prop extends Facts₀ where
  harr0 : ∀ w, (spec0 w).arr.IsWhole

variable [Facts]
-- ==== ReferenceIdeal.lean ====
abbrev S32x4096x512 : Shape := ⟨3, ![32, 4096, 512]⟩
abbrev S32x4096 : Shape := ⟨2, ![32, 4096]⟩
abbrev S_ : Shape := ⟨0, ![]⟩
abbrev S32 : Shape := ⟨1, ![32]⟩
abbrev S32x1 : Shape := ⟨2, ![32, 1]⟩
abbrev S1x4096 : Shape := ⟨2, ![1, 4096]⟩
abbrev S32x4096x1 : Shape := ⟨3, ![32, 4096, 1]⟩
abbrev S32x512 : Shape := ⟨2, ![32, 512]⟩

abbrev nBuf : Space → Nat
  | .hbm => 21
  | .vmem => 0
  | .smem => 0
  | _ => 0

abbrev bufTy : (tb : Table) → Fin (tcTables nBuf tb) → BufTy
  | .hbm, ⟨0, _⟩ => ⟨S32x4096x512, .f32⟩
  | .hbm, ⟨1, _⟩ => ⟨S32x4096, .i32⟩
  | .hbm, ⟨2, _⟩ => ⟨S_, .i32⟩
  | .hbm, ⟨3, _⟩ => ⟨S32, .i32⟩
  | .hbm, ⟨4, _⟩ => ⟨S_, .i32⟩
  | .hbm, ⟨5, _⟩ => ⟨S32, .i32⟩
  | .hbm, ⟨6, _⟩ => ⟨S32, .i32⟩
  | .hbm, ⟨7, _⟩ => ⟨S_, .i32⟩
  | .hbm, ⟨8, _⟩ => ⟨S32, .i32⟩
  | .hbm, ⟨9, _⟩ => ⟨S32, .i32⟩
  | .hbm, ⟨10, _⟩ => ⟨S32x1, .i32⟩
  | .hbm, ⟨11, _⟩ => ⟨S1x4096, .i32⟩
  | .hbm, ⟨12, _⟩ => ⟨S32x4096, .i32⟩
  | .hbm, ⟨13, _⟩ => ⟨S32x4096, .i32⟩
  | .hbm, ⟨14, _⟩ => ⟨S32x4096, .i1⟩
  | .hbm, ⟨15, _⟩ => ⟨S32x4096, .f32⟩
  | .hbm, ⟨16, _⟩ => ⟨S32x4096x1, .f32⟩
  | .hbm, ⟨17, _⟩ => ⟨S32x4096x512, .f32⟩
  | .hbm, ⟨18, _⟩ => ⟨S32x4096x512, .f32⟩
  | .hbm, ⟨19, _⟩ => ⟨S_, .f32⟩
  | .hbm, ⟨20, _⟩ => ⟨S32x512, .f32⟩
  | _, _ => ⟨S32x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩

abbrev nD : Nat := 1
abbrev τ : Topo := Topo.v7x

variable {F : FTy → Type} [FloatOps F]

class Facts₀ : Prop where
  reducesTo_S32x4096_S32_d1 : S32x4096.ReducesTo [1] S32
  h_S_ : 0 < S_.numel
  bcast_S_S32 : S_.BroadcastsInDim S32 (![] : Fin 0 → Fin S32.rank)
  bcast_S32_S32x1_0 : S32.BroadcastsInDim S32x1 (![0] : Fin 1 → Fin S32x1.rank)
  bcast_S32x1_S32x4096_0_1 : S32x1.BroadcastsInDim S32x4096 (![0, 1] : Fin 2 → Fin S32x4096.rank)
  bcast_S1x4096_S32x4096_0_1 : S1x4096.BroadcastsInDim S32x4096 (![0, 1] : Fin 2 → Fin S32x4096.rank)
  bcast_S32x4096_S32x4096x1_0_1 : S32x4096.BroadcastsInDim S32x4096x1 (![0, 1] : Fin 2 → Fin S32x4096x1.rank)
  bcast_S32x4096x1_S32x4096x512_0_1_2 : S32x4096x1.BroadcastsInDim S32x4096x512 (![0, 1, 2] : Fin 3 → Fin S32x4096x512.rank)
  reducesTo_S32x4096x512_S32x512_d1 : S32x4096x512.ReducesTo [1] S32x512

variable [Facts₀]

class Facts : Prop extends Facts₀ where

variable [Facts]
-- ==== Proof.KernelRows.lean ====
/-
  The 32 rows of the scratch buffer.

  The body copies row b of its result into row b of a [32, 512] scratch buffer, all 32 copies in flight together, and
  then reads the scratch whole. Row b of the scratch, as the body addresses it, is the slice at offset (b, 0) of extent
  (1, 512) with the unit axis dropped: its element under column y is the scratch's element under (b, y). So the rows
  are pairwise disjoint (they differ in the first coordinate) and every element of the scratch lies in the row its
  first coordinate names. A row written whole with a payload `w` holds, under column y, `w y`, whatever the row held
  before; hence, once row b holds `pay b` for every b, the scratch holds the one function (b, y) ↦ `pay b y`, and a
  row held apart from the rest of the buffer can be put back as soon as both are stated at that function. The rows are
  put back last first: what is held of the scratch less its rows 0 … n-1 grows by row n-1 at each step, until it is
  the whole scratch.
-/
import proofs.«400635_j8967891714565_3_alg».proof.Proof.Gen.Kernel.Frame.Runs

noncomputable section

namespace Cert.Kernel.Rows

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (arg4 : Memref sig .tc .vmem S32x512 .f32)

/-- Row b's rectangle, offset (b, 0) and extent (1, 512), lies inside the [32, 512] buffer. -/
theorem row_inb (b : Nat) (hb : b < 32) (a : Fin 2) : (![b, 0] : Fin 2 → Nat) a + S1x512.size a ≤ S32x512.size a := by
  fin_cases a <;> simp [S1x512, S32x512] <;> omega

abbrev rowR (b : Nat) (hb : b < 32) : Rect S32x512 := Rect.unit (s := S32x512) ![b, 0] S1x512.size (row_inb b hb)

/-- Row b as the body addresses it: the slice with its unit axis dropped, 512 floats. -/
abbrev rowM (b : Nat) (hb : b < 32) : Memref sig .tc .vmem S512 .f32 :=
  (arg4.slice (rowR b hb) (fun _ => rfl)).squeeze S512 squeezes_S1x512_S512

/-- Entry (b, y) of the scratch, for a column y of a row. -/
def at2 (b : Nat) (hb : b < 32) (y : S512.Idx) : S32x512.Idx := fun a => match a with
  | ⟨0, _⟩ => ⟨b, hb⟩
  | ⟨1, _⟩ => ⟨(y 0).val, (y 0).isLt⟩

/-- The column of an entry of the scratch. -/
def colOf (x : S32x512.Idx) : S512.Idx := fun a => match a with
  | ⟨0, _⟩ => ⟨(x 1).val, (x 1).isLt⟩

theorem colOf_at2 (b : Nat) (hb : b < 32) (y : S512.Idx) : colOf (at2 b hb y) = y :=
  funext fun a => Fin.ext (by match a with | ⟨0, _⟩ => rfl)

/-- Row b's element under column y is the scratch's element under (b, y). -/
theorem row_emb (b : Nat) (hb : b < 32) (y : S512.Idx) : (rowM arg4 b hb).view.emb y = arg4.view.emb (at2 b hb y) := by
  show arg4.view.emb ((rowR b hb).emb (Shape.reshapeEquiv squeezes_S1x512_S512.numel_eq y)) = _
  congr 1
  rw [show Shape.reshapeEquiv squeezes_S1x512_S512.numel_eq y = Fin.cons ⟨0, Nat.one_pos⟩ y from
    Shape.reshapeEquiv_cons_one (n := 1) (d := ![512]) _ y]
  funext a
  apply Fin.ext
  rw [Rect.emb_apply]
  match a with
  | ⟨0, _⟩ => show b + 1 * 0 = b; omega
  | ⟨1, _⟩ => show 0 + 1 * (y 0).val = (y 0).val; omega

/-- The elements of row b are the rectangle's, seen through the scratch. -/
theorem row_set (b : Nat) (hb : b < 32) : (rowM arg4 b hb).view.set = (rowR b hb).set.map arg4.view.emb := by
  simp only [Memref.view_squeeze, Memref.view_slice, View.set_reshape, View.set_slice]

/-- Two different rows share no element. -/
theorem row_disjoint (a b : Nat) (ha : a < 32) (hb : b < 32) (hab : a ≠ b) :
    Disjoint (rowM arg4 a ha).view.set (rowM arg4 b hb).view.set := by
  rw [row_set, row_set]
  refine (Finset.disjoint_map _).2 (Rect.unit_disjoint 0 ?_)
  show a + 1 ≤ b ∨ b + 1 ≤ a
  omega

/-- A row is part of the scratch. -/
theorem row_subset (b : Nat) (hb : b < 32) : (rowM arg4 b hb).view.set ⊆ arg4.view.set := by
  rw [row_set]; exact Finset.map_subset_map.2 (Finset.subset_univ _)

/-- Every element of the scratch lies in some row. -/
theorem row_cover {i : arg4.view.ty.Idx} (hi : i ∈ arg4.view.set) : ∃ (b : Nat) (hb : b < 32), i ∈ (rowM arg4 b hb).view.set := by
  obtain ⟨x, -, rfl⟩ := Finset.mem_map.1 hi
  have hx : (x 0).val < 32 := (x 0).isLt
  refine ⟨(x 0).val, hx, ?_⟩
  rw [row_set]
  refine Finset.mem_map_of_mem _ (Rect.mem_set_unit.2 fun a => ?_)
  match a with
  | ⟨0, _⟩ => exact ⟨Nat.le_refl _, Nat.lt_succ_self _⟩
  | ⟨1, _⟩ =>
    have h1 : (x 1).val < 512 := (x 1).isLt
    exact ⟨Nat.zero_le _, by show (x 1).val < 0 + 512; omega⟩

/-! ## The contents: row b at `pay b` for every b -/

variable (pay : Fin 32 → S512.Idx → Elt F .f32)

/-- The whole scratch as one function of the rows' payloads: (b, y) ↦ `pay b y`. -/
def wholeOf (x : S32x512.Idx) : Elt F .f32 := pay ⟨(x 0).val, (x 0).isLt⟩ (colOf x)

/-- The scratch's contents with every row written. -/
def filled : arg4.view.ty.Contents (Elt F) := arg4.view.write (Elt F) arg4.view.junk (wholeOf pay) Finset.univ

/-- Read whole, the filled scratch is that function. -/
theorem read_filled : arg4.view.read (Elt F) (filled arg4 pay) = wholeOf pay :=
  View.read_write_univ _ _

/-- On row b's elements, row b written whole with `pay b` over anything is the filled scratch. -/
theorem row_filled (b : Nat) (hb : b < 32) (base : arg4.view.ty.Contents (Elt F)) (i : arg4.view.ty.Idx)
    (hi : i ∈ (rowM arg4 b hb).view.set) :
    (rowM arg4 b hb).view.write (Elt F) base (pay ⟨b, hb⟩) Finset.univ i = filled arg4 pay i := by
  obtain ⟨y, -, rfl⟩ := Finset.mem_map.1 hi
  rw [View.write_emb_of_mem _ _ (Finset.mem_univ y)]
  show _ = filled arg4 pay ((rowM arg4 b hb).view.emb y)
  rw [row_emb, filled, View.write_emb_of_mem _ _ (Finset.mem_univ _)]
  show _ = _root_.cast _ (pay ⟨b, hb⟩ (colOf (at2 b hb y)))
  rw [colOf_at2]

/-- PUTTING A ROW BACK: row b, held apart at "written whole with `pay b`", and a part `R` of the scratch less that row,
    held at the filled contents, are together `R` at the filled contents. -/
theorem row_back (c : Dev nD) (b : Nat) (hb : b < 32) (base : arg4.view.ty.Contents (Elt F))
    (R : Finset arg4.view.ty.Idx) (hsub : (rowM arg4 b hb).view.set ⊆ R) :
    iprop((arg4.view.loc (c : Thread nD τ) ↦[(rowM arg4 b hb).view.set]{fullShare}
              (rowM arg4 b hb).view.write (Elt F) base (pay ⟨b, hb⟩) Finset.univ)
          ∗ (arg4.view.loc (c : Thread nD τ) ↦[R \ (rowM arg4 b hb).view.set]{fullShare} filled arg4 pay))
      ⊢ (arg4.view.loc (c : Thread nD τ) ↦[R]{fullShare} filled arg4 pay : sProp 𝕄) := by
  rw [pointsTo_congr (row_filled arg4 pay b hb base)]
  exact (pointsTo_split_subset hsub).2

/-! ## The scratch less its first rows -/

/-- Row b's elements, as elements of the scratch's buffer; and the buffer after row b is written whole with `w`. -/
abbrev rowSet (b : Nat) (hb : b < 32) : Finset arg4.view.ty.Idx := (rowM arg4 b hb).view.set
abbrev rowWrite (b : Nat) (hb : b < 32) (base : arg4.view.ty.Contents (Elt F)) (w : S512.Idx → Elt F .f32) :
    arg4.view.ty.Contents (Elt F) := (rowM arg4 b hb).view.write (Elt F) base w Finset.univ

/-- The scratch's elements less those of rows 0 … n-1. -/
def lessRows : (n : Nat) → n ≤ 32 → Finset arg4.view.ty.Idx
  | 0, _ => arg4.view.set
  | n + 1, h => lessRows n (Nat.le_of_succ_le h) \ rowSet arg4 n (Nat.lt_of_succ_le h)

theorem mem_lessRows (n : Nat) (hn : n ≤ 32) (i : arg4.view.ty.Idx) :
    Iff (i ∈ lessRows arg4 n hn) (i ∈ arg4.view.set ∧ ∀ (b : Nat) (hb : b < n), i ∉ rowSet arg4 b (Nat.lt_of_lt_of_le hb hn)) := by
  induction n with
  | zero => exact ⟨fun h => ⟨h, fun b hb => absurd hb (Nat.not_lt_zero b)⟩, fun h => h.1⟩
  | succ n ih =>
    show Iff (i ∈ lessRows arg4 n (Nat.le_of_succ_le hn) \ rowSet arg4 n (Nat.lt_of_succ_le hn)) _
    rw [Finset.mem_sdiff, ih (Nat.le_of_succ_le hn)]
    constructor
    · rintro ⟨⟨hS, hlow⟩, hn'⟩
      refine ⟨hS, fun b hb => ?_⟩
      rcases Nat.lt_succ_iff_lt_or_eq.1 hb with h | rfl
      · exact hlow b h
      · exact hn'
    · rintro ⟨hS, hall⟩
      exact ⟨⟨hS, fun b hb => hall b (Nat.lt_succ_of_lt hb)⟩, hall n (Nat.lt_succ_self n)⟩

/-- Row b lies in the scratch less the rows before it. -/
theorem row_sub_lessRows (b : Nat) (hb : b < 32) : rowSet arg4 b hb ⊆ lessRows arg4 b (Nat.le_of_lt hb) := by
  intro i hi
  rw [mem_lessRows]
  exact ⟨row_subset arg4 b hb hi, fun a ha hia =>
    Finset.disjoint_left.1 (row_disjoint arg4 a b (Nat.lt_trans ha hb) hb (Nat.ne_of_lt ha)) hia hi⟩

/-- What is left of the scratch less its rows 0 … 30 lies in row 31. -/
theorem lessRows_last {i : arg4.view.ty.Idx} (hi : i ∈ lessRows arg4 31 (Nat.le_succ 31)) :
    i ∈ rowSet arg4 31 (Nat.lt_succ_self 31) := by
  rw [mem_lessRows] at hi
  obtain ⟨b, hb, hib⟩ := row_cover arg4 hi.1
  rcases Nat.lt_succ_iff_lt_or_eq.1 hb with h | rfl
  · exact absurd hib (hi.2 b h)
  · exact hib

/-- THE REST: the scratch less its rows 0 … 30, held at "row 31 written whole with `pay 31`", is held at the filled contents. -/
theorem rest_filled (c : Dev nD) (base : arg4.view.ty.Contents (Elt F)) :
    (arg4.view.loc (c : Thread nD τ) ↦[lessRows arg4 31 (Nat.le_succ 31)]{fullShare}
        rowWrite arg4 31 (Nat.lt_succ_self 31) base (pay ⟨31, Nat.lt_succ_self 31⟩) : sProp 𝕄)
      ⊢ (arg4.view.loc (c : Thread nD τ) ↦[lessRows arg4 31 (Nat.le_succ 31)]{fullShare} filled arg4 pay : sProp 𝕄) :=
  Entails.of_eq (pointsTo_congr fun i hi => row_filled arg4 pay 31 (Nat.lt_succ_self 31) base i (lessRows_last arg4 hi))

/-- ONE STEP: row b put back into the scratch less its rows 0 … b gives the scratch less its rows 0 … b-1. -/
theorem row_step (c : Dev nD) (b : Nat) (hb : b < 32) (base : arg4.view.ty.Contents (Elt F)) :
    iprop((arg4.view.loc (c : Thread nD τ) ↦[rowSet arg4 b hb]{fullShare} rowWrite arg4 b hb base (pay ⟨b, hb⟩))
          ∗ (arg4.view.loc (c : Thread nD τ) ↦[lessRows arg4 (b + 1) (Nat.succ_le_of_lt hb)]{fullShare} filled arg4 pay))
      ⊢ (arg4.view.loc (c : Thread nD τ) ↦[lessRows arg4 b (Nat.le_of_lt hb)]{fullShare} filled arg4 pay : sProp 𝕄) :=
  row_back arg4 pay c b hb base (lessRows arg4 b (Nat.le_of_lt hb)) (row_sub_lessRows arg4 b hb)

/-- THE LAST STEP, stated at the scratch's own element set: row 0 put back gives the whole scratch at the filled contents. -/
theorem row_first (c : Dev nD) (base : arg4.view.ty.Contents (Elt F)) :
    iprop((arg4.view.loc (c : Thread nD τ) ↦[rowSet arg4 0 (Nat.zero_lt_succ 31)]{fullShare}
              rowWrite arg4 0 (Nat.zero_lt_succ 31) base (pay ⟨0, Nat.zero_lt_succ 31⟩))
          ∗ (arg4.view.loc (c : Thread nD τ) ↦[lessRows arg4 1 (Nat.succ_le_of_lt (Nat.zero_lt_succ 31))]{fullShare} filled arg4 pay))
      ⊢ (arg4.view.loc (c : Thread nD τ) ↦[arg4.view.set]{fullShare} filled arg4 pay : sProp 𝕄) :=
  row_step arg4 pay c 0 (Nat.zero_lt_succ 31) base

end Cert.Kernel.Rows

end
-- ==== Proof.Words.lean ====
/-
  Signed 32-bit words around the index of the last valid token.

  Both programs turn a row's count of set mask entries, a word `n`, into an index: the reference takes
  `max (n - 1) 0`, the kernel `min 4095 (max 0 (n - 1))`. Read as signed integers, `max` and `min` of words are
  the integers' `max` and `min`; so the kernel's index is always one of the 4096 rows, and whenever `n - 1` is at
  most 4095 as a signed integer the upper clamp does nothing and the two indices are the same word.
-/
import Idealize.ShloMosaic.Lib.StableHlo.Predicate

namespace Cert.LastToken

open Idealize.ShloMosaic

/-- Signed "less than" of words is "less than" of their signed values. -/
theorem slt_iff (a b : BitVec 32) : a.slt b = true ↔ a.toInt < b.toInt := by
  simp [BitVec.slt]

theorem toInt_zero : (0#32 : BitVec 32).toInt = 0 := by decide
theorem toInt_top : (4095#32 : BitVec 32).toInt = 4095 := by decide

/-- A word whose signed value lies in [0, 4095] has that value unsigned too. -/
theorem toNat_of_toInt_range (a : BitVec 32) (h0 : 0 ≤ a.toInt) (h1 : a.toInt ≤ 4095) :
    (a.toNat : Int) = a.toInt ∧ a.toNat < 4096 := by
  have hc := BitVec.toInt_eq_toNat_cond a
  have hlt := a.isLt
  split at hc <;> omega

/-- The signed value of `max 0 v`: `v` when it is not negative, else `0`. -/
theorem toInt_max_zero_left (v : BitVec 32) :
    (IntOp.maxsi 0#32 v).toInt = if v.toInt < 0 then 0 else v.toInt := by
  unfold IntOp.maxsi
  by_cases h : v.slt 0#32 = true
  · rw [if_pos h]; rw [slt_iff, toInt_zero] at h; rw [if_pos h, toInt_zero]
  · rw [if_neg h]; rw [slt_iff, toInt_zero] at h; rw [if_neg h]

/-- The same with the operands the other way round (the reference's spelling). -/
theorem toInt_max_zero_right (v : BitVec 32) :
    (IntOp.maxsi v 0#32).toInt = if v.toInt < 0 then 0 else v.toInt := by
  unfold IntOp.maxsi
  by_cases h : (0#32 : BitVec 32).slt v = true
  · rw [if_pos h]; rw [slt_iff, toInt_zero] at h; rw [if_neg (by omega)]
  · rw [if_neg h]; rw [slt_iff, toInt_zero] at h
    by_cases h' : v.toInt < 0
    · rw [if_pos h', toInt_zero]
    · rw [if_neg h', toInt_zero]; omega

/-- The signed value of `min 4095 a`. -/
theorem toInt_min_top_left (a : BitVec 32) :
    (IntOp.minsi 4095#32 a).toInt = if 4095 < a.toInt then 4095 else a.toInt := by
  unfold IntOp.minsi
  by_cases h : (4095#32 : BitVec 32).slt a = true
  · rw [if_pos h]; rw [slt_iff, toInt_top] at h; rw [if_pos h, toInt_top]
  · rw [if_neg h]; rw [slt_iff, toInt_top] at h; rw [if_neg h]

/-- THE KERNEL'S INDEX IS ALWAYS A ROW: whatever the word `v`, `min 4095 (max 0 v)` is below 4096 unsigned. -/
theorem clamp_toNat_lt (v : BitVec 32) : (IntOp.minsi 4095#32 (IntOp.maxsi 0#32 v)).toNat < 4096 := by
  have h1 := toInt_min_top_left (IntOp.maxsi 0#32 v)
  have h2 := toInt_max_zero_left v
  refine (toNat_of_toInt_range _ ?_ ?_).2
  · rw [h1]; split <;> [omega; (rw [h2]; split <;> omega)]
  · rw [h1]; split <;> omega

/-- THE TWO INDICES AGREE when `v` is at most 4095 signed: the kernel's upper clamp does nothing, and `max` does not
    care about the order of its operands. -/
theorem clamp_eq_max (v : BitVec 32) (hv : v.toInt ≤ 4095) :
    IntOp.minsi 4095#32 (IntOp.maxsi 0#32 v) = IntOp.maxsi v 0#32 := by
  apply BitVec.eq_of_toInt_eq
  rw [toInt_min_top_left, toInt_max_zero_left, toInt_max_zero_right]
  split <;> split <;> omega

/-- and that common index is a row: below 4096 unsigned. -/
theorem max_toNat_lt (v : BitVec 32) (hv : v.toInt ≤ 4095) : (IntOp.maxsi v 0#32).toNat < 4096 := by
  rw [← clamp_eq_max v hv]; exact clamp_toNat_lt v

/-- One less than a count `n ≤ 4096`, as a signed value, is at most 4095 (it is `-1` when the count is zero). -/
theorem toInt_pred_le (n : BitVec 32) (hn : n.toNat ≤ 4096) : (n - 1#32).toInt ≤ 4095 := by
  have hc := BitVec.toInt_eq_toNat_cond (n - 1#32)
  have hs : (n - 1#32).toNat = (2 ^ 32 - 1 + n.toNat) % 2 ^ 32 := by
    rw [BitVec.toNat_sub]; rfl
  have hlt := (n - 1#32).isLt
  split at hc <;> omega

end Cert.LastToken
-- ==== Proof.Index.lean ====
/-
  The count of a 0/1 mask's row, and a sum weighted by a one-hot row.

  A row of 4096 entries, each the word 0 or the word 1, adds up (in 32-bit words, without wrapping) to a count of at
  most 4096. And over the extended reals a sum `∑ k, f k * e k` whose weights `e` are 1 at one position `p` and 0
  everywhere else is `f p`: every other term is a product with zero, which is zero on the extended reals whatever
  `f k` is (also at an infinity), so no finiteness is asked of `f`.
-/
import Idealize.ShloMosaic.Lib.StableHlo.Predicate
import Idealize.ShloMosaic.PureOps.Reduce
import Mathlib.Data.EReal.Basic
import Mathlib.Algebra.Order.BigOperators.Group.Finset
import proofs.«400635_j8967891714565_3_alg».proof.Proof.Words

namespace Cert.LastToken

open Idealize.ShloMosaic

/-- The mask's shape, [32, 4096], and the shape of one word per row, [32]. -/
abbrev SMask : Shape := ⟨2, ![32, 4096]⟩
abbrev SBatch : Shape := ⟨1, ![32]⟩

/-- Every entry of the mask is the word 0 or the word 1. -/
def Binary (mask : IVec SMask 32) : Prop := ∀ i, mask i = 0#32 ∨ mask i = 1#32

/-- THE COUNT: the word sum of a 0/1 mask along its second axis is, at every row, at most 4096. -/
theorem count_le {u : Shape} (mask : IVec SMask 32) (hb : Binary mask) (h' : SMask.ReducesTo [1] SBatch)
    (hu : 0 < u.numel) (j : SBatch.Idx) :
    (Host.reduce IntOp.addi mask (constantI u 32 0#32) h' hu j).toNat ≤ 4096 := by
  have h : SMask.Reduces [1] SBatch := by decide
  rw [Host.reduce_eq_fold_single IntOp.addi mask _ h' h hu j]
  have hone : ∀ k, ((mask ∘ h.lift j) k).toNat ≤ 1 := fun k => by
    rcases hb (h.lift j k) with e | e <;> simp [Function.comp, e]
  have hcard : (Finset.univ : Finset (Fin (SMask.size 1))).card = 4096 := by
    rw [Finset.card_univ, Fintype.card_fin]; rfl
  have hsum : ∑ k ∈ (Finset.univ : Finset (Fin (SMask.size 1))), ((mask ∘ h.lift j) k).toNat ≤ 4096 := by
    have := Finset.sum_le_card_nsmul (Finset.univ : Finset (Fin (SMask.size 1))) (fun k => ((mask ∘ h.lift j) k).toNat) 1
      (fun k _ => hone k)
    rw [hcard] at this; simpa using this
  show (Finset.fold IntOp.addi 0#32 (mask ∘ h.lift j) Finset.univ).toNat ≤ 4096
  rw [StableHlo.Predicate.toNat_fold_addi _ _ (by omega)]
  exact hsum

/-- A position below 4096 is the only `k : Fin 4096` whose word is the word `w` with that value. -/
theorem ofNat_eq_iff (w : BitVec 32) (k : Fin 4096) : w = BitVec.ofNat 32 k.val ↔ w.toNat = k.val := by
  constructor
  · intro e; rw [e, BitVec.toNat_ofNat]; exact Nat.mod_eq_of_lt (by have := k.isLt; omega)
  · intro e; apply BitVec.eq_of_toNat_eq; rw [BitVec.toNat_ofNat, e]; exact (Nat.mod_eq_of_lt (by have := k.isLt; omega)).symm

/-- THE ONE-HOT SUM over the extended reals: weights 1 at the position of the word `w` (below 4096) and 0 elsewhere pick
    out that one term. -/
theorem sum_one_hot (f : Fin 4096 → EReal) (e : Fin 4096 → EReal) (w : BitVec 32) (hw : w.toNat < 4096)
    (he : ∀ k : Fin 4096, e k = if w = BitVec.ofNat 32 k.val then 1 else 0) :
    ∑ k : Fin 4096, f k * e k = f ⟨w.toNat, hw⟩ := by
  rw [Finset.sum_eq_single (⟨w.toNat, hw⟩ : Fin 4096)]
  · rw [he, if_pos ((ofNat_eq_iff w _).2 rfl), mul_one]
  · intro k _ hk
    rw [he, if_neg (fun h => hk (Fin.ext ((ofNat_eq_iff w k).1 h).symm)), mul_zero]
  · intro h; exact absurd (Finset.mem_univ _) h

end Cert.LastToken
-- ==== Proof.Spec.lean ====
/-
  The result both programs compute, as one function of the arguments.

  Row `b` of the mask has a count `n b` of set entries (a word). The kernel's index for row `b` is the word
  `min 4095 (max 0 (n b - 1))`, the reference's `max (n b - 1) 0`. The kernel's index is below 4096 whatever the mask
  holds, so "row `b` of the result is row `index b` of `x[b]`" is a function of the arguments with no side condition:
  `lastToken`. For a count of at most 4096 the two indices are one word.
  The reference multiplies by a one-hot row obtained by comparing the index with the positions 0 … 4095 and turning the
  bit into a float: over the extended reals that weight is 1 where the words are equal and 0 elsewhere.
-/
import Idealize.ShloMosaic.PureOps.Ideal
import Idealize.ShloMosaic.PureOps.Ideal.Laws
import Idealize.ShloMosaic.Lib.Affine
import proofs.«400635_j8967891714565_3_alg».proof.Proof.Index

noncomputable section

namespace Cert.LastToken

open Idealize.ShloMosaic

/-- The shapes of `x`, [32, 4096, 512], and of the result, [32, 512]. -/
abbrev SX : Shape := ⟨3, ![32, 4096, 512]⟩
abbrev SOut : Shape := ⟨2, ![32, 512]⟩

/-- The kernel's index from a row's count, and the reference's. -/
def kerWord (n : BitVec 32) : BitVec 32 := IntOp.minsi 4095#32 (IntOp.maxsi 0#32 (IntOp.subi n 1#32))
def refWord (n : BitVec 32) : BitVec 32 := IntOp.maxsi (IntOp.subi n 1#32) 0#32

theorem kerWord_lt (n : BitVec 32) : (kerWord n).toNat < 4096 := clamp_toNat_lt _

theorem kerWord_eq_refWord (n : BitVec 32) (hn : n.toNat ≤ 4096) : kerWord n = refWord n :=
  clamp_eq_max _ (toInt_pred_le n hn)

/-- Entry (b, k, h) of `x`, for (b, h) an index of the result and `k` a position. -/
def rowAt (i : SOut.Idx) (k : Fin 4096) : SX.Idx := fun a => match a with
  | ⟨0, _⟩ => ⟨(i 0).val, (i 0).isLt⟩
  | ⟨1, _⟩ => ⟨k.val, k.isLt⟩
  | ⟨2, _⟩ => ⟨(i 1).val, (i 1).isLt⟩

/-- The row b of a result index (b, h), as an index of a one-word-per-row vector. -/
def batchAt (i : SOut.Idx) : SBatch.Idx := fun a => match a with
  | ⟨0, _⟩ => ⟨(i 0).val, (i 0).isLt⟩

/-- THE RESULT: at (b, h), entry (b, index b, h) of `x`, the index the kernel's clamp of row b's count `n b`. -/
def lastToken (x : SX.Idx → EReal) (n : SBatch.Idx → BitVec 32) : SOut.Idx → EReal :=
  fun i => x (rowAt i ⟨(kerWord (n (batchAt i))).toNat, kerWord_lt _⟩)

/-- The one-hot weight over the extended reals: the equality bit of two words, turned into a float, is 1 on equal words
    and 0 otherwise. -/
theorem uitofp_cmpi_eq (a c : BitVec 32) :
    FloatOps.uitofp (F := Ideal) .f32 (IntOp.cmpi .eq a c) = if a = c then (1 : EReal) else 0 := by
  show (((IntOp.cmpi .eq a c).toNat : ℝ) : EReal) = _
  by_cases h : a = c
  · rw [if_pos h, IntOp.cmpi_eq.mpr h]; simp
  · rw [if_neg h]
    have hz : IntOp.cmpi .eq a c = 0#1 := by
      rcases BitVec.eq_zero_or_eq_one (IntOp.cmpi .eq a c) with e | e
      · exact e
      · exact absurd (IntOp.cmpi_eq.mp e) h
    rw [hz]; simp

end Cert.LastToken

end
-- ==== Proof.KernelTable.lean ====
/-
  The prefetched table of row indices, and the side conditions the body assumes of its words.

  @main computes the table before the call: row b's entry is `min 4095 (max 0 (n b - 1))`, `n b` the word sum of row b
  of the mask. The body copies, for each b, the 512 floats at [b, w, 0 … 511] of `x`, `w` the table's word for b, and
  assumes that this rectangle lies inside the [32, 4096, 512] array: b + 1 ≤ 32, w + 1 ≤ 4096, 0 + 512 ≤ 512. The clamp
  makes every entry of the table, read unsigned, less than 4096, whatever the mask holds; so each assumed side
  condition holds of every launch memory, and the pipeline's own condition on the table is empty.
-/
import proofs.«400635_j8967891714565_3_alg».proof.Proof.Gen.Kernel.Frame.Runs
import Idealize.ShloMosaic.Lib.StableHlo.Run
import proofs.«400635_j8967891714565_3_alg».proof.Proof.Spec

noncomputable section

namespace Cert.Kernel.Table

open Cert.Kernel Cert.Kernel.Gen Cert.LastToken
open Idealize.ShloMosaic Idealize.ShloMosaic.TcCoe Idealize.SL.Sem Idealize.ShloMosaic.StableHlo

variable {F : FTy → Type} [FloatOps F]
variable (m : (ℓ : Loc nD τ sig) → Buf (Elt F) ℓ)

/-- Row b's count of set mask entries, a word: the mask summed along its second axis, as @main does. -/
def count (j : S32.Idx) : BitVec 32 :=
  Host.reduce IntOp.addi (m (((0 : Dev nD) : Thread nD τ).loc main_arg1)) (constantI S_ 32 0#32) reducesTo_S32x4096_S32_d1 h_S_ j

/-- THE TABLE when the region is entered: at row b, the clamp of row b's count. -/
theorem tbl_eq : tbl m 0 = fun j => kerWord (count m j) := by
  unfold tbl
  show V m (0 : Dev nD) main_v3 = _
  dsimp only [V]
  simp only [hostOps0, hostOps0_1, List.flatten_cons, List.flatten_nil, List.append_nil, List.cons_append, List.nil_append]
  after_results
  simp only [TRef.ofBuf, TRef.toBuf, cast_eq]
  funext j
  rfl

/-- Every entry of the table is below 4096. -/
theorem tbl_lt (j : S32.Idx) : (tbl m 0 j).toNat < 4096 := by
  rw [tbl_eq]; exact kerWord_lt _

/-- A word the body reads from the table (one entry, through the whole table) is an entry of the table, so it is below 4096. -/
theorem word_lt (off : Fin 1 → Nat) (inb : ∀ a, off a + S1.size a ≤ S32.size a) (h1 : 0 < S1.numel) :
    (tbM0_0.view.readAt (Elt F) (Rect.unit (s := S32) off S1.size inb).toLoadRect (tbl m 0) (Shape.Idx.first h1)).toNat < 4096 :=
  tbl_lt m ((Rect.unit (s := S32) off S1.size inb).idx (Shape.Idx.first h1))

/-- The rectangle of 512 floats at [b, w, 0] lies inside the [32, 4096, 512] array when b < 32 and w < 4096. -/
theorem row_inside (b : Nat) (hb : b < 32) (w : BitVec 32) (hw : w.toNat < 4096) (a : Fin 3) :
    (![b, w.toNat, 0] : Fin 3 → Nat) a + S1x1x512.size a ≤ S32x4096x512.size a := by
  fin_cases a <;> simp [S1x1x512, S32x4096x512] <;> omega

/-- The pipeline's condition on the table is empty. -/
theorem ok : Ok m := trivial

/-- THE BODY'S SIDE CONDITIONS hold of every launch memory. -/
theorem hyps (hO : Ok m) : Hyps m hO := by
  apply Hyps.of <;> intro c t
  all_goals first
    | exact ⟨fun a => row_inside _ (by decide) _ (word_lt m _ _ _) a, fun a => row_inside _ (by decide) _ (word_lt m _ _ _) a⟩
    | exact fun a => row_inside _ (by decide) _ (word_lt m _ _ _) a

end Cert.Kernel.Table

end
-- ==== Proof.KernelIdealRows.lean ====
/-
  The 32 rows of the scratch buffer.

  The body copies row b of its result into row b of a [32, 512] scratch buffer, all 32 copies in flight together, and
  then reads the scratch whole. Row b of the scratch, as the body addresses it, is the slice at offset (b, 0) of extent
  (1, 512) with the unit axis dropped: its element under column y is the scratch's element under (b, y). So the rows
  are pairwise disjoint (they differ in the first coordinate) and every element of the scratch lies in the row its
  first coordinate names. A row written whole with a payload `w` holds, under column y, `w y`, whatever the row held
  before; hence, once row b holds `pay b` for every b, the scratch holds the one function (b, y) ↦ `pay b y`, and a
  row held apart from the rest of the buffer can be put back as soon as both are stated at that function. The rows are
  put back last first: what is held of the scratch less its rows 0 … n-1 grows by row n-1 at each step, until it is
  the whole scratch.
-/
import proofs.«400635_j8967891714565_3_alg».proof.Proof.Gen.KernelIdeal.Frame.Runs

noncomputable section

namespace Cert.KernelIdeal.Rows

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (arg4 : Memref sig .tc .vmem S32x512 .f32)

/-- Row b's rectangle, offset (b, 0) and extent (1, 512), lies inside the [32, 512] buffer. -/
theorem row_inb (b : Nat) (hb : b < 32) (a : Fin 2) : (![b, 0] : Fin 2 → Nat) a + S1x512.size a ≤ S32x512.size a := by
  fin_cases a <;> simp [S1x512, S32x512] <;> omega

abbrev rowR (b : Nat) (hb : b < 32) : Rect S32x512 := Rect.unit (s := S32x512) ![b, 0] S1x512.size (row_inb b hb)

/-- Row b as the body addresses it: the slice with its unit axis dropped, 512 floats. -/
abbrev rowM (b : Nat) (hb : b < 32) : Memref sig .tc .vmem S512 .f32 :=
  (arg4.slice (rowR b hb) (fun _ => rfl)).squeeze S512 squeezes_S1x512_S512

/-- Entry (b, y) of the scratch, for a column y of a row. -/
def at2 (b : Nat) (hb : b < 32) (y : S512.Idx) : S32x512.Idx := fun a => match a with
  | ⟨0, _⟩ => ⟨b, hb⟩
  | ⟨1, _⟩ => ⟨(y 0).val, (y 0).isLt⟩

/-- The column of an entry of the scratch. -/
def colOf (x : S32x512.Idx) : S512.Idx := fun a => match a with
  | ⟨0, _⟩ => ⟨(x 1).val, (x 1).isLt⟩

theorem colOf_at2 (b : Nat) (hb : b < 32) (y : S512.Idx) : colOf (at2 b hb y) = y :=
  funext fun a => Fin.ext (by match a with | ⟨0, _⟩ => rfl)

/-- Row b's element under column y is the scratch's element under (b, y). -/
theorem row_emb (b : Nat) (hb : b < 32) (y : S512.Idx) : (rowM arg4 b hb).view.emb y = arg4.view.emb (at2 b hb y) := by
  show arg4.view.emb ((rowR b hb).emb (Shape.reshapeEquiv squeezes_S1x512_S512.numel_eq y)) = _
  congr 1
  rw [show Shape.reshapeEquiv squeezes_S1x512_S512.numel_eq y = Fin.cons ⟨0, Nat.one_pos⟩ y from
    Shape.reshapeEquiv_cons_one (n := 1) (d := ![512]) _ y]
  funext a
  apply Fin.ext
  rw [Rect.emb_apply]
  match a with
  | ⟨0, _⟩ => show b + 1 * 0 = b; omega
  | ⟨1, _⟩ => show 0 + 1 * (y 0).val = (y 0).val; omega

/-- The elements of row b are the rectangle's, seen through the scratch. -/
theorem row_set (b : Nat) (hb : b < 32) : (rowM arg4 b hb).view.set = (rowR b hb).set.map arg4.view.emb := by
  simp only [Memref.view_squeeze, Memref.view_slice, View.set_reshape, View.set_slice]

/-- Two different rows share no element. -/
theorem row_disjoint (a b : Nat) (ha : a < 32) (hb : b < 32) (hab : a ≠ b) :
    Disjoint (rowM arg4 a ha).view.set (rowM arg4 b hb).view.set := by
  rw [row_set, row_set]
  refine (Finset.disjoint_map _).2 (Rect.unit_disjoint 0 ?_)
  show a + 1 ≤ b ∨ b + 1 ≤ a
  omega

/-- A row is part of the scratch. -/
theorem row_subset (b : Nat) (hb : b < 32) : (rowM arg4 b hb).view.set ⊆ arg4.view.set := by
  rw [row_set]; exact Finset.map_subset_map.2 (Finset.subset_univ _)

/-- Every element of the scratch lies in some row. -/
theorem row_cover {i : arg4.view.ty.Idx} (hi : i ∈ arg4.view.set) : ∃ (b : Nat) (hb : b < 32), i ∈ (rowM arg4 b hb).view.set := by
  obtain ⟨x, -, rfl⟩ := Finset.mem_map.1 hi
  have hx : (x 0).val < 32 := (x 0).isLt
  refine ⟨(x 0).val, hx, ?_⟩
  rw [row_set]
  refine Finset.mem_map_of_mem _ (Rect.mem_set_unit.2 fun a => ?_)
  match a with
  | ⟨0, _⟩ => exact ⟨Nat.le_refl _, Nat.lt_succ_self _⟩
  | ⟨1, _⟩ =>
    have h1 : (x 1).val < 512 := (x 1).isLt
    exact ⟨Nat.zero_le _, by show (x 1).val < 0 + 512; omega⟩

/-! ## The contents: row b at `pay b` for every b -/

variable (pay : Fin 32 → S512.Idx → Elt F .f32)

/-- The whole scratch as one function of the rows' payloads: (b, y) ↦ `pay b y`. -/
def wholeOf (x : S32x512.Idx) : Elt F .f32 := pay ⟨(x 0).val, (x 0).isLt⟩ (colOf x)

/-- The scratch's contents with every row written. -/
def filled : arg4.view.ty.Contents (Elt F) := arg4.view.write (Elt F) arg4.view.junk (wholeOf pay) Finset.univ

/-- Read whole, the filled scratch is that function. -/
theorem read_filled : arg4.view.read (Elt F) (filled arg4 pay) = wholeOf pay :=
  View.read_write_univ _ _

/-- On row b's elements, row b written whole with `pay b` over anything is the filled scratch. -/
theorem row_filled (b : Nat) (hb : b < 32) (base : arg4.view.ty.Contents (Elt F)) (i : arg4.view.ty.Idx)
    (hi : i ∈ (rowM arg4 b hb).view.set) :
    (rowM arg4 b hb).view.write (Elt F) base (pay ⟨b, hb⟩) Finset.univ i = filled arg4 pay i := by
  obtain ⟨y, -, rfl⟩ := Finset.mem_map.1 hi
  rw [View.write_emb_of_mem _ _ (Finset.mem_univ y)]
  show _ = filled arg4 pay ((rowM arg4 b hb).view.emb y)
  rw [row_emb, filled, View.write_emb_of_mem _ _ (Finset.mem_univ _)]
  show _ = _root_.cast _ (pay ⟨b, hb⟩ (colOf (at2 b hb y)))
  rw [colOf_at2]

/-- PUTTING A ROW BACK: row b, held apart at "written whole with `pay b`", and a part `R` of the scratch less that row,
    held at the filled contents, are together `R` at the filled contents. -/
theorem row_back (c : Dev nD) (b : Nat) (hb : b < 32) (base : arg4.view.ty.Contents (Elt F))
    (R : Finset arg4.view.ty.Idx) (hsub : (rowM arg4 b hb).view.set ⊆ R) :
    iprop((arg4.view.loc (c : Thread nD τ) ↦[(rowM arg4 b hb).view.set]{fullShare}
              (rowM arg4 b hb).view.write (Elt F) base (pay ⟨b, hb⟩) Finset.univ)
          ∗ (arg4.view.loc (c : Thread nD τ) ↦[R \ (rowM arg4 b hb).view.set]{fullShare} filled arg4 pay))
      ⊢ (arg4.view.loc (c : Thread nD τ) ↦[R]{fullShare} filled arg4 pay : sProp 𝕄) := by
  rw [pointsTo_congr (row_filled arg4 pay b hb base)]
  exact (pointsTo_split_subset hsub).2

/-! ## The scratch less its first rows -/

/-- Row b's elements, as elements of the scratch's buffer; and the buffer after row b is written whole with `w`. -/
abbrev rowSet (b : Nat) (hb : b < 32) : Finset arg4.view.ty.Idx := (rowM arg4 b hb).view.set
abbrev rowWrite (b : Nat) (hb : b < 32) (base : arg4.view.ty.Contents (Elt F)) (w : S512.Idx → Elt F .f32) :
    arg4.view.ty.Contents (Elt F) := (rowM arg4 b hb).view.write (Elt F) base w Finset.univ

/-- The scratch's elements less those of rows 0 … n-1. -/
def lessRows : (n : Nat) → n ≤ 32 → Finset arg4.view.ty.Idx
  | 0, _ => arg4.view.set
  | n + 1, h => lessRows n (Nat.le_of_succ_le h) \ rowSet arg4 n (Nat.lt_of_succ_le h)

theorem mem_lessRows (n : Nat) (hn : n ≤ 32) (i : arg4.view.ty.Idx) :
    Iff (i ∈ lessRows arg4 n hn) (i ∈ arg4.view.set ∧ ∀ (b : Nat) (hb : b < n), i ∉ rowSet arg4 b (Nat.lt_of_lt_of_le hb hn)) := by
  induction n with
  | zero => exact ⟨fun h => ⟨h, fun b hb => absurd hb (Nat.not_lt_zero b)⟩, fun h => h.1⟩
  | succ n ih =>
    show Iff (i ∈ lessRows arg4 n (Nat.le_of_succ_le hn) \ rowSet arg4 n (Nat.lt_of_succ_le hn)) _
    rw [Finset.mem_sdiff, ih (Nat.le_of_succ_le hn)]
    constructor
    · rintro ⟨⟨hS, hlow⟩, hn'⟩
      refine ⟨hS, fun b hb => ?_⟩
      rcases Nat.lt_succ_iff_lt_or_eq.1 hb with h | rfl
      · exact hlow b h
      · exact hn'
    · rintro ⟨hS, hall⟩
      exact ⟨⟨hS, fun b hb => hall b (Nat.lt_succ_of_lt hb)⟩, hall n (Nat.lt_succ_self n)⟩

/-- Row b lies in the scratch less the rows before it. -/
theorem row_sub_lessRows (b : Nat) (hb : b < 32) : rowSet arg4 b hb ⊆ lessRows arg4 b (Nat.le_of_lt hb) := by
  intro i hi
  rw [mem_lessRows]
  exact ⟨row_subset arg4 b hb hi, fun a ha hia =>
    Finset.disjoint_left.1 (row_disjoint arg4 a b (Nat.lt_trans ha hb) hb (Nat.ne_of_lt ha)) hia hi⟩

/-- What is left of the scratch less its rows 0 … 30 lies in row 31. -/
theorem lessRows_last {i : arg4.view.ty.Idx} (hi : i ∈ lessRows arg4 31 (Nat.le_succ 31)) :
    i ∈ rowSet arg4 31 (Nat.lt_succ_self 31) := by
  rw [mem_lessRows] at hi
  obtain ⟨b, hb, hib⟩ := row_cover arg4 hi.1
  rcases Nat.lt_succ_iff_lt_or_eq.1 hb with h | rfl
  · exact absurd hib (hi.2 b h)
  · exact hib

/-- THE REST: the scratch less its rows 0 … 30, held at "row 31 written whole with `pay 31`", is held at the filled contents. -/
theorem rest_filled (c : Dev nD) (base : arg4.view.ty.Contents (Elt F)) :
    (arg4.view.loc (c : Thread nD τ) ↦[lessRows arg4 31 (Nat.le_succ 31)]{fullShare}
        rowWrite arg4 31 (Nat.lt_succ_self 31) base (pay ⟨31, Nat.lt_succ_self 31⟩) : sProp 𝕄)
      ⊢ (arg4.view.loc (c : Thread nD τ) ↦[lessRows arg4 31 (Nat.le_succ 31)]{fullShare} filled arg4 pay : sProp 𝕄) :=
  Entails.of_eq (pointsTo_congr fun i hi => row_filled arg4 pay 31 (Nat.lt_succ_self 31) base i (lessRows_last arg4 hi))

/-- ONE STEP: row b put back into the scratch less its rows 0 … b gives the scratch less its rows 0 … b-1. -/
theorem row_step (c : Dev nD) (b : Nat) (hb : b < 32) (base : arg4.view.ty.Contents (Elt F)) :
    iprop((arg4.view.loc (c : Thread nD τ) ↦[rowSet arg4 b hb]{fullShare} rowWrite arg4 b hb base (pay ⟨b, hb⟩))
          ∗ (arg4.view.loc (c : Thread nD τ) ↦[lessRows arg4 (b + 1) (Nat.succ_le_of_lt hb)]{fullShare} filled arg4 pay))
      ⊢ (arg4.view.loc (c : Thread nD τ) ↦[lessRows arg4 b (Nat.le_of_lt hb)]{fullShare} filled arg4 pay : sProp 𝕄) :=
  row_back arg4 pay c b hb base (lessRows arg4 b (Nat.le_of_lt hb)) (row_sub_lessRows arg4 b hb)

/-- THE LAST STEP, stated at the scratch's own element set: row 0 put back gives the whole scratch at the filled contents. -/
theorem row_first (c : Dev nD) (base : arg4.view.ty.Contents (Elt F)) :
    iprop((arg4.view.loc (c : Thread nD τ) ↦[rowSet arg4 0 (Nat.zero_lt_succ 31)]{fullShare}
              rowWrite arg4 0 (Nat.zero_lt_succ 31) base (pay ⟨0, Nat.zero_lt_succ 31⟩))
          ∗ (arg4.view.loc (c : Thread nD τ) ↦[lessRows arg4 1 (Nat.succ_le_of_lt (Nat.zero_lt_succ 31))]{fullShare} filled arg4 pay))
      ⊢ (arg4.view.loc (c : Thread nD τ) ↦[arg4.view.set]{fullShare} filled arg4 pay : sProp 𝕄) :=
  row_step arg4 pay c 0 (Nat.zero_lt_succ 31) base

end Cert.KernelIdeal.Rows

end
-- ==== Proof.KernelIdealTable.lean ====
/-
  The prefetched table of row indices, and the side conditions the body assumes of its words.

  @main computes the table before the call: row b's entry is `min 4095 (max 0 (n b - 1))`, `n b` the word sum of row b
  of the mask. The body copies, for each b, the 512 floats at [b, w, 0 … 511] of `x`, `w` the table's word for b, and
  assumes that this rectangle lies inside the [32, 4096, 512] array: b + 1 ≤ 32, w + 1 ≤ 4096, 0 + 512 ≤ 512. The clamp
  makes every entry of the table, read unsigned, less than 4096, whatever the mask holds; so each assumed side
  condition holds of every launch memory, and the pipeline's own condition on the table is empty.
-/
import proofs.«400635_j8967891714565_3_alg».proof.Proof.Gen.KernelIdeal.Frame.Runs
import Idealize.ShloMosaic.Lib.StableHlo.Run
import proofs.«400635_j8967891714565_3_alg».proof.Proof.Spec

noncomputable section

namespace Cert.KernelIdeal.Table

open Cert.KernelIdeal Cert.KernelIdeal.Gen Cert.LastToken
open Idealize.ShloMosaic Idealize.ShloMosaic.TcCoe Idealize.SL.Sem Idealize.ShloMosaic.StableHlo

variable {F : FTy → Type} [FloatOps F]
variable (m : (ℓ : Loc nD τ sig) → Buf (Elt F) ℓ)

/-- Row b's count of set mask entries, a word: the mask summed along its second axis, as @main does. -/
def count (j : S32.Idx) : BitVec 32 :=
  Host.reduce IntOp.addi (m (((0 : Dev nD) : Thread nD τ).loc main_arg1)) (constantI S_ 32 0#32) reducesTo_S32x4096_S32_d1 h_S_ j

/-- THE TABLE when the region is entered: at row b, the clamp of row b's count. -/
theorem tbl_eq : tbl m 0 = fun j => kerWord (count m j) := by
  unfold tbl
  show V m (0 : Dev nD) main_v3 = _
  dsimp only [V]
  simp only [hostOps0, hostOps0_1, List.flatten_cons, List.flatten_nil, List.append_nil, List.cons_append, List.nil_append]
  after_results
  simp only [TRef.ofBuf, TRef.toBuf, cast_eq]
  funext j
  rfl

/-- Every entry of the table is below 4096. -/
theorem tbl_lt (j : S32.Idx) : (tbl m 0 j).toNat < 4096 := by
  rw [tbl_eq]; exact kerWord_lt _

/-- A word the body reads from the table (one entry, through the whole table) is an entry of the table, so it is below 4096. -/
theorem word_lt (off : Fin 1 → Nat) (inb : ∀ a, off a + S1.size a ≤ S32.size a) (h1 : 0 < S1.numel) :
    (tbM0_0.view.readAt (Elt F) (Rect.unit (s := S32) off S1.size inb).toLoadRect (tbl m 0) (Shape.Idx.first h1)).toNat < 4096 :=
  tbl_lt m ((Rect.unit (s := S32) off S1.size inb).idx (Shape.Idx.first h1))

/-- The rectangle of 512 floats at [b, w, 0] lies inside the [32, 4096, 512] array when b < 32 and w < 4096. -/
theorem row_inside (b : Nat) (hb : b < 32) (w : BitVec 32) (hw : w.toNat < 4096) (a : Fin 3) :
    (![b, w.toNat, 0] : Fin 3 → Nat) a + S1x1x512.size a ≤ S32x4096x512.size a := by
  fin_cases a <;> simp [S1x1x512, S32x4096x512] <;> omega

/-- The pipeline's condition on the table is empty. -/
theorem ok : Ok m := trivial

/-- THE BODY'S SIDE CONDITIONS hold of every launch memory. -/
theorem hyps (hO : Ok m) : Hyps m hO := by
  apply Hyps.of <;> intro c t
  all_goals first
    | exact ⟨fun a => row_inside _ (by decide) _ (word_lt m _ _ _) a, fun a => row_inside _ (by decide) _ (word_lt m _ _ _) a⟩
    | exact fun a => row_inside _ (by decide) _ (word_lt m _ _ _) a

end Cert.KernelIdeal.Table

end
-- ==== Proof.MaskDomain.lean ====
/-
  What the precondition says of the mask.

  The printed precondition is the conjunction (a one-bit `and`) of two "for all entries" reductions: every float entry
  is finite, and every mask entry `a` satisfies `(a == 0) or (a == 1)`. A one-bit `and` is 1 only if both operands
  are, an `and`-reduction into a single bit is 1 only if every entry's bit is, a one-bit `or` is 1 only if one
  operand is, and a word comparison for equality gives 1 exactly on equal words. So under the precondition every mask
  entry is the word 0 or the word 1.
-/
import proofs.«400635_j8967891714565_3_alg».proof.Pre_finite_inputs
import Idealize.ShloMosaic.Lib.ReduceAll
import Idealize.ShloMosaic.Lib.Affine
import Idealize.ShloMosaic.Lib.ValueIdx
import proofs.«400635_j8967891714565_3_alg».proof.Proof.Index

namespace Cert.LastToken

open Idealize.ShloMosaic

variable [Cert.Pre_finite_inputs.Facts]

/-- Under the precondition the mask is a 0/1 mask. -/
theorem binary_of_pre {F : FTy → Type} [FloatOps F] (x : FVec F Cert.Pre_finite_inputs.S32x4096x512 .f32)
    (mask : IVec SMask 32) (h : Cert.Pre_finite_inputs.fn (F := F) x mask = fun _ => 1#1) : Binary mask := by
  intro i
  haveI : Subsingleton Cert.Pre_finite_inputs.S_.Idx := ⟨fun a b => funext fun d => d.elim0⟩
  have e := congrFun h ValueIdx.ix0
  dsimp only [Cert.Pre_finite_inputs.fn] at e
  have e2 := (IntOp.andi_eq_one.mp e).2
  have e3 := Host.reduce_andi_all _ _ _ _ _ e2 i
  rcases IntOp.ori_eq_one.mp e3 with h0 | h1
  · exact Or.inl (IntOp.cmpi_eq.mp h0)
  · exact Or.inr (IntOp.cmpi_eq.mp h1)

end Cert.LastToken
-- ==== Proof.RefValue.lean ====
/-
  The reference computes `lastToken`.

  Read at a result index (b, h), the reference's program is `0 + ∑ k, x[b, k, h] * e[b, k]` over the 4096 positions `k`,
  with `e[b, k]` the float of the bit "the index word of row b equals the word k", and the index word
  `max (n b - 1) 0` of row b's count `n b`. For a 0/1 mask the count is at most 4096, so the index word is below 4096 and
  equals the kernel's clamped index; the weights are then 1 at that one position and 0 elsewhere, and the sum is the one
  term `x[b, index b, h]`.
-/
import proofs.«400635_j8967891714565_3_alg».proof.Proof.RefRead
import proofs.«400635_j8967891714565_3_alg».proof.Proof.Spec

noncomputable section

namespace Cert.LastToken.Ref

open Cert.ReferenceIdeal Cert.ReferenceIdeal.Gen Cert.ReferenceIdeal.ReadP Cert.LastToken
open Idealize.ShloMosaic Idealize.ShloMosaic.TcCoe Idealize.SL.Sem Idealize.ShloMosaic.StableHlo

/-- The row, the position and the entry of `x` that the reference's composed index functions name are (b), `k` and (b, k, h). -/
theorem idx_batch (i : S32x512.Idx) (k : Fin 4096) :
    idx_main_call0_v0 (idx_main_call0_v2 (idx_main_v6 (idx_main_v7 (idx_main_v9 i k)))) = batchAt i :=
  funext fun a => Fin.ext (by match a with | ⟨0, _⟩ => rfl)

theorem idx_pos (i : S32x512.Idx) (k : Fin 4096) :
    ((idx_main_call0_v3 (idx_main_v6 (idx_main_v7 (idx_main_v9 i k)))) 1).val = k.val := rfl

theorem idx_row (i : S32x512.Idx) (k : Fin 4096) : idx_main_v9 i k = rowAt i k :=
  funext fun a => Fin.ext (by match a with | ⟨0, _⟩ => rfl | ⟨1, _⟩ => rfl | ⟨2, _⟩ => rfl)

/-- The reference's index word of a row is `max (n - 1) 0` of the row's count. -/
theorem index_word (x1 : (⟨S32x4096, .i32⟩ : BufTy).Contents (Elt Ideal)) (j : S32.Idx) :
    val_main_v4 (F := Ideal) x1 j = refWord (val_main_v0 (F := Ideal) x1 j) := by
  rw [val_main_v4_apply, val_main_v2_apply, val_main_v3_apply, val_main_v1_apply]; rfl

/-- The one-hot weight at (b, k, h): 1 where row b's index word is the word `k`, else 0. -/
theorem weight (x1 : (⟨S32x4096, .i32⟩ : BufTy).Contents (Elt Ideal)) (i : S32x512.Idx) (k : Fin 4096) :
    val_main_v7 (F := Ideal) x1 (idx_main_v9 i k)
      = if refWord (val_main_v0 (F := Ideal) x1 (batchAt i)) = BitVec.ofNat 32 k.val then (1 : EReal) else 0 := by
  rw [val_main_v7_apply, val_main_v6_apply, val_main_v5_apply, val_main_call0_v4_apply, val_main_call0_v2_apply,
    val_main_call0_v0_apply, val_main_call0_v3_apply, val_main_call0_v1_apply, idx_batch, idx_pos, index_word]
  exact uitofp_cmpi_eq _ _

/-- Equal words below 4096 name the same position. -/
theorem pos_congr (a b : BitVec 32) (e : a = b) (ha : a.toNat < 4096) (hb : b.toNat < 4096) :
    (⟨a.toNat, ha⟩ : Fin 4096) = ⟨b.toNat, hb⟩ := by subst e; rfl

/-- THE REFERENCE IS `lastToken` on a 0/1 mask. -/
theorem ref_eq (x0 : (⟨S32x4096x512, .f32⟩ : BufTy).Contents (Elt Ideal)) (x1 : (⟨S32x4096, .i32⟩ : BufTy).Contents (Elt Ideal))
    (hb : Binary x1) :
    val_main_v9 (F := Ideal) x0 x1 = lastToken x0 (val_main_v0 (F := Ideal) x1) := by
  funext i
  show _ = x0 (rowAt i ⟨(kerWord (val_main_v0 (F := Ideal) x1 (batchAt i))).toNat, kerWord_lt _⟩)
  rw [val_main_v9_apply, val_main_cst_apply, Ideal.ofBits_def, Ideal.ofBits_zero_f32, zero_add]
  have hcnt : (val_main_v0 (F := Ideal) x1 (batchAt i)).toNat ≤ 4096 :=
    count_le x1 hb reducesTo_S32x4096_S32_d1 h_S_ (batchAt i)
  have hterm : ∀ k : Fin 4096, val_main_v8 (F := Ideal) x0 x1 (idx_main_v9 i k)
      = x0 (rowAt i k) * (if refWord (val_main_v0 (F := Ideal) x1 (batchAt i)) = BitVec.ofNat 32 k.val then (1 : EReal) else 0) := fun k => by
    rw [val_main_v8_apply, Ideal.mulf_def, weight, idx_row]
  rw [Finset.sum_congr rfl (fun k _ => hterm k)]
  -- from here on the row's count is just a word `n` of value at most 4096
  generalize val_main_v0 (F := Ideal) x1 (batchAt i) = n at hcnt ⊢
  have hw := kerWord_eq_refWord n hcnt
  have hlt : (refWord n).toNat < 4096 := by rw [← hw]; exact kerWord_lt n
  rw [sum_one_hot (fun k => x0 (rowAt i k)) _ (refWord n) hlt (fun _ => rfl)]
  exact congrArg (fun p => x0 (rowAt i p)) (pos_congr _ _ hw.symm hlt (kerWord_lt n))

end Cert.LastToken.Ref

end
-- ==== Proof.KernelIdealSource.lean ====
/-
  What one row copy reads.

  The body's copy for row b reads the 512 floats of `x` at the rectangle with offset (b, p, 0) and extent (1, 1, 512),
  its two unit axes dropped, where `p` is the table's word for row b: under column y that is `x[b, p, y]`. The word
  itself is read from the table through the one-entry rectangle at offset b: it is the table's entry b.
-/
import proofs.«400635_j8967891714565_3_alg».proof.Proof.Gen.KernelIdeal.Frame.Runs

noncomputable section

namespace Cert.KernelIdeal.Source

open Cert.KernelIdeal Cert.KernelIdeal.Gen
open Idealize.ShloMosaic Idealize.ShloMosaic.TcCoe Idealize.SL.Sem

variable {F : FTy → Type} [FloatOps F]

/-- Entry (b, p, y) of `x`. -/
def at3 (b p : Nat) (hb : b < 32) (hp : p < 4096) (y : S512.Idx) : S32x4096x512.Idx := fun a => match a with
  | ⟨0, _⟩ => ⟨b, hb⟩
  | ⟨1, _⟩ => ⟨p, hp⟩
  | ⟨2, _⟩ => ⟨(y 0).val, (y 0).isLt⟩

/-- Row b of a one-word-per-row table. -/
def row1 (b : Nat) (hb : b < 32) : S32.Idx := fun a => match a with
  | ⟨0, _⟩ => ⟨b, hb⟩

/-- A column of 512 matched with the shape [1, 1, 512] is (0, 0, the column). -/
theorem squeeze_two (h : S512.numel = S1x1x512.numel) (y : S512.Idx) :
    Shape.reshapeEquiv h y = (Fin.cons ⟨0, Nat.one_pos⟩ (Fin.cons ⟨0, Nat.one_pos⟩ y : S1x512.Idx) : S1x1x512.Idx) := by
  have h1 : S512.numel = S1x512.numel := by decide
  have h2 : S1x512.numel = S1x1x512.numel := by decide
  rw [← Shape.reshapeEquiv_reshapeEquiv h2 h1 y,
    show Shape.reshapeEquiv h1 y = (Fin.cons ⟨0, Nat.one_pos⟩ y : S1x512.Idx) from Shape.reshapeEquiv_cons_one (n := 1) (d := ![512]) _ y]
  exact Shape.reshapeEquiv_cons_one (n := 2) (d := ![1, 512]) _ _

/-- THE COPY'S SOURCE at (b, p, 0), read under column y, is `x[b, p, y]`. -/
theorem src_read (c : Dev nD) (b p : Nat) (hb : b < 32) (hp : p < 4096)
    (inb : ∀ a, (![b, p, 0] : Fin 3 → Nat) a + S1x1x512.size a ≤ S32x4096x512.size a)
    (fh0 : HbBuf0 (F := F) c hbM0_0) (y : S512.Idx) :
    (((Memref.whole main_arg0 : Memref sig .tc .hbm S32x4096x512 .f32).slice (Rect.unit (s := S32x4096x512) ![b, p, 0] S1x1x512.size inb) (fun _ => rfl)).squeeze S512 squeezes_S1x1x512_S512).view.read (Elt F) fh0 y
      = fh0 (at3 b p hb hp y) := by
  show _root_.cast _ (fh0 ((Rect.unit (s := S32x4096x512) ![b, p, 0] S1x1x512.size inb).emb (Shape.reshapeEquiv squeezes_S1x1x512_S512.numel_eq y))) = _
  rw [cast_eq]
  congr 1
  rw [squeeze_two]
  funext a
  apply Fin.ext
  rw [Rect.emb_apply]
  match a with
  | ⟨0, _⟩ => show b + 1 * 0 = b; omega
  | ⟨1, _⟩ => show p + 1 * 0 = p; omega
  | ⟨2, _⟩ => show 0 + 1 * (y 0).val = (y 0).val; omega

/-- THE WORD the body reads from the table at offset b is the table's entry b. -/
theorem word_eq (c : Dev nD) (b : Nat) (hb : b < 32) (inb : ∀ a, (![b] : Fin 1 → Nat) a + S1.size a ≤ S32.size a) (h1 : 0 < S1.numel)
    (xt0 : TbBuf0 (F := F) c tbM0_0) :
    tbM0_0.view.readAt (Elt F) (Rect.unit (s := S32) ![b] S1.size inb).toLoadRect xt0 (Shape.Idx.first h1) = xt0 (row1 b hb) := by
  refine congrArg xt0 ?_
  funext a
  apply Fin.ext
  match a with
  | ⟨0, _⟩ =>
    show b + 1 * (Shape.Idx.first h1 (0 : Fin 1)).val = b
    have h0 : (Shape.Idx.first h1 (0 : Fin 1)).val < 1 := (Shape.Idx.first h1 (0 : Fin 1)).isLt
    omega

end Cert.KernelIdeal.Source

end
-- ==== Proof.KernelIdealBlock.lean ====
/-
  The block the kernel's body leaves, for any float family.

  The body's one store writes the output block whole with what it loaded from the scratch, and the scratch holds, row
  by row, the 32 payloads of the row copies (Proof/KernelIdealRows.lean): so the block at (b, h) is payload b at column h.
  Payload b is what the copy's source reads: the 512 floats of `x` at (b, p_b, 0 … 511), `p_b` the word the body read
  from the table at row b (Proof/KernelIdealSource.lean).
-/
import proofs.«400635_j8967891714565_3_alg».proof.Proof.KernelIdealFrameP
import proofs.«400635_j8967891714565_3_alg».proof.Proof.KernelIdealTable
import proofs.«400635_j8967891714565_3_alg».proof.Proof.KernelIdealSource
import Idealize.ShloMosaic.Lib.Pipeline.Value

set_option maxRecDepth 16384

noncomputable section

namespace Cert.KernelIdeal.BlockP

open Cert.KernelIdeal Cert.KernelIdeal.Gen Cert.KernelIdeal.GenP Cert.KernelIdeal.Source Cert.LastToken
open Idealize.ShloMosaic Idealize.ShloMosaic.TcCoe Idealize.ShloMosaic.Tactic Idealize.SL.Sem
open Idealize.ShloMosaic.Pipeline (Dat Cfg Window)

section Block

variable {F : FTy → Type} [FloatOps F]

theorem hz : (![0, 0] : Fin 2 → Nat) = fun _ => 0 := funext fun a => by fin_cases a <;> rfl

set_option maxHeartbeats 2000000 in
/-- THE BLOCK the body leaves: the whole scratch, which holds payload b in row b. -/
theorem out_eq (c : Dev nD) (i : grid0.Coords) (arg3 : Memref sig .tc .vmem S32x512 .f32) (harg3 : arg3.IsWhole) (arg4 : Memref sig .tc .vmem S32x512 .f32) (harg4 : arg4.IsWhole) (xt0 : TbBuf0 (F := F) c tbM0_0) (fh0 : HbBuf0 (F := F) c hbM0_0) (k0_hw1 : k0_chk1 (tbM0_0.view.readAt (Elt F) (Rect.unit (s := S32) ![0] S1.size inb_S32_S1_0).toLoadRect xt0 (Shape.Idx.first (numel1_S1.symm ▸ Nat.one_pos)))) (k0_hw2 : k0_chk2 (tbM0_0.view.readAt (Elt F) (Rect.unit (s := S32) ![1] S1.size inb_S32_S1_1).toLoadRect xt0 (Shape.Idx.first (numel1_S1.symm ▸ Nat.one_pos)))) (k0_hw3 : k0_chk3 (tbM0_0.view.readAt (Elt F) (Rect.unit (s := S32) ![2] S1.size inb_S32_S1_2).toLoadRect xt0 (Shape.Idx.first (numel1_S1.symm ▸ Nat.one_pos)))) (k0_hw4 : k0_chk4 (tbM0_0.view.readAt (Elt F) (Rect.unit (s := S32) ![3] S1.size inb_S32_S1_3).toLoadRect xt0 (Shape.Idx.first (numel1_S1.symm ▸ Nat.one_pos)))) (k0_hw5 : k0_chk5 (tbM0_0.view.readAt (Elt F) (Rect.unit (s := S32) ![4] S1.size inb_S32_S1_4).toLoadRect xt0 (Shape.Idx.first (numel1_S1.symm ▸ Nat.one_pos)))) (k0_hw6 : k0_chk6 (tbM0_0.view.readAt (Elt F) (Rect.unit (s := S32) ![5] S1.size inb_S32_S1_5).toLoadRect xt0 (Shape.Idx.first (numel1_S1.symm ▸ Nat.one_pos)))) (k0_hw7 : k0_chk7 (tbM0_0.view.readAt (Elt F) (Rect.unit (s := S32) ![6] S1.size inb_S32_S1_6).toLoadRect xt0 (Shape.Idx.first (numel1_S1.symm ▸ Nat.one_pos)))) (k0_hw8 : k0_chk8 (tbM0_0.view.readAt (Elt F) (Rect.unit (s := S32) ![7] S1.size inb_S32_S1_7).toLoadRect xt0 (Shape.Idx.first (numel1_S1.symm ▸ Nat.one_pos)))) (k0_hw9 : k0_chk9 (tbM0_0.view.readAt (Elt F) (Rect.unit (s := S32) ![8] S1.size inb_S32_S1_8).toLoadRect xt0 (Shape.Idx.first (numel1_S1.symm ▸ Nat.one_pos)))) (k0_hw10 : k0_chk10 (tbM0_0.view.readAt (Elt F) (Rect.unit (s := S32) ![9] S1.size inb_S32_S1_9).toLoadRect xt0 (Shape.Idx.first (numel1_S1.symm ▸ Nat.one_pos)))) (k0_hw11 : k0_chk11 (tbM0_0.view.readAt (Elt F) (Rect.unit (s := S32) ![10] S1.size inb_S32_S1_10).toLoadRect xt0 (Shape.Idx.first (numel1_S1.symm ▸ Nat.one_pos)))) (k0_hw12 : k0_chk12 (tbM0_0.view.readAt (Elt F) (Rect.unit (s := S32) ![11] S1.size inb_S32_S1_11).toLoadRect xt0 (Shape.Idx.first (numel1_S1.symm ▸ Nat.one_pos)))) (k0_hw13 : k0_chk13 (tbM0_0.view.readAt (Elt F) (Rect.unit (s := S32) ![12] S1.size inb_S32_S1_12).toLoadRect xt0 (Shape.Idx.first (numel1_S1.symm ▸ Nat.one_pos)))) (k0_hw14 : k0_chk14 (tbM0_0.view.readAt (Elt F) (Rect.unit (s := S32) ![13] S1.size inb_S32_S1_13).toLoadRect xt0 (Shape.Idx.first (numel1_S1.symm ▸ Nat.one_pos)))) (k0_hw15 : k0_chk15 (tbM0_0.view.readAt (Elt F) (Rect.unit (s := S32) ![14] S1.size inb_S32_S1_14).toLoadRect xt0 (Shape.Idx.first (numel1_S1.symm ▸ Nat.one_pos)))) (k0_hw16 : k0_chk16 (tbM0_0.view.readAt (Elt F) (Rect.unit (s := S32) ![15] S1.size inb_S32_S1_15).toLoadRect xt0 (Shape.Idx.first (numel1_S1.symm ▸ Nat.one_pos)))) (k0_hw17 : k0_chk17 (tbM0_0.view.readAt (Elt F) (Rect.unit (s := S32) ![16] S1.size inb_S32_S1_16).toLoadRect xt0 (Shape.Idx.first (numel1_S1.symm ▸ Nat.one_pos)))) (k0_hw18 : k0_chk18 (tbM0_0.view.readAt (Elt F) (Rect.unit (s := S32) ![17] S1.size inb_S32_S1_17).toLoadRect xt0 (Shape.Idx.first (numel1_S1.symm ▸ Nat.one_pos)))) (k0_hw19 : k0_chk19 (tbM0_0.view.readAt (Elt F) (Rect.unit (s := S32) ![18] S1.size inb_S32_S1_18).toLoadRect xt0 (Shape.Idx.first (numel1_S1.symm ▸ Nat.one_pos)))) (k0_hw20 : k0_chk20 (tbM0_0.view.readAt (Elt F) (Rect.unit (s := S32) ![19] S1.size inb_S32_S1_19).toLoadRect xt0 (Shape.Idx.first (numel1_S1.symm ▸ Nat.one_pos)))) (k0_hw21 : k0_chk21 (tbM0_0.view.readAt (Elt F) (Rect.unit (s := S32) ![20] S1.size inb_S32_S1_20).toLoadRect xt0 (Shape.Idx.first (numel1_S1.symm ▸ Nat.one_pos)))) (k0_hw22 : k0_chk22 (tbM0_0.view.readAt (Elt F) (Rect.unit (s := S32) ![21] S1.size inb_S32_S1_21).toLoadRect xt0 (Shape.Idx.first (numel1_S1.symm ▸ Nat.one_pos)))) (k0_hw23 : k0_chk23 (tbM0_0.view.readAt (Elt F) (Rect.unit (s := S32) ![22] S1.size inb_S32_S1_22).toLoadRect xt0 (Shape.Idx.first (numel1_S1.symm ▸ Nat.one_pos)))) (k0_hw24 : k0_chk24 (tbM0_0.view.readAt (Elt F) (Rect.unit (s := S32) ![23] S1.size inb_S32_S1_23).toLoadRect xt0 (Shape.Idx.first (numel1_S1.symm ▸ Nat.one_pos)))) (k0_hw25 : k0_chk25 (tbM0_0.view.readAt (Elt F) (Rect.unit (s := S32) ![24] S1.size inb_S32_S1_24).toLoadRect xt0 (Shape.Idx.first (numel1_S1.symm ▸ Nat.one_pos)))) (k0_hw26 : k0_chk26 (tbM0_0.view.readAt (Elt F) (Rect.unit (s := S32) ![25] S1.size inb_S32_S1_25).toLoadRect xt0 (Shape.Idx.first (numel1_S1.symm ▸ Nat.one_pos)))) (k0_hw27 : k0_chk27 (tbM0_0.view.readAt (Elt F) (Rect.unit (s := S32) ![26] S1.size inb_S32_S1_26).toLoadRect xt0 (Shape.Idx.first (numel1_S1.symm ▸ Nat.one_pos)))) (k0_hw28 : k0_chk28 (tbM0_0.view.readAt (Elt F) (Rect.unit (s := S32) ![27] S1.size inb_S32_S1_27).toLoadRect xt0 (Shape.Idx.first (numel1_S1.symm ▸ Nat.one_pos)))) (k0_hw29 : k0_chk29 (tbM0_0.view.readAt (Elt F) (Rect.unit (s := S32) ![28] S1.size inb_S32_S1_28).toLoadRect xt0 (Shape.Idx.first (numel1_S1.symm ▸ Nat.one_pos)))) (k0_hw30 : k0_chk30 (tbM0_0.view.readAt (Elt F) (Rect.unit (s := S32) ![29] S1.size inb_S32_S1_29).toLoadRect xt0 (Shape.Idx.first (numel1_S1.symm ▸ Nat.one_pos)))) (k0_hw31 : k0_chk31 (tbM0_0.view.readAt (Elt F) (Rect.unit (s := S32) ![30] S1.size inb_S32_S1_30).toLoadRect xt0 (Shape.Idx.first (numel1_S1.symm ▸ Nat.one_pos)))) (k0_hw32 : k0_chk32 (tbM0_0.view.readAt (Elt F) (Rect.unit (s := S32) ![31] S1.size inb_S32_S1_31).toLoadRect xt0 (Shape.Idx.first (numel1_S1.symm ▸ Nat.one_pos)))) :
    out0_A_0 c i arg3 harg3 arg4 harg4 xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 = Rows.wholeOf (![kernelRun0_A.sl.dma1 c xt0 fh0 k0_hw1, kernelRun0_A.sl.dma2 c xt0 fh0 k0_hw2, kernelRun0_A.sl.dma3 c xt0 fh0 k0_hw3, kernelRun0_A.sl.dma4 c xt0 fh0 k0_hw4, kernelRun0_A.sl.dma5 c xt0 fh0 k0_hw5, kernelRun0_A.sl.dma6 c xt0 fh0 k0_hw6, kernelRun0_A.sl.dma7 c xt0 fh0 k0_hw7, kernelRun0_A.sl.dma8 c xt0 fh0 k0_hw8, kernelRun0_A.sl.dma9 c xt0 fh0 k0_hw9, kernelRun0_A.sl.dma10 c xt0 fh0 k0_hw10, kernelRun0_A.sl.dma11 c xt0 fh0 k0_hw11, kernelRun0_A.sl.dma12 c xt0 fh0 k0_hw12, kernelRun0_A.sl.dma13 c xt0 fh0 k0_hw13, kernelRun0_A.sl.dma14 c xt0 fh0 k0_hw14, kernelRun0_A.sl.dma15 c xt0 fh0 k0_hw15, kernelRun0_A.sl.dma16 c xt0 fh0 k0_hw16, kernelRun0_A.sl.dma17 c xt0 fh0 k0_hw17, kernelRun0_A.sl.dma18 c xt0 fh0 k0_hw18, kernelRun0_A.sl.dma19 c xt0 fh0 k0_hw19, kernelRun0_A.sl.dma20 c xt0 fh0 k0_hw20, kernelRun0_A.sl.dma21 c xt0 fh0 k0_hw21, kernelRun0_A.sl.dma22 c xt0 fh0 k0_hw22, kernelRun0_A.sl.dma23 c xt0 fh0 k0_hw23, kernelRun0_A.sl.dma24 c xt0 fh0 k0_hw24, kernelRun0_A.sl.dma25 c xt0 fh0 k0_hw25, kernelRun0_A.sl.dma26 c xt0 fh0 k0_hw26, kernelRun0_A.sl.dma27 c xt0 fh0 k0_hw27, kernelRun0_A.sl.dma28 c xt0 fh0 k0_hw28, kernelRun0_A.sl.dma29 c xt0 fh0 k0_hw29, kernelRun0_A.sl.dma30 c xt0 fh0 k0_hw30, kernelRun0_A.sl.dma31 c xt0 fh0 k0_hw31, kernelRun0_A.sl.dma32 c xt0 fh0 k0_hw32] : Fin 32 → S512.Idx → Elt F .f32) := by
  unfold out0_A_0
  rw [View.read_writes_eq_canon _ _ _ (cover0_A_0 c i arg3 harg3 arg4 harg4 xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32)]
  unfold kernelRun0_A
  dsimp only
  sl_unfold_words
  rw [View.canon_unit_zero hz]
  simp only [View.readAt_eq_ld, View.ld_unit_zero (S := S32x512) hz]
  exact Rows.read_filled arg4 _

/-- The same position, named by two equal numbers. -/
theorem at3_congr (b p p' : Nat) (e : p = p') (hb : b < 32) (hp : p < 4096) (hp' : p' < 4096) (y : S512.Idx) :
    at3 b p hb hp y = at3 b p' hb hp' y := by subst e; rfl

/-- ONE PAYLOAD: the copy whose source sits at offset (b, w, 0), `w` the word the body read from the table at row b,
    delivers under column y the float `x[b, table b, y]`. -/
theorem pay_row (c : Dev nD) (b : Nat) (hb : b < 32) (xt0 : TbBuf0 (F := F) c tbM0_0)
    (inbw : ∀ a, (![b] : Fin 1 → Nat) a + S1.size a ≤ S32.size a) (h1 : 0 < S1.numel)
    (off : Fin 3 → Nat)
    (hoff : off = ![b, (tbM0_0.view.readAt (Elt F) (Rect.unit (s := S32) ![b] S1.size inbw).toLoadRect xt0 (Shape.Idx.first h1)).toNat, 0])
    (inb : ∀ a, off a + S1x1x512.size a ≤ S32x4096x512.size a)
    (fh0 : HbBuf0 (F := F) c hbM0_0) (hlt : ∀ j : S32.Idx, (xt0 j).toNat < 4096) (y : S512.Idx) :
    ReadAs.same.apply (View.read (Elt F) (((Memref.whole main_arg0 : Memref sig .tc .hbm S32x4096x512 .f32).slice
        (Rect.unit (s := S32x4096x512) off S1x1x512.size inb) (fun _ => rfl)).squeeze S512 squeezes_S1x1x512_S512).view fh0) y
      = fh0 (at3 b (xt0 (row1 b hb)).toNat hb (hlt _) y) := by
  subst hoff
  have hw := word_eq c b hb inbw h1 xt0
  have hp : (tbM0_0.view.readAt (Elt F) (Rect.unit (s := S32) ![b] S1.size inbw).toLoadRect xt0 (Shape.Idx.first h1)).toNat < 4096 := by
    rw [hw]; exact hlt _
  refine (src_read c b _ hb hp inb fh0 y).trans ?_
  exact congrArg fh0 (at3_congr b _ _ (congrArg BitVec.toNat hw) hb hp (hlt _) y)

end Block

end Cert.KernelIdeal.BlockP

end
-- ==== Proof.KernelIdealPayCases.lean ====
import proofs.«400635_j8967891714565_3_alg».proof.Proof.KernelIdealBlock

set_option maxRecDepth 16384

noncomputable section

namespace Cert.KernelIdeal.BlockP

open Cert.KernelIdeal Cert.KernelIdeal.Gen Cert.KernelIdeal.GenP Cert.KernelIdeal.Source
open Idealize.ShloMosaic Idealize.ShloMosaic.TcCoe Idealize.SL.Sem

variable {F : FTy → Type} [FloatOps F]

/-! ## Payload b under column y is x[b, table b, y], for b = 0 … 31 -/

theorem pay_0 (c : Dev nD) (xt0 : TbBuf0 (F := F) c tbM0_0) (fh0 : HbBuf0 (F := F) c hbM0_0) (k0_hw1 : k0_chk1 (tbM0_0.view.readAt (Elt F) (Rect.unit (s := S32) ![0] S1.size inb_S32_S1_0).toLoadRect xt0 (Shape.Idx.first (numel1_S1.symm ▸ Nat.one_pos)))) (hlt : ∀ j : S32.Idx, (xt0 j).toNat < 4096) (y : S512.Idx) :
    kernelRun0_A.sl.dma1 c xt0 fh0 k0_hw1 y = fh0 (at3 0 (xt0 (row1 0 (by decide))).toNat (by decide) (hlt _) y) :=
  pay_row c 0 (by decide) xt0 inb_S32_S1_0 _ (k0_off1 (kernelRun0_A.sl.r c xt0)) rfl _ fh0 hlt y
theorem pay_1 (c : Dev nD) (xt0 : TbBuf0 (F := F) c tbM0_0) (fh0 : HbBuf0 (F := F) c hbM0_0) (k0_hw2 : k0_chk2 (tbM0_0.view.readAt (Elt F) (Rect.unit (s := S32) ![1] S1.size inb_S32_S1_1).toLoadRect xt0 (Shape.Idx.first (numel1_S1.symm ▸ Nat.one_pos)))) (hlt : ∀ j : S32.Idx, (xt0 j).toNat < 4096) (y : S512.Idx) :
    kernelRun0_A.sl.dma2 c xt0 fh0 k0_hw2 y = fh0 (at3 1 (xt0 (row1 1 (by decide))).toNat (by decide) (hlt _) y) :=
  pay_row c 1 (by decide) xt0 inb_S32_S1_1 _ (k0_off2 (kernelRun0_A.sl.r_1 c xt0)) rfl _ fh0 hlt y
theorem pay_2 (c : Dev nD) (xt0 : TbBuf0 (F := F) c tbM0_0) (fh0 : HbBuf0 (F := F) c hbM0_0) (k0_hw3 : k0_chk3 (tbM0_0.view.readAt (Elt F) (Rect.unit (s := S32) ![2] S1.size inb_S32_S1_2).toLoadRect xt0 (Shape.Idx.first (numel1_S1.symm ▸ Nat.one_pos)))) (hlt : ∀ j : S32.Idx, (xt0 j).toNat < 4096) (y : S512.Idx) :
    kernelRun0_A.sl.dma3 c xt0 fh0 k0_hw3 y = fh0 (at3 2 (xt0 (row1 2 (by decide))).toNat (by decide) (hlt _) y) :=
  pay_row c 2 (by decide) xt0 inb_S32_S1_2 _ (k0_off3 (kernelRun0_A.sl.r_2 c xt0)) rfl _ fh0 hlt y
theorem pay_3 (c : Dev nD) (xt0 : TbBuf0 (F := F) c tbM0_0) (fh0 : HbBuf0 (F := F) c hbM0_0) (k0_hw4 : k0_chk4 (tbM0_0.view.readAt (Elt F) (Rect.unit (s := S32) ![3] S1.size inb_S32_S1_3).toLoadRect xt0 (Shape.Idx.first (numel1_S1.symm ▸ Nat.one_pos)))) (hlt : ∀ j : S32.Idx, (xt0 j).toNat < 4096) (y : S512.Idx) :
    kernelRun0_A.sl.dma4 c xt0 fh0 k0_hw4 y = fh0 (at3 3 (xt0 (row1 3 (by decide))).toNat (by decide) (hlt _) y) :=
  pay_row c 3 (by decide) xt0 inb_S32_S1_3 _ (k0_off4 (kernelRun0_A.sl.r_3 c xt0)) rfl _ fh0 hlt y
theorem pay_4 (c : Dev nD) (xt0 : TbBuf0 (F := F) c tbM0_0) (fh0 : HbBuf0 (F := F) c hbM0_0) (k0_hw5 : k0_chk5 (tbM0_0.view.readAt (Elt F) (Rect.unit (s := S32) ![4] S1.size inb_S32_S1_4).toLoadRect xt0 (Shape.Idx.first (numel1_S1.symm ▸ Nat.one_pos)))) (hlt : ∀ j : S32.Idx, (xt0 j).toNat < 4096) (y : S512.Idx) :
    kernelRun0_A.sl.dma5 c xt0 fh0 k0_hw5 y = fh0 (at3 4 (xt0 (row1 4 (by decide))).toNat (by decide) (hlt _) y) :=
  pay_row c 4 (by decide) xt0 inb_S32_S1_4 _ (k0_off5 (kernelRun0_A.sl.r_4 c xt0)) rfl _ fh0 hlt y
theorem pay_5 (c : Dev nD) (xt0 : TbBuf0 (F := F) c tbM0_0) (fh0 : HbBuf0 (F := F) c hbM0_0) (k0_hw6 : k0_chk6 (tbM0_0.view.readAt (Elt F) (Rect.unit (s := S32) ![5] S1.size inb_S32_S1_5).toLoadRect xt0 (Shape.Idx.first (numel1_S1.symm ▸ Nat.one_pos)))) (hlt : ∀ j : S32.Idx, (xt0 j).toNat < 4096) (y : S512.Idx) :
    kernelRun0_A.sl.dma6 c xt0 fh0 k0_hw6 y = fh0 (at3 5 (xt0 (row1 5 (by decide))).toNat (by decide) (hlt _) y) :=
  pay_row c 5 (by decide) xt0 inb_S32_S1_5 _ (k0_off6 (kernelRun0_A.sl.r_5 c xt0)) rfl _ fh0 hlt y
theorem pay_6 (c : Dev nD) (xt0 : TbBuf0 (F := F) c tbM0_0) (fh0 : HbBuf0 (F := F) c hbM0_0) (k0_hw7 : k0_chk7 (tbM0_0.view.readAt (Elt F) (Rect.unit (s := S32) ![6] S1.size inb_S32_S1_6).toLoadRect xt0 (Shape.Idx.first (numel1_S1.symm ▸ Nat.one_pos)))) (hlt : ∀ j : S32.Idx, (xt0 j).toNat < 4096) (y : S512.Idx) :
    kernelRun0_A.sl.dma7 c xt0 fh0 k0_hw7 y = fh0 (at3 6 (xt0 (row1 6 (by decide))).toNat (by decide) (hlt _) y) :=
  pay_row c 6 (by decide) xt0 inb_S32_S1_6 _ (k0_off7 (kernelRun0_A.sl.r_6 c xt0)) rfl _ fh0 hlt y
theorem pay_7 (c : Dev nD) (xt0 : TbBuf0 (F := F) c tbM0_0) (fh0 : HbBuf0 (F := F) c hbM0_0) (k0_hw8 : k0_chk8 (tbM0_0.view.readAt (Elt F) (Rect.unit (s := S32) ![7] S1.size inb_S32_S1_7).toLoadRect xt0 (Shape.Idx.first (numel1_S1.symm ▸ Nat.one_pos)))) (hlt : ∀ j : S32.Idx, (xt0 j).toNat < 4096) (y : S512.Idx) :
    kernelRun0_A.sl.dma8 c xt0 fh0 k0_hw8 y = fh0 (at3 7 (xt0 (row1 7 (by decide))).toNat (by decide) (hlt _) y) :=
  pay_row c 7 (by decide) xt0 inb_S32_S1_7 _ (k0_off8 (kernelRun0_A.sl.r_7 c xt0)) rfl _ fh0 hlt y
theorem pay_8 (c : Dev nD) (xt0 : TbBuf0 (F := F) c tbM0_0) (fh0 : HbBuf0 (F := F) c hbM0_0) (k0_hw9 : k0_chk9 (tbM0_0.view.readAt (Elt F) (Rect.unit (s := S32) ![8] S1.size inb_S32_S1_8).toLoadRect xt0 (Shape.Idx.first (numel1_S1.symm ▸ Nat.one_pos)))) (hlt : ∀ j : S32.Idx, (xt0 j).toNat < 4096) (y : S512.Idx) :
    kernelRun0_A.sl.dma9 c xt0 fh0 k0_hw9 y = fh0 (at3 8 (xt0 (row1 8 (by decide))).toNat (by decide) (hlt _) y) :=
  pay_row c 8 (by decide) xt0 inb_S32_S1_8 _ (k0_off9 (kernelRun0_A.sl.r_8 c xt0)) rfl _ fh0 hlt y
theorem pay_9 (c : Dev nD) (xt0 : TbBuf0 (F := F) c tbM0_0) (fh0 : HbBuf0 (F := F) c hbM0_0) (k0_hw10 : k0_chk10 (tbM0_0.view.readAt (Elt F) (Rect.unit (s := S32) ![9] S1.size inb_S32_S1_9).toLoadRect xt0 (Shape.Idx.first (numel1_S1.symm ▸ Nat.one_pos)))) (hlt : ∀ j : S32.Idx, (xt0 j).toNat < 4096) (y : S512.Idx) :
    kernelRun0_A.sl.dma10 c xt0 fh0 k0_hw10 y = fh0 (at3 9 (xt0 (row1 9 (by decide))).toNat (by decide) (hlt _) y) :=
  pay_row c 9 (by decide) xt0 inb_S32_S1_9 _ (k0_off10 (kernelRun0_A.sl.r_9 c xt0)) rfl _ fh0 hlt y
theorem pay_10 (c : Dev nD) (xt0 : TbBuf0 (F := F) c tbM0_0) (fh0 : HbBuf0 (F := F) c hbM0_0) (k0_hw11 : k0_chk11 (tbM0_0.view.readAt (Elt F) (Rect.unit (s := S32) ![10] S1.size inb_S32_S1_10).toLoadRect xt0 (Shape.Idx.first (numel1_S1.symm ▸ Nat.one_pos)))) (hlt : ∀ j : S32.Idx, (xt0 j).toNat < 4096) (y : S512.Idx) :
    kernelRun0_A.sl.dma11 c xt0 fh0 k0_hw11 y = fh0 (at3 10 (xt0 (row1 10 (by decide))).toNat (by decide) (hlt _) y) :=
  pay_row c 10 (by decide) xt0 inb_S32_S1_10 _ (k0_off11 (kernelRun0_A.sl.r_10 c xt0)) rfl _ fh0 hlt y
theorem pay_11 (c : Dev nD) (xt0 : TbBuf0 (F := F) c tbM0_0) (fh0 : HbBuf0 (F := F) c hbM0_0) (k0_hw12 : k0_chk12 (tbM0_0.view.readAt (Elt F) (Rect.unit (s := S32) ![11] S1.size inb_S32_S1_11).toLoadRect xt0 (Shape.Idx.first (numel1_S1.symm ▸ Nat.one_pos)))) (hlt : ∀ j : S32.Idx, (xt0 j).toNat < 4096) (y : S512.Idx) :
    kernelRun0_A.sl.dma12 c xt0 fh0 k0_hw12 y = fh0 (at3 11 (xt0 (row1 11 (by decide))).toNat (by decide) (hlt _) y) :=
  pay_row c 11 (by decide) xt0 inb_S32_S1_11 _ (k0_off12 (kernelRun0_A.sl.r_11 c xt0)) rfl _ fh0 hlt y
theorem pay_12 (c : Dev nD) (xt0 : TbBuf0 (F := F) c tbM0_0) (fh0 : HbBuf0 (F := F) c hbM0_0) (k0_hw13 : k0_chk13 (tbM0_0.view.readAt (Elt F) (Rect.unit (s := S32) ![12] S1.size inb_S32_S1_12).toLoadRect xt0 (Shape.Idx.first (numel1_S1.symm ▸ Nat.one_pos)))) (hlt : ∀ j : S32.Idx, (xt0 j).toNat < 4096) (y : S512.Idx) :
    kernelRun0_A.sl.dma13 c xt0 fh0 k0_hw13 y = fh0 (at3 12 (xt0 (row1 12 (by decide))).toNat (by decide) (hlt _) y) :=
  pay_row c 12 (by decide) xt0 inb_S32_S1_12 _ (k0_off13 (kernelRun0_A.sl.r_12 c xt0)) rfl _ fh0 hlt y
theorem pay_13 (c : Dev nD) (xt0 : TbBuf0 (F := F) c tbM0_0) (fh0 : HbBuf0 (F := F) c hbM0_0) (k0_hw14 : k0_chk14 (tbM0_0.view.readAt (Elt F) (Rect.unit (s := S32) ![13] S1.size inb_S32_S1_13).toLoadRect xt0 (Shape.Idx.first (numel1_S1.symm ▸ Nat.one_pos)))) (hlt : ∀ j : S32.Idx, (xt0 j).toNat < 4096) (y : S512.Idx) :
    kernelRun0_A.sl.dma14 c xt0 fh0 k0_hw14 y = fh0 (at3 13 (xt0 (row1 13 (by decide))).toNat (by decide) (hlt _) y) :=
  pay_row c 13 (by decide) xt0 inb_S32_S1_13 _ (k0_off14 (kernelRun0_A.sl.r_13 c xt0)) rfl _ fh0 hlt y
theorem pay_14 (c : Dev nD) (xt0 : TbBuf0 (F := F) c tbM0_0) (fh0 : HbBuf0 (F := F) c hbM0_0) (k0_hw15 : k0_chk15 (tbM0_0.view.readAt (Elt F) (Rect.unit (s := S32) ![14] S1.size inb_S32_S1_14).toLoadRect xt0 (Shape.Idx.first (numel1_S1.symm ▸ Nat.one_pos)))) (hlt : ∀ j : S32.Idx, (xt0 j).toNat < 4096) (y : S512.Idx) :
    kernelRun0_A.sl.dma15 c xt0 fh0 k0_hw15 y = fh0 (at3 14 (xt0 (row1 14 (by decide))).toNat (by decide) (hlt _) y) :=
  pay_row c 14 (by decide) xt0 inb_S32_S1_14 _ (k0_off15 (kernelRun0_A.sl.r_14 c xt0)) rfl _ fh0 hlt y
theorem pay_15 (c : Dev nD) (xt0 : TbBuf0 (F := F) c tbM0_0) (fh0 : HbBuf0 (F := F) c hbM0_0) (k0_hw16 : k0_chk16 (tbM0_0.view.readAt (Elt F) (Rect.unit (s := S32) ![15] S1.size inb_S32_S1_15).toLoadRect xt0 (Shape.Idx.first (numel1_S1.symm ▸ Nat.one_pos)))) (hlt : ∀ j : S32.Idx, (xt0 j).toNat < 4096) (y : S512.Idx) :
    kernelRun0_A.sl.dma16 c xt0 fh0 k0_hw16 y = fh0 (at3 15 (xt0 (row1 15 (by decide))).toNat (by decide) (hlt _) y) :=
  pay_row c 15 (by decide) xt0 inb_S32_S1_15 _ (k0_off16 (kernelRun0_A.sl.r_15 c xt0)) rfl _ fh0 hlt y
theorem pay_16 (c : Dev nD) (xt0 : TbBuf0 (F := F) c tbM0_0) (fh0 : HbBuf0 (F := F) c hbM0_0) (k0_hw17 : k0_chk17 (tbM0_0.view.readAt (Elt F) (Rect.unit (s := S32) ![16] S1.size inb_S32_S1_16).toLoadRect xt0 (Shape.Idx.first (numel1_S1.symm ▸ Nat.one_pos)))) (hlt : ∀ j : S32.Idx, (xt0 j).toNat < 4096) (y : S512.Idx) :
    kernelRun0_A.sl.dma17 c xt0 fh0 k0_hw17 y = fh0 (at3 16 (xt0 (row1 16 (by decide))).toNat (by decide) (hlt _) y) :=
  pay_row c 16 (by decide) xt0 inb_S32_S1_16 _ (k0_off17 (kernelRun0_A.sl.r_16 c xt0)) rfl _ fh0 hlt y
theorem pay_17 (c : Dev nD) (xt0 : TbBuf0 (F := F) c tbM0_0) (fh0 : HbBuf0 (F := F) c hbM0_0) (k0_hw18 : k0_chk18 (tbM0_0.view.readAt (Elt F) (Rect.unit (s := S32) ![17] S1.size inb_S32_S1_17).toLoadRect xt0 (Shape.Idx.first (numel1_S1.symm ▸ Nat.one_pos)))) (hlt : ∀ j : S32.Idx, (xt0 j).toNat < 4096) (y : S512.Idx) :
    kernelRun0_A.sl.dma18 c xt0 fh0 k0_hw18 y = fh0 (at3 17 (xt0 (row1 17 (by decide))).toNat (by decide) (hlt _) y) :=
  pay_row c 17 (by decide) xt0 inb_S32_S1_17 _ (k0_off18 (kernelRun0_A.sl.r_17 c xt0)) rfl _ fh0 hlt y
theorem pay_18 (c : Dev nD) (xt0 : TbBuf0 (F := F) c tbM0_0) (fh0 : HbBuf0 (F := F) c hbM0_0) (k0_hw19 : k0_chk19 (tbM0_0.view.readAt (Elt F) (Rect.unit (s := S32) ![18] S1.size inb_S32_S1_18).toLoadRect xt0 (Shape.Idx.first (numel1_S1.symm ▸ Nat.one_pos)))) (hlt : ∀ j : S32.Idx, (xt0 j).toNat < 4096) (y : S512.Idx) :
    kernelRun0_A.sl.dma19 c xt0 fh0 k0_hw19 y = fh0 (at3 18 (xt0 (row1 18 (by decide))).toNat (by decide) (hlt _) y) :=
  pay_row c 18 (by decide) xt0 inb_S32_S1_18 _ (k0_off19 (kernelRun0_A.sl.r_18 c xt0)) rfl _ fh0 hlt y
theorem pay_19 (c : Dev nD) (xt0 : TbBuf0 (F := F) c tbM0_0) (fh0 : HbBuf0 (F := F) c hbM0_0) (k0_hw20 : k0_chk20 (tbM0_0.view.readAt (Elt F) (Rect.unit (s := S32) ![19] S1.size inb_S32_S1_19).toLoadRect xt0 (Shape.Idx.first (numel1_S1.symm ▸ Nat.one_pos)))) (hlt : ∀ j : S32.Idx, (xt0 j).toNat < 4096) (y : S512.Idx) :
    kernelRun0_A.sl.dma20 c xt0 fh0 k0_hw20 y = fh0 (at3 19 (xt0 (row1 19 (by decide))).toNat (by decide) (hlt _) y) :=
  pay_row c 19 (by decide) xt0 inb_S32_S1_19 _ (k0_off20 (kernelRun0_A.sl.r_19 c xt0)) rfl _ fh0 hlt y
theorem pay_20 (c : Dev nD) (xt0 : TbBuf0 (F := F) c tbM0_0) (fh0 : HbBuf0 (F := F) c hbM0_0) (k0_hw21 : k0_chk21 (tbM0_0.view.readAt (Elt F) (Rect.unit (s := S32) ![20] S1.size inb_S32_S1_20).toLoadRect xt0 (Shape.Idx.first (numel1_S1.symm ▸ Nat.one_pos)))) (hlt : ∀ j : S32.Idx, (xt0 j).toNat < 4096) (y : S512.Idx) :
    kernelRun0_A.sl.dma21 c xt0 fh0 k0_hw21 y = fh0 (at3 20 (xt0 (row1 20 (by decide))).toNat (by decide) (hlt _) y) :=
  pay_row c 20 (by decide) xt0 inb_S32_S1_20 _ (k0_off21 (kernelRun0_A.sl.r_20 c xt0)) rfl _ fh0 hlt y
theorem pay_21 (c : Dev nD) (xt0 : TbBuf0 (F := F) c tbM0_0) (fh0 : HbBuf0 (F := F) c hbM0_0) (k0_hw22 : k0_chk22 (tbM0_0.view.readAt (Elt F) (Rect.unit (s := S32) ![21] S1.size inb_S32_S1_21).toLoadRect xt0 (Shape.Idx.first (numel1_S1.symm ▸ Nat.one_pos)))) (hlt : ∀ j : S32.Idx, (xt0 j).toNat < 4096) (y : S512.Idx) :
    kernelRun0_A.sl.dma22 c xt0 fh0 k0_hw22 y = fh0 (at3 21 (xt0 (row1 21 (by decide))).toNat (by decide) (hlt _) y) :=
  pay_row c 21 (by decide) xt0 inb_S32_S1_21 _ (k0_off22 (kernelRun0_A.sl.r_21 c xt0)) rfl _ fh0 hlt y
theorem pay_22 (c : Dev nD) (xt0 : TbBuf0 (F := F) c tbM0_0) (fh0 : HbBuf0 (F := F) c hbM0_0) (k0_hw23 : k0_chk23 (tbM0_0.view.readAt (Elt F) (Rect.unit (s := S32) ![22] S1.size inb_S32_S1_22).toLoadRect xt0 (Shape.Idx.first (numel1_S1.symm ▸ Nat.one_pos)))) (hlt : ∀ j : S32.Idx, (xt0 j).toNat < 4096) (y : S512.Idx) :
    kernelRun0_A.sl.dma23 c xt0 fh0 k0_hw23 y = fh0 (at3 22 (xt0 (row1 22 (by decide))).toNat (by decide) (hlt _) y) :=
  pay_row c 22 (by decide) xt0 inb_S32_S1_22 _ (k0_off23 (kernelRun0_A.sl.r_22 c xt0)) rfl _ fh0 hlt y
theorem pay_23 (c : Dev nD) (xt0 : TbBuf0 (F := F) c tbM0_0) (fh0 : HbBuf0 (F := F) c hbM0_0) (k0_hw24 : k0_chk24 (tbM0_0.view.readAt (Elt F) (Rect.unit (s := S32) ![23] S1.size inb_S32_S1_23).toLoadRect xt0 (Shape.Idx.first (numel1_S1.symm ▸ Nat.one_pos)))) (hlt : ∀ j : S32.Idx, (xt0 j).toNat < 4096) (y : S512.Idx) :
    kernelRun0_A.sl.dma24 c xt0 fh0 k0_hw24 y = fh0 (at3 23 (xt0 (row1 23 (by decide))).toNat (by decide) (hlt _) y) :=
  pay_row c 23 (by decide) xt0 inb_S32_S1_23 _ (k0_off24 (kernelRun0_A.sl.r_23 c xt0)) rfl _ fh0 hlt y
theorem pay_24 (c : Dev nD) (xt0 : TbBuf0 (F := F) c tbM0_0) (fh0 : HbBuf0 (F := F) c hbM0_0) (k0_hw25 : k0_chk25 (tbM0_0.view.readAt (Elt F) (Rect.unit (s := S32) ![24] S1.size inb_S32_S1_24).toLoadRect xt0 (Shape.Idx.first (numel1_S1.symm ▸ Nat.one_pos)))) (hlt : ∀ j : S32.Idx, (xt0 j).toNat < 4096) (y : S512.Idx) :
    kernelRun0_A.sl.dma25 c xt0 fh0 k0_hw25 y = fh0 (at3 24 (xt0 (row1 24 (by decide))).toNat (by decide) (hlt _) y) :=
  pay_row c 24 (by decide) xt0 inb_S32_S1_24 _ (k0_off25 (kernelRun0_A.sl.r_24 c xt0)) rfl _ fh0 hlt y
theorem pay_25 (c : Dev nD) (xt0 : TbBuf0 (F := F) c tbM0_0) (fh0 : HbBuf0 (F := F) c hbM0_0) (k0_hw26 : k0_chk26 (tbM0_0.view.readAt (Elt F) (Rect.unit (s := S32) ![25] S1.size inb_S32_S1_25).toLoadRect xt0 (Shape.Idx.first (numel1_S1.symm ▸ Nat.one_pos)))) (hlt : ∀ j : S32.Idx, (xt0 j).toNat < 4096) (y : S512.Idx) :
    kernelRun0_A.sl.dma26 c xt0 fh0 k0_hw26 y = fh0 (at3 25 (xt0 (row1 25 (by decide))).toNat (by decide) (hlt _) y) :=
  pay_row c 25 (by decide) xt0 inb_S32_S1_25 _ (k0_off26 (kernelRun0_A.sl.r_25 c xt0)) rfl _ fh0 hlt y
theorem pay_26 (c : Dev nD) (xt0 : TbBuf0 (F := F) c tbM0_0) (fh0 : HbBuf0 (F := F) c hbM0_0) (k0_hw27 : k0_chk27 (tbM0_0.view.readAt (Elt F) (Rect.unit (s := S32) ![26] S1.size inb_S32_S1_26).toLoadRect xt0 (Shape.Idx.first (numel1_S1.symm ▸ Nat.one_pos)))) (hlt : ∀ j : S32.Idx, (xt0 j).toNat < 4096) (y : S512.Idx) :
    kernelRun0_A.sl.dma27 c xt0 fh0 k0_hw27 y = fh0 (at3 26 (xt0 (row1 26 (by decide))).toNat (by decide) (hlt _) y) :=
  pay_row c 26 (by decide) xt0 inb_S32_S1_26 _ (k0_off27 (kernelRun0_A.sl.r_26 c xt0)) rfl _ fh0 hlt y
theorem pay_27 (c : Dev nD) (xt0 : TbBuf0 (F := F) c tbM0_0) (fh0 : HbBuf0 (F := F) c hbM0_0) (k0_hw28 : k0_chk28 (tbM0_0.view.readAt (Elt F) (Rect.unit (s := S32) ![27] S1.size inb_S32_S1_27).toLoadRect xt0 (Shape.Idx.first (numel1_S1.symm ▸ Nat.one_pos)))) (hlt : ∀ j : S32.Idx, (xt0 j).toNat < 4096) (y : S512.Idx) :
    kernelRun0_A.sl.dma28 c xt0 fh0 k0_hw28 y = fh0 (at3 27 (xt0 (row1 27 (by decide))).toNat (by decide) (hlt _) y) :=
  pay_row c 27 (by decide) xt0 inb_S32_S1_27 _ (k0_off28 (kernelRun0_A.sl.r_27 c xt0)) rfl _ fh0 hlt y
theorem pay_28 (c : Dev nD) (xt0 : TbBuf0 (F := F) c tbM0_0) (fh0 : HbBuf0 (F := F) c hbM0_0) (k0_hw29 : k0_chk29 (tbM0_0.view.readAt (Elt F) (Rect.unit (s := S32) ![28] S1.size inb_S32_S1_28).toLoadRect xt0 (Shape.Idx.first (numel1_S1.symm ▸ Nat.one_pos)))) (hlt : ∀ j : S32.Idx, (xt0 j).toNat < 4096) (y : S512.Idx) :
    kernelRun0_A.sl.dma29 c xt0 fh0 k0_hw29 y = fh0 (at3 28 (xt0 (row1 28 (by decide))).toNat (by decide) (hlt _) y) :=
  pay_row c 28 (by decide) xt0 inb_S32_S1_28 _ (k0_off29 (kernelRun0_A.sl.r_28 c xt0)) rfl _ fh0 hlt y
theorem pay_29 (c : Dev nD) (xt0 : TbBuf0 (F := F) c tbM0_0) (fh0 : HbBuf0 (F := F) c hbM0_0) (k0_hw30 : k0_chk30 (tbM0_0.view.readAt (Elt F) (Rect.unit (s := S32) ![29] S1.size inb_S32_S1_29).toLoadRect xt0 (Shape.Idx.first (numel1_S1.symm ▸ Nat.one_pos)))) (hlt : ∀ j : S32.Idx, (xt0 j).toNat < 4096) (y : S512.Idx) :
    kernelRun0_A.sl.dma30 c xt0 fh0 k0_hw30 y = fh0 (at3 29 (xt0 (row1 29 (by decide))).toNat (by decide) (hlt _) y) :=
  pay_row c 29 (by decide) xt0 inb_S32_S1_29 _ (k0_off30 (kernelRun0_A.sl.r_29 c xt0)) rfl _ fh0 hlt y
theorem pay_30 (c : Dev nD) (xt0 : TbBuf0 (F := F) c tbM0_0) (fh0 : HbBuf0 (F := F) c hbM0_0) (k0_hw31 : k0_chk31 (tbM0_0.view.readAt (Elt F) (Rect.unit (s := S32) ![30] S1.size inb_S32_S1_30).toLoadRect xt0 (Shape.Idx.first (numel1_S1.symm ▸ Nat.one_pos)))) (hlt : ∀ j : S32.Idx, (xt0 j).toNat < 4096) (y : S512.Idx) :
    kernelRun0_A.sl.dma31 c xt0 fh0 k0_hw31 y = fh0 (at3 30 (xt0 (row1 30 (by decide))).toNat (by decide) (hlt _) y) :=
  pay_row c 30 (by decide) xt0 inb_S32_S1_30 _ (k0_off31 (kernelRun0_A.sl.r_30 c xt0)) rfl _ fh0 hlt y
theorem pay_31 (c : Dev nD) (xt0 : TbBuf0 (F := F) c tbM0_0) (fh0 : HbBuf0 (F := F) c hbM0_0) (k0_hw32 : k0_chk32 (tbM0_0.view.readAt (Elt F) (Rect.unit (s := S32) ![31] S1.size inb_S32_S1_31).toLoadRect xt0 (Shape.Idx.first (numel1_S1.symm ▸ Nat.one_pos)))) (hlt : ∀ j : S32.Idx, (xt0 j).toNat < 4096) (y : S512.Idx) :
    kernelRun0_A.sl.dma32 c xt0 fh0 k0_hw32 y = fh0 (at3 31 (xt0 (row1 31 (by decide))).toNat (by decide) (hlt _) y) :=
  pay_row c 31 (by decide) xt0 inb_S32_S1_31 _ (k0_off32 (kernelRun0_A.sl.r_31 c xt0)) rfl _ fh0 hlt y

/-! ## Entry b of the vector of payloads is payload b (the payloads kept folded while the vector is read) -/

section Lookup

attribute [local irreducible] kernelRun0_A.sl.dma1 kernelRun0_A.sl.dma2 kernelRun0_A.sl.dma3 kernelRun0_A.sl.dma4 kernelRun0_A.sl.dma5 kernelRun0_A.sl.dma6 kernelRun0_A.sl.dma7 kernelRun0_A.sl.dma8 kernelRun0_A.sl.dma9 kernelRun0_A.sl.dma10 kernelRun0_A.sl.dma11 kernelRun0_A.sl.dma12 kernelRun0_A.sl.dma13 kernelRun0_A.sl.dma14 kernelRun0_A.sl.dma15 kernelRun0_A.sl.dma16 kernelRun0_A.sl.dma17 kernelRun0_A.sl.dma18 kernelRun0_A.sl.dma19 kernelRun0_A.sl.dma20 kernelRun0_A.sl.dma21 kernelRun0_A.sl.dma22 kernelRun0_A.sl.dma23 kernelRun0_A.sl.dma24 kernelRun0_A.sl.dma25 kernelRun0_A.sl.dma26 kernelRun0_A.sl.dma27 kernelRun0_A.sl.dma28 kernelRun0_A.sl.dma29 kernelRun0_A.sl.dma30 kernelRun0_A.sl.dma31 kernelRun0_A.sl.dma32

theorem look_0 (c : Dev nD) (xt0 : TbBuf0 (F := F) c tbM0_0) (fh0 : HbBuf0 (F := F) c hbM0_0) (k0_hw1 : k0_chk1 (tbM0_0.view.readAt (Elt F) (Rect.unit (s := S32) ![0] S1.size inb_S32_S1_0).toLoadRect xt0 (Shape.Idx.first (numel1_S1.symm ▸ Nat.one_pos)))) (k0_hw2 : k0_chk2 (tbM0_0.view.readAt (Elt F) (Rect.unit (s := S32) ![1] S1.size inb_S32_S1_1).toLoadRect xt0 (Shape.Idx.first (numel1_S1.symm ▸ Nat.one_pos)))) (k0_hw3 : k0_chk3 (tbM0_0.view.readAt (Elt F) (Rect.unit (s := S32) ![2] S1.size inb_S32_S1_2).toLoadRect xt0 (Shape.Idx.first (numel1_S1.symm ▸ Nat.one_pos)))) (k0_hw4 : k0_chk4 (tbM0_0.view.readAt (Elt F) (Rect.unit (s := S32) ![3] S1.size inb_S32_S1_3).toLoadRect xt0 (Shape.Idx.first (numel1_S1.symm ▸ Nat.one_pos)))) (k0_hw5 : k0_chk5 (tbM0_0.view.readAt (Elt F) (Rect.unit (s := S32) ![4] S1.size inb_S32_S1_4).toLoadRect xt0 (Shape.Idx.first (numel1_S1.symm ▸ Nat.one_pos)))) (k0_hw6 : k0_chk6 (tbM0_0.view.readAt (Elt F) (Rect.unit (s := S32) ![5] S1.size inb_S32_S1_5).toLoadRect xt0 (Shape.Idx.first (numel1_S1.symm ▸ Nat.one_pos)))) (k0_hw7 : k0_chk7 (tbM0_0.view.readAt (Elt F) (Rect.unit (s := S32) ![6] S1.size inb_S32_S1_6).toLoadRect xt0 (Shape.Idx.first (numel1_S1.symm ▸ Nat.one_pos)))) (k0_hw8 : k0_chk8 (tbM0_0.view.readAt (Elt F) (Rect.unit (s := S32) ![7] S1.size inb_S32_S1_7).toLoadRect xt0 (Shape.Idx.first (numel1_S1.symm ▸ Nat.one_pos)))) (k0_hw9 : k0_chk9 (tbM0_0.view.readAt (Elt F) (Rect.unit (s := S32) ![8] S1.size inb_S32_S1_8).toLoadRect xt0 (Shape.Idx.first (numel1_S1.symm ▸ Nat.one_pos)))) (k0_hw10 : k0_chk10 (tbM0_0.view.readAt (Elt F) (Rect.unit (s := S32) ![9] S1.size inb_S32_S1_9).toLoadRect xt0 (Shape.Idx.first (numel1_S1.symm ▸ Nat.one_pos)))) (k0_hw11 : k0_chk11 (tbM0_0.view.readAt (Elt F) (Rect.unit (s := S32) ![10] S1.size inb_S32_S1_10).toLoadRect xt0 (Shape.Idx.first (numel1_S1.symm ▸ Nat.one_pos)))) (k0_hw12 : k0_chk12 (tbM0_0.view.readAt (Elt F) (Rect.unit (s := S32) ![11] S1.size inb_S32_S1_11).toLoadRect xt0 (Shape.Idx.first (numel1_S1.symm ▸ Nat.one_pos)))) (k0_hw13 : k0_chk13 (tbM0_0.view.readAt (Elt F) (Rect.unit (s := S32) ![12] S1.size inb_S32_S1_12).toLoadRect xt0 (Shape.Idx.first (numel1_S1.symm ▸ Nat.one_pos)))) (k0_hw14 : k0_chk14 (tbM0_0.view.readAt (Elt F) (Rect.unit (s := S32) ![13] S1.size inb_S32_S1_13).toLoadRect xt0 (Shape.Idx.first (numel1_S1.symm ▸ Nat.one_pos)))) (k0_hw15 : k0_chk15 (tbM0_0.view.readAt (Elt F) (Rect.unit (s := S32) ![14] S1.size inb_S32_S1_14).toLoadRect xt0 (Shape.Idx.first (numel1_S1.symm ▸ Nat.one_pos)))) (k0_hw16 : k0_chk16 (tbM0_0.view.readAt (Elt F) (Rect.unit (s := S32) ![15] S1.size inb_S32_S1_15).toLoadRect xt0 (Shape.Idx.first (numel1_S1.symm ▸ Nat.one_pos)))) (k0_hw17 : k0_chk17 (tbM0_0.view.readAt (Elt F) (Rect.unit (s := S32) ![16] S1.size inb_S32_S1_16).toLoadRect xt0 (Shape.Idx.first (numel1_S1.symm ▸ Nat.one_pos)))) (k0_hw18 : k0_chk18 (tbM0_0.view.readAt (Elt F) (Rect.unit (s := S32) ![17] S1.size inb_S32_S1_17).toLoadRect xt0 (Shape.Idx.first (numel1_S1.symm ▸ Nat.one_pos)))) (k0_hw19 : k0_chk19 (tbM0_0.view.readAt (Elt F) (Rect.unit (s := S32) ![18] S1.size inb_S32_S1_18).toLoadRect xt0 (Shape.Idx.first (numel1_S1.symm ▸ Nat.one_pos)))) (k0_hw20 : k0_chk20 (tbM0_0.view.readAt (Elt F) (Rect.unit (s := S32) ![19] S1.size inb_S32_S1_19).toLoadRect xt0 (Shape.Idx.first (numel1_S1.symm ▸ Nat.one_pos)))) (k0_hw21 : k0_chk21 (tbM0_0.view.readAt (Elt F) (Rect.unit (s := S32) ![20] S1.size inb_S32_S1_20).toLoadRect xt0 (Shape.Idx.first (numel1_S1.symm ▸ Nat.one_pos)))) (k0_hw22 : k0_chk22 (tbM0_0.view.readAt (Elt F) (Rect.unit (s := S32) ![21] S1.size inb_S32_S1_21).toLoadRect xt0 (Shape.Idx.first (numel1_S1.symm ▸ Nat.one_pos)))) (k0_hw23 : k0_chk23 (tbM0_0.view.readAt (Elt F) (Rect.unit (s := S32) ![22] S1.size inb_S32_S1_22).toLoadRect xt0 (Shape.Idx.first (numel1_S1.symm ▸ Nat.one_pos)))) (k0_hw24 : k0_chk24 (tbM0_0.view.readAt (Elt F) (Rect.unit (s := S32) ![23] S1.size inb_S32_S1_23).toLoadRect xt0 (Shape.Idx.first (numel1_S1.symm ▸ Nat.one_pos)))) (k0_hw25 : k0_chk25 (tbM0_0.view.readAt (Elt F) (Rect.unit (s := S32) ![24] S1.size inb_S32_S1_24).toLoadRect xt0 (Shape.Idx.first (numel1_S1.symm ▸ Nat.one_pos)))) (k0_hw26 : k0_chk26 (tbM0_0.view.readAt (Elt F) (Rect.unit (s := S32) ![25] S1.size inb_S32_S1_25).toLoadRect xt0 (Shape.Idx.first (numel1_S1.symm ▸ Nat.one_pos)))) (k0_hw27 : k0_chk27 (tbM0_0.view.readAt (Elt F) (Rect.unit (s := S32) ![26] S1.size inb_S32_S1_26).toLoadRect xt0 (Shape.Idx.first (numel1_S1.symm ▸ Nat.one_pos)))) (k0_hw28 : k0_chk28 (tbM0_0.view.readAt (Elt F) (Rect.unit (s := S32) ![27] S1.size inb_S32_S1_27).toLoadRect xt0 (Shape.Idx.first (numel1_S1.symm ▸ Nat.one_pos)))) (k0_hw29 : k0_chk29 (tbM0_0.view.readAt (Elt F) (Rect.unit (s := S32) ![28] S1.size inb_S32_S1_28).toLoadRect xt0 (Shape.Idx.first (numel1_S1.symm ▸ Nat.one_pos)))) (k0_hw30 : k0_chk30 (tbM0_0.view.readAt (Elt F) (Rect.unit (s := S32) ![29] S1.size inb_S32_S1_29).toLoadRect xt0 (Shape.Idx.first (numel1_S1.symm ▸ Nat.one_pos)))) (k0_hw31 : k0_chk31 (tbM0_0.view.readAt (Elt F) (Rect.unit (s := S32) ![30] S1.size inb_S32_S1_30).toLoadRect xt0 (Shape.Idx.first (numel1_S1.symm ▸ Nat.one_pos)))) (k0_hw32 : k0_chk32 (tbM0_0.view.readAt (Elt F) (Rect.unit (s := S32) ![31] S1.size inb_S32_S1_31).toLoadRect xt0 (Shape.Idx.first (numel1_S1.symm ▸ Nat.one_pos)))) (h : 0 < 32) :
    (![kernelRun0_A.sl.dma1 c xt0 fh0 k0_hw1, kernelRun0_A.sl.dma2 c xt0 fh0 k0_hw2, kernelRun0_A.sl.dma3 c xt0 fh0 k0_hw3, kernelRun0_A.sl.dma4 c xt0 fh0 k0_hw4, kernelRun0_A.sl.dma5 c xt0 fh0 k0_hw5, kernelRun0_A.sl.dma6 c xt0 fh0 k0_hw6, kernelRun0_A.sl.dma7 c xt0 fh0 k0_hw7, kernelRun0_A.sl.dma8 c xt0 fh0 k0_hw8, kernelRun0_A.sl.dma9 c xt0 fh0 k0_hw9, kernelRun0_A.sl.dma10 c xt0 fh0 k0_hw10, kernelRun0_A.sl.dma11 c xt0 fh0 k0_hw11, kernelRun0_A.sl.dma12 c xt0 fh0 k0_hw12, kernelRun0_A.sl.dma13 c xt0 fh0 k0_hw13, kernelRun0_A.sl.dma14 c xt0 fh0 k0_hw14, kernelRun0_A.sl.dma15 c xt0 fh0 k0_hw15, kernelRun0_A.sl.dma16 c xt0 fh0 k0_hw16, kernelRun0_A.sl.dma17 c xt0 fh0 k0_hw17, kernelRun0_A.sl.dma18 c xt0 fh0 k0_hw18, kernelRun0_A.sl.dma19 c xt0 fh0 k0_hw19, kernelRun0_A.sl.dma20 c xt0 fh0 k0_hw20, kernelRun0_A.sl.dma21 c xt0 fh0 k0_hw21, kernelRun0_A.sl.dma22 c xt0 fh0 k0_hw22, kernelRun0_A.sl.dma23 c xt0 fh0 k0_hw23, kernelRun0_A.sl.dma24 c xt0 fh0 k0_hw24, kernelRun0_A.sl.dma25 c xt0 fh0 k0_hw25, kernelRun0_A.sl.dma26 c xt0 fh0 k0_hw26, kernelRun0_A.sl.dma27 c xt0 fh0 k0_hw27, kernelRun0_A.sl.dma28 c xt0 fh0 k0_hw28, kernelRun0_A.sl.dma29 c xt0 fh0 k0_hw29, kernelRun0_A.sl.dma30 c xt0 fh0 k0_hw30, kernelRun0_A.sl.dma31 c xt0 fh0 k0_hw31, kernelRun0_A.sl.dma32 c xt0 fh0 k0_hw32] : Fin 32 → S512.Idx → Elt F .f32) ⟨0, h⟩ = kernelRun0_A.sl.dma1 c xt0 fh0 k0_hw1 := rfl
theorem look_1 (c : Dev nD) (xt0 : TbBuf0 (F := F) c tbM0_0) (fh0 : HbBuf0 (F := F) c hbM0_0) (k0_hw1 : k0_chk1 (tbM0_0.view.readAt (Elt F) (Rect.unit (s := S32) ![0] S1.size inb_S32_S1_0).toLoadRect xt0 (Shape.Idx.first (numel1_S1.symm ▸ Nat.one_pos)))) (k0_hw2 : k0_chk2 (tbM0_0.view.readAt (Elt F) (Rect.unit (s := S32) ![1] S1.size inb_S32_S1_1).toLoadRect xt0 (Shape.Idx.first (numel1_S1.symm ▸ Nat.one_pos)))) (k0_hw3 : k0_chk3 (tbM0_0.view.readAt (Elt F) (Rect.unit (s := S32) ![2] S1.size inb_S32_S1_2).toLoadRect xt0 (Shape.Idx.first (numel1_S1.symm ▸ Nat.one_pos)))) (k0_hw4 : k0_chk4 (tbM0_0.view.readAt (Elt F) (Rect.unit (s := S32) ![3] S1.size inb_S32_S1_3).toLoadRect xt0 (Shape.Idx.first (numel1_S1.symm ▸ Nat.one_pos)))) (k0_hw5 : k0_chk5 (tbM0_0.view.readAt (Elt F) (Rect.unit (s := S32) ![4] S1.size inb_S32_S1_4).toLoadRect xt0 (Shape.Idx.first (numel1_S1.symm ▸ Nat.one_pos)))) (k0_hw6 : k0_chk6 (tbM0_0.view.readAt (Elt F) (Rect.unit (s := S32) ![5] S1.size inb_S32_S1_5).toLoadRect xt0 (Shape.Idx.first (numel1_S1.symm ▸ Nat.one_pos)))) (k0_hw7 : k0_chk7 (tbM0_0.view.readAt (Elt F) (Rect.unit (s := S32) ![6] S1.size inb_S32_S1_6).toLoadRect xt0 (Shape.Idx.first (numel1_S1.symm ▸ Nat.one_pos)))) (k0_hw8 : k0_chk8 (tbM0_0.view.readAt (Elt F) (Rect.unit (s := S32) ![7] S1.size inb_S32_S1_7).toLoadRect xt0 (Shape.Idx.first (numel1_S1.symm ▸ Nat.one_pos)))) (k0_hw9 : k0_chk9 (tbM0_0.view.readAt (Elt F) (Rect.unit (s := S32) ![8] S1.size inb_S32_S1_8).toLoadRect xt0 (Shape.Idx.first (numel1_S1.symm ▸ Nat.one_pos)))) (k0_hw10 : k0_chk10 (tbM0_0.view.readAt (Elt F) (Rect.unit (s := S32) ![9] S1.size inb_S32_S1_9).toLoadRect xt0 (Shape.Idx.first (numel1_S1.symm ▸ Nat.one_pos)))) (k0_hw11 : k0_chk11 (tbM0_0.view.readAt (Elt F) (Rect.unit (s := S32) ![10] S1.size inb_S32_S1_10).toLoadRect xt0 (Shape.Idx.first (numel1_S1.symm ▸ Nat.one_pos)))) (k0_hw12 : k0_chk12 (tbM0_0.view.readAt (Elt F) (Rect.unit (s := S32) ![11] S1.size inb_S32_S1_11).toLoadRect xt0 (Shape.Idx.first (numel1_S1.symm ▸ Nat.one_pos)))) (k0_hw13 : k0_chk13 (tbM0_0.view.readAt (Elt F) (Rect.unit (s := S32) ![12] S1.size inb_S32_S1_12).toLoadRect xt0 (Shape.Idx.first (numel1_S1.symm ▸ Nat.one_pos)))) (k0_hw14 : k0_chk14 (tbM0_0.view.readAt (Elt F) (Rect.unit (s := S32) ![13] S1.size inb_S32_S1_13).toLoadRect xt0 (Shape.Idx.first (numel1_S1.symm ▸ Nat.one_pos)))) (k0_hw15 : k0_chk15 (tbM0_0.view.readAt (Elt F) (Rect.unit (s := S32) ![14] S1.size inb_S32_S1_14).toLoadRect xt0 (Shape.Idx.first (numel1_S1.symm ▸ Nat.one_pos)))) (k0_hw16 : k0_chk16 (tbM0_0.view.readAt (Elt F) (Rect.unit (s := S32) ![15] S1.size inb_S32_S1_15).toLoadRect xt0 (Shape.Idx.first (numel1_S1.symm ▸ Nat.one_pos)))) (k0_hw17 : k0_chk17 (tbM0_0.view.readAt (Elt F) (Rect.unit (s := S32) ![16] S1.size inb_S32_S1_16).toLoadRect xt0 (Shape.Idx.first (numel1_S1.symm ▸ Nat.one_pos)))) (k0_hw18 : k0_chk18 (tbM0_0.view.readAt (Elt F) (Rect.unit (s := S32) ![17] S1.size inb_S32_S1_17).toLoadRect xt0 (Shape.Idx.first (numel1_S1.symm ▸ Nat.one_pos)))) (k0_hw19 : k0_chk19 (tbM0_0.view.readAt (Elt F) (Rect.unit (s := S32) ![18] S1.size inb_S32_S1_18).toLoadRect xt0 (Shape.Idx.first (numel1_S1.symm ▸ Nat.one_pos)))) (k0_hw20 : k0_chk20 (tbM0_0.view.readAt (Elt F) (Rect.unit (s := S32) ![19] S1.size inb_S32_S1_19).toLoadRect xt0 (Shape.Idx.first (numel1_S1.symm ▸ Nat.one_pos)))) (k0_hw21 : k0_chk21 (tbM0_0.view.readAt (Elt F) (Rect.unit (s := S32) ![20] S1.size inb_S32_S1_20).toLoadRect xt0 (Shape.Idx.first (numel1_S1.symm ▸ Nat.one_pos)))) (k0_hw22 : k0_chk22 (tbM0_0.view.readAt (Elt F) (Rect.unit (s := S32) ![21] S1.size inb_S32_S1_21).toLoadRect xt0 (Shape.Idx.first (numel1_S1.symm ▸ Nat.one_pos)))) (k0_hw23 : k0_chk23 (tbM0_0.view.readAt (Elt F) (Rect.unit (s := S32) ![22] S1.size inb_S32_S1_22).toLoadRect xt0 (Shape.Idx.first (numel1_S1.symm ▸ Nat.one_pos)))) (k0_hw24 : k0_chk24 (tbM0_0.view.readAt (Elt F) (Rect.unit (s := S32) ![23] S1.size inb_S32_S1_23).toLoadRect xt0 (Shape.Idx.first (numel1_S1.symm ▸ Nat.one_pos)))) (k0_hw25 : k0_chk25 (tbM0_0.view.readAt (Elt F) (Rect.unit (s := S32) ![24] S1.size inb_S32_S1_24).toLoadRect xt0 (Shape.Idx.first (numel1_S1.symm ▸ Nat.one_pos)))) (k0_hw26 : k0_chk26 (tbM0_0.view.readAt (Elt F) (Rect.unit (s := S32) ![25] S1.size inb_S32_S1_25).toLoadRect xt0 (Shape.Idx.first (numel1_S1.symm ▸ Nat.one_pos)))) (k0_hw27 : k0_chk27 (tbM0_0.view.readAt (Elt F) (Rect.unit (s := S32) ![26] S1.size inb_S32_S1_26).toLoadRect xt0 (Shape.Idx.first (numel1_S1.symm ▸ Nat.one_pos)))) (k0_hw28 : k0_chk28 (tbM0_0.view.readAt (Elt F) (Rect.unit (s := S32) ![27] S1.size inb_S32_S1_27).toLoadRect xt0 (Shape.Idx.first (numel1_S1.symm ▸ Nat.one_pos)))) (k0_hw29 : k0_chk29 (tbM0_0.view.readAt (Elt F) (Rect.unit (s := S32) ![28] S1.size inb_S32_S1_28).toLoadRect xt0 (Shape.Idx.first (numel1_S1.symm ▸ Nat.one_pos)))) (k0_hw30 : k0_chk30 (tbM0_0.view.readAt (Elt F) (Rect.unit (s := S32) ![29] S1.size inb_S32_S1_29).toLoadRect xt0 (Shape.Idx.first (numel1_S1.symm ▸ Nat.one_pos)))) (k0_hw31 : k0_chk31 (tbM0_0.view.readAt (Elt F) (Rect.unit (s := S32) ![30] S1.size inb_S32_S1_30).toLoadRect xt0 (Shape.Idx.first (numel1_S1.symm ▸ Nat.one_pos)))) (k0_hw32 : k0_chk32 (tbM0_0.view.readAt (Elt F) (Rect.unit (s := S32) ![31] S1.size inb_S32_S1_31).toLoadRect xt0 (Shape.Idx.first (numel1_S1.symm ▸ Nat.one_pos)))) (h : 1 < 32) :
    (![kernelRun0_A.sl.dma1 c xt0 fh0 k0_hw1, kernelRun0_A.sl.dma2 c xt0 fh0 k0_hw2, kernelRun0_A.sl.dma3 c xt0 fh0 k0_hw3, kernelRun0_A.sl.dma4 c xt0 fh0 k0_hw4, kernelRun0_A.sl.dma5 c xt0 fh0 k0_hw5, kernelRun0_A.sl.dma6 c xt0 fh0 k0_hw6, kernelRun0_A.sl.dma7 c xt0 fh0 k0_hw7, kernelRun0_A.sl.dma8 c xt0 fh0 k0_hw8, kernelRun0_A.sl.dma9 c xt0 fh0 k0_hw9, kernelRun0_A.sl.dma10 c xt0 fh0 k0_hw10, kernelRun0_A.sl.dma11 c xt0 fh0 k0_hw11, kernelRun0_A.sl.dma12 c xt0 fh0 k0_hw12, kernelRun0_A.sl.dma13 c xt0 fh0 k0_hw13, kernelRun0_A.sl.dma14 c xt0 fh0 k0_hw14, kernelRun0_A.sl.dma15 c xt0 fh0 k0_hw15, kernelRun0_A.sl.dma16 c xt0 fh0 k0_hw16, kernelRun0_A.sl.dma17 c xt0 fh0 k0_hw17, kernelRun0_A.sl.dma18 c xt0 fh0 k0_hw18, kernelRun0_A.sl.dma19 c xt0 fh0 k0_hw19, kernelRun0_A.sl.dma20 c xt0 fh0 k0_hw20, kernelRun0_A.sl.dma21 c xt0 fh0 k0_hw21, kernelRun0_A.sl.dma22 c xt0 fh0 k0_hw22, kernelRun0_A.sl.dma23 c xt0 fh0 k0_hw23, kernelRun0_A.sl.dma24 c xt0 fh0 k0_hw24, kernelRun0_A.sl.dma25 c xt0 fh0 k0_hw25, kernelRun0_A.sl.dma26 c xt0 fh0 k0_hw26, kernelRun0_A.sl.dma27 c xt0 fh0 k0_hw27, kernelRun0_A.sl.dma28 c xt0 fh0 k0_hw28, kernelRun0_A.sl.dma29 c xt0 fh0 k0_hw29, kernelRun0_A.sl.dma30 c xt0 fh0 k0_hw30, kernelRun0_A.sl.dma31 c xt0 fh0 k0_hw31, kernelRun0_A.sl.dma32 c xt0 fh0 k0_hw32] : Fin 32 → S512.Idx → Elt F .f32) ⟨1, h⟩ = kernelRun0_A.sl.dma2 c xt0 fh0 k0_hw2 := rfl
theorem look_2 (c : Dev nD) (xt0 : TbBuf0 (F := F) c tbM0_0) (fh0 : HbBuf0 (F := F) c hbM0_0) (k0_hw1 : k0_chk1 (tbM0_0.view.readAt (Elt F) (Rect.unit (s := S32) ![0] S1.size inb_S32_S1_0).toLoadRect xt0 (Shape.Idx.first (numel1_S1.symm ▸ Nat.one_pos)))) (k0_hw2 : k0_chk2 (tbM0_0.view.readAt (Elt F) (Rect.unit (s := S32) ![1] S1.size inb_S32_S1_1).toLoadRect xt0 (Shape.Idx.first (numel1_S1.symm ▸ Nat.one_pos)))) (k0_hw3 : k0_chk3 (tbM0_0.view.readAt (Elt F) (Rect.unit (s := S32) ![2] S1.size inb_S32_S1_2).toLoadRect xt0 (Shape.Idx.first (numel1_S1.symm ▸ Nat.one_pos)))) (k0_hw4 : k0_chk4 (tbM0_0.view.readAt (Elt F) (Rect.unit (s := S32) ![3] S1.size inb_S32_S1_3).toLoadRect xt0 (Shape.Idx.first (numel1_S1.symm ▸ Nat.one_pos)))) (k0_hw5 : k0_chk5 (tbM0_0.view.readAt (Elt F) (Rect.unit (s := S32) ![4] S1.size inb_S32_S1_4).toLoadRect xt0 (Shape.Idx.first (numel1_S1.symm ▸ Nat.one_pos)))) (k0_hw6 : k0_chk6 (tbM0_0.view.readAt (Elt F) (Rect.unit (s := S32) ![5] S1.size inb_S32_S1_5).toLoadRect xt0 (Shape.Idx.first (numel1_S1.symm ▸ Nat.one_pos)))) (k0_hw7 : k0_chk7 (tbM0_0.view.readAt (Elt F) (Rect.unit (s := S32) ![6] S1.size inb_S32_S1_6).toLoadRect xt0 (Shape.Idx.first (numel1_S1.symm ▸ Nat.one_pos)))) (k0_hw8 : k0_chk8 (tbM0_0.view.readAt (Elt F) (Rect.unit (s := S32) ![7] S1.size inb_S32_S1_7).toLoadRect xt0 (Shape.Idx.first (numel1_S1.symm ▸ Nat.one_pos)))) (k0_hw9 : k0_chk9 (tbM0_0.view.readAt (Elt F) (Rect.unit (s := S32) ![8] S1.size inb_S32_S1_8).toLoadRect xt0 (Shape.Idx.first (numel1_S1.symm ▸ Nat.one_pos)))) (k0_hw10 : k0_chk10 (tbM0_0.view.readAt (Elt F) (Rect.unit (s := S32) ![9] S1.size inb_S32_S1_9).toLoadRect xt0 (Shape.Idx.first (numel1_S1.symm ▸ Nat.one_pos)))) (k0_hw11 : k0_chk11 (tbM0_0.view.readAt (Elt F) (Rect.unit (s := S32) ![10] S1.size inb_S32_S1_10).toLoadRect xt0 (Shape.Idx.first (numel1_S1.symm ▸ Nat.one_pos)))) (k0_hw12 : k0_chk12 (tbM0_0.view.readAt (Elt F) (Rect.unit (s := S32) ![11] S1.size inb_S32_S1_11).toLoadRect xt0 (Shape.Idx.first (numel1_S1.symm ▸ Nat.one_pos)))) (k0_hw13 : k0_chk13 (tbM0_0.view.readAt (Elt F) (Rect.unit (s := S32) ![12] S1.size inb_S32_S1_12).toLoadRect xt0 (Shape.Idx.first (numel1_S1.symm ▸ Nat.one_pos)))) (k0_hw14 : k0_chk14 (tbM0_0.view.readAt (Elt F) (Rect.unit (s := S32) ![13] S1.size inb_S32_S1_13).toLoadRect xt0 (Shape.Idx.first (numel1_S1.symm ▸ Nat.one_pos)))) (k0_hw15 : k0_chk15 (tbM0_0.view.readAt (Elt F) (Rect.unit (s := S32) ![14] S1.size inb_S32_S1_14).toLoadRect xt0 (Shape.Idx.first (numel1_S1.symm ▸ Nat.one_pos)))) (k0_hw16 : k0_chk16 (tbM0_0.view.readAt (Elt F) (Rect.unit (s := S32) ![15] S1.size inb_S32_S1_15).toLoadRect xt0 (Shape.Idx.first (numel1_S1.symm ▸ Nat.one_pos)))) (k0_hw17 : k0_chk17 (tbM0_0.view.readAt (Elt F) (Rect.unit (s := S32) ![16] S1.size inb_S32_S1_16).toLoadRect xt0 (Shape.Idx.first (numel1_S1.symm ▸ Nat.one_pos)))) (k0_hw18 : k0_chk18 (tbM0_0.view.readAt (Elt F) (Rect.unit (s := S32) ![17] S1.size inb_S32_S1_17).toLoadRect xt0 (Shape.Idx.first (numel1_S1.symm ▸ Nat.one_pos)))) (k0_hw19 : k0_chk19 (tbM0_0.view.readAt (Elt F) (Rect.unit (s := S32) ![18] S1.size inb_S32_S1_18).toLoadRect xt0 (Shape.Idx.first (numel1_S1.symm ▸ Nat.one_pos)))) (k0_hw20 : k0_chk20 (tbM0_0.view.readAt (Elt F) (Rect.unit (s := S32) ![19] S1.size inb_S32_S1_19).toLoadRect xt0 (Shape.Idx.first (numel1_S1.symm ▸ Nat.one_pos)))) (k0_hw21 : k0_chk21 (tbM0_0.view.readAt (Elt F) (Rect.unit (s := S32) ![20] S1.size inb_S32_S1_20).toLoadRect xt0 (Shape.Idx.first (numel1_S1.symm ▸ Nat.one_pos)))) (k0_hw22 : k0_chk22 (tbM0_0.view.readAt (Elt F) (Rect.unit (s := S32) ![21] S1.size inb_S32_S1_21).toLoadRect xt0 (Shape.Idx.first (numel1_S1.symm ▸ Nat.one_pos)))) (k0_hw23 : k0_chk23 (tbM0_0.view.readAt (Elt F) (Rect.unit (s := S32) ![22] S1.size inb_S32_S1_22).toLoadRect xt0 (Shape.Idx.first (numel1_S1.symm ▸ Nat.one_pos)))) (k0_hw24 : k0_chk24 (tbM0_0.view.readAt (Elt F) (Rect.unit (s := S32) ![23] S1.size inb_S32_S1_23).toLoadRect xt0 (Shape.Idx.first (numel1_S1.symm ▸ Nat.one_pos)))) (k0_hw25 : k0_chk25 (tbM0_0.view.readAt (Elt F) (Rect.unit (s := S32) ![24] S1.size inb_S32_S1_24).toLoadRect xt0 (Shape.Idx.first (numel1_S1.symm ▸ Nat.one_pos)))) (k0_hw26 : k0_chk26 (tbM0_0.view.readAt (Elt F) (Rect.unit (s := S32) ![25] S1.size inb_S32_S1_25).toLoadRect xt0 (Shape.Idx.first (numel1_S1.symm ▸ Nat.one_pos)))) (k0_hw27 : k0_chk27 (tbM0_0.view.readAt (Elt F) (Rect.unit (s := S32) ![26] S1.size inb_S32_S1_26).toLoadRect xt0 (Shape.Idx.first (numel1_S1.symm ▸ Nat.one_pos)))) (k0_hw28 : k0_chk28 (tbM0_0.view.readAt (Elt F) (Rect.unit (s := S32) ![27] S1.size inb_S32_S1_27).toLoadRect xt0 (Shape.Idx.first (numel1_S1.symm ▸ Nat.one_pos)))) (k0_hw29 : k0_chk29 (tbM0_0.view.readAt (Elt F) (Rect.unit (s := S32) ![28] S1.size inb_S32_S1_28).toLoadRect xt0 (Shape.Idx.first (numel1_S1.symm ▸ Nat.one_pos)))) (k0_hw30 : k0_chk30 (tbM0_0.view.readAt (Elt F) (Rect.unit (s := S32) ![29] S1.size inb_S32_S1_29).toLoadRect xt0 (Shape.Idx.first (numel1_S1.symm ▸ Nat.one_pos)))) (k0_hw31 : k0_chk31 (tbM0_0.view.readAt (Elt F) (Rect.unit (s := S32) ![30] S1.size inb_S32_S1_30).toLoadRect xt0 (Shape.Idx.first (numel1_S1.symm ▸ Nat.one_pos)))) (k0_hw32 : k0_chk32 (tbM0_0.view.readAt (Elt F) (Rect.unit (s := S32) ![31] S1.size inb_S32_S1_31).toLoadRect xt0 (Shape.Idx.first (numel1_S1.symm ▸ Nat.one_pos)))) (h : 2 < 32) :
    (![kernelRun0_A.sl.dma1 c xt0 fh0 k0_hw1, kernelRun0_A.sl.dma2 c xt0 fh0 k0_hw2, kernelRun0_A.sl.dma3 c xt0 fh0 k0_hw3, kernelRun0_A.sl.dma4 c xt0 fh0 k0_hw4, kernelRun0_A.sl.dma5 c xt0 fh0 k0_hw5, kernelRun0_A.sl.dma6 c xt0 fh0 k0_hw6, kernelRun0_A.sl.dma7 c xt0 fh0 k0_hw7, kernelRun0_A.sl.dma8 c xt0 fh0 k0_hw8, kernelRun0_A.sl.dma9 c xt0 fh0 k0_hw9, kernelRun0_A.sl.dma10 c xt0 fh0 k0_hw10, kernelRun0_A.sl.dma11 c xt0 fh0 k0_hw11, kernelRun0_A.sl.dma12 c xt0 fh0 k0_hw12, kernelRun0_A.sl.dma13 c xt0 fh0 k0_hw13, kernelRun0_A.sl.dma14 c xt0 fh0 k0_hw14, kernelRun0_A.sl.dma15 c xt0 fh0 k0_hw15, kernelRun0_A.sl.dma16 c xt0 fh0 k0_hw16, kernelRun0_A.sl.dma17 c xt0 fh0 k0_hw17, kernelRun0_A.sl.dma18 c xt0 fh0 k0_hw18, kernelRun0_A.sl.dma19 c xt0 fh0 k0_hw19, kernelRun0_A.sl.dma20 c xt0 fh0 k0_hw20, kernelRun0_A.sl.dma21 c xt0 fh0 k0_hw21, kernelRun0_A.sl.dma22 c xt0 fh0 k0_hw22, kernelRun0_A.sl.dma23 c xt0 fh0 k0_hw23, kernelRun0_A.sl.dma24 c xt0 fh0 k0_hw24, kernelRun0_A.sl.dma25 c xt0 fh0 k0_hw25, kernelRun0_A.sl.dma26 c xt0 fh0 k0_hw26, kernelRun0_A.sl.dma27 c xt0 fh0 k0_hw27, kernelRun0_A.sl.dma28 c xt0 fh0 k0_hw28, kernelRun0_A.sl.dma29 c xt0 fh0 k0_hw29, kernelRun0_A.sl.dma30 c xt0 fh0 k0_hw30, kernelRun0_A.sl.dma31 c xt0 fh0 k0_hw31, kernelRun0_A.sl.dma32 c xt0 fh0 k0_hw32] : Fin 32 → S512.Idx → Elt F .f32) ⟨2, h⟩ = kernelRun0_A.sl.dma3 c xt0 fh0 k0_hw3 := rfl
theorem look_3 (c : Dev nD) (xt0 : TbBuf0 (F := F) c tbM0_0) (fh0 : HbBuf0 (F := F) c hbM0_0) (k0_hw1 : k0_chk1 (tbM0_0.view.readAt (Elt F) (Rect.unit (s := S32) ![0] S1.size inb_S32_S1_0).toLoadRect xt0 (Shape.Idx.first (numel1_S1.symm ▸ Nat.one_pos)))) (k0_hw2 : k0_chk2 (tbM0_0.view.readAt (Elt F) (Rect.unit (s := S32) ![1] S1.size inb_S32_S1_1).toLoadRect xt0 (Shape.Idx.first (numel1_S1.symm ▸ Nat.one_pos)))) (k0_hw3 : k0_chk3 (tbM0_0.view.readAt (Elt F) (Rect.unit (s := S32) ![2] S1.size inb_S32_S1_2).toLoadRect xt0 (Shape.Idx.first (numel1_S1.symm ▸ Nat.one_pos)))) (k0_hw4 : k0_chk4 (tbM0_0.view.readAt (Elt F) (Rect.unit (s := S32) ![3] S1.size inb_S32_S1_3).toLoadRect xt0 (Shape.Idx.first (numel1_S1.symm ▸ Nat.one_pos)))) (k0_hw5 : k0_chk5 (tbM0_0.view.readAt (Elt F) (Rect.unit (s := S32) ![4] S1.size inb_S32_S1_4).toLoadRect xt0 (Shape.Idx.first (numel1_S1.symm ▸ Nat.one_pos)))) (k0_hw6 : k0_chk6 (tbM0_0.view.readAt (Elt F) (Rect.unit (s := S32) ![5] S1.size inb_S32_S1_5).toLoadRect xt0 (Shape.Idx.first (numel1_S1.symm ▸ Nat.one_pos)))) (k0_hw7 : k0_chk7 (tbM0_0.view.readAt (Elt F) (Rect.unit (s := S32) ![6] S1.size inb_S32_S1_6).toLoadRect xt0 (Shape.Idx.first (numel1_S1.symm ▸ Nat.one_pos)))) (k0_hw8 : k0_chk8 (tbM0_0.view.readAt (Elt F) (Rect.unit (s := S32) ![7] S1.size inb_S32_S1_7).toLoadRect xt0 (Shape.Idx.first (numel1_S1.symm ▸ Nat.one_pos)))) (k0_hw9 : k0_chk9 (tbM0_0.view.readAt (Elt F) (Rect.unit (s := S32) ![8] S1.size inb_S32_S1_8).toLoadRect xt0 (Shape.Idx.first (numel1_S1.symm ▸ Nat.one_pos)))) (k0_hw10 : k0_chk10 (tbM0_0.view.readAt (Elt F) (Rect.unit (s := S32) ![9] S1.size inb_S32_S1_9).toLoadRect xt0 (Shape.Idx.first (numel1_S1.symm ▸ Nat.one_pos)))) (k0_hw11 : k0_chk11 (tbM0_0.view.readAt (Elt F) (Rect.unit (s := S32) ![10] S1.size inb_S32_S1_10).toLoadRect xt0 (Shape.Idx.first (numel1_S1.symm ▸ Nat.one_pos)))) (k0_hw12 : k0_chk12 (tbM0_0.view.readAt (Elt F) (Rect.unit (s := S32) ![11] S1.size inb_S32_S1_11).toLoadRect xt0 (Shape.Idx.first (numel1_S1.symm ▸ Nat.one_pos)))) (k0_hw13 : k0_chk13 (tbM0_0.view.readAt (Elt F) (Rect.unit (s := S32) ![12] S1.size inb_S32_S1_12).toLoadRect xt0 (Shape.Idx.first (numel1_S1.symm ▸ Nat.one_pos)))) (k0_hw14 : k0_chk14 (tbM0_0.view.readAt (Elt F) (Rect.unit (s := S32) ![13] S1.size inb_S32_S1_13).toLoadRect xt0 (Shape.Idx.first (numel1_S1.symm ▸ Nat.one_pos)))) (k0_hw15 : k0_chk15 (tbM0_0.view.readAt (Elt F) (Rect.unit (s := S32) ![14] S1.size inb_S32_S1_14).toLoadRect xt0 (Shape.Idx.first (numel1_S1.symm ▸ Nat.one_pos)))) (k0_hw16 : k0_chk16 (tbM0_0.view.readAt (Elt F) (Rect.unit (s := S32) ![15] S1.size inb_S32_S1_15).toLoadRect xt0 (Shape.Idx.first (numel1_S1.symm ▸ Nat.one_pos)))) (k0_hw17 : k0_chk17 (tbM0_0.view.readAt (Elt F) (Rect.unit (s := S32) ![16] S1.size inb_S32_S1_16).toLoadRect xt0 (Shape.Idx.first (numel1_S1.symm ▸ Nat.one_pos)))) (k0_hw18 : k0_chk18 (tbM0_0.view.readAt (Elt F) (Rect.unit (s := S32) ![17] S1.size inb_S32_S1_17).toLoadRect xt0 (Shape.Idx.first (numel1_S1.symm ▸ Nat.one_pos)))) (k0_hw19 : k0_chk19 (tbM0_0.view.readAt (Elt F) (Rect.unit (s := S32) ![18] S1.size inb_S32_S1_18).toLoadRect xt0 (Shape.Idx.first (numel1_S1.symm ▸ Nat.one_pos)))) (k0_hw20 : k0_chk20 (tbM0_0.view.readAt (Elt F) (Rect.unit (s := S32) ![19] S1.size inb_S32_S1_19).toLoadRect xt0 (Shape.Idx.first (numel1_S1.symm ▸ Nat.one_pos)))) (k0_hw21 : k0_chk21 (tbM0_0.view.readAt (Elt F) (Rect.unit (s := S32) ![20] S1.size inb_S32_S1_20).toLoadRect xt0 (Shape.Idx.first (numel1_S1.symm ▸ Nat.one_pos)))) (k0_hw22 : k0_chk22 (tbM0_0.view.readAt (Elt F) (Rect.unit (s := S32) ![21] S1.size inb_S32_S1_21).toLoadRect xt0 (Shape.Idx.first (numel1_S1.symm ▸ Nat.one_pos)))) (k0_hw23 : k0_chk23 (tbM0_0.view.readAt (Elt F) (Rect.unit (s := S32) ![22] S1.size inb_S32_S1_22).toLoadRect xt0 (Shape.Idx.first (numel1_S1.symm ▸ Nat.one_pos)))) (k0_hw24 : k0_chk24 (tbM0_0.view.readAt (Elt F) (Rect.unit (s := S32) ![23] S1.size inb_S32_S1_23).toLoadRect xt0 (Shape.Idx.first (numel1_S1.symm ▸ Nat.one_pos)))) (k0_hw25 : k0_chk25 (tbM0_0.view.readAt (Elt F) (Rect.unit (s := S32) ![24] S1.size inb_S32_S1_24).toLoadRect xt0 (Shape.Idx.first (numel1_S1.symm ▸ Nat.one_pos)))) (k0_hw26 : k0_chk26 (tbM0_0.view.readAt (Elt F) (Rect.unit (s := S32) ![25] S1.size inb_S32_S1_25).toLoadRect xt0 (Shape.Idx.first (numel1_S1.symm ▸ Nat.one_pos)))) (k0_hw27 : k0_chk27 (tbM0_0.view.readAt (Elt F) (Rect.unit (s := S32) ![26] S1.size inb_S32_S1_26).toLoadRect xt0 (Shape.Idx.first (numel1_S1.symm ▸ Nat.one_pos)))) (k0_hw28 : k0_chk28 (tbM0_0.view.readAt (Elt F) (Rect.unit (s := S32) ![27] S1.size inb_S32_S1_27).toLoadRect xt0 (Shape.Idx.first (numel1_S1.symm ▸ Nat.one_pos)))) (k0_hw29 : k0_chk29 (tbM0_0.view.readAt (Elt F) (Rect.unit (s := S32) ![28] S1.size inb_S32_S1_28).toLoadRect xt0 (Shape.Idx.first (numel1_S1.symm ▸ Nat.one_pos)))) (k0_hw30 : k0_chk30 (tbM0_0.view.readAt (Elt F) (Rect.unit (s := S32) ![29] S1.size inb_S32_S1_29).toLoadRect xt0 (Shape.Idx.first (numel1_S1.symm ▸ Nat.one_pos)))) (k0_hw31 : k0_chk31 (tbM0_0.view.readAt (Elt F) (Rect.unit (s := S32) ![30] S1.size inb_S32_S1_30).toLoadRect xt0 (Shape.Idx.first (numel1_S1.symm ▸ Nat.one_pos)))) (k0_hw32 : k0_chk32 (tbM0_0.view.readAt (Elt F) (Rect.unit (s := S32) ![31] S1.size inb_S32_S1_31).toLoadRect xt0 (Shape.Idx.first (numel1_S1.symm ▸ Nat.one_pos)))) (h : 3 < 32) :
    (![kernelRun0_A.sl.dma1 c xt0 fh0 k0_hw1, kernelRun0_A.sl.dma2 c xt0 fh0 k0_hw2, kernelRun0_A.sl.dma3 c xt0 fh0 k0_hw3, kernelRun0_A.sl.dma4 c xt0 fh0 k0_hw4, kernelRun0_A.sl.dma5 c xt0 fh0 k0_hw5, kernelRun0_A.sl.dma6 c xt0 fh0 k0_hw6, kernelRun0_A.sl.dma7 c xt0 fh0 k0_hw7, kernelRun0_A.sl.dma8 c xt0 fh0 k0_hw8, kernelRun0_A.sl.dma9 c xt0 fh0 k0_hw9, kernelRun0_A.sl.dma10 c xt0 fh0 k0_hw10, kernelRun0_A.sl.dma11 c xt0 fh0 k0_hw11, kernelRun0_A.sl.dma12 c xt0 fh0 k0_hw12, kernelRun0_A.sl.dma13 c xt0 fh0 k0_hw13, kernelRun0_A.sl.dma14 c xt0 fh0 k0_hw14, kernelRun0_A.sl.dma15 c xt0 fh0 k0_hw15, kernelRun0_A.sl.dma16 c xt0 fh0 k0_hw16, kernelRun0_A.sl.dma17 c xt0 fh0 k0_hw17, kernelRun0_A.sl.dma18 c xt0 fh0 k0_hw18, kernelRun0_A.sl.dma19 c xt0 fh0 k0_hw19, kernelRun0_A.sl.dma20 c xt0 fh0 k0_hw20, kernelRun0_A.sl.dma21 c xt0 fh0 k0_hw21, kernelRun0_A.sl.dma22 c xt0 fh0 k0_hw22, kernelRun0_A.sl.dma23 c xt0 fh0 k0_hw23, kernelRun0_A.sl.dma24 c xt0 fh0 k0_hw24, kernelRun0_A.sl.dma25 c xt0 fh0 k0_hw25, kernelRun0_A.sl.dma26 c xt0 fh0 k0_hw26, kernelRun0_A.sl.dma27 c xt0 fh0 k0_hw27, kernelRun0_A.sl.dma28 c xt0 fh0 k0_hw28, kernelRun0_A.sl.dma29 c xt0 fh0 k0_hw29, kernelRun0_A.sl.dma30 c xt0 fh0 k0_hw30, kernelRun0_A.sl.dma31 c xt0 fh0 k0_hw31, kernelRun0_A.sl.dma32 c xt0 fh0 k0_hw32] : Fin 32 → S512.Idx → Elt F .f32) ⟨3, h⟩ = kernelRun0_A.sl.dma4 c xt0 fh0 k0_hw4 := rfl
theorem look_4 (c : Dev nD) (xt0 : TbBuf0 (F := F) c tbM0_0) (fh0 : HbBuf0 (F := F) c hbM0_0) (k0_hw1 : k0_chk1 (tbM0_0.view.readAt (Elt F) (Rect.unit (s := S32) ![0] S1.size inb_S32_S1_0).toLoadRect xt0 (Shape.Idx.first (numel1_S1.symm ▸ Nat.one_pos)))) (k0_hw2 : k0_chk2 (tbM0_0.view.readAt (Elt F) (Rect.unit (s := S32) ![1] S1.size inb_S32_S1_1).toLoadRect xt0 (Shape.Idx.first (numel1_S1.symm ▸ Nat.one_pos)))) (k0_hw3 : k0_chk3 (tbM0_0.view.readAt (Elt F) (Rect.unit (s := S32) ![2] S1.size inb_S32_S1_2).toLoadRect xt0 (Shape.Idx.first (numel1_S1.symm ▸ Nat.one_pos)))) (k0_hw4 : k0_chk4 (tbM0_0.view.readAt (Elt F) (Rect.unit (s := S32) ![3] S1.size inb_S32_S1_3).toLoadRect xt0 (Shape.Idx.first (numel1_S1.symm ▸ Nat.one_pos)))) (k0_hw5 : k0_chk5 (tbM0_0.view.readAt (Elt F) (Rect.unit (s := S32) ![4] S1.size inb_S32_S1_4).toLoadRect xt0 (Shape.Idx.first (numel1_S1.symm ▸ Nat.one_pos)))) (k0_hw6 : k0_chk6 (tbM0_0.view.readAt (Elt F) (Rect.unit (s := S32) ![5] S1.size inb_S32_S1_5).toLoadRect xt0 (Shape.Idx.first (numel1_S1.symm ▸ Nat.one_pos)))) (k0_hw7 : k0_chk7 (tbM0_0.view.readAt (Elt F) (Rect.unit (s := S32) ![6] S1.size inb_S32_S1_6).toLoadRect xt0 (Shape.Idx.first (numel1_S1.symm ▸ Nat.one_pos)))) (k0_hw8 : k0_chk8 (tbM0_0.view.readAt (Elt F) (Rect.unit (s := S32) ![7] S1.size inb_S32_S1_7).toLoadRect xt0 (Shape.Idx.first (numel1_S1.symm ▸ Nat.one_pos)))) (k0_hw9 : k0_chk9 (tbM0_0.view.readAt (Elt F) (Rect.unit (s := S32) ![8] S1.size inb_S32_S1_8).toLoadRect xt0 (Shape.Idx.first (numel1_S1.symm ▸ Nat.one_pos)))) (k0_hw10 : k0_chk10 (tbM0_0.view.readAt (Elt F) (Rect.unit (s := S32) ![9] S1.size inb_S32_S1_9).toLoadRect xt0 (Shape.Idx.first (numel1_S1.symm ▸ Nat.one_pos)))) (k0_hw11 : k0_chk11 (tbM0_0.view.readAt (Elt F) (Rect.unit (s := S32) ![10] S1.size inb_S32_S1_10).toLoadRect xt0 (Shape.Idx.first (numel1_S1.symm ▸ Nat.one_pos)))) (k0_hw12 : k0_chk12 (tbM0_0.view.readAt (Elt F) (Rect.unit (s := S32) ![11] S1.size inb_S32_S1_11).toLoadRect xt0 (Shape.Idx.first (numel1_S1.symm ▸ Nat.one_pos)))) (k0_hw13 : k0_chk13 (tbM0_0.view.readAt (Elt F) (Rect.unit (s := S32) ![12] S1.size inb_S32_S1_12).toLoadRect xt0 (Shape.Idx.first (numel1_S1.symm ▸ Nat.one_pos)))) (k0_hw14 : k0_chk14 (tbM0_0.view.readAt (Elt F) (Rect.unit (s := S32) ![13] S1.size inb_S32_S1_13).toLoadRect xt0 (Shape.Idx.first (numel1_S1.symm ▸ Nat.one_pos)))) (k0_hw15 : k0_chk15 (tbM0_0.view.readAt (Elt F) (Rect.unit (s := S32) ![14] S1.size inb_S32_S1_14).toLoadRect xt0 (Shape.Idx.first (numel1_S1.symm ▸ Nat.one_pos)))) (k0_hw16 : k0_chk16 (tbM0_0.view.readAt (Elt F) (Rect.unit (s := S32) ![15] S1.size inb_S32_S1_15).toLoadRect xt0 (Shape.Idx.first (numel1_S1.symm ▸ Nat.one_pos)))) (k0_hw17 : k0_chk17 (tbM0_0.view.readAt (Elt F) (Rect.unit (s := S32) ![16] S1.size inb_S32_S1_16).toLoadRect xt0 (Shape.Idx.first (numel1_S1.symm ▸ Nat.one_pos)))) (k0_hw18 : k0_chk18 (tbM0_0.view.readAt (Elt F) (Rect.unit (s := S32) ![17] S1.size inb_S32_S1_17).toLoadRect xt0 (Shape.Idx.first (numel1_S1.symm ▸ Nat.one_pos)))) (k0_hw19 : k0_chk19 (tbM0_0.view.readAt (Elt F) (Rect.unit (s := S32) ![18] S1.size inb_S32_S1_18).toLoadRect xt0 (Shape.Idx.first (numel1_S1.symm ▸ Nat.one_pos)))) (k0_hw20 : k0_chk20 (tbM0_0.view.readAt (Elt F) (Rect.unit (s := S32) ![19] S1.size inb_S32_S1_19).toLoadRect xt0 (Shape.Idx.first (numel1_S1.symm ▸ Nat.one_pos)))) (k0_hw21 : k0_chk21 (tbM0_0.view.readAt (Elt F) (Rect.unit (s := S32) ![20] S1.size inb_S32_S1_20).toLoadRect xt0 (Shape.Idx.first (numel1_S1.symm ▸ Nat.one_pos)))) (k0_hw22 : k0_chk22 (tbM0_0.view.readAt (Elt F) (Rect.unit (s := S32) ![21] S1.size inb_S32_S1_21).toLoadRect xt0 (Shape.Idx.first (numel1_S1.symm ▸ Nat.one_pos)))) (k0_hw23 : k0_chk23 (tbM0_0.view.readAt (Elt F) (Rect.unit (s := S32) ![22] S1.size inb_S32_S1_22).toLoadRect xt0 (Shape.Idx.first (numel1_S1.symm ▸ Nat.one_pos)))) (k0_hw24 : k0_chk24 (tbM0_0.view.readAt (Elt F) (Rect.unit (s := S32) ![23] S1.size inb_S32_S1_23).toLoadRect xt0 (Shape.Idx.first (numel1_S1.symm ▸ Nat.one_pos)))) (k0_hw25 : k0_chk25 (tbM0_0.view.readAt (Elt F) (Rect.unit (s := S32) ![24] S1.size inb_S32_S1_24).toLoadRect xt0 (Shape.Idx.first (numel1_S1.symm ▸ Nat.one_pos)))) (k0_hw26 : k0_chk26 (tbM0_0.view.readAt (Elt F) (Rect.unit (s := S32) ![25] S1.size inb_S32_S1_25).toLoadRect xt0 (Shape.Idx.first (numel1_S1.symm ▸ Nat.one_pos)))) (k0_hw27 : k0_chk27 (tbM0_0.view.readAt (Elt F) (Rect.unit (s := S32) ![26] S1.size inb_S32_S1_26).toLoadRect xt0 (Shape.Idx.first (numel1_S1.symm ▸ Nat.one_pos)))) (k0_hw28 : k0_chk28 (tbM0_0.view.readAt (Elt F) (Rect.unit (s := S32) ![27] S1.size inb_S32_S1_27).toLoadRect xt0 (Shape.Idx.first (numel1_S1.symm ▸ Nat.one_pos)))) (k0_hw29 : k0_chk29 (tbM0_0.view.readAt (Elt F) (Rect.unit (s := S32) ![28] S1.size inb_S32_S1_28).toLoadRect xt0 (Shape.Idx.first (numel1_S1.symm ▸ Nat.one_pos)))) (k0_hw30 : k0_chk30 (tbM0_0.view.readAt (Elt F) (Rect.unit (s := S32) ![29] S1.size inb_S32_S1_29).toLoadRect xt0 (Shape.Idx.first (numel1_S1.symm ▸ Nat.one_pos)))) (k0_hw31 : k0_chk31 (tbM0_0.view.readAt (Elt F) (Rect.unit (s := S32) ![30] S1.size inb_S32_S1_30).toLoadRect xt0 (Shape.Idx.first (numel1_S1.symm ▸ Nat.one_pos)))) (k0_hw32 : k0_chk32 (tbM0_0.view.readAt (Elt F) (Rect.unit (s := S32) ![31] S1.size inb_S32_S1_31).toLoadRect xt0 (Shape.Idx.first (numel1_S1.symm ▸ Nat.one_pos)))) (h : 4 < 32) :
    (![kernelRun0_A.sl.dma1 c xt0 fh0 k0_hw1, kernelRun0_A.sl.dma2 c xt0 fh0 k0_hw2, kernelRun0_A.sl.dma3 c xt0 fh0 k0_hw3, kernelRun0_A.sl.dma4 c xt0 fh0 k0_hw4, kernelRun0_A.sl.dma5 c xt0 fh0 k0_hw5, kernelRun0_A.sl.dma6 c xt0 fh0 k0_hw6, kernelRun0_A.sl.dma7 c xt0 fh0 k0_hw7, kernelRun0_A.sl.dma8 c xt0 fh0 k0_hw8, kernelRun0_A.sl.dma9 c xt0 fh0 k0_hw9, kernelRun0_A.sl.dma10 c xt0 fh0 k0_hw10, kernelRun0_A.sl.dma11 c xt0 fh0 k0_hw11, kernelRun0_A.sl.dma12 c xt0 fh0 k0_hw12, kernelRun0_A.sl.dma13 c xt0 fh0 k0_hw13, kernelRun0_A.sl.dma14 c xt0 fh0 k0_hw14, kernelRun0_A.sl.dma15 c xt0 fh0 k0_hw15, kernelRun0_A.sl.dma16 c xt0 fh0 k0_hw16, kernelRun0_A.sl.dma17 c xt0 fh0 k0_hw17, kernelRun0_A.sl.dma18 c xt0 fh0 k0_hw18, kernelRun0_A.sl.dma19 c xt0 fh0 k0_hw19, kernelRun0_A.sl.dma20 c xt0 fh0 k0_hw20, kernelRun0_A.sl.dma21 c xt0 fh0 k0_hw21, kernelRun0_A.sl.dma22 c xt0 fh0 k0_hw22, kernelRun0_A.sl.dma23 c xt0 fh0 k0_hw23, kernelRun0_A.sl.dma24 c xt0 fh0 k0_hw24, kernelRun0_A.sl.dma25 c xt0 fh0 k0_hw25, kernelRun0_A.sl.dma26 c xt0 fh0 k0_hw26, kernelRun0_A.sl.dma27 c xt0 fh0 k0_hw27, kernelRun0_A.sl.dma28 c xt0 fh0 k0_hw28, kernelRun0_A.sl.dma29 c xt0 fh0 k0_hw29, kernelRun0_A.sl.dma30 c xt0 fh0 k0_hw30, kernelRun0_A.sl.dma31 c xt0 fh0 k0_hw31, kernelRun0_A.sl.dma32 c xt0 fh0 k0_hw32] : Fin 32 → S512.Idx → Elt F .f32) ⟨4, h⟩ = kernelRun0_A.sl.dma5 c xt0 fh0 k0_hw5 := rfl
theorem look_5 (c : Dev nD) (xt0 : TbBuf0 (F := F) c tbM0_0) (fh0 : HbBuf0 (F := F) c hbM0_0) (k0_hw1 : k0_chk1 (tbM0_0.view.readAt (Elt F) (Rect.unit (s := S32) ![0] S1.size inb_S32_S1_0).toLoadRect xt0 (Shape.Idx.first (numel1_S1.symm ▸ Nat.one_pos)))) (k0_hw2 : k0_chk2 (tbM0_0.view.readAt (Elt F) (Rect.unit (s := S32) ![1] S1.size inb_S32_S1_1).toLoadRect xt0 (Shape.Idx.first (numel1_S1.symm ▸ Nat.one_pos)))) (k0_hw3 : k0_chk3 (tbM0_0.view.readAt (Elt F) (Rect.unit (s := S32) ![2] S1.size inb_S32_S1_2).toLoadRect xt0 (Shape.Idx.first (numel1_S1.symm ▸ Nat.one_pos)))) (k0_hw4 : k0_chk4 (tbM0_0.view.readAt (Elt F) (Rect.unit (s := S32) ![3] S1.size inb_S32_S1_3).toLoadRect xt0 (Shape.Idx.first (numel1_S1.symm ▸ Nat.one_pos)))) (k0_hw5 : k0_chk5 (tbM0_0.view.readAt (Elt F) (Rect.unit (s := S32) ![4] S1.size inb_S32_S1_4).toLoadRect xt0 (Shape.Idx.first (numel1_S1.symm ▸ Nat.one_pos)))) (k0_hw6 : k0_chk6 (tbM0_0.view.readAt (Elt F) (Rect.unit (s := S32) ![5] S1.size inb_S32_S1_5).toLoadRect xt0 (Shape.Idx.first (numel1_S1.symm ▸ Nat.one_pos)))) (k0_hw7 : k0_chk7 (tbM0_0.view.readAt (Elt F) (Rect.unit (s := S32) ![6] S1.size inb_S32_S1_6).toLoadRect xt0 (Shape.Idx.first (numel1_S1.symm ▸ Nat.one_pos)))) (k0_hw8 : k0_chk8 (tbM0_0.view.readAt (Elt F) (Rect.unit (s := S32) ![7] S1.size inb_S32_S1_7).toLoadRect xt0 (Shape.Idx.first (numel1_S1.symm ▸ Nat.one_pos)))) (k0_hw9 : k0_chk9 (tbM0_0.view.readAt (Elt F) (Rect.unit (s := S32) ![8] S1.size inb_S32_S1_8).toLoadRect xt0 (Shape.Idx.first (numel1_S1.symm ▸ Nat.one_pos)))) (k0_hw10 : k0_chk10 (tbM0_0.view.readAt (Elt F) (Rect.unit (s := S32) ![9] S1.size inb_S32_S1_9).toLoadRect xt0 (Shape.Idx.first (numel1_S1.symm ▸ Nat.one_pos)))) (k0_hw11 : k0_chk11 (tbM0_0.view.readAt (Elt F) (Rect.unit (s := S32) ![10] S1.size inb_S32_S1_10).toLoadRect xt0 (Shape.Idx.first (numel1_S1.symm ▸ Nat.one_pos)))) (k0_hw12 : k0_chk12 (tbM0_0.view.readAt (Elt F) (Rect.unit (s := S32) ![11] S1.size inb_S32_S1_11).toLoadRect xt0 (Shape.Idx.first (numel1_S1.symm ▸ Nat.one_pos)))) (k0_hw13 : k0_chk13 (tbM0_0.view.readAt (Elt F) (Rect.unit (s := S32) ![12] S1.size inb_S32_S1_12).toLoadRect xt0 (Shape.Idx.first (numel1_S1.symm ▸ Nat.one_pos)))) (k0_hw14 : k0_chk14 (tbM0_0.view.readAt (Elt F) (Rect.unit (s := S32) ![13] S1.size inb_S32_S1_13).toLoadRect xt0 (Shape.Idx.first (numel1_S1.symm ▸ Nat.one_pos)))) (k0_hw15 : k0_chk15 (tbM0_0.view.readAt (Elt F) (Rect.unit (s := S32) ![14] S1.size inb_S32_S1_14).toLoadRect xt0 (Shape.Idx.first (numel1_S1.symm ▸ Nat.one_pos)))) (k0_hw16 : k0_chk16 (tbM0_0.view.readAt (Elt F) (Rect.unit (s := S32) ![15] S1.size inb_S32_S1_15).toLoadRect xt0 (Shape.Idx.first (numel1_S1.symm ▸ Nat.one_pos)))) (k0_hw17 : k0_chk17 (tbM0_0.view.readAt (Elt F) (Rect.unit (s := S32) ![16] S1.size inb_S32_S1_16).toLoadRect xt0 (Shape.Idx.first (numel1_S1.symm ▸ Nat.one_pos)))) (k0_hw18 : k0_chk18 (tbM0_0.view.readAt (Elt F) (Rect.unit (s := S32) ![17] S1.size inb_S32_S1_17).toLoadRect xt0 (Shape.Idx.first (numel1_S1.symm ▸ Nat.one_pos)))) (k0_hw19 : k0_chk19 (tbM0_0.view.readAt (Elt F) (Rect.unit (s := S32) ![18] S1.size inb_S32_S1_18).toLoadRect xt0 (Shape.Idx.first (numel1_S1.symm ▸ Nat.one_pos)))) (k0_hw20 : k0_chk20 (tbM0_0.view.readAt (Elt F) (Rect.unit (s := S32) ![19] S1.size inb_S32_S1_19).toLoadRect xt0 (Shape.Idx.first (numel1_S1.symm ▸ Nat.one_pos)))) (k0_hw21 : k0_chk21 (tbM0_0.view.readAt (Elt F) (Rect.unit (s := S32) ![20] S1.size inb_S32_S1_20).toLoadRect xt0 (Shape.Idx.first (numel1_S1.symm ▸ Nat.one_pos)))) (k0_hw22 : k0_chk22 (tbM0_0.view.readAt (Elt F) (Rect.unit (s := S32) ![21] S1.size inb_S32_S1_21).toLoadRect xt0 (Shape.Idx.first (numel1_S1.symm ▸ Nat.one_pos)))) (k0_hw23 : k0_chk23 (tbM0_0.view.readAt (Elt F) (Rect.unit (s := S32) ![22] S1.size inb_S32_S1_22).toLoadRect xt0 (Shape.Idx.first (numel1_S1.symm ▸ Nat.one_pos)))) (k0_hw24 : k0_chk24 (tbM0_0.view.readAt (Elt F) (Rect.unit (s := S32) ![23] S1.size inb_S32_S1_23).toLoadRect xt0 (Shape.Idx.first (numel1_S1.symm ▸ Nat.one_pos)))) (k0_hw25 : k0_chk25 (tbM0_0.view.readAt (Elt F) (Rect.unit (s := S32) ![24] S1.size inb_S32_S1_24).toLoadRect xt0 (Shape.Idx.first (numel1_S1.symm ▸ Nat.one_pos)))) (k0_hw26 : k0_chk26 (tbM0_0.view.readAt (Elt F) (Rect.unit (s := S32) ![25] S1.size inb_S32_S1_25).toLoadRect xt0 (Shape.Idx.first (numel1_S1.symm ▸ Nat.one_pos)))) (k0_hw27 : k0_chk27 (tbM0_0.view.readAt (Elt F) (Rect.unit (s := S32) ![26] S1.size inb_S32_S1_26).toLoadRect xt0 (Shape.Idx.first (numel1_S1.symm ▸ Nat.one_pos)))) (k0_hw28 : k0_chk28 (tbM0_0.view.readAt (Elt F) (Rect.unit (s := S32) ![27] S1.size inb_S32_S1_27).toLoadRect xt0 (Shape.Idx.first (numel1_S1.symm ▸ Nat.one_pos)))) (k0_hw29 : k0_chk29 (tbM0_0.view.readAt (Elt F) (Rect.unit (s := S32) ![28] S1.size inb_S32_S1_28).toLoadRect xt0 (Shape.Idx.first (numel1_S1.symm ▸ Nat.one_pos)))) (k0_hw30 : k0_chk30 (tbM0_0.view.readAt (Elt F) (Rect.unit (s := S32) ![29] S1.size inb_S32_S1_29).toLoadRect xt0 (Shape.Idx.first (numel1_S1.symm ▸ Nat.one_pos)))) (k0_hw31 : k0_chk31 (tbM0_0.view.readAt (Elt F) (Rect.unit (s := S32) ![30] S1.size inb_S32_S1_30).toLoadRect xt0 (Shape.Idx.first (numel1_S1.symm ▸ Nat.one_pos)))) (k0_hw32 : k0_chk32 (tbM0_0.view.readAt (Elt F) (Rect.unit (s := S32) ![31] S1.size inb_S32_S1_31).toLoadRect xt0 (Shape.Idx.first (numel1_S1.symm ▸ Nat.one_pos)))) (h : 5 < 32) :
    (![kernelRun0_A.sl.dma1 c xt0 fh0 k0_hw1, kernelRun0_A.sl.dma2 c xt0 fh0 k0_hw2, kernelRun0_A.sl.dma3 c xt0 fh0 k0_hw3, kernelRun0_A.sl.dma4 c xt0 fh0 k0_hw4, kernelRun0_A.sl.dma5 c xt0 fh0 k0_hw5, kernelRun0_A.sl.dma6 c xt0 fh0 k0_hw6, kernelRun0_A.sl.dma7 c xt0 fh0 k0_hw7, kernelRun0_A.sl.dma8 c xt0 fh0 k0_hw8, kernelRun0_A.sl.dma9 c xt0 fh0 k0_hw9, kernelRun0_A.sl.dma10 c xt0 fh0 k0_hw10, kernelRun0_A.sl.dma11 c xt0 fh0 k0_hw11, kernelRun0_A.sl.dma12 c xt0 fh0 k0_hw12, kernelRun0_A.sl.dma13 c xt0 fh0 k0_hw13, kernelRun0_A.sl.dma14 c xt0 fh0 k0_hw14, kernelRun0_A.sl.dma15 c xt0 fh0 k0_hw15, kernelRun0_A.sl.dma16 c xt0 fh0 k0_hw16, kernelRun0_A.sl.dma17 c xt0 fh0 k0_hw17, kernelRun0_A.sl.dma18 c xt0 fh0 k0_hw18, kernelRun0_A.sl.dma19 c xt0 fh0 k0_hw19, kernelRun0_A.sl.dma20 c xt0 fh0 k0_hw20, kernelRun0_A.sl.dma21 c xt0 fh0 k0_hw21, kernelRun0_A.sl.dma22 c xt0 fh0 k0_hw22, kernelRun0_A.sl.dma23 c xt0 fh0 k0_hw23, kernelRun0_A.sl.dma24 c xt0 fh0 k0_hw24, kernelRun0_A.sl.dma25 c xt0 fh0 k0_hw25, kernelRun0_A.sl.dma26 c xt0 fh0 k0_hw26, kernelRun0_A.sl.dma27 c xt0 fh0 k0_hw27, kernelRun0_A.sl.dma28 c xt0 fh0 k0_hw28, kernelRun0_A.sl.dma29 c xt0 fh0 k0_hw29, kernelRun0_A.sl.dma30 c xt0 fh0 k0_hw30, kernelRun0_A.sl.dma31 c xt0 fh0 k0_hw31, kernelRun0_A.sl.dma32 c xt0 fh0 k0_hw32] : Fin 32 → S512.Idx → Elt F .f32) ⟨5, h⟩ = kernelRun0_A.sl.dma6 c xt0 fh0 k0_hw6 := rfl
theorem look_6 (c : Dev nD) (xt0 : TbBuf0 (F := F) c tbM0_0) (fh0 : HbBuf0 (F := F) c hbM0_0) (k0_hw1 : k0_chk1 (tbM0_0.view.readAt (Elt F) (Rect.unit (s := S32) ![0] S1.size inb_S32_S1_0).toLoadRect xt0 (Shape.Idx.first (numel1_S1.symm ▸ Nat.one_pos)))) (k0_hw2 : k0_chk2 (tbM0_0.view.readAt (Elt F) (Rect.unit (s := S32) ![1] S1.size inb_S32_S1_1).toLoadRect xt0 (Shape.Idx.first (numel1_S1.symm ▸ Nat.one_pos)))) (k0_hw3 : k0_chk3 (tbM0_0.view.readAt (Elt F) (Rect.unit (s := S32) ![2] S1.size inb_S32_S1_2).toLoadRect xt0 (Shape.Idx.first (numel1_S1.symm ▸ Nat.one_pos)))) (k0_hw4 : k0_chk4 (tbM0_0.view.readAt (Elt F) (Rect.unit (s := S32) ![3] S1.size inb_S32_S1_3).toLoadRect xt0 (Shape.Idx.first (numel1_S1.symm ▸ Nat.one_pos)))) (k0_hw5 : k0_chk5 (tbM0_0.view.readAt (Elt F) (Rect.unit (s := S32) ![4] S1.size inb_S32_S1_4).toLoadRect xt0 (Shape.Idx.first (numel1_S1.symm ▸ Nat.one_pos)))) (k0_hw6 : k0_chk6 (tbM0_0.view.readAt (Elt F) (Rect.unit (s := S32) ![5] S1.size inb_S32_S1_5).toLoadRect xt0 (Shape.Idx.first (numel1_S1.symm ▸ Nat.one_pos)))) (k0_hw7 : k0_chk7 (tbM0_0.view.readAt (Elt F) (Rect.unit (s := S32) ![6] S1.size inb_S32_S1_6).toLoadRect xt0 (Shape.Idx.first (numel1_S1.symm ▸ Nat.one_pos)))) (k0_hw8 : k0_chk8 (tbM0_0.view.readAt (Elt F) (Rect.unit (s := S32) ![7] S1.size inb_S32_S1_7).toLoadRect xt0 (Shape.Idx.first (numel1_S1.symm ▸ Nat.one_pos)))) (k0_hw9 : k0_chk9 (tbM0_0.view.readAt (Elt F) (Rect.unit (s := S32) ![8] S1.size inb_S32_S1_8).toLoadRect xt0 (Shape.Idx.first (numel1_S1.symm ▸ Nat.one_pos)))) (k0_hw10 : k0_chk10 (tbM0_0.view.readAt (Elt F) (Rect.unit (s := S32) ![9] S1.size inb_S32_S1_9).toLoadRect xt0 (Shape.Idx.first (numel1_S1.symm ▸ Nat.one_pos)))) (k0_hw11 : k0_chk11 (tbM0_0.view.readAt (Elt F) (Rect.unit (s := S32) ![10] S1.size inb_S32_S1_10).toLoadRect xt0 (Shape.Idx.first (numel1_S1.symm ▸ Nat.one_pos)))) (k0_hw12 : k0_chk12 (tbM0_0.view.readAt (Elt F) (Rect.unit (s := S32) ![11] S1.size inb_S32_S1_11).toLoadRect xt0 (Shape.Idx.first (numel1_S1.symm ▸ Nat.one_pos)))) (k0_hw13 : k0_chk13 (tbM0_0.view.readAt (Elt F) (Rect.unit (s := S32) ![12] S1.size inb_S32_S1_12).toLoadRect xt0 (Shape.Idx.first (numel1_S1.symm ▸ Nat.one_pos)))) (k0_hw14 : k0_chk14 (tbM0_0.view.readAt (Elt F) (Rect.unit (s := S32) ![13] S1.size inb_S32_S1_13).toLoadRect xt0 (Shape.Idx.first (numel1_S1.symm ▸ Nat.one_pos)))) (k0_hw15 : k0_chk15 (tbM0_0.view.readAt (Elt F) (Rect.unit (s := S32) ![14] S1.size inb_S32_S1_14).toLoadRect xt0 (Shape.Idx.first (numel1_S1.symm ▸ Nat.one_pos)))) (k0_hw16 : k0_chk16 (tbM0_0.view.readAt (Elt F) (Rect.unit (s := S32) ![15] S1.size inb_S32_S1_15).toLoadRect xt0 (Shape.Idx.first (numel1_S1.symm ▸ Nat.one_pos)))) (k0_hw17 : k0_chk17 (tbM0_0.view.readAt (Elt F) (Rect.unit (s := S32) ![16] S1.size inb_S32_S1_16).toLoadRect xt0 (Shape.Idx.first (numel1_S1.symm ▸ Nat.one_pos)))) (k0_hw18 : k0_chk18 (tbM0_0.view.readAt (Elt F) (Rect.unit (s := S32) ![17] S1.size inb_S32_S1_17).toLoadRect xt0 (Shape.Idx.first (numel1_S1.symm ▸ Nat.one_pos)))) (k0_hw19 : k0_chk19 (tbM0_0.view.readAt (Elt F) (Rect.unit (s := S32) ![18] S1.size inb_S32_S1_18).toLoadRect xt0 (Shape.Idx.first (numel1_S1.symm ▸ Nat.one_pos)))) (k0_hw20 : k0_chk20 (tbM0_0.view.readAt (Elt F) (Rect.unit (s := S32) ![19] S1.size inb_S32_S1_19).toLoadRect xt0 (Shape.Idx.first (numel1_S1.symm ▸ Nat.one_pos)))) (k0_hw21 : k0_chk21 (tbM0_0.view.readAt (Elt F) (Rect.unit (s := S32) ![20] S1.size inb_S32_S1_20).toLoadRect xt0 (Shape.Idx.first (numel1_S1.symm ▸ Nat.one_pos)))) (k0_hw22 : k0_chk22 (tbM0_0.view.readAt (Elt F) (Rect.unit (s := S32) ![21] S1.size inb_S32_S1_21).toLoadRect xt0 (Shape.Idx.first (numel1_S1.symm ▸ Nat.one_pos)))) (k0_hw23 : k0_chk23 (tbM0_0.view.readAt (Elt F) (Rect.unit (s := S32) ![22] S1.size inb_S32_S1_22).toLoadRect xt0 (Shape.Idx.first (numel1_S1.symm ▸ Nat.one_pos)))) (k0_hw24 : k0_chk24 (tbM0_0.view.readAt (Elt F) (Rect.unit (s := S32) ![23] S1.size inb_S32_S1_23).toLoadRect xt0 (Shape.Idx.first (numel1_S1.symm ▸ Nat.one_pos)))) (k0_hw25 : k0_chk25 (tbM0_0.view.readAt (Elt F) (Rect.unit (s := S32) ![24] S1.size inb_S32_S1_24).toLoadRect xt0 (Shape.Idx.first (numel1_S1.symm ▸ Nat.one_pos)))) (k0_hw26 : k0_chk26 (tbM0_0.view.readAt (Elt F) (Rect.unit (s := S32) ![25] S1.size inb_S32_S1_25).toLoadRect xt0 (Shape.Idx.first (numel1_S1.symm ▸ Nat.one_pos)))) (k0_hw27 : k0_chk27 (tbM0_0.view.readAt (Elt F) (Rect.unit (s := S32) ![26] S1.size inb_S32_S1_26).toLoadRect xt0 (Shape.Idx.first (numel1_S1.symm ▸ Nat.one_pos)))) (k0_hw28 : k0_chk28 (tbM0_0.view.readAt (Elt F) (Rect.unit (s := S32) ![27] S1.size inb_S32_S1_27).toLoadRect xt0 (Shape.Idx.first (numel1_S1.symm ▸ Nat.one_pos)))) (k0_hw29 : k0_chk29 (tbM0_0.view.readAt (Elt F) (Rect.unit (s := S32) ![28] S1.size inb_S32_S1_28).toLoadRect xt0 (Shape.Idx.first (numel1_S1.symm ▸ Nat.one_pos)))) (k0_hw30 : k0_chk30 (tbM0_0.view.readAt (Elt F) (Rect.unit (s := S32) ![29] S1.size inb_S32_S1_29).toLoadRect xt0 (Shape.Idx.first (numel1_S1.symm ▸ Nat.one_pos)))) (k0_hw31 : k0_chk31 (tbM0_0.view.readAt (Elt F) (Rect.unit (s := S32) ![30] S1.size inb_S32_S1_30).toLoadRect xt0 (Shape.Idx.first (numel1_S1.symm ▸ Nat.one_pos)))) (k0_hw32 : k0_chk32 (tbM0_0.view.readAt (Elt F) (Rect.unit (s := S32) ![31] S1.size inb_S32_S1_31).toLoadRect xt0 (Shape.Idx.first (numel1_S1.symm ▸ Nat.one_pos)))) (h : 6 < 32) :
    (![kernelRun0_A.sl.dma1 c xt0 fh0 k0_hw1, kernelRun0_A.sl.dma2 c xt0 fh0 k0_hw2, kernelRun0_A.sl.dma3 c xt0 fh0 k0_hw3, kernelRun0_A.sl.dma4 c xt0 fh0 k0_hw4, kernelRun0_A.sl.dma5 c xt0 fh0 k0_hw5, kernelRun0_A.sl.dma6 c xt0 fh0 k0_hw6, kernelRun0_A.sl.dma7 c xt0 fh0 k0_hw7, kernelRun0_A.sl.dma8 c xt0 fh0 k0_hw8, kernelRun0_A.sl.dma9 c xt0 fh0 k0_hw9, kernelRun0_A.sl.dma10 c xt0 fh0 k0_hw10, kernelRun0_A.sl.dma11 c xt0 fh0 k0_hw11, kernelRun0_A.sl.dma12 c xt0 fh0 k0_hw12, kernelRun0_A.sl.dma13 c xt0 fh0 k0_hw13, kernelRun0_A.sl.dma14 c xt0 fh0 k0_hw14, kernelRun0_A.sl.dma15 c xt0 fh0 k0_hw15, kernelRun0_A.sl.dma16 c xt0 fh0 k0_hw16, kernelRun0_A.sl.dma17 c xt0 fh0 k0_hw17, kernelRun0_A.sl.dma18 c xt0 fh0 k0_hw18, kernelRun0_A.sl.dma19 c xt0 fh0 k0_hw19, kernelRun0_A.sl.dma20 c xt0 fh0 k0_hw20, kernelRun0_A.sl.dma21 c xt0 fh0 k0_hw21, kernelRun0_A.sl.dma22 c xt0 fh0 k0_hw22, kernelRun0_A.sl.dma23 c xt0 fh0 k0_hw23, kernelRun0_A.sl.dma24 c xt0 fh0 k0_hw24, kernelRun0_A.sl.dma25 c xt0 fh0 k0_hw25, kernelRun0_A.sl.dma26 c xt0 fh0 k0_hw26, kernelRun0_A.sl.dma27 c xt0 fh0 k0_hw27, kernelRun0_A.sl.dma28 c xt0 fh0 k0_hw28, kernelRun0_A.sl.dma29 c xt0 fh0 k0_hw29, kernelRun0_A.sl.dma30 c xt0 fh0 k0_hw30, kernelRun0_A.sl.dma31 c xt0 fh0 k0_hw31, kernelRun0_A.sl.dma32 c xt0 fh0 k0_hw32] : Fin 32 → S512.Idx → Elt F .f32) ⟨6, h⟩ = kernelRun0_A.sl.dma7 c xt0 fh0 k0_hw7 := rfl
theorem look_7 (c : Dev nD) (xt0 : TbBuf0 (F := F) c tbM0_0) (fh0 : HbBuf0 (F := F) c hbM0_0) (k0_hw1 : k0_chk1 (tbM0_0.view.readAt (Elt F) (Rect.unit (s := S32) ![0] S1.size inb_S32_S1_0).toLoadRect xt0 (Shape.Idx.first (numel1_S1.symm ▸ Nat.one_pos)))) (k0_hw2 : k0_chk2 (tbM0_0.view.readAt (Elt F) (Rect.unit (s := S32) ![1] S1.size inb_S32_S1_1).toLoadRect xt0 (Shape.Idx.first (numel1_S1.symm ▸ Nat.one_pos)))) (k0_hw3 : k0_chk3 (tbM0_0.view.readAt (Elt F) (Rect.unit (s := S32) ![2] S1.size inb_S32_S1_2).toLoadRect xt0 (Shape.Idx.first (numel1_S1.symm ▸ Nat.one_pos)))) (k0_hw4 : k0_chk4 (tbM0_0.view.readAt (Elt F) (Rect.unit (s := S32) ![3] S1.size inb_S32_S1_3).toLoadRect xt0 (Shape.Idx.first (numel1_S1.symm ▸ Nat.one_pos)))) (k0_hw5 : k0_chk5 (tbM0_0.view.readAt (Elt F) (Rect.unit (s := S32) ![4] S1.size inb_S32_S1_4).toLoadRect xt0 (Shape.Idx.first (numel1_S1.symm ▸ Nat.one_pos)))) (k0_hw6 : k0_chk6 (tbM0_0.view.readAt (Elt F) (Rect.unit (s := S32) ![5] S1.size inb_S32_S1_5).toLoadRect xt0 (Shape.Idx.first (numel1_S1.symm ▸ Nat.one_pos)))) (k0_hw7 : k0_chk7 (tbM0_0.view.readAt (Elt F) (Rect.unit (s := S32) ![6] S1.size inb_S32_S1_6).toLoadRect xt0 (Shape.Idx.first (numel1_S1.symm ▸ Nat.one_pos)))) (k0_hw8 : k0_chk8 (tbM0_0.view.readAt (Elt F) (Rect.unit (s := S32) ![7] S1.size inb_S32_S1_7).toLoadRect xt0 (Shape.Idx.first (numel1_S1.symm ▸ Nat.one_pos)))) (k0_hw9 : k0_chk9 (tbM0_0.view.readAt (Elt F) (Rect.unit (s := S32) ![8] S1.size inb_S32_S1_8).toLoadRect xt0 (Shape.Idx.first (numel1_S1.symm ▸ Nat.one_pos)))) (k0_hw10 : k0_chk10 (tbM0_0.view.readAt (Elt F) (Rect.unit (s := S32) ![9] S1.size inb_S32_S1_9).toLoadRect xt0 (Shape.Idx.first (numel1_S1.symm ▸ Nat.one_pos)))) (k0_hw11 : k0_chk11 (tbM0_0.view.readAt (Elt F) (Rect.unit (s := S32) ![10] S1.size inb_S32_S1_10).toLoadRect xt0 (Shape.Idx.first (numel1_S1.symm ▸ Nat.one_pos)))) (k0_hw12 : k0_chk12 (tbM0_0.view.readAt (Elt F) (Rect.unit (s := S32) ![11] S1.size inb_S32_S1_11).toLoadRect xt0 (Shape.Idx.first (numel1_S1.symm ▸ Nat.one_pos)))) (k0_hw13 : k0_chk13 (tbM0_0.view.readAt (Elt F) (Rect.unit (s := S32) ![12] S1.size inb_S32_S1_12).toLoadRect xt0 (Shape.Idx.first (numel1_S1.symm ▸ Nat.one_pos)))) (k0_hw14 : k0_chk14 (tbM0_0.view.readAt (Elt F) (Rect.unit (s := S32) ![13] S1.size inb_S32_S1_13).toLoadRect xt0 (Shape.Idx.first (numel1_S1.symm ▸ Nat.one_pos)))) (k0_hw15 : k0_chk15 (tbM0_0.view.readAt (Elt F) (Rect.unit (s := S32) ![14] S1.size inb_S32_S1_14).toLoadRect xt0 (Shape.Idx.first (numel1_S1.symm ▸ Nat.one_pos)))) (k0_hw16 : k0_chk16 (tbM0_0.view.readAt (Elt F) (Rect.unit (s := S32) ![15] S1.size inb_S32_S1_15).toLoadRect xt0 (Shape.Idx.first (numel1_S1.symm ▸ Nat.one_pos)))) (k0_hw17 : k0_chk17 (tbM0_0.view.readAt (Elt F) (Rect.unit (s := S32) ![16] S1.size inb_S32_S1_16).toLoadRect xt0 (Shape.Idx.first (numel1_S1.symm ▸ Nat.one_pos)))) (k0_hw18 : k0_chk18 (tbM0_0.view.readAt (Elt F) (Rect.unit (s := S32) ![17] S1.size inb_S32_S1_17).toLoadRect xt0 (Shape.Idx.first (numel1_S1.symm ▸ Nat.one_pos)))) (k0_hw19 : k0_chk19 (tbM0_0.view.readAt (Elt F) (Rect.unit (s := S32) ![18] S1.size inb_S32_S1_18).toLoadRect xt0 (Shape.Idx.first (numel1_S1.symm ▸ Nat.one_pos)))) (k0_hw20 : k0_chk20 (tbM0_0.view.readAt (Elt F) (Rect.unit (s := S32) ![19] S1.size inb_S32_S1_19).toLoadRect xt0 (Shape.Idx.first (numel1_S1.symm ▸ Nat.one_pos)))) (k0_hw21 : k0_chk21 (tbM0_0.view.readAt (Elt F) (Rect.unit (s := S32) ![20] S1.size inb_S32_S1_20).toLoadRect xt0 (Shape.Idx.first (numel1_S1.symm ▸ Nat.one_pos)))) (k0_hw22 : k0_chk22 (tbM0_0.view.readAt (Elt F) (Rect.unit (s := S32) ![21] S1.size inb_S32_S1_21).toLoadRect xt0 (Shape.Idx.first (numel1_S1.symm ▸ Nat.one_pos)))) (k0_hw23 : k0_chk23 (tbM0_0.view.readAt (Elt F) (Rect.unit (s := S32) ![22] S1.size inb_S32_S1_22).toLoadRect xt0 (Shape.Idx.first (numel1_S1.symm ▸ Nat.one_pos)))) (k0_hw24 : k0_chk24 (tbM0_0.view.readAt (Elt F) (Rect.unit (s := S32) ![23] S1.size inb_S32_S1_23).toLoadRect xt0 (Shape.Idx.first (numel1_S1.symm ▸ Nat.one_pos)))) (k0_hw25 : k0_chk25 (tbM0_0.view.readAt (Elt F) (Rect.unit (s := S32) ![24] S1.size inb_S32_S1_24).toLoadRect xt0 (Shape.Idx.first (numel1_S1.symm ▸ Nat.one_pos)))) (k0_hw26 : k0_chk26 (tbM0_0.view.readAt (Elt F) (Rect.unit (s := S32) ![25] S1.size inb_S32_S1_25).toLoadRect xt0 (Shape.Idx.first (numel1_S1.symm ▸ Nat.one_pos)))) (k0_hw27 : k0_chk27 (tbM0_0.view.readAt (Elt F) (Rect.unit (s := S32) ![26] S1.size inb_S32_S1_26).toLoadRect xt0 (Shape.Idx.first (numel1_S1.symm ▸ Nat.one_pos)))) (k0_hw28 : k0_chk28 (tbM0_0.view.readAt (Elt F) (Rect.unit (s := S32) ![27] S1.size inb_S32_S1_27).toLoadRect xt0 (Shape.Idx.first (numel1_S1.symm ▸ Nat.one_pos)))) (k0_hw29 : k0_chk29 (tbM0_0.view.readAt (Elt F) (Rect.unit (s := S32) ![28] S1.size inb_S32_S1_28).toLoadRect xt0 (Shape.Idx.first (numel1_S1.symm ▸ Nat.one_pos)))) (k0_hw30 : k0_chk30 (tbM0_0.view.readAt (Elt F) (Rect.unit (s := S32) ![29] S1.size inb_S32_S1_29).toLoadRect xt0 (Shape.Idx.first (numel1_S1.symm ▸ Nat.one_pos)))) (k0_hw31 : k0_chk31 (tbM0_0.view.readAt (Elt F) (Rect.unit (s := S32) ![30] S1.size inb_S32_S1_30).toLoadRect xt0 (Shape.Idx.first (numel1_S1.symm ▸ Nat.one_pos)))) (k0_hw32 : k0_chk32 (tbM0_0.view.readAt (Elt F) (Rect.unit (s := S32) ![31] S1.size inb_S32_S1_31).toLoadRect xt0 (Shape.Idx.first (numel1_S1.symm ▸ Nat.one_pos)))) (h : 7 < 32) :
    (![kernelRun0_A.sl.dma1 c xt0 fh0 k0_hw1, kernelRun0_A.sl.dma2 c xt0 fh0 k0_hw2, kernelRun0_A.sl.dma3 c xt0 fh0 k0_hw3, kernelRun0_A.sl.dma4 c xt0 fh0 k0_hw4, kernelRun0_A.sl.dma5 c xt0 fh0 k0_hw5, kernelRun0_A.sl.dma6 c xt0 fh0 k0_hw6, kernelRun0_A.sl.dma7 c xt0 fh0 k0_hw7, kernelRun0_A.sl.dma8 c xt0 fh0 k0_hw8, kernelRun0_A.sl.dma9 c xt0 fh0 k0_hw9, kernelRun0_A.sl.dma10 c xt0 fh0 k0_hw10, kernelRun0_A.sl.dma11 c xt0 fh0 k0_hw11, kernelRun0_A.sl.dma12 c xt0 fh0 k0_hw12, kernelRun0_A.sl.dma13 c xt0 fh0 k0_hw13, kernelRun0_A.sl.dma14 c xt0 fh0 k0_hw14, kernelRun0_A.sl.dma15 c xt0 fh0 k0_hw15, kernelRun0_A.sl.dma16 c xt0 fh0 k0_hw16, kernelRun0_A.sl.dma17 c xt0 fh0 k0_hw17, kernelRun0_A.sl.dma18 c xt0 fh0 k0_hw18, kernelRun0_A.sl.dma19 c xt0 fh0 k0_hw19, kernelRun0_A.sl.dma20 c xt0 fh0 k0_hw20, kernelRun0_A.sl.dma21 c xt0 fh0 k0_hw21, kernelRun0_A.sl.dma22 c xt0 fh0 k0_hw22, kernelRun0_A.sl.dma23 c xt0 fh0 k0_hw23, kernelRun0_A.sl.dma24 c xt0 fh0 k0_hw24, kernelRun0_A.sl.dma25 c xt0 fh0 k0_hw25, kernelRun0_A.sl.dma26 c xt0 fh0 k0_hw26, kernelRun0_A.sl.dma27 c xt0 fh0 k0_hw27, kernelRun0_A.sl.dma28 c xt0 fh0 k0_hw28, kernelRun0_A.sl.dma29 c xt0 fh0 k0_hw29, kernelRun0_A.sl.dma30 c xt0 fh0 k0_hw30, kernelRun0_A.sl.dma31 c xt0 fh0 k0_hw31, kernelRun0_A.sl.dma32 c xt0 fh0 k0_hw32] : Fin 32 → S512.Idx → Elt F .f32) ⟨7, h⟩ = kernelRun0_A.sl.dma8 c xt0 fh0 k0_hw8 := rfl
theorem look_8 (c : Dev nD) (xt0 : TbBuf0 (F := F) c tbM0_0) (fh0 : HbBuf0 (F := F) c hbM0_0) (k0_hw1 : k0_chk1 (tbM0_0.view.readAt (Elt F) (Rect.unit (s := S32) ![0] S1.size inb_S32_S1_0).toLoadRect xt0 (Shape.Idx.first (numel1_S1.symm ▸ Nat.one_pos)))) (k0_hw2 : k0_chk2 (tbM0_0.view.readAt (Elt F) (Rect.unit (s := S32) ![1] S1.size inb_S32_S1_1).toLoadRect xt0 (Shape.Idx.first (numel1_S1.symm ▸ Nat.one_pos)))) (k0_hw3 : k0_chk3 (tbM0_0.view.readAt (Elt F) (Rect.unit (s := S32) ![2] S1.size inb_S32_S1_2).toLoadRect xt0 (Shape.Idx.first (numel1_S1.symm ▸ Nat.one_pos)))) (k0_hw4 : k0_chk4 (tbM0_0.view.readAt (Elt F) (Rect.unit (s := S32) ![3] S1.size inb_S32_S1_3).toLoadRect xt0 (Shape.Idx.first (numel1_S1.symm ▸ Nat.one_pos)))) (k0_hw5 : k0_chk5 (tbM0_0.view.readAt (Elt F) (Rect.unit (s := S32) ![4] S1.size inb_S32_S1_4).toLoadRect xt0 (Shape.Idx.first (numel1_S1.symm ▸ Nat.one_pos)))) (k0_hw6 : k0_chk6 (tbM0_0.view.readAt (Elt F) (Rect.unit (s := S32) ![5] S1.size inb_S32_S1_5).toLoadRect xt0 (Shape.Idx.first (numel1_S1.symm ▸ Nat.one_pos)))) (k0_hw7 : k0_chk7 (tbM0_0.view.readAt (Elt F) (Rect.unit (s := S32) ![6] S1.size inb_S32_S1_6).toLoadRect xt0 (Shape.Idx.first (numel1_S1.symm ▸ Nat.one_pos)))) (k0_hw8 : k0_chk8 (tbM0_0.view.readAt (Elt F) (Rect.unit (s := S32) ![7] S1.size inb_S32_S1_7).toLoadRect xt0 (Shape.Idx.first (numel1_S1.symm ▸ Nat.one_pos)))) (k0_hw9 : k0_chk9 (tbM0_0.view.readAt (Elt F) (Rect.unit (s := S32) ![8] S1.size inb_S32_S1_8).toLoadRect xt0 (Shape.Idx.first (numel1_S1.symm ▸ Nat.one_pos)))) (k0_hw10 : k0_chk10 (tbM0_0.view.readAt (Elt F) (Rect.unit (s := S32) ![9] S1.size inb_S32_S1_9).toLoadRect xt0 (Shape.Idx.first (numel1_S1.symm ▸ Nat.one_pos)))) (k0_hw11 : k0_chk11 (tbM0_0.view.readAt (Elt F) (Rect.unit (s := S32) ![10] S1.size inb_S32_S1_10).toLoadRect xt0 (Shape.Idx.first (numel1_S1.symm ▸ Nat.one_pos)))) (k0_hw12 : k0_chk12 (tbM0_0.view.readAt (Elt F) (Rect.unit (s := S32) ![11] S1.size inb_S32_S1_11).toLoadRect xt0 (Shape.Idx.first (numel1_S1.symm ▸ Nat.one_pos)))) (k0_hw13 : k0_chk13 (tbM0_0.view.readAt (Elt F) (Rect.unit (s := S32) ![12] S1.size inb_S32_S1_12).toLoadRect xt0 (Shape.Idx.first (numel1_S1.symm ▸ Nat.one_pos)))) (k0_hw14 : k0_chk14 (tbM0_0.view.readAt (Elt F) (Rect.unit (s := S32) ![13] S1.size inb_S32_S1_13).toLoadRect xt0 (Shape.Idx.first (numel1_S1.symm ▸ Nat.one_pos)))) (k0_hw15 : k0_chk15 (tbM0_0.view.readAt (Elt F) (Rect.unit (s := S32) ![14] S1.size inb_S32_S1_14).toLoadRect xt0 (Shape.Idx.first (numel1_S1.symm ▸ Nat.one_pos)))) (k0_hw16 : k0_chk16 (tbM0_0.view.readAt (Elt F) (Rect.unit (s := S32) ![15] S1.size inb_S32_S1_15).toLoadRect xt0 (Shape.Idx.first (numel1_S1.symm ▸ Nat.one_pos)))) (k0_hw17 : k0_chk17 (tbM0_0.view.readAt (Elt F) (Rect.unit (s := S32) ![16] S1.size inb_S32_S1_16).toLoadRect xt0 (Shape.Idx.first (numel1_S1.symm ▸ Nat.one_pos)))) (k0_hw18 : k0_chk18 (tbM0_0.view.readAt (Elt F) (Rect.unit (s := S32) ![17] S1.size inb_S32_S1_17).toLoadRect xt0 (Shape.Idx.first (numel1_S1.symm ▸ Nat.one_pos)))) (k0_hw19 : k0_chk19 (tbM0_0.view.readAt (Elt F) (Rect.unit (s := S32) ![18] S1.size inb_S32_S1_18).toLoadRect xt0 (Shape.Idx.first (numel1_S1.symm ▸ Nat.one_pos)))) (k0_hw20 : k0_chk20 (tbM0_0.view.readAt (Elt F) (Rect.unit (s := S32) ![19] S1.size inb_S32_S1_19).toLoadRect xt0 (Shape.Idx.first (numel1_S1.symm ▸ Nat.one_pos)))) (k0_hw21 : k0_chk21 (tbM0_0.view.readAt (Elt F) (Rect.unit (s := S32) ![20] S1.size inb_S32_S1_20).toLoadRect xt0 (Shape.Idx.first (numel1_S1.symm ▸ Nat.one_pos)))) (k0_hw22 : k0_chk22 (tbM0_0.view.readAt (Elt F) (Rect.unit (s := S32) ![21] S1.size inb_S32_S1_21).toLoadRect xt0 (Shape.Idx.first (numel1_S1.symm ▸ Nat.one_pos)))) (k0_hw23 : k0_chk23 (tbM0_0.view.readAt (Elt F) (Rect.unit (s := S32) ![22] S1.size inb_S32_S1_22).toLoadRect xt0 (Shape.Idx.first (numel1_S1.symm ▸ Nat.one_pos)))) (k0_hw24 : k0_chk24 (tbM0_0.view.readAt (Elt F) (Rect.unit (s := S32) ![23] S1.size inb_S32_S1_23).toLoadRect xt0 (Shape.Idx.first (numel1_S1.symm ▸ Nat.one_pos)))) (k0_hw25 : k0_chk25 (tbM0_0.view.readAt (Elt F) (Rect.unit (s := S32) ![24] S1.size inb_S32_S1_24).toLoadRect xt0 (Shape.Idx.first (numel1_S1.symm ▸ Nat.one_pos)))) (k0_hw26 : k0_chk26 (tbM0_0.view.readAt (Elt F) (Rect.unit (s := S32) ![25] S1.size inb_S32_S1_25).toLoadRect xt0 (Shape.Idx.first (numel1_S1.symm ▸ Nat.one_pos)))) (k0_hw27 : k0_chk27 (tbM0_0.view.readAt (Elt F) (Rect.unit (s := S32) ![26] S1.size inb_S32_S1_26).toLoadRect xt0 (Shape.Idx.first (numel1_S1.symm ▸ Nat.one_pos)))) (k0_hw28 : k0_chk28 (tbM0_0.view.readAt (Elt F) (Rect.unit (s := S32) ![27] S1.size inb_S32_S1_27).toLoadRect xt0 (Shape.Idx.first (numel1_S1.symm ▸ Nat.one_pos)))) (k0_hw29 : k0_chk29 (tbM0_0.view.readAt (Elt F) (Rect.unit (s := S32) ![28] S1.size inb_S32_S1_28).toLoadRect xt0 (Shape.Idx.first (numel1_S1.symm ▸ Nat.one_pos)))) (k0_hw30 : k0_chk30 (tbM0_0.view.readAt (Elt F) (Rect.unit (s := S32) ![29] S1.size inb_S32_S1_29).toLoadRect xt0 (Shape.Idx.first (numel1_S1.symm ▸ Nat.one_pos)))) (k0_hw31 : k0_chk31 (tbM0_0.view.readAt (Elt F) (Rect.unit (s := S32) ![30] S1.size inb_S32_S1_30).toLoadRect xt0 (Shape.Idx.first (numel1_S1.symm ▸ Nat.one_pos)))) (k0_hw32 : k0_chk32 (tbM0_0.view.readAt (Elt F) (Rect.unit (s := S32) ![31] S1.size inb_S32_S1_31).toLoadRect xt0 (Shape.Idx.first (numel1_S1.symm ▸ Nat.one_pos)))) (h : 8 < 32) :
    (![kernelRun0_A.sl.dma1 c xt0 fh0 k0_hw1, kernelRun0_A.sl.dma2 c xt0 fh0 k0_hw2, kernelRun0_A.sl.dma3 c xt0 fh0 k0_hw3, kernelRun0_A.sl.dma4 c xt0 fh0 k0_hw4, kernelRun0_A.sl.dma5 c xt0 fh0 k0_hw5, kernelRun0_A.sl.dma6 c xt0 fh0 k0_hw6, kernelRun0_A.sl.dma7 c xt0 fh0 k0_hw7, kernelRun0_A.sl.dma8 c xt0 fh0 k0_hw8, kernelRun0_A.sl.dma9 c xt0 fh0 k0_hw9, kernelRun0_A.sl.dma10 c xt0 fh0 k0_hw10, kernelRun0_A.sl.dma11 c xt0 fh0 k0_hw11, kernelRun0_A.sl.dma12 c xt0 fh0 k0_hw12, kernelRun0_A.sl.dma13 c xt0 fh0 k0_hw13, kernelRun0_A.sl.dma14 c xt0 fh0 k0_hw14, kernelRun0_A.sl.dma15 c xt0 fh0 k0_hw15, kernelRun0_A.sl.dma16 c xt0 fh0 k0_hw16, kernelRun0_A.sl.dma17 c xt0 fh0 k0_hw17, kernelRun0_A.sl.dma18 c xt0 fh0 k0_hw18, kernelRun0_A.sl.dma19 c xt0 fh0 k0_hw19, kernelRun0_A.sl.dma20 c xt0 fh0 k0_hw20, kernelRun0_A.sl.dma21 c xt0 fh0 k0_hw21, kernelRun0_A.sl.dma22 c xt0 fh0 k0_hw22, kernelRun0_A.sl.dma23 c xt0 fh0 k0_hw23, kernelRun0_A.sl.dma24 c xt0 fh0 k0_hw24, kernelRun0_A.sl.dma25 c xt0 fh0 k0_hw25, kernelRun0_A.sl.dma26 c xt0 fh0 k0_hw26, kernelRun0_A.sl.dma27 c xt0 fh0 k0_hw27, kernelRun0_A.sl.dma28 c xt0 fh0 k0_hw28, kernelRun0_A.sl.dma29 c xt0 fh0 k0_hw29, kernelRun0_A.sl.dma30 c xt0 fh0 k0_hw30, kernelRun0_A.sl.dma31 c xt0 fh0 k0_hw31, kernelRun0_A.sl.dma32 c xt0 fh0 k0_hw32] : Fin 32 → S512.Idx → Elt F .f32) ⟨8, h⟩ = kernelRun0_A.sl.dma9 c xt0 fh0 k0_hw9 := rfl
theorem look_9 (c : Dev nD) (xt0 : TbBuf0 (F := F) c tbM0_0) (fh0 : HbBuf0 (F := F) c hbM0_0) (k0_hw1 : k0_chk1 (tbM0_0.view.readAt (Elt F) (Rect.unit (s := S32) ![0] S1.size inb_S32_S1_0).toLoadRect xt0 (Shape.Idx.first (numel1_S1.symm ▸ Nat.one_pos)))) (k0_hw2 : k0_chk2 (tbM0_0.view.readAt (Elt F) (Rect.unit (s := S32) ![1] S1.size inb_S32_S1_1).toLoadRect xt0 (Shape.Idx.first (numel1_S1.symm ▸ Nat.one_pos)))) (k0_hw3 : k0_chk3 (tbM0_0.view.readAt (Elt F) (Rect.unit (s := S32) ![2] S1.size inb_S32_S1_2).toLoadRect xt0 (Shape.Idx.first (numel1_S1.symm ▸ Nat.one_pos)))) (k0_hw4 : k0_chk4 (tbM0_0.view.readAt (Elt F) (Rect.unit (s := S32) ![3] S1.size inb_S32_S1_3).toLoadRect xt0 (Shape.Idx.first (numel1_S1.symm ▸ Nat.one_pos)))) (k0_hw5 : k0_chk5 (tbM0_0.view.readAt (Elt F) (Rect.unit (s := S32) ![4] S1.size inb_S32_S1_4).toLoadRect xt0 (Shape.Idx.first (numel1_S1.symm ▸ Nat.one_pos)))) (k0_hw6 : k0_chk6 (tbM0_0.view.readAt (Elt F) (Rect.unit (s := S32) ![5] S1.size inb_S32_S1_5).toLoadRect xt0 (Shape.Idx.first (numel1_S1.symm ▸ Nat.one_pos)))) (k0_hw7 : k0_chk7 (tbM0_0.view.readAt (Elt F) (Rect.unit (s := S32) ![6] S1.size inb_S32_S1_6).toLoadRect xt0 (Shape.Idx.first (numel1_S1.symm ▸ Nat.one_pos)))) (k0_hw8 : k0_chk8 (tbM0_0.view.readAt (Elt F) (Rect.unit (s := S32) ![7] S1.size inb_S32_S1_7).toLoadRect xt0 (Shape.Idx.first (numel1_S1.symm ▸ Nat.one_pos)))) (k0_hw9 : k0_chk9 (tbM0_0.view.readAt (Elt F) (Rect.unit (s := S32) ![8] S1.size inb_S32_S1_8).toLoadRect xt0 (Shape.Idx.first (numel1_S1.symm ▸ Nat.one_pos)))) (k0_hw10 : k0_chk10 (tbM0_0.view.readAt (Elt F) (Rect.unit (s := S32) ![9] S1.size inb_S32_S1_9).toLoadRect xt0 (Shape.Idx.first (numel1_S1.symm ▸ Nat.one_pos)))) (k0_hw11 : k0_chk11 (tbM0_0.view.readAt (Elt F) (Rect.unit (s := S32) ![10] S1.size inb_S32_S1_10).toLoadRect xt0 (Shape.Idx.first (numel1_S1.symm ▸ Nat.one_pos)))) (k0_hw12 : k0_chk12 (tbM0_0.view.readAt (Elt F) (Rect.unit (s := S32) ![11] S1.size inb_S32_S1_11).toLoadRect xt0 (Shape.Idx.first (numel1_S1.symm ▸ Nat.one_pos)))) (k0_hw13 : k0_chk13 (tbM0_0.view.readAt (Elt F) (Rect.unit (s := S32) ![12] S1.size inb_S32_S1_12).toLoadRect xt0 (Shape.Idx.first (numel1_S1.symm ▸ Nat.one_pos)))) (k0_hw14 : k0_chk14 (tbM0_0.view.readAt (Elt F) (Rect.unit (s := S32) ![13] S1.size inb_S32_S1_13).toLoadRect xt0 (Shape.Idx.first (numel1_S1.symm ▸ Nat.one_pos)))) (k0_hw15 : k0_chk15 (tbM0_0.view.readAt (Elt F) (Rect.unit (s := S32) ![14] S1.size inb_S32_S1_14).toLoadRect xt0 (Shape.Idx.first (numel1_S1.symm ▸ Nat.one_pos)))) (k0_hw16 : k0_chk16 (tbM0_0.view.readAt (Elt F) (Rect.unit (s := S32) ![15] S1.size inb_S32_S1_15).toLoadRect xt0 (Shape.Idx.first (numel1_S1.symm ▸ Nat.one_pos)))) (k0_hw17 : k0_chk17 (tbM0_0.view.readAt (Elt F) (Rect.unit (s := S32) ![16] S1.size inb_S32_S1_16).toLoadRect xt0 (Shape.Idx.first (numel1_S1.symm ▸ Nat.one_pos)))) (k0_hw18 : k0_chk18 (tbM0_0.view.readAt (Elt F) (Rect.unit (s := S32) ![17] S1.size inb_S32_S1_17).toLoadRect xt0 (Shape.Idx.first (numel1_S1.symm ▸ Nat.one_pos)))) (k0_hw19 : k0_chk19 (tbM0_0.view.readAt (Elt F) (Rect.unit (s := S32) ![18] S1.size inb_S32_S1_18).toLoadRect xt0 (Shape.Idx.first (numel1_S1.symm ▸ Nat.one_pos)))) (k0_hw20 : k0_chk20 (tbM0_0.view.readAt (Elt F) (Rect.unit (s := S32) ![19] S1.size inb_S32_S1_19).toLoadRect xt0 (Shape.Idx.first (numel1_S1.symm ▸ Nat.one_pos)))) (k0_hw21 : k0_chk21 (tbM0_0.view.readAt (Elt F) (Rect.unit (s := S32) ![20] S1.size inb_S32_S1_20).toLoadRect xt0 (Shape.Idx.first (numel1_S1.symm ▸ Nat.one_pos)))) (k0_hw22 : k0_chk22 (tbM0_0.view.readAt (Elt F) (Rect.unit (s := S32) ![21] S1.size inb_S32_S1_21).toLoadRect xt0 (Shape.Idx.first (numel1_S1.symm ▸ Nat.one_pos)))) (k0_hw23 : k0_chk23 (tbM0_0.view.readAt (Elt F) (Rect.unit (s := S32) ![22] S1.size inb_S32_S1_22).toLoadRect xt0 (Shape.Idx.first (numel1_S1.symm ▸ Nat.one_pos)))) (k0_hw24 : k0_chk24 (tbM0_0.view.readAt (Elt F) (Rect.unit (s := S32) ![23] S1.size inb_S32_S1_23).toLoadRect xt0 (Shape.Idx.first (numel1_S1.symm ▸ Nat.one_pos)))) (k0_hw25 : k0_chk25 (tbM0_0.view.readAt (Elt F) (Rect.unit (s := S32) ![24] S1.size inb_S32_S1_24).toLoadRect xt0 (Shape.Idx.first (numel1_S1.symm ▸ Nat.one_pos)))) (k0_hw26 : k0_chk26 (tbM0_0.view.readAt (Elt F) (Rect.unit (s := S32) ![25] S1.size inb_S32_S1_25).toLoadRect xt0 (Shape.Idx.first (numel1_S1.symm ▸ Nat.one_pos)))) (k0_hw27 : k0_chk27 (tbM0_0.view.readAt (Elt F) (Rect.unit (s := S32) ![26] S1.size inb_S32_S1_26).toLoadRect xt0 (Shape.Idx.first (numel1_S1.symm ▸ Nat.one_pos)))) (k0_hw28 : k0_chk28 (tbM0_0.view.readAt (Elt F) (Rect.unit (s := S32) ![27] S1.size inb_S32_S1_27).toLoadRect xt0 (Shape.Idx.first (numel1_S1.symm ▸ Nat.one_pos)))) (k0_hw29 : k0_chk29 (tbM0_0.view.readAt (Elt F) (Rect.unit (s := S32) ![28] S1.size inb_S32_S1_28).toLoadRect xt0 (Shape.Idx.first (numel1_S1.symm ▸ Nat.one_pos)))) (k0_hw30 : k0_chk30 (tbM0_0.view.readAt (Elt F) (Rect.unit (s := S32) ![29] S1.size inb_S32_S1_29).toLoadRect xt0 (Shape.Idx.first (numel1_S1.symm ▸ Nat.one_pos)))) (k0_hw31 : k0_chk31 (tbM0_0.view.readAt (Elt F) (Rect.unit (s := S32) ![30] S1.size inb_S32_S1_30).toLoadRect xt0 (Shape.Idx.first (numel1_S1.symm ▸ Nat.one_pos)))) (k0_hw32 : k0_chk32 (tbM0_0.view.readAt (Elt F) (Rect.unit (s := S32) ![31] S1.size inb_S32_S1_31).toLoadRect xt0 (Shape.Idx.first (numel1_S1.symm ▸ Nat.one_pos)))) (h : 9 < 32) :
    (![kernelRun0_A.sl.dma1 c xt0 fh0 k0_hw1, kernelRun0_A.sl.dma2 c xt0 fh0 k0_hw2, kernelRun0_A.sl.dma3 c xt0 fh0 k0_hw3, kernelRun0_A.sl.dma4 c xt0 fh0 k0_hw4, kernelRun0_A.sl.dma5 c xt0 fh0 k0_hw5, kernelRun0_A.sl.dma6 c xt0 fh0 k0_hw6, kernelRun0_A.sl.dma7 c xt0 fh0 k0_hw7, kernelRun0_A.sl.dma8 c xt0 fh0 k0_hw8, kernelRun0_A.sl.dma9 c xt0 fh0 k0_hw9, kernelRun0_A.sl.dma10 c xt0 fh0 k0_hw10, kernelRun0_A.sl.dma11 c xt0 fh0 k0_hw11, kernelRun0_A.sl.dma12 c xt0 fh0 k0_hw12, kernelRun0_A.sl.dma13 c xt0 fh0 k0_hw13, kernelRun0_A.sl.dma14 c xt0 fh0 k0_hw14, kernelRun0_A.sl.dma15 c xt0 fh0 k0_hw15, kernelRun0_A.sl.dma16 c xt0 fh0 k0_hw16, kernelRun0_A.sl.dma17 c xt0 fh0 k0_hw17, kernelRun0_A.sl.dma18 c xt0 fh0 k0_hw18, kernelRun0_A.sl.dma19 c xt0 fh0 k0_hw19, kernelRun0_A.sl.dma20 c xt0 fh0 k0_hw20, kernelRun0_A.sl.dma21 c xt0 fh0 k0_hw21, kernelRun0_A.sl.dma22 c xt0 fh0 k0_hw22, kernelRun0_A.sl.dma23 c xt0 fh0 k0_hw23, kernelRun0_A.sl.dma24 c xt0 fh0 k0_hw24, kernelRun0_A.sl.dma25 c xt0 fh0 k0_hw25, kernelRun0_A.sl.dma26 c xt0 fh0 k0_hw26, kernelRun0_A.sl.dma27 c xt0 fh0 k0_hw27, kernelRun0_A.sl.dma28 c xt0 fh0 k0_hw28, kernelRun0_A.sl.dma29 c xt0 fh0 k0_hw29, kernelRun0_A.sl.dma30 c xt0 fh0 k0_hw30, kernelRun0_A.sl.dma31 c xt0 fh0 k0_hw31, kernelRun0_A.sl.dma32 c xt0 fh0 k0_hw32] : Fin 32 → S512.Idx → Elt F .f32) ⟨9, h⟩ = kernelRun0_A.sl.dma10 c xt0 fh0 k0_hw10 := rfl
theorem look_10 (c : Dev nD) (xt0 : TbBuf0 (F := F) c tbM0_0) (fh0 : HbBuf0 (F := F) c hbM0_0) (k0_hw1 : k0_chk1 (tbM0_0.view.readAt (Elt F) (Rect.unit (s := S32) ![0] S1.size inb_S32_S1_0).toLoadRect xt0 (Shape.Idx.first (numel1_S1.symm ▸ Nat.one_pos)))) (k0_hw2 : k0_chk2 (tbM0_0.view.readAt (Elt F) (Rect.unit (s := S32) ![1] S1.size inb_S32_S1_1).toLoadRect xt0 (Shape.Idx.first (numel1_S1.symm ▸ Nat.one_pos)))) (k0_hw3 : k0_chk3 (tbM0_0.view.readAt (Elt F) (Rect.unit (s := S32) ![2] S1.size inb_S32_S1_2).toLoadRect xt0 (Shape.Idx.first (numel1_S1.symm ▸ Nat.one_pos)))) (k0_hw4 : k0_chk4 (tbM0_0.view.readAt (Elt F) (Rect.unit (s := S32) ![3] S1.size inb_S32_S1_3).toLoadRect xt0 (Shape.Idx.first (numel1_S1.symm ▸ Nat.one_pos)))) (k0_hw5 : k0_chk5 (tbM0_0.view.readAt (Elt F) (Rect.unit (s := S32) ![4] S1.size inb_S32_S1_4).toLoadRect xt0 (Shape.Idx.first (numel1_S1.symm ▸ Nat.one_pos)))) (k0_hw6 : k0_chk6 (tbM0_0.view.readAt (Elt F) (Rect.unit (s := S32) ![5] S1.size inb_S32_S1_5).toLoadRect xt0 (Shape.Idx.first (numel1_S1.symm ▸ Nat.one_pos)))) (k0_hw7 : k0_chk7 (tbM0_0.view.readAt (Elt F) (Rect.unit (s := S32) ![6] S1.size inb_S32_S1_6).toLoadRect xt0 (Shape.Idx.first (numel1_S1.symm ▸ Nat.one_pos)))) (k0_hw8 : k0_chk8 (tbM0_0.view.readAt (Elt F) (Rect.unit (s := S32) ![7] S1.size inb_S32_S1_7).toLoadRect xt0 (Shape.Idx.first (numel1_S1.symm ▸ Nat.one_pos)))) (k0_hw9 : k0_chk9 (tbM0_0.view.readAt (Elt F) (Rect.unit (s := S32) ![8] S1.size inb_S32_S1_8).toLoadRect xt0 (Shape.Idx.first (numel1_S1.symm ▸ Nat.one_pos)))) (k0_hw10 : k0_chk10 (tbM0_0.view.readAt (Elt F) (Rect.unit (s := S32) ![9] S1.size inb_S32_S1_9).toLoadRect xt0 (Shape.Idx.first (numel1_S1.symm ▸ Nat.one_pos)))) (k0_hw11 : k0_chk11 (tbM0_0.view.readAt (Elt F) (Rect.unit (s := S32) ![10] S1.size inb_S32_S1_10).toLoadRect xt0 (Shape.Idx.first (numel1_S1.symm ▸ Nat.one_pos)))) (k0_hw12 : k0_chk12 (tbM0_0.view.readAt (Elt F) (Rect.unit (s := S32) ![11] S1.size inb_S32_S1_11).toLoadRect xt0 (Shape.Idx.first (numel1_S1.symm ▸ Nat.one_pos)))) (k0_hw13 : k0_chk13 (tbM0_0.view.readAt (Elt F) (Rect.unit (s := S32) ![12] S1.size inb_S32_S1_12).toLoadRect xt0 (Shape.Idx.first (numel1_S1.symm ▸ Nat.one_pos)))) (k0_hw14 : k0_chk14 (tbM0_0.view.readAt (Elt F) (Rect.unit (s := S32) ![13] S1.size inb_S32_S1_13).toLoadRect xt0 (Shape.Idx.first (numel1_S1.symm ▸ Nat.one_pos)))) (k0_hw15 : k0_chk15 (tbM0_0.view.readAt (Elt F) (Rect.unit (s := S32) ![14] S1.size inb_S32_S1_14).toLoadRect xt0 (Shape.Idx.first (numel1_S1.symm ▸ Nat.one_pos)))) (k0_hw16 : k0_chk16 (tbM0_0.view.readAt (Elt F) (Rect.unit (s := S32) ![15] S1.size inb_S32_S1_15).toLoadRect xt0 (Shape.Idx.first (numel1_S1.symm ▸ Nat.one_pos)))) (k0_hw17 : k0_chk17 (tbM0_0.view.readAt (Elt F) (Rect.unit (s := S32) ![16] S1.size inb_S32_S1_16).toLoadRect xt0 (Shape.Idx.first (numel1_S1.symm ▸ Nat.one_pos)))) (k0_hw18 : k0_chk18 (tbM0_0.view.readAt (Elt F) (Rect.unit (s := S32) ![17] S1.size inb_S32_S1_17).toLoadRect xt0 (Shape.Idx.first (numel1_S1.symm ▸ Nat.one_pos)))) (k0_hw19 : k0_chk19 (tbM0_0.view.readAt (Elt F) (Rect.unit (s := S32) ![18] S1.size inb_S32_S1_18).toLoadRect xt0 (Shape.Idx.first (numel1_S1.symm ▸ Nat.one_pos)))) (k0_hw20 : k0_chk20 (tbM0_0.view.readAt (Elt F) (Rect.unit (s := S32) ![19] S1.size inb_S32_S1_19).toLoadRect xt0 (Shape.Idx.first (numel1_S1.symm ▸ Nat.one_pos)))) (k0_hw21 : k0_chk21 (tbM0_0.view.readAt (Elt F) (Rect.unit (s := S32) ![20] S1.size inb_S32_S1_20).toLoadRect xt0 (Shape.Idx.first (numel1_S1.symm ▸ Nat.one_pos)))) (k0_hw22 : k0_chk22 (tbM0_0.view.readAt (Elt F) (Rect.unit (s := S32) ![21] S1.size inb_S32_S1_21).toLoadRect xt0 (Shape.Idx.first (numel1_S1.symm ▸ Nat.one_pos)))) (k0_hw23 : k0_chk23 (tbM0_0.view.readAt (Elt F) (Rect.unit (s := S32) ![22] S1.size inb_S32_S1_22).toLoadRect xt0 (Shape.Idx.first (numel1_S1.symm ▸ Nat.one_pos)))) (k0_hw24 : k0_chk24 (tbM0_0.view.readAt (Elt F) (Rect.unit (s := S32) ![23] S1.size inb_S32_S1_23).toLoadRect xt0 (Shape.Idx.first (numel1_S1.symm ▸ Nat.one_pos)))) (k0_hw25 : k0_chk25 (tbM0_0.view.readAt (Elt F) (Rect.unit (s := S32) ![24] S1.size inb_S32_S1_24).toLoadRect xt0 (Shape.Idx.first (numel1_S1.symm ▸ Nat.one_pos)))) (k0_hw26 : k0_chk26 (tbM0_0.view.readAt (Elt F) (Rect.unit (s := S32) ![25] S1.size inb_S32_S1_25).toLoadRect xt0 (Shape.Idx.first (numel1_S1.symm ▸ Nat.one_pos)))) (k0_hw27 : k0_chk27 (tbM0_0.view.readAt (Elt F) (Rect.unit (s := S32) ![26] S1.size inb_S32_S1_26).toLoadRect xt0 (Shape.Idx.first (numel1_S1.symm ▸ Nat.one_pos)))) (k0_hw28 : k0_chk28 (tbM0_0.view.readAt (Elt F) (Rect.unit (s := S32) ![27] S1.size inb_S32_S1_27).toLoadRect xt0 (Shape.Idx.first (numel1_S1.symm ▸ Nat.one_pos)))) (k0_hw29 : k0_chk29 (tbM0_0.view.readAt (Elt F) (Rect.unit (s := S32) ![28] S1.size inb_S32_S1_28).toLoadRect xt0 (Shape.Idx.first (numel1_S1.symm ▸ Nat.one_pos)))) (k0_hw30 : k0_chk30 (tbM0_0.view.readAt (Elt F) (Rect.unit (s := S32) ![29] S1.size inb_S32_S1_29).toLoadRect xt0 (Shape.Idx.first (numel1_S1.symm ▸ Nat.one_pos)))) (k0_hw31 : k0_chk31 (tbM0_0.view.readAt (Elt F) (Rect.unit (s := S32) ![30] S1.size inb_S32_S1_30).toLoadRect xt0 (Shape.Idx.first (numel1_S1.symm ▸ Nat.one_pos)))) (k0_hw32 : k0_chk32 (tbM0_0.view.readAt (Elt F) (Rect.unit (s := S32) ![31] S1.size inb_S32_S1_31).toLoadRect xt0 (Shape.Idx.first (numel1_S1.symm ▸ Nat.one_pos)))) (h : 10 < 32) :
    (![kernelRun0_A.sl.dma1 c xt0 fh0 k0_hw1, kernelRun0_A.sl.dma2 c xt0 fh0 k0_hw2, kernelRun0_A.sl.dma3 c xt0 fh0 k0_hw3, kernelRun0_A.sl.dma4 c xt0 fh0 k0_hw4, kernelRun0_A.sl.dma5 c xt0 fh0 k0_hw5, kernelRun0_A.sl.dma6 c xt0 fh0 k0_hw6, kernelRun0_A.sl.dma7 c xt0 fh0 k0_hw7, kernelRun0_A.sl.dma8 c xt0 fh0 k0_hw8, kernelRun0_A.sl.dma9 c xt0 fh0 k0_hw9, kernelRun0_A.sl.dma10 c xt0 fh0 k0_hw10, kernelRun0_A.sl.dma11 c xt0 fh0 k0_hw11, kernelRun0_A.sl.dma12 c xt0 fh0 k0_hw12, kernelRun0_A.sl.dma13 c xt0 fh0 k0_hw13, kernelRun0_A.sl.dma14 c xt0 fh0 k0_hw14, kernelRun0_A.sl.dma15 c xt0 fh0 k0_hw15, kernelRun0_A.sl.dma16 c xt0 fh0 k0_hw16, kernelRun0_A.sl.dma17 c xt0 fh0 k0_hw17, kernelRun0_A.sl.dma18 c xt0 fh0 k0_hw18, kernelRun0_A.sl.dma19 c xt0 fh0 k0_hw19, kernelRun0_A.sl.dma20 c xt0 fh0 k0_hw20, kernelRun0_A.sl.dma21 c xt0 fh0 k0_hw21, kernelRun0_A.sl.dma22 c xt0 fh0 k0_hw22, kernelRun0_A.sl.dma23 c xt0 fh0 k0_hw23, kernelRun0_A.sl.dma24 c xt0 fh0 k0_hw24, kernelRun0_A.sl.dma25 c xt0 fh0 k0_hw25, kernelRun0_A.sl.dma26 c xt0 fh0 k0_hw26, kernelRun0_A.sl.dma27 c xt0 fh0 k0_hw27, kernelRun0_A.sl.dma28 c xt0 fh0 k0_hw28, kernelRun0_A.sl.dma29 c xt0 fh0 k0_hw29, kernelRun0_A.sl.dma30 c xt0 fh0 k0_hw30, kernelRun0_A.sl.dma31 c xt0 fh0 k0_hw31, kernelRun0_A.sl.dma32 c xt0 fh0 k0_hw32] : Fin 32 → S512.Idx → Elt F .f32) ⟨10, h⟩ = kernelRun0_A.sl.dma11 c xt0 fh0 k0_hw11 := rfl
theorem look_11 (c : Dev nD) (xt0 : TbBuf0 (F := F) c tbM0_0) (fh0 : HbBuf0 (F := F) c hbM0_0) (k0_hw1 : k0_chk1 (tbM0_0.view.readAt (Elt F) (Rect.unit (s := S32) ![0] S1.size inb_S32_S1_0).toLoadRect xt0 (Shape.Idx.first (numel1_S1.symm ▸ Nat.one_pos)))) (k0_hw2 : k0_chk2 (tbM0_0.view.readAt (Elt F) (Rect.unit (s := S32) ![1] S1.size inb_S32_S1_1).toLoadRect xt0 (Shape.Idx.first (numel1_S1.symm ▸ Nat.one_pos)))) (k0_hw3 : k0_chk3 (tbM0_0.view.readAt (Elt F) (Rect.unit (s := S32) ![2] S1.size inb_S32_S1_2).toLoadRect xt0 (Shape.Idx.first (numel1_S1.symm ▸ Nat.one_pos)))) (k0_hw4 : k0_chk4 (tbM0_0.view.readAt (Elt F) (Rect.unit (s := S32) ![3] S1.size inb_S32_S1_3).toLoadRect xt0 (Shape.Idx.first (numel1_S1.symm ▸ Nat.one_pos)))) (k0_hw5 : k0_chk5 (tbM0_0.view.readAt (Elt F) (Rect.unit (s := S32) ![4] S1.size inb_S32_S1_4).toLoadRect xt0 (Shape.Idx.first (numel1_S1.symm ▸ Nat.one_pos)))) (k0_hw6 : k0_chk6 (tbM0_0.view.readAt (Elt F) (Rect.unit (s := S32) ![5] S1.size inb_S32_S1_5).toLoadRect xt0 (Shape.Idx.first (numel1_S1.symm ▸ Nat.one_pos)))) (k0_hw7 : k0_chk7 (tbM0_0.view.readAt (Elt F) (Rect.unit (s := S32) ![6] S1.size inb_S32_S1_6).toLoadRect xt0 (Shape.Idx.first (numel1_S1.symm ▸ Nat.one_pos)))) (k0_hw8 : k0_chk8 (tbM0_0.view.readAt (Elt F) (Rect.unit (s := S32) ![7] S1.size inb_S32_S1_7).toLoadRect xt0 (Shape.Idx.first (numel1_S1.symm ▸ Nat.one_pos)))) (k0_hw9 : k0_chk9 (tbM0_0.view.readAt (Elt F) (Rect.unit (s := S32) ![8] S1.size inb_S32_S1_8).toLoadRect xt0 (Shape.Idx.first (numel1_S1.symm ▸ Nat.one_pos)))) (k0_hw10 : k0_chk10 (tbM0_0.view.readAt (Elt F) (Rect.unit (s := S32) ![9] S1.size inb_S32_S1_9).toLoadRect xt0 (Shape.Idx.first (numel1_S1.symm ▸ Nat.one_pos)))) (k0_hw11 : k0_chk11 (tbM0_0.view.readAt (Elt F) (Rect.unit (s := S32) ![10] S1.size inb_S32_S1_10).toLoadRect xt0 (Shape.Idx.first (numel1_S1.symm ▸ Nat.one_pos)))) (k0_hw12 : k0_chk12 (tbM0_0.view.readAt (Elt F) (Rect.unit (s := S32) ![11] S1.size inb_S32_S1_11).toLoadRect xt0 (Shape.Idx.first (numel1_S1.symm ▸ Nat.one_pos)))) (k0_hw13 : k0_chk13 (tbM0_0.view.readAt (Elt F) (Rect.unit (s := S32) ![12] S1.size inb_S32_S1_12).toLoadRect xt0 (Shape.Idx.first (numel1_S1.symm ▸ Nat.one_pos)))) (k0_hw14 : k0_chk14 (tbM0_0.view.readAt (Elt F) (Rect.unit (s := S32) ![13] S1.size inb_S32_S1_13).toLoadRect xt0 (Shape.Idx.first (numel1_S1.symm ▸ Nat.one_pos)))) (k0_hw15 : k0_chk15 (tbM0_0.view.readAt (Elt F) (Rect.unit (s := S32) ![14] S1.size inb_S32_S1_14).toLoadRect xt0 (Shape.Idx.first (numel1_S1.symm ▸ Nat.one_pos)))) (k0_hw16 : k0_chk16 (tbM0_0.view.readAt (Elt F) (Rect.unit (s := S32) ![15] S1.size inb_S32_S1_15).toLoadRect xt0 (Shape.Idx.first (numel1_S1.symm ▸ Nat.one_pos)))) (k0_hw17 : k0_chk17 (tbM0_0.view.readAt (Elt F) (Rect.unit (s := S32) ![16] S1.size inb_S32_S1_16).toLoadRect xt0 (Shape.Idx.first (numel1_S1.symm ▸ Nat.one_pos)))) (k0_hw18 : k0_chk18 (tbM0_0.view.readAt (Elt F) (Rect.unit (s := S32) ![17] S1.size inb_S32_S1_17).toLoadRect xt0 (Shape.Idx.first (numel1_S1.symm ▸ Nat.one_pos)))) (k0_hw19 : k0_chk19 (tbM0_0.view.readAt (Elt F) (Rect.unit (s := S32) ![18] S1.size inb_S32_S1_18).toLoadRect xt0 (Shape.Idx.first (numel1_S1.symm ▸ Nat.one_pos)))) (k0_hw20 : k0_chk20 (tbM0_0.view.readAt (Elt F) (Rect.unit (s := S32) ![19] S1.size inb_S32_S1_19).toLoadRect xt0 (Shape.Idx.first (numel1_S1.symm ▸ Nat.one_pos)))) (k0_hw21 : k0_chk21 (tbM0_0.view.readAt (Elt F) (Rect.unit (s := S32) ![20] S1.size inb_S32_S1_20).toLoadRect xt0 (Shape.Idx.first (numel1_S1.symm ▸ Nat.one_pos)))) (k0_hw22 : k0_chk22 (tbM0_0.view.readAt (Elt F) (Rect.unit (s := S32) ![21] S1.size inb_S32_S1_21).toLoadRect xt0 (Shape.Idx.first (numel1_S1.symm ▸ Nat.one_pos)))) (k0_hw23 : k0_chk23 (tbM0_0.view.readAt (Elt F) (Rect.unit (s := S32) ![22] S1.size inb_S32_S1_22).toLoadRect xt0 (Shape.Idx.first (numel1_S1.symm ▸ Nat.one_pos)))) (k0_hw24 : k0_chk24 (tbM0_0.view.readAt (Elt F) (Rect.unit (s := S32) ![23] S1.size inb_S32_S1_23).toLoadRect xt0 (Shape.Idx.first (numel1_S1.symm ▸ Nat.one_pos)))) (k0_hw25 : k0_chk25 (tbM0_0.view.readAt (Elt F) (Rect.unit (s := S32) ![24] S1.size inb_S32_S1_24).toLoadRect xt0 (Shape.Idx.first (numel1_S1.symm ▸ Nat.one_pos)))) (k0_hw26 : k0_chk26 (tbM0_0.view.readAt (Elt F) (Rect.unit (s := S32) ![25] S1.size inb_S32_S1_25).toLoadRect xt0 (Shape.Idx.first (numel1_S1.symm ▸ Nat.one_pos)))) (k0_hw27 : k0_chk27 (tbM0_0.view.readAt (Elt F) (Rect.unit (s := S32) ![26] S1.size inb_S32_S1_26).toLoadRect xt0 (Shape.Idx.first (numel1_S1.symm ▸ Nat.one_pos)))) (k0_hw28 : k0_chk28 (tbM0_0.view.readAt (Elt F) (Rect.unit (s := S32) ![27] S1.size inb_S32_S1_27).toLoadRect xt0 (Shape.Idx.first (numel1_S1.symm ▸ Nat.one_pos)))) (k0_hw29 : k0_chk29 (tbM0_0.view.readAt (Elt F) (Rect.unit (s := S32) ![28] S1.size inb_S32_S1_28).toLoadRect xt0 (Shape.Idx.first (numel1_S1.symm ▸ Nat.one_pos)))) (k0_hw30 : k0_chk30 (tbM0_0.view.readAt (Elt F) (Rect.unit (s := S32) ![29] S1.size inb_S32_S1_29).toLoadRect xt0 (Shape.Idx.first (numel1_S1.symm ▸ Nat.one_pos)))) (k0_hw31 : k0_chk31 (tbM0_0.view.readAt (Elt F) (Rect.unit (s := S32) ![30] S1.size inb_S32_S1_30).toLoadRect xt0 (Shape.Idx.first (numel1_S1.symm ▸ Nat.one_pos)))) (k0_hw32 : k0_chk32 (tbM0_0.view.readAt (Elt F) (Rect.unit (s := S32) ![31] S1.size inb_S32_S1_31).toLoadRect xt0 (Shape.Idx.first (numel1_S1.symm ▸ Nat.one_pos)))) (h : 11 < 32) :
    (![kernelRun0_A.sl.dma1 c xt0 fh0 k0_hw1, kernelRun0_A.sl.dma2 c xt0 fh0 k0_hw2, kernelRun0_A.sl.dma3 c xt0 fh0 k0_hw3, kernelRun0_A.sl.dma4 c xt0 fh0 k0_hw4, kernelRun0_A.sl.dma5 c xt0 fh0 k0_hw5, kernelRun0_A.sl.dma6 c xt0 fh0 k0_hw6, kernelRun0_A.sl.dma7 c xt0 fh0 k0_hw7, kernelRun0_A.sl.dma8 c xt0 fh0 k0_hw8, kernelRun0_A.sl.dma9 c xt0 fh0 k0_hw9, kernelRun0_A.sl.dma10 c xt0 fh0 k0_hw10, kernelRun0_A.sl.dma11 c xt0 fh0 k0_hw11, kernelRun0_A.sl.dma12 c xt0 fh0 k0_hw12, kernelRun0_A.sl.dma13 c xt0 fh0 k0_hw13, kernelRun0_A.sl.dma14 c xt0 fh0 k0_hw14, kernelRun0_A.sl.dma15 c xt0 fh0 k0_hw15, kernelRun0_A.sl.dma16 c xt0 fh0 k0_hw16, kernelRun0_A.sl.dma17 c xt0 fh0 k0_hw17, kernelRun0_A.sl.dma18 c xt0 fh0 k0_hw18, kernelRun0_A.sl.dma19 c xt0 fh0 k0_hw19, kernelRun0_A.sl.dma20 c xt0 fh0 k0_hw20, kernelRun0_A.sl.dma21 c xt0 fh0 k0_hw21, kernelRun0_A.sl.dma22 c xt0 fh0 k0_hw22, kernelRun0_A.sl.dma23 c xt0 fh0 k0_hw23, kernelRun0_A.sl.dma24 c xt0 fh0 k0_hw24, kernelRun0_A.sl.dma25 c xt0 fh0 k0_hw25, kernelRun0_A.sl.dma26 c xt0 fh0 k0_hw26, kernelRun0_A.sl.dma27 c xt0 fh0 k0_hw27, kernelRun0_A.sl.dma28 c xt0 fh0 k0_hw28, kernelRun0_A.sl.dma29 c xt0 fh0 k0_hw29, kernelRun0_A.sl.dma30 c xt0 fh0 k0_hw30, kernelRun0_A.sl.dma31 c xt0 fh0 k0_hw31, kernelRun0_A.sl.dma32 c xt0 fh0 k0_hw32] : Fin 32 → S512.Idx → Elt F .f32) ⟨11, h⟩ = kernelRun0_A.sl.dma12 c xt0 fh0 k0_hw12 := rfl
theorem look_12 (c : Dev nD) (xt0 : TbBuf0 (F := F) c tbM0_0) (fh0 : HbBuf0 (F := F) c hbM0_0) (k0_hw1 : k0_chk1 (tbM0_0.view.readAt (Elt F) (Rect.unit (s := S32) ![0] S1.size inb_S32_S1_0).toLoadRect xt0 (Shape.Idx.first (numel1_S1.symm ▸ Nat.one_pos)))) (k0_hw2 : k0_chk2 (tbM0_0.view.readAt (Elt F) (Rect.unit (s := S32) ![1] S1.size inb_S32_S1_1).toLoadRect xt0 (Shape.Idx.first (numel1_S1.symm ▸ Nat.one_pos)))) (k0_hw3 : k0_chk3 (tbM0_0.view.readAt (Elt F) (Rect.unit (s := S32) ![2] S1.size inb_S32_S1_2).toLoadRect xt0 (Shape.Idx.first (numel1_S1.symm ▸ Nat.one_pos)))) (k0_hw4 : k0_chk4 (tbM0_0.view.readAt (Elt F) (Rect.unit (s := S32) ![3] S1.size inb_S32_S1_3).toLoadRect xt0 (Shape.Idx.first (numel1_S1.symm ▸ Nat.one_pos)))) (k0_hw5 : k0_chk5 (tbM0_0.view.readAt (Elt F) (Rect.unit (s := S32) ![4] S1.size inb_S32_S1_4).toLoadRect xt0 (Shape.Idx.first (numel1_S1.symm ▸ Nat.one_pos)))) (k0_hw6 : k0_chk6 (tbM0_0.view.readAt (Elt F) (Rect.unit (s := S32) ![5] S1.size inb_S32_S1_5).toLoadRect xt0 (Shape.Idx.first (numel1_S1.symm ▸ Nat.one_pos)))) (k0_hw7 : k0_chk7 (tbM0_0.view.readAt (Elt F) (Rect.unit (s := S32) ![6] S1.size inb_S32_S1_6).toLoadRect xt0 (Shape.Idx.first (numel1_S1.symm ▸ Nat.one_pos)))) (k0_hw8 : k0_chk8 (tbM0_0.view.readAt (Elt F) (Rect.unit (s := S32) ![7] S1.size inb_S32_S1_7).toLoadRect xt0 (Shape.Idx.first (numel1_S1.symm ▸ Nat.one_pos)))) (k0_hw9 : k0_chk9 (tbM0_0.view.readAt (Elt F) (Rect.unit (s := S32) ![8] S1.size inb_S32_S1_8).toLoadRect xt0 (Shape.Idx.first (numel1_S1.symm ▸ Nat.one_pos)))) (k0_hw10 : k0_chk10 (tbM0_0.view.readAt (Elt F) (Rect.unit (s := S32) ![9] S1.size inb_S32_S1_9).toLoadRect xt0 (Shape.Idx.first (numel1_S1.symm ▸ Nat.one_pos)))) (k0_hw11 : k0_chk11 (tbM0_0.view.readAt (Elt F) (Rect.unit (s := S32) ![10] S1.size inb_S32_S1_10).toLoadRect xt0 (Shape.Idx.first (numel1_S1.symm ▸ Nat.one_pos)))) (k0_hw12 : k0_chk12 (tbM0_0.view.readAt (Elt F) (Rect.unit (s := S32) ![11] S1.size inb_S32_S1_11).toLoadRect xt0 (Shape.Idx.first (numel1_S1.symm ▸ Nat.one_pos)))) (k0_hw13 : k0_chk13 (tbM0_0.view.readAt (Elt F) (Rect.unit (s := S32) ![12] S1.size inb_S32_S1_12).toLoadRect xt0 (Shape.Idx.first (numel1_S1.symm ▸ Nat.one_pos)))) (k0_hw14 : k0_chk14 (tbM0_0.view.readAt (Elt F) (Rect.unit (s := S32) ![13] S1.size inb_S32_S1_13).toLoadRect xt0 (Shape.Idx.first (numel1_S1.symm ▸ Nat.one_pos)))) (k0_hw15 : k0_chk15 (tbM0_0.view.readAt (Elt F) (Rect.unit (s := S32) ![14] S1.size inb_S32_S1_14).toLoadRect xt0 (Shape.Idx.first (numel1_S1.symm ▸ Nat.one_pos)))) (k0_hw16 : k0_chk16 (tbM0_0.view.readAt (Elt F) (Rect.unit (s := S32) ![15] S1.size inb_S32_S1_15).toLoadRect xt0 (Shape.Idx.first (numel1_S1.symm ▸ Nat.one_pos)))) (k0_hw17 : k0_chk17 (tbM0_0.view.readAt (Elt F) (Rect.unit (s := S32) ![16] S1.size inb_S32_S1_16).toLoadRect xt0 (Shape.Idx.first (numel1_S1.symm ▸ Nat.one_pos)))) (k0_hw18 : k0_chk18 (tbM0_0.view.readAt (Elt F) (Rect.unit (s := S32) ![17] S1.size inb_S32_S1_17).toLoadRect xt0 (Shape.Idx.first (numel1_S1.symm ▸ Nat.one_pos)))) (k0_hw19 : k0_chk19 (tbM0_0.view.readAt (Elt F) (Rect.unit (s := S32) ![18] S1.size inb_S32_S1_18).toLoadRect xt0 (Shape.Idx.first (numel1_S1.symm ▸ Nat.one_pos)))) (k0_hw20 : k0_chk20 (tbM0_0.view.readAt (Elt F) (Rect.unit (s := S32) ![19] S1.size inb_S32_S1_19).toLoadRect xt0 (Shape.Idx.first (numel1_S1.symm ▸ Nat.one_pos)))) (k0_hw21 : k0_chk21 (tbM0_0.view.readAt (Elt F) (Rect.unit (s := S32) ![20] S1.size inb_S32_S1_20).toLoadRect xt0 (Shape.Idx.first (numel1_S1.symm ▸ Nat.one_pos)))) (k0_hw22 : k0_chk22 (tbM0_0.view.readAt (Elt F) (Rect.unit (s := S32) ![21] S1.size inb_S32_S1_21).toLoadRect xt0 (Shape.Idx.first (numel1_S1.symm ▸ Nat.one_pos)))) (k0_hw23 : k0_chk23 (tbM0_0.view.readAt (Elt F) (Rect.unit (s := S32) ![22] S1.size inb_S32_S1_22).toLoadRect xt0 (Shape.Idx.first (numel1_S1.symm ▸ Nat.one_pos)))) (k0_hw24 : k0_chk24 (tbM0_0.view.readAt (Elt F) (Rect.unit (s := S32) ![23] S1.size inb_S32_S1_23).toLoadRect xt0 (Shape.Idx.first (numel1_S1.symm ▸ Nat.one_pos)))) (k0_hw25 : k0_chk25 (tbM0_0.view.readAt (Elt F) (Rect.unit (s := S32) ![24] S1.size inb_S32_S1_24).toLoadRect xt0 (Shape.Idx.first (numel1_S1.symm ▸ Nat.one_pos)))) (k0_hw26 : k0_chk26 (tbM0_0.view.readAt (Elt F) (Rect.unit (s := S32) ![25] S1.size inb_S32_S1_25).toLoadRect xt0 (Shape.Idx.first (numel1_S1.symm ▸ Nat.one_pos)))) (k0_hw27 : k0_chk27 (tbM0_0.view.readAt (Elt F) (Rect.unit (s := S32) ![26] S1.size inb_S32_S1_26).toLoadRect xt0 (Shape.Idx.first (numel1_S1.symm ▸ Nat.one_pos)))) (k0_hw28 : k0_chk28 (tbM0_0.view.readAt (Elt F) (Rect.unit (s := S32) ![27] S1.size inb_S32_S1_27).toLoadRect xt0 (Shape.Idx.first (numel1_S1.symm ▸ Nat.one_pos)))) (k0_hw29 : k0_chk29 (tbM0_0.view.readAt (Elt F) (Rect.unit (s := S32) ![28] S1.size inb_S32_S1_28).toLoadRect xt0 (Shape.Idx.first (numel1_S1.symm ▸ Nat.one_pos)))) (k0_hw30 : k0_chk30 (tbM0_0.view.readAt (Elt F) (Rect.unit (s := S32) ![29] S1.size inb_S32_S1_29).toLoadRect xt0 (Shape.Idx.first (numel1_S1.symm ▸ Nat.one_pos)))) (k0_hw31 : k0_chk31 (tbM0_0.view.readAt (Elt F) (Rect.unit (s := S32) ![30] S1.size inb_S32_S1_30).toLoadRect xt0 (Shape.Idx.first (numel1_S1.symm ▸ Nat.one_pos)))) (k0_hw32 : k0_chk32 (tbM0_0.view.readAt (Elt F) (Rect.unit (s := S32) ![31] S1.size inb_S32_S1_31).toLoadRect xt0 (Shape.Idx.first (numel1_S1.symm ▸ Nat.one_pos)))) (h : 12 < 32) :
    (![kernelRun0_A.sl.dma1 c xt0 fh0 k0_hw1, kernelRun0_A.sl.dma2 c xt0 fh0 k0_hw2, kernelRun0_A.sl.dma3 c xt0 fh0 k0_hw3, kernelRun0_A.sl.dma4 c xt0 fh0 k0_hw4, kernelRun0_A.sl.dma5 c xt0 fh0 k0_hw5, kernelRun0_A.sl.dma6 c xt0 fh0 k0_hw6, kernelRun0_A.sl.dma7 c xt0 fh0 k0_hw7, kernelRun0_A.sl.dma8 c xt0 fh0 k0_hw8, kernelRun0_A.sl.dma9 c xt0 fh0 k0_hw9, kernelRun0_A.sl.dma10 c xt0 fh0 k0_hw10, kernelRun0_A.sl.dma11 c xt0 fh0 k0_hw11, kernelRun0_A.sl.dma12 c xt0 fh0 k0_hw12, kernelRun0_A.sl.dma13 c xt0 fh0 k0_hw13, kernelRun0_A.sl.dma14 c xt0 fh0 k0_hw14, kernelRun0_A.sl.dma15 c xt0 fh0 k0_hw15, kernelRun0_A.sl.dma16 c xt0 fh0 k0_hw16, kernelRun0_A.sl.dma17 c xt0 fh0 k0_hw17, kernelRun0_A.sl.dma18 c xt0 fh0 k0_hw18, kernelRun0_A.sl.dma19 c xt0 fh0 k0_hw19, kernelRun0_A.sl.dma20 c xt0 fh0 k0_hw20, kernelRun0_A.sl.dma21 c xt0 fh0 k0_hw21, kernelRun0_A.sl.dma22 c xt0 fh0 k0_hw22, kernelRun0_A.sl.dma23 c xt0 fh0 k0_hw23, kernelRun0_A.sl.dma24 c xt0 fh0 k0_hw24, kernelRun0_A.sl.dma25 c xt0 fh0 k0_hw25, kernelRun0_A.sl.dma26 c xt0 fh0 k0_hw26, kernelRun0_A.sl.dma27 c xt0 fh0 k0_hw27, kernelRun0_A.sl.dma28 c xt0 fh0 k0_hw28, kernelRun0_A.sl.dma29 c xt0 fh0 k0_hw29, kernelRun0_A.sl.dma30 c xt0 fh0 k0_hw30, kernelRun0_A.sl.dma31 c xt0 fh0 k0_hw31, kernelRun0_A.sl.dma32 c xt0 fh0 k0_hw32] : Fin 32 → S512.Idx → Elt F .f32) ⟨12, h⟩ = kernelRun0_A.sl.dma13 c xt0 fh0 k0_hw13 := rfl
theorem look_13 (c : Dev nD) (xt0 : TbBuf0 (F := F) c tbM0_0) (fh0 : HbBuf0 (F := F) c hbM0_0) (k0_hw1 : k0_chk1 (tbM0_0.view.readAt (Elt F) (Rect.unit (s := S32) ![0] S1.size inb_S32_S1_0).toLoadRect xt0 (Shape.Idx.first (numel1_S1.symm ▸ Nat.one_pos)))) (k0_hw2 : k0_chk2 (tbM0_0.view.readAt (Elt F) (Rect.unit (s := S32) ![1] S1.size inb_S32_S1_1).toLoadRect xt0 (Shape.Idx.first (numel1_S1.symm ▸ Nat.one_pos)))) (k0_hw3 : k0_chk3 (tbM0_0.view.readAt (Elt F) (Rect.unit (s := S32) ![2] S1.size inb_S32_S1_2).toLoadRect xt0 (Shape.Idx.first (numel1_S1.symm ▸ Nat.one_pos)))) (k0_hw4 : k0_chk4 (tbM0_0.view.readAt (Elt F) (Rect.unit (s := S32) ![3] S1.size inb_S32_S1_3).toLoadRect xt0 (Shape.Idx.first (numel1_S1.symm ▸ Nat.one_pos)))) (k0_hw5 : k0_chk5 (tbM0_0.view.readAt (Elt F) (Rect.unit (s := S32) ![4] S1.size inb_S32_S1_4).toLoadRect xt0 (Shape.Idx.first (numel1_S1.symm ▸ Nat.one_pos)))) (k0_hw6 : k0_chk6 (tbM0_0.view.readAt (Elt F) (Rect.unit (s := S32) ![5] S1.size inb_S32_S1_5).toLoadRect xt0 (Shape.Idx.first (numel1_S1.symm ▸ Nat.one_pos)))) (k0_hw7 : k0_chk7 (tbM0_0.view.readAt (Elt F) (Rect.unit (s := S32) ![6] S1.size inb_S32_S1_6).toLoadRect xt0 (Shape.Idx.first (numel1_S1.symm ▸ Nat.one_pos)))) (k0_hw8 : k0_chk8 (tbM0_0.view.readAt (Elt F) (Rect.unit (s := S32) ![7] S1.size inb_S32_S1_7).toLoadRect xt0 (Shape.Idx.first (numel1_S1.symm ▸ Nat.one_pos)))) (k0_hw9 : k0_chk9 (tbM0_0.view.readAt (Elt F) (Rect.unit (s := S32) ![8] S1.size inb_S32_S1_8).toLoadRect xt0 (Shape.Idx.first (numel1_S1.symm ▸ Nat.one_pos)))) (k0_hw10 : k0_chk10 (tbM0_0.view.readAt (Elt F) (Rect.unit (s := S32) ![9] S1.size inb_S32_S1_9).toLoadRect xt0 (Shape.Idx.first (numel1_S1.symm ▸ Nat.one_pos)))) (k0_hw11 : k0_chk11 (tbM0_0.view.readAt (Elt F) (Rect.unit (s := S32) ![10] S1.size inb_S32_S1_10).toLoadRect xt0 (Shape.Idx.first (numel1_S1.symm ▸ Nat.one_pos)))) (k0_hw12 : k0_chk12 (tbM0_0.view.readAt (Elt F) (Rect.unit (s := S32) ![11] S1.size inb_S32_S1_11).toLoadRect xt0 (Shape.Idx.first (numel1_S1.symm ▸ Nat.one_pos)))) (k0_hw13 : k0_chk13 (tbM0_0.view.readAt (Elt F) (Rect.unit (s := S32) ![12] S1.size inb_S32_S1_12).toLoadRect xt0 (Shape.Idx.first (numel1_S1.symm ▸ Nat.one_pos)))) (k0_hw14 : k0_chk14 (tbM0_0.view.readAt (Elt F) (Rect.unit (s := S32) ![13] S1.size inb_S32_S1_13).toLoadRect xt0 (Shape.Idx.first (numel1_S1.symm ▸ Nat.one_pos)))) (k0_hw15 : k0_chk15 (tbM0_0.view.readAt (Elt F) (Rect.unit (s := S32) ![14] S1.size inb_S32_S1_14).toLoadRect xt0 (Shape.Idx.first (numel1_S1.symm ▸ Nat.one_pos)))) (k0_hw16 : k0_chk16 (tbM0_0.view.readAt (Elt F) (Rect.unit (s := S32) ![15] S1.size inb_S32_S1_15).toLoadRect xt0 (Shape.Idx.first (numel1_S1.symm ▸ Nat.one_pos)))) (k0_hw17 : k0_chk17 (tbM0_0.view.readAt (Elt F) (Rect.unit (s := S32) ![16] S1.size inb_S32_S1_16).toLoadRect xt0 (Shape.Idx.first (numel1_S1.symm ▸ Nat.one_pos)))) (k0_hw18 : k0_chk18 (tbM0_0.view.readAt (Elt F) (Rect.unit (s := S32) ![17] S1.size inb_S32_S1_17).toLoadRect xt0 (Shape.Idx.first (numel1_S1.symm ▸ Nat.one_pos)))) (k0_hw19 : k0_chk19 (tbM0_0.view.readAt (Elt F) (Rect.unit (s := S32) ![18] S1.size inb_S32_S1_18).toLoadRect xt0 (Shape.Idx.first (numel1_S1.symm ▸ Nat.one_pos)))) (k0_hw20 : k0_chk20 (tbM0_0.view.readAt (Elt F) (Rect.unit (s := S32) ![19] S1.size inb_S32_S1_19).toLoadRect xt0 (Shape.Idx.first (numel1_S1.symm ▸ Nat.one_pos)))) (k0_hw21 : k0_chk21 (tbM0_0.view.readAt (Elt F) (Rect.unit (s := S32) ![20] S1.size inb_S32_S1_20).toLoadRect xt0 (Shape.Idx.first (numel1_S1.symm ▸ Nat.one_pos)))) (k0_hw22 : k0_chk22 (tbM0_0.view.readAt (Elt F) (Rect.unit (s := S32) ![21] S1.size inb_S32_S1_21).toLoadRect xt0 (Shape.Idx.first (numel1_S1.symm ▸ Nat.one_pos)))) (k0_hw23 : k0_chk23 (tbM0_0.view.readAt (Elt F) (Rect.unit (s := S32) ![22] S1.size inb_S32_S1_22).toLoadRect xt0 (Shape.Idx.first (numel1_S1.symm ▸ Nat.one_pos)))) (k0_hw24 : k0_chk24 (tbM0_0.view.readAt (Elt F) (Rect.unit (s := S32) ![23] S1.size inb_S32_S1_23).toLoadRect xt0 (Shape.Idx.first (numel1_S1.symm ▸ Nat.one_pos)))) (k0_hw25 : k0_chk25 (tbM0_0.view.readAt (Elt F) (Rect.unit (s := S32) ![24] S1.size inb_S32_S1_24).toLoadRect xt0 (Shape.Idx.first (numel1_S1.symm ▸ Nat.one_pos)))) (k0_hw26 : k0_chk26 (tbM0_0.view.readAt (Elt F) (Rect.unit (s := S32) ![25] S1.size inb_S32_S1_25).toLoadRect xt0 (Shape.Idx.first (numel1_S1.symm ▸ Nat.one_pos)))) (k0_hw27 : k0_chk27 (tbM0_0.view.readAt (Elt F) (Rect.unit (s := S32) ![26] S1.size inb_S32_S1_26).toLoadRect xt0 (Shape.Idx.first (numel1_S1.symm ▸ Nat.one_pos)))) (k0_hw28 : k0_chk28 (tbM0_0.view.readAt (Elt F) (Rect.unit (s := S32) ![27] S1.size inb_S32_S1_27).toLoadRect xt0 (Shape.Idx.first (numel1_S1.symm ▸ Nat.one_pos)))) (k0_hw29 : k0_chk29 (tbM0_0.view.readAt (Elt F) (Rect.unit (s := S32) ![28] S1.size inb_S32_S1_28).toLoadRect xt0 (Shape.Idx.first (numel1_S1.symm ▸ Nat.one_pos)))) (k0_hw30 : k0_chk30 (tbM0_0.view.readAt (Elt F) (Rect.unit (s := S32) ![29] S1.size inb_S32_S1_29).toLoadRect xt0 (Shape.Idx.first (numel1_S1.symm ▸ Nat.one_pos)))) (k0_hw31 : k0_chk31 (tbM0_0.view.readAt (Elt F) (Rect.unit (s := S32) ![30] S1.size inb_S32_S1_30).toLoadRect xt0 (Shape.Idx.first (numel1_S1.symm ▸ Nat.one_pos)))) (k0_hw32 : k0_chk32 (tbM0_0.view.readAt (Elt F) (Rect.unit (s := S32) ![31] S1.size inb_S32_S1_31).toLoadRect xt0 (Shape.Idx.first (numel1_S1.symm ▸ Nat.one_pos)))) (h : 13 < 32) :
    (![kernelRun0_A.sl.dma1 c xt0 fh0 k0_hw1, kernelRun0_A.sl.dma2 c xt0 fh0 k0_hw2, kernelRun0_A.sl.dma3 c xt0 fh0 k0_hw3, kernelRun0_A.sl.dma4 c xt0 fh0 k0_hw4, kernelRun0_A.sl.dma5 c xt0 fh0 k0_hw5, kernelRun0_A.sl.dma6 c xt0 fh0 k0_hw6, kernelRun0_A.sl.dma7 c xt0 fh0 k0_hw7, kernelRun0_A.sl.dma8 c xt0 fh0 k0_hw8, kernelRun0_A.sl.dma9 c xt0 fh0 k0_hw9, kernelRun0_A.sl.dma10 c xt0 fh0 k0_hw10, kernelRun0_A.sl.dma11 c xt0 fh0 k0_hw11, kernelRun0_A.sl.dma12 c xt0 fh0 k0_hw12, kernelRun0_A.sl.dma13 c xt0 fh0 k0_hw13, kernelRun0_A.sl.dma14 c xt0 fh0 k0_hw14, kernelRun0_A.sl.dma15 c xt0 fh0 k0_hw15, kernelRun0_A.sl.dma16 c xt0 fh0 k0_hw16, kernelRun0_A.sl.dma17 c xt0 fh0 k0_hw17, kernelRun0_A.sl.dma18 c xt0 fh0 k0_hw18, kernelRun0_A.sl.dma19 c xt0 fh0 k0_hw19, kernelRun0_A.sl.dma20 c xt0 fh0 k0_hw20, kernelRun0_A.sl.dma21 c xt0 fh0 k0_hw21, kernelRun0_A.sl.dma22 c xt0 fh0 k0_hw22, kernelRun0_A.sl.dma23 c xt0 fh0 k0_hw23, kernelRun0_A.sl.dma24 c xt0 fh0 k0_hw24, kernelRun0_A.sl.dma25 c xt0 fh0 k0_hw25, kernelRun0_A.sl.dma26 c xt0 fh0 k0_hw26, kernelRun0_A.sl.dma27 c xt0 fh0 k0_hw27, kernelRun0_A.sl.dma28 c xt0 fh0 k0_hw28, kernelRun0_A.sl.dma29 c xt0 fh0 k0_hw29, kernelRun0_A.sl.dma30 c xt0 fh0 k0_hw30, kernelRun0_A.sl.dma31 c xt0 fh0 k0_hw31, kernelRun0_A.sl.dma32 c xt0 fh0 k0_hw32] : Fin 32 → S512.Idx → Elt F .f32) ⟨13, h⟩ = kernelRun0_A.sl.dma14 c xt0 fh0 k0_hw14 := rfl
theorem look_14 (c : Dev nD) (xt0 : TbBuf0 (F := F) c tbM0_0) (fh0 : HbBuf0 (F := F) c hbM0_0) (k0_hw1 : k0_chk1 (tbM0_0.view.readAt (Elt F) (Rect.unit (s := S32) ![0] S1.size inb_S32_S1_0).toLoadRect xt0 (Shape.Idx.first (numel1_S1.symm ▸ Nat.one_pos)))) (k0_hw2 : k0_chk2 (tbM0_0.view.readAt (Elt F) (Rect.unit (s := S32) ![1] S1.size inb_S32_S1_1).toLoadRect xt0 (Shape.Idx.first (numel1_S1.symm ▸ Nat.one_pos)))) (k0_hw3 : k0_chk3 (tbM0_0.view.readAt (Elt F) (Rect.unit (s := S32) ![2] S1.size inb_S32_S1_2).toLoadRect xt0 (Shape.Idx.first (numel1_S1.symm ▸ Nat.one_pos)))) (k0_hw4 : k0_chk4 (tbM0_0.view.readAt (Elt F) (Rect.unit (s := S32) ![3] S1.size inb_S32_S1_3).toLoadRect xt0 (Shape.Idx.first (numel1_S1.symm ▸ Nat.one_pos)))) (k0_hw5 : k0_chk5 (tbM0_0.view.readAt (Elt F) (Rect.unit (s := S32) ![4] S1.size inb_S32_S1_4).toLoadRect xt0 (Shape.Idx.first (numel1_S1.symm ▸ Nat.one_pos)))) (k0_hw6 : k0_chk6 (tbM0_0.view.readAt (Elt F) (Rect.unit (s := S32) ![5] S1.size inb_S32_S1_5).toLoadRect xt0 (Shape.Idx.first (numel1_S1.symm ▸ Nat.one_pos)))) (k0_hw7 : k0_chk7 (tbM0_0.view.readAt (Elt F) (Rect.unit (s := S32) ![6] S1.size inb_S32_S1_6).toLoadRect xt0 (Shape.Idx.first (numel1_S1.symm ▸ Nat.one_pos)))) (k0_hw8 : k0_chk8 (tbM0_0.view.readAt (Elt F) (Rect.unit (s := S32) ![7] S1.size inb_S32_S1_7).toLoadRect xt0 (Shape.Idx.first (numel1_S1.symm ▸ Nat.one_pos)))) (k0_hw9 : k0_chk9 (tbM0_0.view.readAt (Elt F) (Rect.unit (s := S32) ![8] S1.size inb_S32_S1_8).toLoadRect xt0 (Shape.Idx.first (numel1_S1.symm ▸ Nat.one_pos)))) (k0_hw10 : k0_chk10 (tbM0_0.view.readAt (Elt F) (Rect.unit (s := S32) ![9] S1.size inb_S32_S1_9).toLoadRect xt0 (Shape.Idx.first (numel1_S1.symm ▸ Nat.one_pos)))) (k0_hw11 : k0_chk11 (tbM0_0.view.readAt (Elt F) (Rect.unit (s := S32) ![10] S1.size inb_S32_S1_10).toLoadRect xt0 (Shape.Idx.first (numel1_S1.symm ▸ Nat.one_pos)))) (k0_hw12 : k0_chk12 (tbM0_0.view.readAt (Elt F) (Rect.unit (s := S32) ![11] S1.size inb_S32_S1_11).toLoadRect xt0 (Shape.Idx.first (numel1_S1.symm ▸ Nat.one_pos)))) (k0_hw13 : k0_chk13 (tbM0_0.view.readAt (Elt F) (Rect.unit (s := S32) ![12] S1.size inb_S32_S1_12).toLoadRect xt0 (Shape.Idx.first (numel1_S1.symm ▸ Nat.one_pos)))) (k0_hw14 : k0_chk14 (tbM0_0.view.readAt (Elt F) (Rect.unit (s := S32) ![13] S1.size inb_S32_S1_13).toLoadRect xt0 (Shape.Idx.first (numel1_S1.symm ▸ Nat.one_pos)))) (k0_hw15 : k0_chk15 (tbM0_0.view.readAt (Elt F) (Rect.unit (s := S32) ![14] S1.size inb_S32_S1_14).toLoadRect xt0 (Shape.Idx.first (numel1_S1.symm ▸ Nat.one_pos)))) (k0_hw16 : k0_chk16 (tbM0_0.view.readAt (Elt F) (Rect.unit (s := S32) ![15] S1.size inb_S32_S1_15).toLoadRect xt0 (Shape.Idx.first (numel1_S1.symm ▸ Nat.one_pos)))) (k0_hw17 : k0_chk17 (tbM0_0.view.readAt (Elt F) (Rect.unit (s := S32) ![16] S1.size inb_S32_S1_16).toLoadRect xt0 (Shape.Idx.first (numel1_S1.symm ▸ Nat.one_pos)))) (k0_hw18 : k0_chk18 (tbM0_0.view.readAt (Elt F) (Rect.unit (s := S32) ![17] S1.size inb_S32_S1_17).toLoadRect xt0 (Shape.Idx.first (numel1_S1.symm ▸ Nat.one_pos)))) (k0_hw19 : k0_chk19 (tbM0_0.view.readAt (Elt F) (Rect.unit (s := S32) ![18] S1.size inb_S32_S1_18).toLoadRect xt0 (Shape.Idx.first (numel1_S1.symm ▸ Nat.one_pos)))) (k0_hw20 : k0_chk20 (tbM0_0.view.readAt (Elt F) (Rect.unit (s := S32) ![19] S1.size inb_S32_S1_19).toLoadRect xt0 (Shape.Idx.first (numel1_S1.symm ▸ Nat.one_pos)))) (k0_hw21 : k0_chk21 (tbM0_0.view.readAt (Elt F) (Rect.unit (s := S32) ![20] S1.size inb_S32_S1_20).toLoadRect xt0 (Shape.Idx.first (numel1_S1.symm ▸ Nat.one_pos)))) (k0_hw22 : k0_chk22 (tbM0_0.view.readAt (Elt F) (Rect.unit (s := S32) ![21] S1.size inb_S32_S1_21).toLoadRect xt0 (Shape.Idx.first (numel1_S1.symm ▸ Nat.one_pos)))) (k0_hw23 : k0_chk23 (tbM0_0.view.readAt (Elt F) (Rect.unit (s := S32) ![22] S1.size inb_S32_S1_22).toLoadRect xt0 (Shape.Idx.first (numel1_S1.symm ▸ Nat.one_pos)))) (k0_hw24 : k0_chk24 (tbM0_0.view.readAt (Elt F) (Rect.unit (s := S32) ![23] S1.size inb_S32_S1_23).toLoadRect xt0 (Shape.Idx.first (numel1_S1.symm ▸ Nat.one_pos)))) (k0_hw25 : k0_chk25 (tbM0_0.view.readAt (Elt F) (Rect.unit (s := S32) ![24] S1.size inb_S32_S1_24).toLoadRect xt0 (Shape.Idx.first (numel1_S1.symm ▸ Nat.one_pos)))) (k0_hw26 : k0_chk26 (tbM0_0.view.readAt (Elt F) (Rect.unit (s := S32) ![25] S1.size inb_S32_S1_25).toLoadRect xt0 (Shape.Idx.first (numel1_S1.symm ▸ Nat.one_pos)))) (k0_hw27 : k0_chk27 (tbM0_0.view.readAt (Elt F) (Rect.unit (s := S32) ![26] S1.size inb_S32_S1_26).toLoadRect xt0 (Shape.Idx.first (numel1_S1.symm ▸ Nat.one_pos)))) (k0_hw28 : k0_chk28 (tbM0_0.view.readAt (Elt F) (Rect.unit (s := S32) ![27] S1.size inb_S32_S1_27).toLoadRect xt0 (Shape.Idx.first (numel1_S1.symm ▸ Nat.one_pos)))) (k0_hw29 : k0_chk29 (tbM0_0.view.readAt (Elt F) (Rect.unit (s := S32) ![28] S1.size inb_S32_S1_28).toLoadRect xt0 (Shape.Idx.first (numel1_S1.symm ▸ Nat.one_pos)))) (k0_hw30 : k0_chk30 (tbM0_0.view.readAt (Elt F) (Rect.unit (s := S32) ![29] S1.size inb_S32_S1_29).toLoadRect xt0 (Shape.Idx.first (numel1_S1.symm ▸ Nat.one_pos)))) (k0_hw31 : k0_chk31 (tbM0_0.view.readAt (Elt F) (Rect.unit (s := S32) ![30] S1.size inb_S32_S1_30).toLoadRect xt0 (Shape.Idx.first (numel1_S1.symm ▸ Nat.one_pos)))) (k0_hw32 : k0_chk32 (tbM0_0.view.readAt (Elt F) (Rect.unit (s := S32) ![31] S1.size inb_S32_S1_31).toLoadRect xt0 (Shape.Idx.first (numel1_S1.symm ▸ Nat.one_pos)))) (h : 14 < 32) :
    (![kernelRun0_A.sl.dma1 c xt0 fh0 k0_hw1, kernelRun0_A.sl.dma2 c xt0 fh0 k0_hw2, kernelRun0_A.sl.dma3 c xt0 fh0 k0_hw3, kernelRun0_A.sl.dma4 c xt0 fh0 k0_hw4, kernelRun0_A.sl.dma5 c xt0 fh0 k0_hw5, kernelRun0_A.sl.dma6 c xt0 fh0 k0_hw6, kernelRun0_A.sl.dma7 c xt0 fh0 k0_hw7, kernelRun0_A.sl.dma8 c xt0 fh0 k0_hw8, kernelRun0_A.sl.dma9 c xt0 fh0 k0_hw9, kernelRun0_A.sl.dma10 c xt0 fh0 k0_hw10, kernelRun0_A.sl.dma11 c xt0 fh0 k0_hw11, kernelRun0_A.sl.dma12 c xt0 fh0 k0_hw12, kernelRun0_A.sl.dma13 c xt0 fh0 k0_hw13, kernelRun0_A.sl.dma14 c xt0 fh0 k0_hw14, kernelRun0_A.sl.dma15 c xt0 fh0 k0_hw15, kernelRun0_A.sl.dma16 c xt0 fh0 k0_hw16, kernelRun0_A.sl.dma17 c xt0 fh0 k0_hw17, kernelRun0_A.sl.dma18 c xt0 fh0 k0_hw18, kernelRun0_A.sl.dma19 c xt0 fh0 k0_hw19, kernelRun0_A.sl.dma20 c xt0 fh0 k0_hw20, kernelRun0_A.sl.dma21 c xt0 fh0 k0_hw21, kernelRun0_A.sl.dma22 c xt0 fh0 k0_hw22, kernelRun0_A.sl.dma23 c xt0 fh0 k0_hw23, kernelRun0_A.sl.dma24 c xt0 fh0 k0_hw24, kernelRun0_A.sl.dma25 c xt0 fh0 k0_hw25, kernelRun0_A.sl.dma26 c xt0 fh0 k0_hw26, kernelRun0_A.sl.dma27 c xt0 fh0 k0_hw27, kernelRun0_A.sl.dma28 c xt0 fh0 k0_hw28, kernelRun0_A.sl.dma29 c xt0 fh0 k0_hw29, kernelRun0_A.sl.dma30 c xt0 fh0 k0_hw30, kernelRun0_A.sl.dma31 c xt0 fh0 k0_hw31, kernelRun0_A.sl.dma32 c xt0 fh0 k0_hw32] : Fin 32 → S512.Idx → Elt F .f32) ⟨14, h⟩ = kernelRun0_A.sl.dma15 c xt0 fh0 k0_hw15 := rfl
theorem look_15 (c : Dev nD) (xt0 : TbBuf0 (F := F) c tbM0_0) (fh0 : HbBuf0 (F := F) c hbM0_0) (k0_hw1 : k0_chk1 (tbM0_0.view.readAt (Elt F) (Rect.unit (s := S32) ![0] S1.size inb_S32_S1_0).toLoadRect xt0 (Shape.Idx.first (numel1_S1.symm ▸ Nat.one_pos)))) (k0_hw2 : k0_chk2 (tbM0_0.view.readAt (Elt F) (Rect.unit (s := S32) ![1] S1.size inb_S32_S1_1).toLoadRect xt0 (Shape.Idx.first (numel1_S1.symm ▸ Nat.one_pos)))) (k0_hw3 : k0_chk3 (tbM0_0.view.readAt (Elt F) (Rect.unit (s := S32) ![2] S1.size inb_S32_S1_2).toLoadRect xt0 (Shape.Idx.first (numel1_S1.symm ▸ Nat.one_pos)))) (k0_hw4 : k0_chk4 (tbM0_0.view.readAt (Elt F) (Rect.unit (s := S32) ![3] S1.size inb_S32_S1_3).toLoadRect xt0 (Shape.Idx.first (numel1_S1.symm ▸ Nat.one_pos)))) (k0_hw5 : k0_chk5 (tbM0_0.view.readAt (Elt F) (Rect.unit (s := S32) ![4] S1.size inb_S32_S1_4).toLoadRect xt0 (Shape.Idx.first (numel1_S1.symm ▸ Nat.one_pos)))) (k0_hw6 : k0_chk6 (tbM0_0.view.readAt (Elt F) (Rect.unit (s := S32) ![5] S1.size inb_S32_S1_5).toLoadRect xt0 (Shape.Idx.first (numel1_S1.symm ▸ Nat.one_pos)))) (k0_hw7 : k0_chk7 (tbM0_0.view.readAt (Elt F) (Rect.unit (s := S32) ![6] S1.size inb_S32_S1_6).toLoadRect xt0 (Shape.Idx.first (numel1_S1.symm ▸ Nat.one_pos)))) (k0_hw8 : k0_chk8 (tbM0_0.view.readAt (Elt F) (Rect.unit (s := S32) ![7] S1.size inb_S32_S1_7).toLoadRect xt0 (Shape.Idx.first (numel1_S1.symm ▸ Nat.one_pos)))) (k0_hw9 : k0_chk9 (tbM0_0.view.readAt (Elt F) (Rect.unit (s := S32) ![8] S1.size inb_S32_S1_8).toLoadRect xt0 (Shape.Idx.first (numel1_S1.symm ▸ Nat.one_pos)))) (k0_hw10 : k0_chk10 (tbM0_0.view.readAt (Elt F) (Rect.unit (s := S32) ![9] S1.size inb_S32_S1_9).toLoadRect xt0 (Shape.Idx.first (numel1_S1.symm ▸ Nat.one_pos)))) (k0_hw11 : k0_chk11 (tbM0_0.view.readAt (Elt F) (Rect.unit (s := S32) ![10] S1.size inb_S32_S1_10).toLoadRect xt0 (Shape.Idx.first (numel1_S1.symm ▸ Nat.one_pos)))) (k0_hw12 : k0_chk12 (tbM0_0.view.readAt (Elt F) (Rect.unit (s := S32) ![11] S1.size inb_S32_S1_11).toLoadRect xt0 (Shape.Idx.first (numel1_S1.symm ▸ Nat.one_pos)))) (k0_hw13 : k0_chk13 (tbM0_0.view.readAt (Elt F) (Rect.unit (s := S32) ![12] S1.size inb_S32_S1_12).toLoadRect xt0 (Shape.Idx.first (numel1_S1.symm ▸ Nat.one_pos)))) (k0_hw14 : k0_chk14 (tbM0_0.view.readAt (Elt F) (Rect.unit (s := S32) ![13] S1.size inb_S32_S1_13).toLoadRect xt0 (Shape.Idx.first (numel1_S1.symm ▸ Nat.one_pos)))) (k0_hw15 : k0_chk15 (tbM0_0.view.readAt (Elt F) (Rect.unit (s := S32) ![14] S1.size inb_S32_S1_14).toLoadRect xt0 (Shape.Idx.first (numel1_S1.symm ▸ Nat.one_pos)))) (k0_hw16 : k0_chk16 (tbM0_0.view.readAt (Elt F) (Rect.unit (s := S32) ![15] S1.size inb_S32_S1_15).toLoadRect xt0 (Shape.Idx.first (numel1_S1.symm ▸ Nat.one_pos)))) (k0_hw17 : k0_chk17 (tbM0_0.view.readAt (Elt F) (Rect.unit (s := S32) ![16] S1.size inb_S32_S1_16).toLoadRect xt0 (Shape.Idx.first (numel1_S1.symm ▸ Nat.one_pos)))) (k0_hw18 : k0_chk18 (tbM0_0.view.readAt (Elt F) (Rect.unit (s := S32) ![17] S1.size inb_S32_S1_17).toLoadRect xt0 (Shape.Idx.first (numel1_S1.symm ▸ Nat.one_pos)))) (k0_hw19 : k0_chk19 (tbM0_0.view.readAt (Elt F) (Rect.unit (s := S32) ![18] S1.size inb_S32_S1_18).toLoadRect xt0 (Shape.Idx.first (numel1_S1.symm ▸ Nat.one_pos)))) (k0_hw20 : k0_chk20 (tbM0_0.view.readAt (Elt F) (Rect.unit (s := S32) ![19] S1.size inb_S32_S1_19).toLoadRect xt0 (Shape.Idx.first (numel1_S1.symm ▸ Nat.one_pos)))) (k0_hw21 : k0_chk21 (tbM0_0.view.readAt (Elt F) (Rect.unit (s := S32) ![20] S1.size inb_S32_S1_20).toLoadRect xt0 (Shape.Idx.first (numel1_S1.symm ▸ Nat.one_pos)))) (k0_hw22 : k0_chk22 (tbM0_0.view.readAt (Elt F) (Rect.unit (s := S32) ![21] S1.size inb_S32_S1_21).toLoadRect xt0 (Shape.Idx.first (numel1_S1.symm ▸ Nat.one_pos)))) (k0_hw23 : k0_chk23 (tbM0_0.view.readAt (Elt F) (Rect.unit (s := S32) ![22] S1.size inb_S32_S1_22).toLoadRect xt0 (Shape.Idx.first (numel1_S1.symm ▸ Nat.one_pos)))) (k0_hw24 : k0_chk24 (tbM0_0.view.readAt (Elt F) (Rect.unit (s := S32) ![23] S1.size inb_S32_S1_23).toLoadRect xt0 (Shape.Idx.first (numel1_S1.symm ▸ Nat.one_pos)))) (k0_hw25 : k0_chk25 (tbM0_0.view.readAt (Elt F) (Rect.unit (s := S32) ![24] S1.size inb_S32_S1_24).toLoadRect xt0 (Shape.Idx.first (numel1_S1.symm ▸ Nat.one_pos)))) (k0_hw26 : k0_chk26 (tbM0_0.view.readAt (Elt F) (Rect.unit (s := S32) ![25] S1.size inb_S32_S1_25).toLoadRect xt0 (Shape.Idx.first (numel1_S1.symm ▸ Nat.one_pos)))) (k0_hw27 : k0_chk27 (tbM0_0.view.readAt (Elt F) (Rect.unit (s := S32) ![26] S1.size inb_S32_S1_26).toLoadRect xt0 (Shape.Idx.first (numel1_S1.symm ▸ Nat.one_pos)))) (k0_hw28 : k0_chk28 (tbM0_0.view.readAt (Elt F) (Rect.unit (s := S32) ![27] S1.size inb_S32_S1_27).toLoadRect xt0 (Shape.Idx.first (numel1_S1.symm ▸ Nat.one_pos)))) (k0_hw29 : k0_chk29 (tbM0_0.view.readAt (Elt F) (Rect.unit (s := S32) ![28] S1.size inb_S32_S1_28).toLoadRect xt0 (Shape.Idx.first (numel1_S1.symm ▸ Nat.one_pos)))) (k0_hw30 : k0_chk30 (tbM0_0.view.readAt (Elt F) (Rect.unit (s := S32) ![29] S1.size inb_S32_S1_29).toLoadRect xt0 (Shape.Idx.first (numel1_S1.symm ▸ Nat.one_pos)))) (k0_hw31 : k0_chk31 (tbM0_0.view.readAt (Elt F) (Rect.unit (s := S32) ![30] S1.size inb_S32_S1_30).toLoadRect xt0 (Shape.Idx.first (numel1_S1.symm ▸ Nat.one_pos)))) (k0_hw32 : k0_chk32 (tbM0_0.view.readAt (Elt F) (Rect.unit (s := S32) ![31] S1.size inb_S32_S1_31).toLoadRect xt0 (Shape.Idx.first (numel1_S1.symm ▸ Nat.one_pos)))) (h : 15 < 32) :
    (![kernelRun0_A.sl.dma1 c xt0 fh0 k0_hw1, kernelRun0_A.sl.dma2 c xt0 fh0 k0_hw2, kernelRun0_A.sl.dma3 c xt0 fh0 k0_hw3, kernelRun0_A.sl.dma4 c xt0 fh0 k0_hw4, kernelRun0_A.sl.dma5 c xt0 fh0 k0_hw5, kernelRun0_A.sl.dma6 c xt0 fh0 k0_hw6, kernelRun0_A.sl.dma7 c xt0 fh0 k0_hw7, kernelRun0_A.sl.dma8 c xt0 fh0 k0_hw8, kernelRun0_A.sl.dma9 c xt0 fh0 k0_hw9, kernelRun0_A.sl.dma10 c xt0 fh0 k0_hw10, kernelRun0_A.sl.dma11 c xt0 fh0 k0_hw11, kernelRun0_A.sl.dma12 c xt0 fh0 k0_hw12, kernelRun0_A.sl.dma13 c xt0 fh0 k0_hw13, kernelRun0_A.sl.dma14 c xt0 fh0 k0_hw14, kernelRun0_A.sl.dma15 c xt0 fh0 k0_hw15, kernelRun0_A.sl.dma16 c xt0 fh0 k0_hw16, kernelRun0_A.sl.dma17 c xt0 fh0 k0_hw17, kernelRun0_A.sl.dma18 c xt0 fh0 k0_hw18, kernelRun0_A.sl.dma19 c xt0 fh0 k0_hw19, kernelRun0_A.sl.dma20 c xt0 fh0 k0_hw20, kernelRun0_A.sl.dma21 c xt0 fh0 k0_hw21, kernelRun0_A.sl.dma22 c xt0 fh0 k0_hw22, kernelRun0_A.sl.dma23 c xt0 fh0 k0_hw23, kernelRun0_A.sl.dma24 c xt0 fh0 k0_hw24, kernelRun0_A.sl.dma25 c xt0 fh0 k0_hw25, kernelRun0_A.sl.dma26 c xt0 fh0 k0_hw26, kernelRun0_A.sl.dma27 c xt0 fh0 k0_hw27, kernelRun0_A.sl.dma28 c xt0 fh0 k0_hw28, kernelRun0_A.sl.dma29 c xt0 fh0 k0_hw29, kernelRun0_A.sl.dma30 c xt0 fh0 k0_hw30, kernelRun0_A.sl.dma31 c xt0 fh0 k0_hw31, kernelRun0_A.sl.dma32 c xt0 fh0 k0_hw32] : Fin 32 → S512.Idx → Elt F .f32) ⟨15, h⟩ = kernelRun0_A.sl.dma16 c xt0 fh0 k0_hw16 := rfl
theorem look_16 (c : Dev nD) (xt0 : TbBuf0 (F := F) c tbM0_0) (fh0 : HbBuf0 (F := F) c hbM0_0) (k0_hw1 : k0_chk1 (tbM0_0.view.readAt (Elt F) (Rect.unit (s := S32) ![0] S1.size inb_S32_S1_0).toLoadRect xt0 (Shape.Idx.first (numel1_S1.symm ▸ Nat.one_pos)))) (k0_hw2 : k0_chk2 (tbM0_0.view.readAt (Elt F) (Rect.unit (s := S32) ![1] S1.size inb_S32_S1_1).toLoadRect xt0 (Shape.Idx.first (numel1_S1.symm ▸ Nat.one_pos)))) (k0_hw3 : k0_chk3 (tbM0_0.view.readAt (Elt F) (Rect.unit (s := S32) ![2] S1.size inb_S32_S1_2).toLoadRect xt0 (Shape.Idx.first (numel1_S1.symm ▸ Nat.one_pos)))) (k0_hw4 : k0_chk4 (tbM0_0.view.readAt (Elt F) (Rect.unit (s := S32) ![3] S1.size inb_S32_S1_3).toLoadRect xt0 (Shape.Idx.first (numel1_S1.symm ▸ Nat.one_pos)))) (k0_hw5 : k0_chk5 (tbM0_0.view.readAt (Elt F) (Rect.unit (s := S32) ![4] S1.size inb_S32_S1_4).toLoadRect xt0 (Shape.Idx.first (numel1_S1.symm ▸ Nat.one_pos)))) (k0_hw6 : k0_chk6 (tbM0_0.view.readAt (Elt F) (Rect.unit (s := S32) ![5] S1.size inb_S32_S1_5).toLoadRect xt0 (Shape.Idx.first (numel1_S1.symm ▸ Nat.one_pos)))) (k0_hw7 : k0_chk7 (tbM0_0.view.readAt (Elt F) (Rect.unit (s := S32) ![6] S1.size inb_S32_S1_6).toLoadRect xt0 (Shape.Idx.first (numel1_S1.symm ▸ Nat.one_pos)))) (k0_hw8 : k0_chk8 (tbM0_0.view.readAt (Elt F) (Rect.unit (s := S32) ![7] S1.size inb_S32_S1_7).toLoadRect xt0 (Shape.Idx.first (numel1_S1.symm ▸ Nat.one_pos)))) (k0_hw9 : k0_chk9 (tbM0_0.view.readAt (Elt F) (Rect.unit (s := S32) ![8] S1.size inb_S32_S1_8).toLoadRect xt0 (Shape.Idx.first (numel1_S1.symm ▸ Nat.one_pos)))) (k0_hw10 : k0_chk10 (tbM0_0.view.readAt (Elt F) (Rect.unit (s := S32) ![9] S1.size inb_S32_S1_9).toLoadRect xt0 (Shape.Idx.first (numel1_S1.symm ▸ Nat.one_pos)))) (k0_hw11 : k0_chk11 (tbM0_0.view.readAt (Elt F) (Rect.unit (s := S32) ![10] S1.size inb_S32_S1_10).toLoadRect xt0 (Shape.Idx.first (numel1_S1.symm ▸ Nat.one_pos)))) (k0_hw12 : k0_chk12 (tbM0_0.view.readAt (Elt F) (Rect.unit (s := S32) ![11] S1.size inb_S32_S1_11).toLoadRect xt0 (Shape.Idx.first (numel1_S1.symm ▸ Nat.one_pos)))) (k0_hw13 : k0_chk13 (tbM0_0.view.readAt (Elt F) (Rect.unit (s := S32) ![12] S1.size inb_S32_S1_12).toLoadRect xt0 (Shape.Idx.first (numel1_S1.symm ▸ Nat.one_pos)))) (k0_hw14 : k0_chk14 (tbM0_0.view.readAt (Elt F) (Rect.unit (s := S32) ![13] S1.size inb_S32_S1_13).toLoadRect xt0 (Shape.Idx.first (numel1_S1.symm ▸ Nat.one_pos)))) (k0_hw15 : k0_chk15 (tbM0_0.view.readAt (Elt F) (Rect.unit (s := S32) ![14] S1.size inb_S32_S1_14).toLoadRect xt0 (Shape.Idx.first (numel1_S1.symm ▸ Nat.one_pos)))) (k0_hw16 : k0_chk16 (tbM0_0.view.readAt (Elt F) (Rect.unit (s := S32) ![15] S1.size inb_S32_S1_15).toLoadRect xt0 (Shape.Idx.first (numel1_S1.symm ▸ Nat.one_pos)))) (k0_hw17 : k0_chk17 (tbM0_0.view.readAt (Elt F) (Rect.unit (s := S32) ![16] S1.size inb_S32_S1_16).toLoadRect xt0 (Shape.Idx.first (numel1_S1.symm ▸ Nat.one_pos)))) (k0_hw18 : k0_chk18 (tbM0_0.view.readAt (Elt F) (Rect.unit (s := S32) ![17] S1.size inb_S32_S1_17).toLoadRect xt0 (Shape.Idx.first (numel1_S1.symm ▸ Nat.one_pos)))) (k0_hw19 : k0_chk19 (tbM0_0.view.readAt (Elt F) (Rect.unit (s := S32) ![18] S1.size inb_S32_S1_18).toLoadRect xt0 (Shape.Idx.first (numel1_S1.symm ▸ Nat.one_pos)))) (k0_hw20 : k0_chk20 (tbM0_0.view.readAt (Elt F) (Rect.unit (s := S32) ![19] S1.size inb_S32_S1_19).toLoadRect xt0 (Shape.Idx.first (numel1_S1.symm ▸ Nat.one_pos)))) (k0_hw21 : k0_chk21 (tbM0_0.view.readAt (Elt F) (Rect.unit (s := S32) ![20] S1.size inb_S32_S1_20).toLoadRect xt0 (Shape.Idx.first (numel1_S1.symm ▸ Nat.one_pos)))) (k0_hw22 : k0_chk22 (tbM0_0.view.readAt (Elt F) (Rect.unit (s := S32) ![21] S1.size inb_S32_S1_21).toLoadRect xt0 (Shape.Idx.first (numel1_S1.symm ▸ Nat.one_pos)))) (k0_hw23 : k0_chk23 (tbM0_0.view.readAt (Elt F) (Rect.unit (s := S32) ![22] S1.size inb_S32_S1_22).toLoadRect xt0 (Shape.Idx.first (numel1_S1.symm ▸ Nat.one_pos)))) (k0_hw24 : k0_chk24 (tbM0_0.view.readAt (Elt F) (Rect.unit (s := S32) ![23] S1.size inb_S32_S1_23).toLoadRect xt0 (Shape.Idx.first (numel1_S1.symm ▸ Nat.one_pos)))) (k0_hw25 : k0_chk25 (tbM0_0.view.readAt (Elt F) (Rect.unit (s := S32) ![24] S1.size inb_S32_S1_24).toLoadRect xt0 (Shape.Idx.first (numel1_S1.symm ▸ Nat.one_pos)))) (k0_hw26 : k0_chk26 (tbM0_0.view.readAt (Elt F) (Rect.unit (s := S32) ![25] S1.size inb_S32_S1_25).toLoadRect xt0 (Shape.Idx.first (numel1_S1.symm ▸ Nat.one_pos)))) (k0_hw27 : k0_chk27 (tbM0_0.view.readAt (Elt F) (Rect.unit (s := S32) ![26] S1.size inb_S32_S1_26).toLoadRect xt0 (Shape.Idx.first (numel1_S1.symm ▸ Nat.one_pos)))) (k0_hw28 : k0_chk28 (tbM0_0.view.readAt (Elt F) (Rect.unit (s := S32) ![27] S1.size inb_S32_S1_27).toLoadRect xt0 (Shape.Idx.first (numel1_S1.symm ▸ Nat.one_pos)))) (k0_hw29 : k0_chk29 (tbM0_0.view.readAt (Elt F) (Rect.unit (s := S32) ![28] S1.size inb_S32_S1_28).toLoadRect xt0 (Shape.Idx.first (numel1_S1.symm ▸ Nat.one_pos)))) (k0_hw30 : k0_chk30 (tbM0_0.view.readAt (Elt F) (Rect.unit (s := S32) ![29] S1.size inb_S32_S1_29).toLoadRect xt0 (Shape.Idx.first (numel1_S1.symm ▸ Nat.one_pos)))) (k0_hw31 : k0_chk31 (tbM0_0.view.readAt (Elt F) (Rect.unit (s := S32) ![30] S1.size inb_S32_S1_30).toLoadRect xt0 (Shape.Idx.first (numel1_S1.symm ▸ Nat.one_pos)))) (k0_hw32 : k0_chk32 (tbM0_0.view.readAt (Elt F) (Rect.unit (s := S32) ![31] S1.size inb_S32_S1_31).toLoadRect xt0 (Shape.Idx.first (numel1_S1.symm ▸ Nat.one_pos)))) (h : 16 < 32) :
    (![kernelRun0_A.sl.dma1 c xt0 fh0 k0_hw1, kernelRun0_A.sl.dma2 c xt0 fh0 k0_hw2, kernelRun0_A.sl.dma3 c xt0 fh0 k0_hw3, kernelRun0_A.sl.dma4 c xt0 fh0 k0_hw4, kernelRun0_A.sl.dma5 c xt0 fh0 k0_hw5, kernelRun0_A.sl.dma6 c xt0 fh0 k0_hw6, kernelRun0_A.sl.dma7 c xt0 fh0 k0_hw7, kernelRun0_A.sl.dma8 c xt0 fh0 k0_hw8, kernelRun0_A.sl.dma9 c xt0 fh0 k0_hw9, kernelRun0_A.sl.dma10 c xt0 fh0 k0_hw10, kernelRun0_A.sl.dma11 c xt0 fh0 k0_hw11, kernelRun0_A.sl.dma12 c xt0 fh0 k0_hw12, kernelRun0_A.sl.dma13 c xt0 fh0 k0_hw13, kernelRun0_A.sl.dma14 c xt0 fh0 k0_hw14, kernelRun0_A.sl.dma15 c xt0 fh0 k0_hw15, kernelRun0_A.sl.dma16 c xt0 fh0 k0_hw16, kernelRun0_A.sl.dma17 c xt0 fh0 k0_hw17, kernelRun0_A.sl.dma18 c xt0 fh0 k0_hw18, kernelRun0_A.sl.dma19 c xt0 fh0 k0_hw19, kernelRun0_A.sl.dma20 c xt0 fh0 k0_hw20, kernelRun0_A.sl.dma21 c xt0 fh0 k0_hw21, kernelRun0_A.sl.dma22 c xt0 fh0 k0_hw22, kernelRun0_A.sl.dma23 c xt0 fh0 k0_hw23, kernelRun0_A.sl.dma24 c xt0 fh0 k0_hw24, kernelRun0_A.sl.dma25 c xt0 fh0 k0_hw25, kernelRun0_A.sl.dma26 c xt0 fh0 k0_hw26, kernelRun0_A.sl.dma27 c xt0 fh0 k0_hw27, kernelRun0_A.sl.dma28 c xt0 fh0 k0_hw28, kernelRun0_A.sl.dma29 c xt0 fh0 k0_hw29, kernelRun0_A.sl.dma30 c xt0 fh0 k0_hw30, kernelRun0_A.sl.dma31 c xt0 fh0 k0_hw31, kernelRun0_A.sl.dma32 c xt0 fh0 k0_hw32] : Fin 32 → S512.Idx → Elt F .f32) ⟨16, h⟩ = kernelRun0_A.sl.dma17 c xt0 fh0 k0_hw17 := rfl
theorem look_17 (c : Dev nD) (xt0 : TbBuf0 (F := F) c tbM0_0) (fh0 : HbBuf0 (F := F) c hbM0_0) (k0_hw1 : k0_chk1 (tbM0_0.view.readAt (Elt F) (Rect.unit (s := S32) ![0] S1.size inb_S32_S1_0).toLoadRect xt0 (Shape.Idx.first (numel1_S1.symm ▸ Nat.one_pos)))) (k0_hw2 : k0_chk2 (tbM0_0.view.readAt (Elt F) (Rect.unit (s := S32) ![1] S1.size inb_S32_S1_1).toLoadRect xt0 (Shape.Idx.first (numel1_S1.symm ▸ Nat.one_pos)))) (k0_hw3 : k0_chk3 (tbM0_0.view.readAt (Elt F) (Rect.unit (s := S32) ![2] S1.size inb_S32_S1_2).toLoadRect xt0 (Shape.Idx.first (numel1_S1.symm ▸ Nat.one_pos)))) (k0_hw4 : k0_chk4 (tbM0_0.view.readAt (Elt F) (Rect.unit (s := S32) ![3] S1.size inb_S32_S1_3).toLoadRect xt0 (Shape.Idx.first (numel1_S1.symm ▸ Nat.one_pos)))) (k0_hw5 : k0_chk5 (tbM0_0.view.readAt (Elt F) (Rect.unit (s := S32) ![4] S1.size inb_S32_S1_4).toLoadRect xt0 (Shape.Idx.first (numel1_S1.symm ▸ Nat.one_pos)))) (k0_hw6 : k0_chk6 (tbM0_0.view.readAt (Elt F) (Rect.unit (s := S32) ![5] S1.size inb_S32_S1_5).toLoadRect xt0 (Shape.Idx.first (numel1_S1.symm ▸ Nat.one_pos)))) (k0_hw7 : k0_chk7 (tbM0_0.view.readAt (Elt F) (Rect.unit (s := S32) ![6] S1.size inb_S32_S1_6).toLoadRect xt0 (Shape.Idx.first (numel1_S1.symm ▸ Nat.one_pos)))) (k0_hw8 : k0_chk8 (tbM0_0.view.readAt (Elt F) (Rect.unit (s := S32) ![7] S1.size inb_S32_S1_7).toLoadRect xt0 (Shape.Idx.first (numel1_S1.symm ▸ Nat.one_pos)))) (k0_hw9 : k0_chk9 (tbM0_0.view.readAt (Elt F) (Rect.unit (s := S32) ![8] S1.size inb_S32_S1_8).toLoadRect xt0 (Shape.Idx.first (numel1_S1.symm ▸ Nat.one_pos)))) (k0_hw10 : k0_chk10 (tbM0_0.view.readAt (Elt F) (Rect.unit (s := S32) ![9] S1.size inb_S32_S1_9).toLoadRect xt0 (Shape.Idx.first (numel1_S1.symm ▸ Nat.one_pos)))) (k0_hw11 : k0_chk11 (tbM0_0.view.readAt (Elt F) (Rect.unit (s := S32) ![10] S1.size inb_S32_S1_10).toLoadRect xt0 (Shape.Idx.first (numel1_S1.symm ▸ Nat.one_pos)))) (k0_hw12 : k0_chk12 (tbM0_0.view.readAt (Elt F) (Rect.unit (s := S32) ![11] S1.size inb_S32_S1_11).toLoadRect xt0 (Shape.Idx.first (numel1_S1.symm ▸ Nat.one_pos)))) (k0_hw13 : k0_chk13 (tbM0_0.view.readAt (Elt F) (Rect.unit (s := S32) ![12] S1.size inb_S32_S1_12).toLoadRect xt0 (Shape.Idx.first (numel1_S1.symm ▸ Nat.one_pos)))) (k0_hw14 : k0_chk14 (tbM0_0.view.readAt (Elt F) (Rect.unit (s := S32) ![13] S1.size inb_S32_S1_13).toLoadRect xt0 (Shape.Idx.first (numel1_S1.symm ▸ Nat.one_pos)))) (k0_hw15 : k0_chk15 (tbM0_0.view.readAt (Elt F) (Rect.unit (s := S32) ![14] S1.size inb_S32_S1_14).toLoadRect xt0 (Shape.Idx.first (numel1_S1.symm ▸ Nat.one_pos)))) (k0_hw16 : k0_chk16 (tbM0_0.view.readAt (Elt F) (Rect.unit (s := S32) ![15] S1.size inb_S32_S1_15).toLoadRect xt0 (Shape.Idx.first (numel1_S1.symm ▸ Nat.one_pos)))) (k0_hw17 : k0_chk17 (tbM0_0.view.readAt (Elt F) (Rect.unit (s := S32) ![16] S1.size inb_S32_S1_16).toLoadRect xt0 (Shape.Idx.first (numel1_S1.symm ▸ Nat.one_pos)))) (k0_hw18 : k0_chk18 (tbM0_0.view.readAt (Elt F) (Rect.unit (s := S32) ![17] S1.size inb_S32_S1_17).toLoadRect xt0 (Shape.Idx.first (numel1_S1.symm ▸ Nat.one_pos)))) (k0_hw19 : k0_chk19 (tbM0_0.view.readAt (Elt F) (Rect.unit (s := S32) ![18] S1.size inb_S32_S1_18).toLoadRect xt0 (Shape.Idx.first (numel1_S1.symm ▸ Nat.one_pos)))) (k0_hw20 : k0_chk20 (tbM0_0.view.readAt (Elt F) (Rect.unit (s := S32) ![19] S1.size inb_S32_S1_19).toLoadRect xt0 (Shape.Idx.first (numel1_S1.symm ▸ Nat.one_pos)))) (k0_hw21 : k0_chk21 (tbM0_0.view.readAt (Elt F) (Rect.unit (s := S32) ![20] S1.size inb_S32_S1_20).toLoadRect xt0 (Shape.Idx.first (numel1_S1.symm ▸ Nat.one_pos)))) (k0_hw22 : k0_chk22 (tbM0_0.view.readAt (Elt F) (Rect.unit (s := S32) ![21] S1.size inb_S32_S1_21).toLoadRect xt0 (Shape.Idx.first (numel1_S1.symm ▸ Nat.one_pos)))) (k0_hw23 : k0_chk23 (tbM0_0.view.readAt (Elt F) (Rect.unit (s := S32) ![22] S1.size inb_S32_S1_22).toLoadRect xt0 (Shape.Idx.first (numel1_S1.symm ▸ Nat.one_pos)))) (k0_hw24 : k0_chk24 (tbM0_0.view.readAt (Elt F) (Rect.unit (s := S32) ![23] S1.size inb_S32_S1_23).toLoadRect xt0 (Shape.Idx.first (numel1_S1.symm ▸ Nat.one_pos)))) (k0_hw25 : k0_chk25 (tbM0_0.view.readAt (Elt F) (Rect.unit (s := S32) ![24] S1.size inb_S32_S1_24).toLoadRect xt0 (Shape.Idx.first (numel1_S1.symm ▸ Nat.one_pos)))) (k0_hw26 : k0_chk26 (tbM0_0.view.readAt (Elt F) (Rect.unit (s := S32) ![25] S1.size inb_S32_S1_25).toLoadRect xt0 (Shape.Idx.first (numel1_S1.symm ▸ Nat.one_pos)))) (k0_hw27 : k0_chk27 (tbM0_0.view.readAt (Elt F) (Rect.unit (s := S32) ![26] S1.size inb_S32_S1_26).toLoadRect xt0 (Shape.Idx.first (numel1_S1.symm ▸ Nat.one_pos)))) (k0_hw28 : k0_chk28 (tbM0_0.view.readAt (Elt F) (Rect.unit (s := S32) ![27] S1.size inb_S32_S1_27).toLoadRect xt0 (Shape.Idx.first (numel1_S1.symm ▸ Nat.one_pos)))) (k0_hw29 : k0_chk29 (tbM0_0.view.readAt (Elt F) (Rect.unit (s := S32) ![28] S1.size inb_S32_S1_28).toLoadRect xt0 (Shape.Idx.first (numel1_S1.symm ▸ Nat.one_pos)))) (k0_hw30 : k0_chk30 (tbM0_0.view.readAt (Elt F) (Rect.unit (s := S32) ![29] S1.size inb_S32_S1_29).toLoadRect xt0 (Shape.Idx.first (numel1_S1.symm ▸ Nat.one_pos)))) (k0_hw31 : k0_chk31 (tbM0_0.view.readAt (Elt F) (Rect.unit (s := S32) ![30] S1.size inb_S32_S1_30).toLoadRect xt0 (Shape.Idx.first (numel1_S1.symm ▸ Nat.one_pos)))) (k0_hw32 : k0_chk32 (tbM0_0.view.readAt (Elt F) (Rect.unit (s := S32) ![31] S1.size inb_S32_S1_31).toLoadRect xt0 (Shape.Idx.first (numel1_S1.symm ▸ Nat.one_pos)))) (h : 17 < 32) :
    (![kernelRun0_A.sl.dma1 c xt0 fh0 k0_hw1, kernelRun0_A.sl.dma2 c xt0 fh0 k0_hw2, kernelRun0_A.sl.dma3 c xt0 fh0 k0_hw3, kernelRun0_A.sl.dma4 c xt0 fh0 k0_hw4, kernelRun0_A.sl.dma5 c xt0 fh0 k0_hw5, kernelRun0_A.sl.dma6 c xt0 fh0 k0_hw6, kernelRun0_A.sl.dma7 c xt0 fh0 k0_hw7, kernelRun0_A.sl.dma8 c xt0 fh0 k0_hw8, kernelRun0_A.sl.dma9 c xt0 fh0 k0_hw9, kernelRun0_A.sl.dma10 c xt0 fh0 k0_hw10, kernelRun0_A.sl.dma11 c xt0 fh0 k0_hw11, kernelRun0_A.sl.dma12 c xt0 fh0 k0_hw12, kernelRun0_A.sl.dma13 c xt0 fh0 k0_hw13, kernelRun0_A.sl.dma14 c xt0 fh0 k0_hw14, kernelRun0_A.sl.dma15 c xt0 fh0 k0_hw15, kernelRun0_A.sl.dma16 c xt0 fh0 k0_hw16, kernelRun0_A.sl.dma17 c xt0 fh0 k0_hw17, kernelRun0_A.sl.dma18 c xt0 fh0 k0_hw18, kernelRun0_A.sl.dma19 c xt0 fh0 k0_hw19, kernelRun0_A.sl.dma20 c xt0 fh0 k0_hw20, kernelRun0_A.sl.dma21 c xt0 fh0 k0_hw21, kernelRun0_A.sl.dma22 c xt0 fh0 k0_hw22, kernelRun0_A.sl.dma23 c xt0 fh0 k0_hw23, kernelRun0_A.sl.dma24 c xt0 fh0 k0_hw24, kernelRun0_A.sl.dma25 c xt0 fh0 k0_hw25, kernelRun0_A.sl.dma26 c xt0 fh0 k0_hw26, kernelRun0_A.sl.dma27 c xt0 fh0 k0_hw27, kernelRun0_A.sl.dma28 c xt0 fh0 k0_hw28, kernelRun0_A.sl.dma29 c xt0 fh0 k0_hw29, kernelRun0_A.sl.dma30 c xt0 fh0 k0_hw30, kernelRun0_A.sl.dma31 c xt0 fh0 k0_hw31, kernelRun0_A.sl.dma32 c xt0 fh0 k0_hw32] : Fin 32 → S512.Idx → Elt F .f32) ⟨17, h⟩ = kernelRun0_A.sl.dma18 c xt0 fh0 k0_hw18 := rfl
theorem look_18 (c : Dev nD) (xt0 : TbBuf0 (F := F) c tbM0_0) (fh0 : HbBuf0 (F := F) c hbM0_0) (k0_hw1 : k0_chk1 (tbM0_0.view.readAt (Elt F) (Rect.unit (s := S32) ![0] S1.size inb_S32_S1_0).toLoadRect xt0 (Shape.Idx.first (numel1_S1.symm ▸ Nat.one_pos)))) (k0_hw2 : k0_chk2 (tbM0_0.view.readAt (Elt F) (Rect.unit (s := S32) ![1] S1.size inb_S32_S1_1).toLoadRect xt0 (Shape.Idx.first (numel1_S1.symm ▸ Nat.one_pos)))) (k0_hw3 : k0_chk3 (tbM0_0.view.readAt (Elt F) (Rect.unit (s := S32) ![2] S1.size inb_S32_S1_2).toLoadRect xt0 (Shape.Idx.first (numel1_S1.symm ▸ Nat.one_pos)))) (k0_hw4 : k0_chk4 (tbM0_0.view.readAt (Elt F) (Rect.unit (s := S32) ![3] S1.size inb_S32_S1_3).toLoadRect xt0 (Shape.Idx.first (numel1_S1.symm ▸ Nat.one_pos)))) (k0_hw5 : k0_chk5 (tbM0_0.view.readAt (Elt F) (Rect.unit (s := S32) ![4] S1.size inb_S32_S1_4).toLoadRect xt0 (Shape.Idx.first (numel1_S1.symm ▸ Nat.one_pos)))) (k0_hw6 : k0_chk6 (tbM0_0.view.readAt (Elt F) (Rect.unit (s := S32) ![5] S1.size inb_S32_S1_5).toLoadRect xt0 (Shape.Idx.first (numel1_S1.symm ▸ Nat.one_pos)))) (k0_hw7 : k0_chk7 (tbM0_0.view.readAt (Elt F) (Rect.unit (s := S32) ![6] S1.size inb_S32_S1_6).toLoadRect xt0 (Shape.Idx.first (numel1_S1.symm ▸ Nat.one_pos)))) (k0_hw8 : k0_chk8 (tbM0_0.view.readAt (Elt F) (Rect.unit (s := S32) ![7] S1.size inb_S32_S1_7).toLoadRect xt0 (Shape.Idx.first (numel1_S1.symm ▸ Nat.one_pos)))) (k0_hw9 : k0_chk9 (tbM0_0.view.readAt (Elt F) (Rect.unit (s := S32) ![8] S1.size inb_S32_S1_8).toLoadRect xt0 (Shape.Idx.first (numel1_S1.symm ▸ Nat.one_pos)))) (k0_hw10 : k0_chk10 (tbM0_0.view.readAt (Elt F) (Rect.unit (s := S32) ![9] S1.size inb_S32_S1_9).toLoadRect xt0 (Shape.Idx.first (numel1_S1.symm ▸ Nat.one_pos)))) (k0_hw11 : k0_chk11 (tbM0_0.view.readAt (Elt F) (Rect.unit (s := S32) ![10] S1.size inb_S32_S1_10).toLoadRect xt0 (Shape.Idx.first (numel1_S1.symm ▸ Nat.one_pos)))) (k0_hw12 : k0_chk12 (tbM0_0.view.readAt (Elt F) (Rect.unit (s := S32) ![11] S1.size inb_S32_S1_11).toLoadRect xt0 (Shape.Idx.first (numel1_S1.symm ▸ Nat.one_pos)))) (k0_hw13 : k0_chk13 (tbM0_0.view.readAt (Elt F) (Rect.unit (s := S32) ![12] S1.size inb_S32_S1_12).toLoadRect xt0 (Shape.Idx.first (numel1_S1.symm ▸ Nat.one_pos)))) (k0_hw14 : k0_chk14 (tbM0_0.view.readAt (Elt F) (Rect.unit (s := S32) ![13] S1.size inb_S32_S1_13).toLoadRect xt0 (Shape.Idx.first (numel1_S1.symm ▸ Nat.one_pos)))) (k0_hw15 : k0_chk15 (tbM0_0.view.readAt (Elt F) (Rect.unit (s := S32) ![14] S1.size inb_S32_S1_14).toLoadRect xt0 (Shape.Idx.first (numel1_S1.symm ▸ Nat.one_pos)))) (k0_hw16 : k0_chk16 (tbM0_0.view.readAt (Elt F) (Rect.unit (s := S32) ![15] S1.size inb_S32_S1_15).toLoadRect xt0 (Shape.Idx.first (numel1_S1.symm ▸ Nat.one_pos)))) (k0_hw17 : k0_chk17 (tbM0_0.view.readAt (Elt F) (Rect.unit (s := S32) ![16] S1.size inb_S32_S1_16).toLoadRect xt0 (Shape.Idx.first (numel1_S1.symm ▸ Nat.one_pos)))) (k0_hw18 : k0_chk18 (tbM0_0.view.readAt (Elt F) (Rect.unit (s := S32) ![17] S1.size inb_S32_S1_17).toLoadRect xt0 (Shape.Idx.first (numel1_S1.symm ▸ Nat.one_pos)))) (k0_hw19 : k0_chk19 (tbM0_0.view.readAt (Elt F) (Rect.unit (s := S32) ![18] S1.size inb_S32_S1_18).toLoadRect xt0 (Shape.Idx.first (numel1_S1.symm ▸ Nat.one_pos)))) (k0_hw20 : k0_chk20 (tbM0_0.view.readAt (Elt F) (Rect.unit (s := S32) ![19] S1.size inb_S32_S1_19).toLoadRect xt0 (Shape.Idx.first (numel1_S1.symm ▸ Nat.one_pos)))) (k0_hw21 : k0_chk21 (tbM0_0.view.readAt (Elt F) (Rect.unit (s := S32) ![20] S1.size inb_S32_S1_20).toLoadRect xt0 (Shape.Idx.first (numel1_S1.symm ▸ Nat.one_pos)))) (k0_hw22 : k0_chk22 (tbM0_0.view.readAt (Elt F) (Rect.unit (s := S32) ![21] S1.size inb_S32_S1_21).toLoadRect xt0 (Shape.Idx.first (numel1_S1.symm ▸ Nat.one_pos)))) (k0_hw23 : k0_chk23 (tbM0_0.view.readAt (Elt F) (Rect.unit (s := S32) ![22] S1.size inb_S32_S1_22).toLoadRect xt0 (Shape.Idx.first (numel1_S1.symm ▸ Nat.one_pos)))) (k0_hw24 : k0_chk24 (tbM0_0.view.readAt (Elt F) (Rect.unit (s := S32) ![23] S1.size inb_S32_S1_23).toLoadRect xt0 (Shape.Idx.first (numel1_S1.symm ▸ Nat.one_pos)))) (k0_hw25 : k0_chk25 (tbM0_0.view.readAt (Elt F) (Rect.unit (s := S32) ![24] S1.size inb_S32_S1_24).toLoadRect xt0 (Shape.Idx.first (numel1_S1.symm ▸ Nat.one_pos)))) (k0_hw26 : k0_chk26 (tbM0_0.view.readAt (Elt F) (Rect.unit (s := S32) ![25] S1.size inb_S32_S1_25).toLoadRect xt0 (Shape.Idx.first (numel1_S1.symm ▸ Nat.one_pos)))) (k0_hw27 : k0_chk27 (tbM0_0.view.readAt (Elt F) (Rect.unit (s := S32) ![26] S1.size inb_S32_S1_26).toLoadRect xt0 (Shape.Idx.first (numel1_S1.symm ▸ Nat.one_pos)))) (k0_hw28 : k0_chk28 (tbM0_0.view.readAt (Elt F) (Rect.unit (s := S32) ![27] S1.size inb_S32_S1_27).toLoadRect xt0 (Shape.Idx.first (numel1_S1.symm ▸ Nat.one_pos)))) (k0_hw29 : k0_chk29 (tbM0_0.view.readAt (Elt F) (Rect.unit (s := S32) ![28] S1.size inb_S32_S1_28).toLoadRect xt0 (Shape.Idx.first (numel1_S1.symm ▸ Nat.one_pos)))) (k0_hw30 : k0_chk30 (tbM0_0.view.readAt (Elt F) (Rect.unit (s := S32) ![29] S1.size inb_S32_S1_29).toLoadRect xt0 (Shape.Idx.first (numel1_S1.symm ▸ Nat.one_pos)))) (k0_hw31 : k0_chk31 (tbM0_0.view.readAt (Elt F) (Rect.unit (s := S32) ![30] S1.size inb_S32_S1_30).toLoadRect xt0 (Shape.Idx.first (numel1_S1.symm ▸ Nat.one_pos)))) (k0_hw32 : k0_chk32 (tbM0_0.view.readAt (Elt F) (Rect.unit (s := S32) ![31] S1.size inb_S32_S1_31).toLoadRect xt0 (Shape.Idx.first (numel1_S1.symm ▸ Nat.one_pos)))) (h : 18 < 32) :
    (![kernelRun0_A.sl.dma1 c xt0 fh0 k0_hw1, kernelRun0_A.sl.dma2 c xt0 fh0 k0_hw2, kernelRun0_A.sl.dma3 c xt0 fh0 k0_hw3, kernelRun0_A.sl.dma4 c xt0 fh0 k0_hw4, kernelRun0_A.sl.dma5 c xt0 fh0 k0_hw5, kernelRun0_A.sl.dma6 c xt0 fh0 k0_hw6, kernelRun0_A.sl.dma7 c xt0 fh0 k0_hw7, kernelRun0_A.sl.dma8 c xt0 fh0 k0_hw8, kernelRun0_A.sl.dma9 c xt0 fh0 k0_hw9, kernelRun0_A.sl.dma10 c xt0 fh0 k0_hw10, kernelRun0_A.sl.dma11 c xt0 fh0 k0_hw11, kernelRun0_A.sl.dma12 c xt0 fh0 k0_hw12, kernelRun0_A.sl.dma13 c xt0 fh0 k0_hw13, kernelRun0_A.sl.dma14 c xt0 fh0 k0_hw14, kernelRun0_A.sl.dma15 c xt0 fh0 k0_hw15, kernelRun0_A.sl.dma16 c xt0 fh0 k0_hw16, kernelRun0_A.sl.dma17 c xt0 fh0 k0_hw17, kernelRun0_A.sl.dma18 c xt0 fh0 k0_hw18, kernelRun0_A.sl.dma19 c xt0 fh0 k0_hw19, kernelRun0_A.sl.dma20 c xt0 fh0 k0_hw20, kernelRun0_A.sl.dma21 c xt0 fh0 k0_hw21, kernelRun0_A.sl.dma22 c xt0 fh0 k0_hw22, kernelRun0_A.sl.dma23 c xt0 fh0 k0_hw23, kernelRun0_A.sl.dma24 c xt0 fh0 k0_hw24, kernelRun0_A.sl.dma25 c xt0 fh0 k0_hw25, kernelRun0_A.sl.dma26 c xt0 fh0 k0_hw26, kernelRun0_A.sl.dma27 c xt0 fh0 k0_hw27, kernelRun0_A.sl.dma28 c xt0 fh0 k0_hw28, kernelRun0_A.sl.dma29 c xt0 fh0 k0_hw29, kernelRun0_A.sl.dma30 c xt0 fh0 k0_hw30, kernelRun0_A.sl.dma31 c xt0 fh0 k0_hw31, kernelRun0_A.sl.dma32 c xt0 fh0 k0_hw32] : Fin 32 → S512.Idx → Elt F .f32) ⟨18, h⟩ = kernelRun0_A.sl.dma19 c xt0 fh0 k0_hw19 := rfl
theorem look_19 (c : Dev nD) (xt0 : TbBuf0 (F := F) c tbM0_0) (fh0 : HbBuf0 (F := F) c hbM0_0) (k0_hw1 : k0_chk1 (tbM0_0.view.readAt (Elt F) (Rect.unit (s := S32) ![0] S1.size inb_S32_S1_0).toLoadRect xt0 (Shape.Idx.first (numel1_S1.symm ▸ Nat.one_pos)))) (k0_hw2 : k0_chk2 (tbM0_0.view.readAt (Elt F) (Rect.unit (s := S32) ![1] S1.size inb_S32_S1_1).toLoadRect xt0 (Shape.Idx.first (numel1_S1.symm ▸ Nat.one_pos)))) (k0_hw3 : k0_chk3 (tbM0_0.view.readAt (Elt F) (Rect.unit (s := S32) ![2] S1.size inb_S32_S1_2).toLoadRect xt0 (Shape.Idx.first (numel1_S1.symm ▸ Nat.one_pos)))) (k0_hw4 : k0_chk4 (tbM0_0.view.readAt (Elt F) (Rect.unit (s := S32) ![3] S1.size inb_S32_S1_3).toLoadRect xt0 (Shape.Idx.first (numel1_S1.symm ▸ Nat.one_pos)))) (k0_hw5 : k0_chk5 (tbM0_0.view.readAt (Elt F) (Rect.unit (s := S32) ![4] S1.size inb_S32_S1_4).toLoadRect xt0 (Shape.Idx.first (numel1_S1.symm ▸ Nat.one_pos)))) (k0_hw6 : k0_chk6 (tbM0_0.view.readAt (Elt F) (Rect.unit (s := S32) ![5] S1.size inb_S32_S1_5).toLoadRect xt0 (Shape.Idx.first (numel1_S1.symm ▸ Nat.one_pos)))) (k0_hw7 : k0_chk7 (tbM0_0.view.readAt (Elt F) (Rect.unit (s := S32) ![6] S1.size inb_S32_S1_6).toLoadRect xt0 (Shape.Idx.first (numel1_S1.symm ▸ Nat.one_pos)))) (k0_hw8 : k0_chk8 (tbM0_0.view.readAt (Elt F) (Rect.unit (s := S32) ![7] S1.size inb_S32_S1_7).toLoadRect xt0 (Shape.Idx.first (numel1_S1.symm ▸ Nat.one_pos)))) (k0_hw9 : k0_chk9 (tbM0_0.view.readAt (Elt F) (Rect.unit (s := S32) ![8] S1.size inb_S32_S1_8).toLoadRect xt0 (Shape.Idx.first (numel1_S1.symm ▸ Nat.one_pos)))) (k0_hw10 : k0_chk10 (tbM0_0.view.readAt (Elt F) (Rect.unit (s := S32) ![9] S1.size inb_S32_S1_9).toLoadRect xt0 (Shape.Idx.first (numel1_S1.symm ▸ Nat.one_pos)))) (k0_hw11 : k0_chk11 (tbM0_0.view.readAt (Elt F) (Rect.unit (s := S32) ![10] S1.size inb_S32_S1_10).toLoadRect xt0 (Shape.Idx.first (numel1_S1.symm ▸ Nat.one_pos)))) (k0_hw12 : k0_chk12 (tbM0_0.view.readAt (Elt F) (Rect.unit (s := S32) ![11] S1.size inb_S32_S1_11).toLoadRect xt0 (Shape.Idx.first (numel1_S1.symm ▸ Nat.one_pos)))) (k0_hw13 : k0_chk13 (tbM0_0.view.readAt (Elt F) (Rect.unit (s := S32) ![12] S1.size inb_S32_S1_12).toLoadRect xt0 (Shape.Idx.first (numel1_S1.symm ▸ Nat.one_pos)))) (k0_hw14 : k0_chk14 (tbM0_0.view.readAt (Elt F) (Rect.unit (s := S32) ![13] S1.size inb_S32_S1_13).toLoadRect xt0 (Shape.Idx.first (numel1_S1.symm ▸ Nat.one_pos)))) (k0_hw15 : k0_chk15 (tbM0_0.view.readAt (Elt F) (Rect.unit (s := S32) ![14] S1.size inb_S32_S1_14).toLoadRect xt0 (Shape.Idx.first (numel1_S1.symm ▸ Nat.one_pos)))) (k0_hw16 : k0_chk16 (tbM0_0.view.readAt (Elt F) (Rect.unit (s := S32) ![15] S1.size inb_S32_S1_15).toLoadRect xt0 (Shape.Idx.first (numel1_S1.symm ▸ Nat.one_pos)))) (k0_hw17 : k0_chk17 (tbM0_0.view.readAt (Elt F) (Rect.unit (s := S32) ![16] S1.size inb_S32_S1_16).toLoadRect xt0 (Shape.Idx.first (numel1_S1.symm ▸ Nat.one_pos)))) (k0_hw18 : k0_chk18 (tbM0_0.view.readAt (Elt F) (Rect.unit (s := S32) ![17] S1.size inb_S32_S1_17).toLoadRect xt0 (Shape.Idx.first (numel1_S1.symm ▸ Nat.one_pos)))) (k0_hw19 : k0_chk19 (tbM0_0.view.readAt (Elt F) (Rect.unit (s := S32) ![18] S1.size inb_S32_S1_18).toLoadRect xt0 (Shape.Idx.first (numel1_S1.symm ▸ Nat.one_pos)))) (k0_hw20 : k0_chk20 (tbM0_0.view.readAt (Elt F) (Rect.unit (s := S32) ![19] S1.size inb_S32_S1_19).toLoadRect xt0 (Shape.Idx.first (numel1_S1.symm ▸ Nat.one_pos)))) (k0_hw21 : k0_chk21 (tbM0_0.view.readAt (Elt F) (Rect.unit (s := S32) ![20] S1.size inb_S32_S1_20).toLoadRect xt0 (Shape.Idx.first (numel1_S1.symm ▸ Nat.one_pos)))) (k0_hw22 : k0_chk22 (tbM0_0.view.readAt (Elt F) (Rect.unit (s := S32) ![21] S1.size inb_S32_S1_21).toLoadRect xt0 (Shape.Idx.first (numel1_S1.symm ▸ Nat.one_pos)))) (k0_hw23 : k0_chk23 (tbM0_0.view.readAt (Elt F) (Rect.unit (s := S32) ![22] S1.size inb_S32_S1_22).toLoadRect xt0 (Shape.Idx.first (numel1_S1.symm ▸ Nat.one_pos)))) (k0_hw24 : k0_chk24 (tbM0_0.view.readAt (Elt F) (Rect.unit (s := S32) ![23] S1.size inb_S32_S1_23).toLoadRect xt0 (Shape.Idx.first (numel1_S1.symm ▸ Nat.one_pos)))) (k0_hw25 : k0_chk25 (tbM0_0.view.readAt (Elt F) (Rect.unit (s := S32) ![24] S1.size inb_S32_S1_24).toLoadRect xt0 (Shape.Idx.first (numel1_S1.symm ▸ Nat.one_pos)))) (k0_hw26 : k0_chk26 (tbM0_0.view.readAt (Elt F) (Rect.unit (s := S32) ![25] S1.size inb_S32_S1_25).toLoadRect xt0 (Shape.Idx.first (numel1_S1.symm ▸ Nat.one_pos)))) (k0_hw27 : k0_chk27 (tbM0_0.view.readAt (Elt F) (Rect.unit (s := S32) ![26] S1.size inb_S32_S1_26).toLoadRect xt0 (Shape.Idx.first (numel1_S1.symm ▸ Nat.one_pos)))) (k0_hw28 : k0_chk28 (tbM0_0.view.readAt (Elt F) (Rect.unit (s := S32) ![27] S1.size inb_S32_S1_27).toLoadRect xt0 (Shape.Idx.first (numel1_S1.symm ▸ Nat.one_pos)))) (k0_hw29 : k0_chk29 (tbM0_0.view.readAt (Elt F) (Rect.unit (s := S32) ![28] S1.size inb_S32_S1_28).toLoadRect xt0 (Shape.Idx.first (numel1_S1.symm ▸ Nat.one_pos)))) (k0_hw30 : k0_chk30 (tbM0_0.view.readAt (Elt F) (Rect.unit (s := S32) ![29] S1.size inb_S32_S1_29).toLoadRect xt0 (Shape.Idx.first (numel1_S1.symm ▸ Nat.one_pos)))) (k0_hw31 : k0_chk31 (tbM0_0.view.readAt (Elt F) (Rect.unit (s := S32) ![30] S1.size inb_S32_S1_30).toLoadRect xt0 (Shape.Idx.first (numel1_S1.symm ▸ Nat.one_pos)))) (k0_hw32 : k0_chk32 (tbM0_0.view.readAt (Elt F) (Rect.unit (s := S32) ![31] S1.size inb_S32_S1_31).toLoadRect xt0 (Shape.Idx.first (numel1_S1.symm ▸ Nat.one_pos)))) (h : 19 < 32) :
    (![kernelRun0_A.sl.dma1 c xt0 fh0 k0_hw1, kernelRun0_A.sl.dma2 c xt0 fh0 k0_hw2, kernelRun0_A.sl.dma3 c xt0 fh0 k0_hw3, kernelRun0_A.sl.dma4 c xt0 fh0 k0_hw4, kernelRun0_A.sl.dma5 c xt0 fh0 k0_hw5, kernelRun0_A.sl.dma6 c xt0 fh0 k0_hw6, kernelRun0_A.sl.dma7 c xt0 fh0 k0_hw7, kernelRun0_A.sl.dma8 c xt0 fh0 k0_hw8, kernelRun0_A.sl.dma9 c xt0 fh0 k0_hw9, kernelRun0_A.sl.dma10 c xt0 fh0 k0_hw10, kernelRun0_A.sl.dma11 c xt0 fh0 k0_hw11, kernelRun0_A.sl.dma12 c xt0 fh0 k0_hw12, kernelRun0_A.sl.dma13 c xt0 fh0 k0_hw13, kernelRun0_A.sl.dma14 c xt0 fh0 k0_hw14, kernelRun0_A.sl.dma15 c xt0 fh0 k0_hw15, kernelRun0_A.sl.dma16 c xt0 fh0 k0_hw16, kernelRun0_A.sl.dma17 c xt0 fh0 k0_hw17, kernelRun0_A.sl.dma18 c xt0 fh0 k0_hw18, kernelRun0_A.sl.dma19 c xt0 fh0 k0_hw19, kernelRun0_A.sl.dma20 c xt0 fh0 k0_hw20, kernelRun0_A.sl.dma21 c xt0 fh0 k0_hw21, kernelRun0_A.sl.dma22 c xt0 fh0 k0_hw22, kernelRun0_A.sl.dma23 c xt0 fh0 k0_hw23, kernelRun0_A.sl.dma24 c xt0 fh0 k0_hw24, kernelRun0_A.sl.dma25 c xt0 fh0 k0_hw25, kernelRun0_A.sl.dma26 c xt0 fh0 k0_hw26, kernelRun0_A.sl.dma27 c xt0 fh0 k0_hw27, kernelRun0_A.sl.dma28 c xt0 fh0 k0_hw28, kernelRun0_A.sl.dma29 c xt0 fh0 k0_hw29, kernelRun0_A.sl.dma30 c xt0 fh0 k0_hw30, kernelRun0_A.sl.dma31 c xt0 fh0 k0_hw31, kernelRun0_A.sl.dma32 c xt0 fh0 k0_hw32] : Fin 32 → S512.Idx → Elt F .f32) ⟨19, h⟩ = kernelRun0_A.sl.dma20 c xt0 fh0 k0_hw20 := rfl
theorem look_20 (c : Dev nD) (xt0 : TbBuf0 (F := F) c tbM0_0) (fh0 : HbBuf0 (F := F) c hbM0_0) (k0_hw1 : k0_chk1 (tbM0_0.view.readAt (Elt F) (Rect.unit (s := S32) ![0] S1.size inb_S32_S1_0).toLoadRect xt0 (Shape.Idx.first (numel1_S1.symm ▸ Nat.one_pos)))) (k0_hw2 : k0_chk2 (tbM0_0.view.readAt (Elt F) (Rect.unit (s := S32) ![1] S1.size inb_S32_S1_1).toLoadRect xt0 (Shape.Idx.first (numel1_S1.symm ▸ Nat.one_pos)))) (k0_hw3 : k0_chk3 (tbM0_0.view.readAt (Elt F) (Rect.unit (s := S32) ![2] S1.size inb_S32_S1_2).toLoadRect xt0 (Shape.Idx.first (numel1_S1.symm ▸ Nat.one_pos)))) (k0_hw4 : k0_chk4 (tbM0_0.view.readAt (Elt F) (Rect.unit (s := S32) ![3] S1.size inb_S32_S1_3).toLoadRect xt0 (Shape.Idx.first (numel1_S1.symm ▸ Nat.one_pos)))) (k0_hw5 : k0_chk5 (tbM0_0.view.readAt (Elt F) (Rect.unit (s := S32) ![4] S1.size inb_S32_S1_4).toLoadRect xt0 (Shape.Idx.first (numel1_S1.symm ▸ Nat.one_pos)))) (k0_hw6 : k0_chk6 (tbM0_0.view.readAt (Elt F) (Rect.unit (s := S32) ![5] S1.size inb_S32_S1_5).toLoadRect xt0 (Shape.Idx.first (numel1_S1.symm ▸ Nat.one_pos)))) (k0_hw7 : k0_chk7 (tbM0_0.view.readAt (Elt F) (Rect.unit (s := S32) ![6] S1.size inb_S32_S1_6).toLoadRect xt0 (Shape.Idx.first (numel1_S1.symm ▸ Nat.one_pos)))) (k0_hw8 : k0_chk8 (tbM0_0.view.readAt (Elt F) (Rect.unit (s := S32) ![7] S1.size inb_S32_S1_7).toLoadRect xt0 (Shape.Idx.first (numel1_S1.symm ▸ Nat.one_pos)))) (k0_hw9 : k0_chk9 (tbM0_0.view.readAt (Elt F) (Rect.unit (s := S32) ![8] S1.size inb_S32_S1_8).toLoadRect xt0 (Shape.Idx.first (numel1_S1.symm ▸ Nat.one_pos)))) (k0_hw10 : k0_chk10 (tbM0_0.view.readAt (Elt F) (Rect.unit (s := S32) ![9] S1.size inb_S32_S1_9).toLoadRect xt0 (Shape.Idx.first (numel1_S1.symm ▸ Nat.one_pos)))) (k0_hw11 : k0_chk11 (tbM0_0.view.readAt (Elt F) (Rect.unit (s := S32) ![10] S1.size inb_S32_S1_10).toLoadRect xt0 (Shape.Idx.first (numel1_S1.symm ▸ Nat.one_pos)))) (k0_hw12 : k0_chk12 (tbM0_0.view.readAt (Elt F) (Rect.unit (s := S32) ![11] S1.size inb_S32_S1_11).toLoadRect xt0 (Shape.Idx.first (numel1_S1.symm ▸ Nat.one_pos)))) (k0_hw13 : k0_chk13 (tbM0_0.view.readAt (Elt F) (Rect.unit (s := S32) ![12] S1.size inb_S32_S1_12).toLoadRect xt0 (Shape.Idx.first (numel1_S1.symm ▸ Nat.one_pos)))) (k0_hw14 : k0_chk14 (tbM0_0.view.readAt (Elt F) (Rect.unit (s := S32) ![13] S1.size inb_S32_S1_13).toLoadRect xt0 (Shape.Idx.first (numel1_S1.symm ▸ Nat.one_pos)))) (k0_hw15 : k0_chk15 (tbM0_0.view.readAt (Elt F) (Rect.unit (s := S32) ![14] S1.size inb_S32_S1_14).toLoadRect xt0 (Shape.Idx.first (numel1_S1.symm ▸ Nat.one_pos)))) (k0_hw16 : k0_chk16 (tbM0_0.view.readAt (Elt F) (Rect.unit (s := S32) ![15] S1.size inb_S32_S1_15).toLoadRect xt0 (Shape.Idx.first (numel1_S1.symm ▸ Nat.one_pos)))) (k0_hw17 : k0_chk17 (tbM0_0.view.readAt (Elt F) (Rect.unit (s := S32) ![16] S1.size inb_S32_S1_16).toLoadRect xt0 (Shape.Idx.first (numel1_S1.symm ▸ Nat.one_pos)))) (k0_hw18 : k0_chk18 (tbM0_0.view.readAt (Elt F) (Rect.unit (s := S32) ![17] S1.size inb_S32_S1_17).toLoadRect xt0 (Shape.Idx.first (numel1_S1.symm ▸ Nat.one_pos)))) (k0_hw19 : k0_chk19 (tbM0_0.view.readAt (Elt F) (Rect.unit (s := S32) ![18] S1.size inb_S32_S1_18).toLoadRect xt0 (Shape.Idx.first (numel1_S1.symm ▸ Nat.one_pos)))) (k0_hw20 : k0_chk20 (tbM0_0.view.readAt (Elt F) (Rect.unit (s := S32) ![19] S1.size inb_S32_S1_19).toLoadRect xt0 (Shape.Idx.first (numel1_S1.symm ▸ Nat.one_pos)))) (k0_hw21 : k0_chk21 (tbM0_0.view.readAt (Elt F) (Rect.unit (s := S32) ![20] S1.size inb_S32_S1_20).toLoadRect xt0 (Shape.Idx.first (numel1_S1.symm ▸ Nat.one_pos)))) (k0_hw22 : k0_chk22 (tbM0_0.view.readAt (Elt F) (Rect.unit (s := S32) ![21] S1.size inb_S32_S1_21).toLoadRect xt0 (Shape.Idx.first (numel1_S1.symm ▸ Nat.one_pos)))) (k0_hw23 : k0_chk23 (tbM0_0.view.readAt (Elt F) (Rect.unit (s := S32) ![22] S1.size inb_S32_S1_22).toLoadRect xt0 (Shape.Idx.first (numel1_S1.symm ▸ Nat.one_pos)))) (k0_hw24 : k0_chk24 (tbM0_0.view.readAt (Elt F) (Rect.unit (s := S32) ![23] S1.size inb_S32_S1_23).toLoadRect xt0 (Shape.Idx.first (numel1_S1.symm ▸ Nat.one_pos)))) (k0_hw25 : k0_chk25 (tbM0_0.view.readAt (Elt F) (Rect.unit (s := S32) ![24] S1.size inb_S32_S1_24).toLoadRect xt0 (Shape.Idx.first (numel1_S1.symm ▸ Nat.one_pos)))) (k0_hw26 : k0_chk26 (tbM0_0.view.readAt (Elt F) (Rect.unit (s := S32) ![25] S1.size inb_S32_S1_25).toLoadRect xt0 (Shape.Idx.first (numel1_S1.symm ▸ Nat.one_pos)))) (k0_hw27 : k0_chk27 (tbM0_0.view.readAt (Elt F) (Rect.unit (s := S32) ![26] S1.size inb_S32_S1_26).toLoadRect xt0 (Shape.Idx.first (numel1_S1.symm ▸ Nat.one_pos)))) (k0_hw28 : k0_chk28 (tbM0_0.view.readAt (Elt F) (Rect.unit (s := S32) ![27] S1.size inb_S32_S1_27).toLoadRect xt0 (Shape.Idx.first (numel1_S1.symm ▸ Nat.one_pos)))) (k0_hw29 : k0_chk29 (tbM0_0.view.readAt (Elt F) (Rect.unit (s := S32) ![28] S1.size inb_S32_S1_28).toLoadRect xt0 (Shape.Idx.first (numel1_S1.symm ▸ Nat.one_pos)))) (k0_hw30 : k0_chk30 (tbM0_0.view.readAt (Elt F) (Rect.unit (s := S32) ![29] S1.size inb_S32_S1_29).toLoadRect xt0 (Shape.Idx.first (numel1_S1.symm ▸ Nat.one_pos)))) (k0_hw31 : k0_chk31 (tbM0_0.view.readAt (Elt F) (Rect.unit (s := S32) ![30] S1.size inb_S32_S1_30).toLoadRect xt0 (Shape.Idx.first (numel1_S1.symm ▸ Nat.one_pos)))) (k0_hw32 : k0_chk32 (tbM0_0.view.readAt (Elt F) (Rect.unit (s := S32) ![31] S1.size inb_S32_S1_31).toLoadRect xt0 (Shape.Idx.first (numel1_S1.symm ▸ Nat.one_pos)))) (h : 20 < 32) :
    (![kernelRun0_A.sl.dma1 c xt0 fh0 k0_hw1, kernelRun0_A.sl.dma2 c xt0 fh0 k0_hw2, kernelRun0_A.sl.dma3 c xt0 fh0 k0_hw3, kernelRun0_A.sl.dma4 c xt0 fh0 k0_hw4, kernelRun0_A.sl.dma5 c xt0 fh0 k0_hw5, kernelRun0_A.sl.dma6 c xt0 fh0 k0_hw6, kernelRun0_A.sl.dma7 c xt0 fh0 k0_hw7, kernelRun0_A.sl.dma8 c xt0 fh0 k0_hw8, kernelRun0_A.sl.dma9 c xt0 fh0 k0_hw9, kernelRun0_A.sl.dma10 c xt0 fh0 k0_hw10, kernelRun0_A.sl.dma11 c xt0 fh0 k0_hw11, kernelRun0_A.sl.dma12 c xt0 fh0 k0_hw12, kernelRun0_A.sl.dma13 c xt0 fh0 k0_hw13, kernelRun0_A.sl.dma14 c xt0 fh0 k0_hw14, kernelRun0_A.sl.dma15 c xt0 fh0 k0_hw15, kernelRun0_A.sl.dma16 c xt0 fh0 k0_hw16, kernelRun0_A.sl.dma17 c xt0 fh0 k0_hw17, kernelRun0_A.sl.dma18 c xt0 fh0 k0_hw18, kernelRun0_A.sl.dma19 c xt0 fh0 k0_hw19, kernelRun0_A.sl.dma20 c xt0 fh0 k0_hw20, kernelRun0_A.sl.dma21 c xt0 fh0 k0_hw21, kernelRun0_A.sl.dma22 c xt0 fh0 k0_hw22, kernelRun0_A.sl.dma23 c xt0 fh0 k0_hw23, kernelRun0_A.sl.dma24 c xt0 fh0 k0_hw24, kernelRun0_A.sl.dma25 c xt0 fh0 k0_hw25, kernelRun0_A.sl.dma26 c xt0 fh0 k0_hw26, kernelRun0_A.sl.dma27 c xt0 fh0 k0_hw27, kernelRun0_A.sl.dma28 c xt0 fh0 k0_hw28, kernelRun0_A.sl.dma29 c xt0 fh0 k0_hw29, kernelRun0_A.sl.dma30 c xt0 fh0 k0_hw30, kernelRun0_A.sl.dma31 c xt0 fh0 k0_hw31, kernelRun0_A.sl.dma32 c xt0 fh0 k0_hw32] : Fin 32 → S512.Idx → Elt F .f32) ⟨20, h⟩ = kernelRun0_A.sl.dma21 c xt0 fh0 k0_hw21 := rfl
theorem look_21 (c : Dev nD) (xt0 : TbBuf0 (F := F) c tbM0_0) (fh0 : HbBuf0 (F := F) c hbM0_0) (k0_hw1 : k0_chk1 (tbM0_0.view.readAt (Elt F) (Rect.unit (s := S32) ![0] S1.size inb_S32_S1_0).toLoadRect xt0 (Shape.Idx.first (numel1_S1.symm ▸ Nat.one_pos)))) (k0_hw2 : k0_chk2 (tbM0_0.view.readAt (Elt F) (Rect.unit (s := S32) ![1] S1.size inb_S32_S1_1).toLoadRect xt0 (Shape.Idx.first (numel1_S1.symm ▸ Nat.one_pos)))) (k0_hw3 : k0_chk3 (tbM0_0.view.readAt (Elt F) (Rect.unit (s := S32) ![2] S1.size inb_S32_S1_2).toLoadRect xt0 (Shape.Idx.first (numel1_S1.symm ▸ Nat.one_pos)))) (k0_hw4 : k0_chk4 (tbM0_0.view.readAt (Elt F) (Rect.unit (s := S32) ![3] S1.size inb_S32_S1_3).toLoadRect xt0 (Shape.Idx.first (numel1_S1.symm ▸ Nat.one_pos)))) (k0_hw5 : k0_chk5 (tbM0_0.view.readAt (Elt F) (Rect.unit (s := S32) ![4] S1.size inb_S32_S1_4).toLoadRect xt0 (Shape.Idx.first (numel1_S1.symm ▸ Nat.one_pos)))) (k0_hw6 : k0_chk6 (tbM0_0.view.readAt (Elt F) (Rect.unit (s := S32) ![5] S1.size inb_S32_S1_5).toLoadRect xt0 (Shape.Idx.first (numel1_S1.symm ▸ Nat.one_pos)))) (k0_hw7 : k0_chk7 (tbM0_0.view.readAt (Elt F) (Rect.unit (s := S32) ![6] S1.size inb_S32_S1_6).toLoadRect xt0 (Shape.Idx.first (numel1_S1.symm ▸ Nat.one_pos)))) (k0_hw8 : k0_chk8 (tbM0_0.view.readAt (Elt F) (Rect.unit (s := S32) ![7] S1.size inb_S32_S1_7).toLoadRect xt0 (Shape.Idx.first (numel1_S1.symm ▸ Nat.one_pos)))) (k0_hw9 : k0_chk9 (tbM0_0.view.readAt (Elt F) (Rect.unit (s := S32) ![8] S1.size inb_S32_S1_8).toLoadRect xt0 (Shape.Idx.first (numel1_S1.symm ▸ Nat.one_pos)))) (k0_hw10 : k0_chk10 (tbM0_0.view.readAt (Elt F) (Rect.unit (s := S32) ![9] S1.size inb_S32_S1_9).toLoadRect xt0 (Shape.Idx.first (numel1_S1.symm ▸ Nat.one_pos)))) (k0_hw11 : k0_chk11 (tbM0_0.view.readAt (Elt F) (Rect.unit (s := S32) ![10] S1.size inb_S32_S1_10).toLoadRect xt0 (Shape.Idx.first (numel1_S1.symm ▸ Nat.one_pos)))) (k0_hw12 : k0_chk12 (tbM0_0.view.readAt (Elt F) (Rect.unit (s := S32) ![11] S1.size inb_S32_S1_11).toLoadRect xt0 (Shape.Idx.first (numel1_S1.symm ▸ Nat.one_pos)))) (k0_hw13 : k0_chk13 (tbM0_0.view.readAt (Elt F) (Rect.unit (s := S32) ![12] S1.size inb_S32_S1_12).toLoadRect xt0 (Shape.Idx.first (numel1_S1.symm ▸ Nat.one_pos)))) (k0_hw14 : k0_chk14 (tbM0_0.view.readAt (Elt F) (Rect.unit (s := S32) ![13] S1.size inb_S32_S1_13).toLoadRect xt0 (Shape.Idx.first (numel1_S1.symm ▸ Nat.one_pos)))) (k0_hw15 : k0_chk15 (tbM0_0.view.readAt (Elt F) (Rect.unit (s := S32) ![14] S1.size inb_S32_S1_14).toLoadRect xt0 (Shape.Idx.first (numel1_S1.symm ▸ Nat.one_pos)))) (k0_hw16 : k0_chk16 (tbM0_0.view.readAt (Elt F) (Rect.unit (s := S32) ![15] S1.size inb_S32_S1_15).toLoadRect xt0 (Shape.Idx.first (numel1_S1.symm ▸ Nat.one_pos)))) (k0_hw17 : k0_chk17 (tbM0_0.view.readAt (Elt F) (Rect.unit (s := S32) ![16] S1.size inb_S32_S1_16).toLoadRect xt0 (Shape.Idx.first (numel1_S1.symm ▸ Nat.one_pos)))) (k0_hw18 : k0_chk18 (tbM0_0.view.readAt (Elt F) (Rect.unit (s := S32) ![17] S1.size inb_S32_S1_17).toLoadRect xt0 (Shape.Idx.first (numel1_S1.symm ▸ Nat.one_pos)))) (k0_hw19 : k0_chk19 (tbM0_0.view.readAt (Elt F) (Rect.unit (s := S32) ![18] S1.size inb_S32_S1_18).toLoadRect xt0 (Shape.Idx.first (numel1_S1.symm ▸ Nat.one_pos)))) (k0_hw20 : k0_chk20 (tbM0_0.view.readAt (Elt F) (Rect.unit (s := S32) ![19] S1.size inb_S32_S1_19).toLoadRect xt0 (Shape.Idx.first (numel1_S1.symm ▸ Nat.one_pos)))) (k0_hw21 : k0_chk21 (tbM0_0.view.readAt (Elt F) (Rect.unit (s := S32) ![20] S1.size inb_S32_S1_20).toLoadRect xt0 (Shape.Idx.first (numel1_S1.symm ▸ Nat.one_pos)))) (k0_hw22 : k0_chk22 (tbM0_0.view.readAt (Elt F) (Rect.unit (s := S32) ![21] S1.size inb_S32_S1_21).toLoadRect xt0 (Shape.Idx.first (numel1_S1.symm ▸ Nat.one_pos)))) (k0_hw23 : k0_chk23 (tbM0_0.view.readAt (Elt F) (Rect.unit (s := S32) ![22] S1.size inb_S32_S1_22).toLoadRect xt0 (Shape.Idx.first (numel1_S1.symm ▸ Nat.one_pos)))) (k0_hw24 : k0_chk24 (tbM0_0.view.readAt (Elt F) (Rect.unit (s := S32) ![23] S1.size inb_S32_S1_23).toLoadRect xt0 (Shape.Idx.first (numel1_S1.symm ▸ Nat.one_pos)))) (k0_hw25 : k0_chk25 (tbM0_0.view.readAt (Elt F) (Rect.unit (s := S32) ![24] S1.size inb_S32_S1_24).toLoadRect xt0 (Shape.Idx.first (numel1_S1.symm ▸ Nat.one_pos)))) (k0_hw26 : k0_chk26 (tbM0_0.view.readAt (Elt F) (Rect.unit (s := S32) ![25] S1.size inb_S32_S1_25).toLoadRect xt0 (Shape.Idx.first (numel1_S1.symm ▸ Nat.one_pos)))) (k0_hw27 : k0_chk27 (tbM0_0.view.readAt (Elt F) (Rect.unit (s := S32) ![26] S1.size inb_S32_S1_26).toLoadRect xt0 (Shape.Idx.first (numel1_S1.symm ▸ Nat.one_pos)))) (k0_hw28 : k0_chk28 (tbM0_0.view.readAt (Elt F) (Rect.unit (s := S32) ![27] S1.size inb_S32_S1_27).toLoadRect xt0 (Shape.Idx.first (numel1_S1.symm ▸ Nat.one_pos)))) (k0_hw29 : k0_chk29 (tbM0_0.view.readAt (Elt F) (Rect.unit (s := S32) ![28] S1.size inb_S32_S1_28).toLoadRect xt0 (Shape.Idx.first (numel1_S1.symm ▸ Nat.one_pos)))) (k0_hw30 : k0_chk30 (tbM0_0.view.readAt (Elt F) (Rect.unit (s := S32) ![29] S1.size inb_S32_S1_29).toLoadRect xt0 (Shape.Idx.first (numel1_S1.symm ▸ Nat.one_pos)))) (k0_hw31 : k0_chk31 (tbM0_0.view.readAt (Elt F) (Rect.unit (s := S32) ![30] S1.size inb_S32_S1_30).toLoadRect xt0 (Shape.Idx.first (numel1_S1.symm ▸ Nat.one_pos)))) (k0_hw32 : k0_chk32 (tbM0_0.view.readAt (Elt F) (Rect.unit (s := S32) ![31] S1.size inb_S32_S1_31).toLoadRect xt0 (Shape.Idx.first (numel1_S1.symm ▸ Nat.one_pos)))) (h : 21 < 32) :
    (![kernelRun0_A.sl.dma1 c xt0 fh0 k0_hw1, kernelRun0_A.sl.dma2 c xt0 fh0 k0_hw2, kernelRun0_A.sl.dma3 c xt0 fh0 k0_hw3, kernelRun0_A.sl.dma4 c xt0 fh0 k0_hw4, kernelRun0_A.sl.dma5 c xt0 fh0 k0_hw5, kernelRun0_A.sl.dma6 c xt0 fh0 k0_hw6, kernelRun0_A.sl.dma7 c xt0 fh0 k0_hw7, kernelRun0_A.sl.dma8 c xt0 fh0 k0_hw8, kernelRun0_A.sl.dma9 c xt0 fh0 k0_hw9, kernelRun0_A.sl.dma10 c xt0 fh0 k0_hw10, kernelRun0_A.sl.dma11 c xt0 fh0 k0_hw11, kernelRun0_A.sl.dma12 c xt0 fh0 k0_hw12, kernelRun0_A.sl.dma13 c xt0 fh0 k0_hw13, kernelRun0_A.sl.dma14 c xt0 fh0 k0_hw14, kernelRun0_A.sl.dma15 c xt0 fh0 k0_hw15, kernelRun0_A.sl.dma16 c xt0 fh0 k0_hw16, kernelRun0_A.sl.dma17 c xt0 fh0 k0_hw17, kernelRun0_A.sl.dma18 c xt0 fh0 k0_hw18, kernelRun0_A.sl.dma19 c xt0 fh0 k0_hw19, kernelRun0_A.sl.dma20 c xt0 fh0 k0_hw20, kernelRun0_A.sl.dma21 c xt0 fh0 k0_hw21, kernelRun0_A.sl.dma22 c xt0 fh0 k0_hw22, kernelRun0_A.sl.dma23 c xt0 fh0 k0_hw23, kernelRun0_A.sl.dma24 c xt0 fh0 k0_hw24, kernelRun0_A.sl.dma25 c xt0 fh0 k0_hw25, kernelRun0_A.sl.dma26 c xt0 fh0 k0_hw26, kernelRun0_A.sl.dma27 c xt0 fh0 k0_hw27, kernelRun0_A.sl.dma28 c xt0 fh0 k0_hw28, kernelRun0_A.sl.dma29 c xt0 fh0 k0_hw29, kernelRun0_A.sl.dma30 c xt0 fh0 k0_hw30, kernelRun0_A.sl.dma31 c xt0 fh0 k0_hw31, kernelRun0_A.sl.dma32 c xt0 fh0 k0_hw32] : Fin 32 → S512.Idx → Elt F .f32) ⟨21, h⟩ = kernelRun0_A.sl.dma22 c xt0 fh0 k0_hw22 := rfl
theorem look_22 (c : Dev nD) (xt0 : TbBuf0 (F := F) c tbM0_0) (fh0 : HbBuf0 (F := F) c hbM0_0) (k0_hw1 : k0_chk1 (tbM0_0.view.readAt (Elt F) (Rect.unit (s := S32) ![0] S1.size inb_S32_S1_0).toLoadRect xt0 (Shape.Idx.first (numel1_S1.symm ▸ Nat.one_pos)))) (k0_hw2 : k0_chk2 (tbM0_0.view.readAt (Elt F) (Rect.unit (s := S32) ![1] S1.size inb_S32_S1_1).toLoadRect xt0 (Shape.Idx.first (numel1_S1.symm ▸ Nat.one_pos)))) (k0_hw3 : k0_chk3 (tbM0_0.view.readAt (Elt F) (Rect.unit (s := S32) ![2] S1.size inb_S32_S1_2).toLoadRect xt0 (Shape.Idx.first (numel1_S1.symm ▸ Nat.one_pos)))) (k0_hw4 : k0_chk4 (tbM0_0.view.readAt (Elt F) (Rect.unit (s := S32) ![3] S1.size inb_S32_S1_3).toLoadRect xt0 (Shape.Idx.first (numel1_S1.symm ▸ Nat.one_pos)))) (k0_hw5 : k0_chk5 (tbM0_0.view.readAt (Elt F) (Rect.unit (s := S32) ![4] S1.size inb_S32_S1_4).toLoadRect xt0 (Shape.Idx.first (numel1_S1.symm ▸ Nat.one_pos)))) (k0_hw6 : k0_chk6 (tbM0_0.view.readAt (Elt F) (Rect.unit (s := S32) ![5] S1.size inb_S32_S1_5).toLoadRect xt0 (Shape.Idx.first (numel1_S1.symm ▸ Nat.one_pos)))) (k0_hw7 : k0_chk7 (tbM0_0.view.readAt (Elt F) (Rect.unit (s := S32) ![6] S1.size inb_S32_S1_6).toLoadRect xt0 (Shape.Idx.first (numel1_S1.symm ▸ Nat.one_pos)))) (k0_hw8 : k0_chk8 (tbM0_0.view.readAt (Elt F) (Rect.unit (s := S32) ![7] S1.size inb_S32_S1_7).toLoadRect xt0 (Shape.Idx.first (numel1_S1.symm ▸ Nat.one_pos)))) (k0_hw9 : k0_chk9 (tbM0_0.view.readAt (Elt F) (Rect.unit (s := S32) ![8] S1.size inb_S32_S1_8).toLoadRect xt0 (Shape.Idx.first (numel1_S1.symm ▸ Nat.one_pos)))) (k0_hw10 : k0_chk10 (tbM0_0.view.readAt (Elt F) (Rect.unit (s := S32) ![9] S1.size inb_S32_S1_9).toLoadRect xt0 (Shape.Idx.first (numel1_S1.symm ▸ Nat.one_pos)))) (k0_hw11 : k0_chk11 (tbM0_0.view.readAt (Elt F) (Rect.unit (s := S32) ![10] S1.size inb_S32_S1_10).toLoadRect xt0 (Shape.Idx.first (numel1_S1.symm ▸ Nat.one_pos)))) (k0_hw12 : k0_chk12 (tbM0_0.view.readAt (Elt F) (Rect.unit (s := S32) ![11] S1.size inb_S32_S1_11).toLoadRect xt0 (Shape.Idx.first (numel1_S1.symm ▸ Nat.one_pos)))) (k0_hw13 : k0_chk13 (tbM0_0.view.readAt (Elt F) (Rect.unit (s := S32) ![12] S1.size inb_S32_S1_12).toLoadRect xt0 (Shape.Idx.first (numel1_S1.symm ▸ Nat.one_pos)))) (k0_hw14 : k0_chk14 (tbM0_0.view.readAt (Elt F) (Rect.unit (s := S32) ![13] S1.size inb_S32_S1_13).toLoadRect xt0 (Shape.Idx.first (numel1_S1.symm ▸ Nat.one_pos)))) (k0_hw15 : k0_chk15 (tbM0_0.view.readAt (Elt F) (Rect.unit (s := S32) ![14] S1.size inb_S32_S1_14).toLoadRect xt0 (Shape.Idx.first (numel1_S1.symm ▸ Nat.one_pos)))) (k0_hw16 : k0_chk16 (tbM0_0.view.readAt (Elt F) (Rect.unit (s := S32) ![15] S1.size inb_S32_S1_15).toLoadRect xt0 (Shape.Idx.first (numel1_S1.symm ▸ Nat.one_pos)))) (k0_hw17 : k0_chk17 (tbM0_0.view.readAt (Elt F) (Rect.unit (s := S32) ![16] S1.size inb_S32_S1_16).toLoadRect xt0 (Shape.Idx.first (numel1_S1.symm ▸ Nat.one_pos)))) (k0_hw18 : k0_chk18 (tbM0_0.view.readAt (Elt F) (Rect.unit (s := S32) ![17] S1.size inb_S32_S1_17).toLoadRect xt0 (Shape.Idx.first (numel1_S1.symm ▸ Nat.one_pos)))) (k0_hw19 : k0_chk19 (tbM0_0.view.readAt (Elt F) (Rect.unit (s := S32) ![18] S1.size inb_S32_S1_18).toLoadRect xt0 (Shape.Idx.first (numel1_S1.symm ▸ Nat.one_pos)))) (k0_hw20 : k0_chk20 (tbM0_0.view.readAt (Elt F) (Rect.unit (s := S32) ![19] S1.size inb_S32_S1_19).toLoadRect xt0 (Shape.Idx.first (numel1_S1.symm ▸ Nat.one_pos)))) (k0_hw21 : k0_chk21 (tbM0_0.view.readAt (Elt F) (Rect.unit (s := S32) ![20] S1.size inb_S32_S1_20).toLoadRect xt0 (Shape.Idx.first (numel1_S1.symm ▸ Nat.one_pos)))) (k0_hw22 : k0_chk22 (tbM0_0.view.readAt (Elt F) (Rect.unit (s := S32) ![21] S1.size inb_S32_S1_21).toLoadRect xt0 (Shape.Idx.first (numel1_S1.symm ▸ Nat.one_pos)))) (k0_hw23 : k0_chk23 (tbM0_0.view.readAt (Elt F) (Rect.unit (s := S32) ![22] S1.size inb_S32_S1_22).toLoadRect xt0 (Shape.Idx.first (numel1_S1.symm ▸ Nat.one_pos)))) (k0_hw24 : k0_chk24 (tbM0_0.view.readAt (Elt F) (Rect.unit (s := S32) ![23] S1.size inb_S32_S1_23).toLoadRect xt0 (Shape.Idx.first (numel1_S1.symm ▸ Nat.one_pos)))) (k0_hw25 : k0_chk25 (tbM0_0.view.readAt (Elt F) (Rect.unit (s := S32) ![24] S1.size inb_S32_S1_24).toLoadRect xt0 (Shape.Idx.first (numel1_S1.symm ▸ Nat.one_pos)))) (k0_hw26 : k0_chk26 (tbM0_0.view.readAt (Elt F) (Rect.unit (s := S32) ![25] S1.size inb_S32_S1_25).toLoadRect xt0 (Shape.Idx.first (numel1_S1.symm ▸ Nat.one_pos)))) (k0_hw27 : k0_chk27 (tbM0_0.view.readAt (Elt F) (Rect.unit (s := S32) ![26] S1.size inb_S32_S1_26).toLoadRect xt0 (Shape.Idx.first (numel1_S1.symm ▸ Nat.one_pos)))) (k0_hw28 : k0_chk28 (tbM0_0.view.readAt (Elt F) (Rect.unit (s := S32) ![27] S1.size inb_S32_S1_27).toLoadRect xt0 (Shape.Idx.first (numel1_S1.symm ▸ Nat.one_pos)))) (k0_hw29 : k0_chk29 (tbM0_0.view.readAt (Elt F) (Rect.unit (s := S32) ![28] S1.size inb_S32_S1_28).toLoadRect xt0 (Shape.Idx.first (numel1_S1.symm ▸ Nat.one_pos)))) (k0_hw30 : k0_chk30 (tbM0_0.view.readAt (Elt F) (Rect.unit (s := S32) ![29] S1.size inb_S32_S1_29).toLoadRect xt0 (Shape.Idx.first (numel1_S1.symm ▸ Nat.one_pos)))) (k0_hw31 : k0_chk31 (tbM0_0.view.readAt (Elt F) (Rect.unit (s := S32) ![30] S1.size inb_S32_S1_30).toLoadRect xt0 (Shape.Idx.first (numel1_S1.symm ▸ Nat.one_pos)))) (k0_hw32 : k0_chk32 (tbM0_0.view.readAt (Elt F) (Rect.unit (s := S32) ![31] S1.size inb_S32_S1_31).toLoadRect xt0 (Shape.Idx.first (numel1_S1.symm ▸ Nat.one_pos)))) (h : 22 < 32) :
    (![kernelRun0_A.sl.dma1 c xt0 fh0 k0_hw1, kernelRun0_A.sl.dma2 c xt0 fh0 k0_hw2, kernelRun0_A.sl.dma3 c xt0 fh0 k0_hw3, kernelRun0_A.sl.dma4 c xt0 fh0 k0_hw4, kernelRun0_A.sl.dma5 c xt0 fh0 k0_hw5, kernelRun0_A.sl.dma6 c xt0 fh0 k0_hw6, kernelRun0_A.sl.dma7 c xt0 fh0 k0_hw7, kernelRun0_A.sl.dma8 c xt0 fh0 k0_hw8, kernelRun0_A.sl.dma9 c xt0 fh0 k0_hw9, kernelRun0_A.sl.dma10 c xt0 fh0 k0_hw10, kernelRun0_A.sl.dma11 c xt0 fh0 k0_hw11, kernelRun0_A.sl.dma12 c xt0 fh0 k0_hw12, kernelRun0_A.sl.dma13 c xt0 fh0 k0_hw13, kernelRun0_A.sl.dma14 c xt0 fh0 k0_hw14, kernelRun0_A.sl.dma15 c xt0 fh0 k0_hw15, kernelRun0_A.sl.dma16 c xt0 fh0 k0_hw16, kernelRun0_A.sl.dma17 c xt0 fh0 k0_hw17, kernelRun0_A.sl.dma18 c xt0 fh0 k0_hw18, kernelRun0_A.sl.dma19 c xt0 fh0 k0_hw19, kernelRun0_A.sl.dma20 c xt0 fh0 k0_hw20, kernelRun0_A.sl.dma21 c xt0 fh0 k0_hw21, kernelRun0_A.sl.dma22 c xt0 fh0 k0_hw22, kernelRun0_A.sl.dma23 c xt0 fh0 k0_hw23, kernelRun0_A.sl.dma24 c xt0 fh0 k0_hw24, kernelRun0_A.sl.dma25 c xt0 fh0 k0_hw25, kernelRun0_A.sl.dma26 c xt0 fh0 k0_hw26, kernelRun0_A.sl.dma27 c xt0 fh0 k0_hw27, kernelRun0_A.sl.dma28 c xt0 fh0 k0_hw28, kernelRun0_A.sl.dma29 c xt0 fh0 k0_hw29, kernelRun0_A.sl.dma30 c xt0 fh0 k0_hw30, kernelRun0_A.sl.dma31 c xt0 fh0 k0_hw31, kernelRun0_A.sl.dma32 c xt0 fh0 k0_hw32] : Fin 32 → S512.Idx → Elt F .f32) ⟨22, h⟩ = kernelRun0_A.sl.dma23 c xt0 fh0 k0_hw23 := rfl
theorem look_23 (c : Dev nD) (xt0 : TbBuf0 (F := F) c tbM0_0) (fh0 : HbBuf0 (F := F) c hbM0_0) (k0_hw1 : k0_chk1 (tbM0_0.view.readAt (Elt F) (Rect.unit (s := S32) ![0] S1.size inb_S32_S1_0).toLoadRect xt0 (Shape.Idx.first (numel1_S1.symm ▸ Nat.one_pos)))) (k0_hw2 : k0_chk2 (tbM0_0.view.readAt (Elt F) (Rect.unit (s := S32) ![1] S1.size inb_S32_S1_1).toLoadRect xt0 (Shape.Idx.first (numel1_S1.symm ▸ Nat.one_pos)))) (k0_hw3 : k0_chk3 (tbM0_0.view.readAt (Elt F) (Rect.unit (s := S32) ![2] S1.size inb_S32_S1_2).toLoadRect xt0 (Shape.Idx.first (numel1_S1.symm ▸ Nat.one_pos)))) (k0_hw4 : k0_chk4 (tbM0_0.view.readAt (Elt F) (Rect.unit (s := S32) ![3] S1.size inb_S32_S1_3).toLoadRect xt0 (Shape.Idx.first (numel1_S1.symm ▸ Nat.one_pos)))) (k0_hw5 : k0_chk5 (tbM0_0.view.readAt (Elt F) (Rect.unit (s := S32) ![4] S1.size inb_S32_S1_4).toLoadRect xt0 (Shape.Idx.first (numel1_S1.symm ▸ Nat.one_pos)))) (k0_hw6 : k0_chk6 (tbM0_0.view.readAt (Elt F) (Rect.unit (s := S32) ![5] S1.size inb_S32_S1_5).toLoadRect xt0 (Shape.Idx.first (numel1_S1.symm ▸ Nat.one_pos)))) (k0_hw7 : k0_chk7 (tbM0_0.view.readAt (Elt F) (Rect.unit (s := S32) ![6] S1.size inb_S32_S1_6).toLoadRect xt0 (Shape.Idx.first (numel1_S1.symm ▸ Nat.one_pos)))) (k0_hw8 : k0_chk8 (tbM0_0.view.readAt (Elt F) (Rect.unit (s := S32) ![7] S1.size inb_S32_S1_7).toLoadRect xt0 (Shape.Idx.first (numel1_S1.symm ▸ Nat.one_pos)))) (k0_hw9 : k0_chk9 (tbM0_0.view.readAt (Elt F) (Rect.unit (s := S32) ![8] S1.size inb_S32_S1_8).toLoadRect xt0 (Shape.Idx.first (numel1_S1.symm ▸ Nat.one_pos)))) (k0_hw10 : k0_chk10 (tbM0_0.view.readAt (Elt F) (Rect.unit (s := S32) ![9] S1.size inb_S32_S1_9).toLoadRect xt0 (Shape.Idx.first (numel1_S1.symm ▸ Nat.one_pos)))) (k0_hw11 : k0_chk11 (tbM0_0.view.readAt (Elt F) (Rect.unit (s := S32) ![10] S1.size inb_S32_S1_10).toLoadRect xt0 (Shape.Idx.first (numel1_S1.symm ▸ Nat.one_pos)))) (k0_hw12 : k0_chk12 (tbM0_0.view.readAt (Elt F) (Rect.unit (s := S32) ![11] S1.size inb_S32_S1_11).toLoadRect xt0 (Shape.Idx.first (numel1_S1.symm ▸ Nat.one_pos)))) (k0_hw13 : k0_chk13 (tbM0_0.view.readAt (Elt F) (Rect.unit (s := S32) ![12] S1.size inb_S32_S1_12).toLoadRect xt0 (Shape.Idx.first (numel1_S1.symm ▸ Nat.one_pos)))) (k0_hw14 : k0_chk14 (tbM0_0.view.readAt (Elt F) (Rect.unit (s := S32) ![13] S1.size inb_S32_S1_13).toLoadRect xt0 (Shape.Idx.first (numel1_S1.symm ▸ Nat.one_pos)))) (k0_hw15 : k0_chk15 (tbM0_0.view.readAt (Elt F) (Rect.unit (s := S32) ![14] S1.size inb_S32_S1_14).toLoadRect xt0 (Shape.Idx.first (numel1_S1.symm ▸ Nat.one_pos)))) (k0_hw16 : k0_chk16 (tbM0_0.view.readAt (Elt F) (Rect.unit (s := S32) ![15] S1.size inb_S32_S1_15).toLoadRect xt0 (Shape.Idx.first (numel1_S1.symm ▸ Nat.one_pos)))) (k0_hw17 : k0_chk17 (tbM0_0.view.readAt (Elt F) (Rect.unit (s := S32) ![16] S1.size inb_S32_S1_16).toLoadRect xt0 (Shape.Idx.first (numel1_S1.symm ▸ Nat.one_pos)))) (k0_hw18 : k0_chk18 (tbM0_0.view.readAt (Elt F) (Rect.unit (s := S32) ![17] S1.size inb_S32_S1_17).toLoadRect xt0 (Shape.Idx.first (numel1_S1.symm ▸ Nat.one_pos)))) (k0_hw19 : k0_chk19 (tbM0_0.view.readAt (Elt F) (Rect.unit (s := S32) ![18] S1.size inb_S32_S1_18).toLoadRect xt0 (Shape.Idx.first (numel1_S1.symm ▸ Nat.one_pos)))) (k0_hw20 : k0_chk20 (tbM0_0.view.readAt (Elt F) (Rect.unit (s := S32) ![19] S1.size inb_S32_S1_19).toLoadRect xt0 (Shape.Idx.first (numel1_S1.symm ▸ Nat.one_pos)))) (k0_hw21 : k0_chk21 (tbM0_0.view.readAt (Elt F) (Rect.unit (s := S32) ![20] S1.size inb_S32_S1_20).toLoadRect xt0 (Shape.Idx.first (numel1_S1.symm ▸ Nat.one_pos)))) (k0_hw22 : k0_chk22 (tbM0_0.view.readAt (Elt F) (Rect.unit (s := S32) ![21] S1.size inb_S32_S1_21).toLoadRect xt0 (Shape.Idx.first (numel1_S1.symm ▸ Nat.one_pos)))) (k0_hw23 : k0_chk23 (tbM0_0.view.readAt (Elt F) (Rect.unit (s := S32) ![22] S1.size inb_S32_S1_22).toLoadRect xt0 (Shape.Idx.first (numel1_S1.symm ▸ Nat.one_pos)))) (k0_hw24 : k0_chk24 (tbM0_0.view.readAt (Elt F) (Rect.unit (s := S32) ![23] S1.size inb_S32_S1_23).toLoadRect xt0 (Shape.Idx.first (numel1_S1.symm ▸ Nat.one_pos)))) (k0_hw25 : k0_chk25 (tbM0_0.view.readAt (Elt F) (Rect.unit (s := S32) ![24] S1.size inb_S32_S1_24).toLoadRect xt0 (Shape.Idx.first (numel1_S1.symm ▸ Nat.one_pos)))) (k0_hw26 : k0_chk26 (tbM0_0.view.readAt (Elt F) (Rect.unit (s := S32) ![25] S1.size inb_S32_S1_25).toLoadRect xt0 (Shape.Idx.first (numel1_S1.symm ▸ Nat.one_pos)))) (k0_hw27 : k0_chk27 (tbM0_0.view.readAt (Elt F) (Rect.unit (s := S32) ![26] S1.size inb_S32_S1_26).toLoadRect xt0 (Shape.Idx.first (numel1_S1.symm ▸ Nat.one_pos)))) (k0_hw28 : k0_chk28 (tbM0_0.view.readAt (Elt F) (Rect.unit (s := S32) ![27] S1.size inb_S32_S1_27).toLoadRect xt0 (Shape.Idx.first (numel1_S1.symm ▸ Nat.one_pos)))) (k0_hw29 : k0_chk29 (tbM0_0.view.readAt (Elt F) (Rect.unit (s := S32) ![28] S1.size inb_S32_S1_28).toLoadRect xt0 (Shape.Idx.first (numel1_S1.symm ▸ Nat.one_pos)))) (k0_hw30 : k0_chk30 (tbM0_0.view.readAt (Elt F) (Rect.unit (s := S32) ![29] S1.size inb_S32_S1_29).toLoadRect xt0 (Shape.Idx.first (numel1_S1.symm ▸ Nat.one_pos)))) (k0_hw31 : k0_chk31 (tbM0_0.view.readAt (Elt F) (Rect.unit (s := S32) ![30] S1.size inb_S32_S1_30).toLoadRect xt0 (Shape.Idx.first (numel1_S1.symm ▸ Nat.one_pos)))) (k0_hw32 : k0_chk32 (tbM0_0.view.readAt (Elt F) (Rect.unit (s := S32) ![31] S1.size inb_S32_S1_31).toLoadRect xt0 (Shape.Idx.first (numel1_S1.symm ▸ Nat.one_pos)))) (h : 23 < 32) :
    (![kernelRun0_A.sl.dma1 c xt0 fh0 k0_hw1, kernelRun0_A.sl.dma2 c xt0 fh0 k0_hw2, kernelRun0_A.sl.dma3 c xt0 fh0 k0_hw3, kernelRun0_A.sl.dma4 c xt0 fh0 k0_hw4, kernelRun0_A.sl.dma5 c xt0 fh0 k0_hw5, kernelRun0_A.sl.dma6 c xt0 fh0 k0_hw6, kernelRun0_A.sl.dma7 c xt0 fh0 k0_hw7, kernelRun0_A.sl.dma8 c xt0 fh0 k0_hw8, kernelRun0_A.sl.dma9 c xt0 fh0 k0_hw9, kernelRun0_A.sl.dma10 c xt0 fh0 k0_hw10, kernelRun0_A.sl.dma11 c xt0 fh0 k0_hw11, kernelRun0_A.sl.dma12 c xt0 fh0 k0_hw12, kernelRun0_A.sl.dma13 c xt0 fh0 k0_hw13, kernelRun0_A.sl.dma14 c xt0 fh0 k0_hw14, kernelRun0_A.sl.dma15 c xt0 fh0 k0_hw15, kernelRun0_A.sl.dma16 c xt0 fh0 k0_hw16, kernelRun0_A.sl.dma17 c xt0 fh0 k0_hw17, kernelRun0_A.sl.dma18 c xt0 fh0 k0_hw18, kernelRun0_A.sl.dma19 c xt0 fh0 k0_hw19, kernelRun0_A.sl.dma20 c xt0 fh0 k0_hw20, kernelRun0_A.sl.dma21 c xt0 fh0 k0_hw21, kernelRun0_A.sl.dma22 c xt0 fh0 k0_hw22, kernelRun0_A.sl.dma23 c xt0 fh0 k0_hw23, kernelRun0_A.sl.dma24 c xt0 fh0 k0_hw24, kernelRun0_A.sl.dma25 c xt0 fh0 k0_hw25, kernelRun0_A.sl.dma26 c xt0 fh0 k0_hw26, kernelRun0_A.sl.dma27 c xt0 fh0 k0_hw27, kernelRun0_A.sl.dma28 c xt0 fh0 k0_hw28, kernelRun0_A.sl.dma29 c xt0 fh0 k0_hw29, kernelRun0_A.sl.dma30 c xt0 fh0 k0_hw30, kernelRun0_A.sl.dma31 c xt0 fh0 k0_hw31, kernelRun0_A.sl.dma32 c xt0 fh0 k0_hw32] : Fin 32 → S512.Idx → Elt F .f32) ⟨23, h⟩ = kernelRun0_A.sl.dma24 c xt0 fh0 k0_hw24 := rfl
theorem look_24 (c : Dev nD) (xt0 : TbBuf0 (F := F) c tbM0_0) (fh0 : HbBuf0 (F := F) c hbM0_0) (k0_hw1 : k0_chk1 (tbM0_0.view.readAt (Elt F) (Rect.unit (s := S32) ![0] S1.size inb_S32_S1_0).toLoadRect xt0 (Shape.Idx.first (numel1_S1.symm ▸ Nat.one_pos)))) (k0_hw2 : k0_chk2 (tbM0_0.view.readAt (Elt F) (Rect.unit (s := S32) ![1] S1.size inb_S32_S1_1).toLoadRect xt0 (Shape.Idx.first (numel1_S1.symm ▸ Nat.one_pos)))) (k0_hw3 : k0_chk3 (tbM0_0.view.readAt (Elt F) (Rect.unit (s := S32) ![2] S1.size inb_S32_S1_2).toLoadRect xt0 (Shape.Idx.first (numel1_S1.symm ▸ Nat.one_pos)))) (k0_hw4 : k0_chk4 (tbM0_0.view.readAt (Elt F) (Rect.unit (s := S32) ![3] S1.size inb_S32_S1_3).toLoadRect xt0 (Shape.Idx.first (numel1_S1.symm ▸ Nat.one_pos)))) (k0_hw5 : k0_chk5 (tbM0_0.view.readAt (Elt F) (Rect.unit (s := S32) ![4] S1.size inb_S32_S1_4).toLoadRect xt0 (Shape.Idx.first (numel1_S1.symm ▸ Nat.one_pos)))) (k0_hw6 : k0_chk6 (tbM0_0.view.readAt (Elt F) (Rect.unit (s := S32) ![5] S1.size inb_S32_S1_5).toLoadRect xt0 (Shape.Idx.first (numel1_S1.symm ▸ Nat.one_pos)))) (k0_hw7 : k0_chk7 (tbM0_0.view.readAt (Elt F) (Rect.unit (s := S32) ![6] S1.size inb_S32_S1_6).toLoadRect xt0 (Shape.Idx.first (numel1_S1.symm ▸ Nat.one_pos)))) (k0_hw8 : k0_chk8 (tbM0_0.view.readAt (Elt F) (Rect.unit (s := S32) ![7] S1.size inb_S32_S1_7).toLoadRect xt0 (Shape.Idx.first (numel1_S1.symm ▸ Nat.one_pos)))) (k0_hw9 : k0_chk9 (tbM0_0.view.readAt (Elt F) (Rect.unit (s := S32) ![8] S1.size inb_S32_S1_8).toLoadRect xt0 (Shape.Idx.first (numel1_S1.symm ▸ Nat.one_pos)))) (k0_hw10 : k0_chk10 (tbM0_0.view.readAt (Elt F) (Rect.unit (s := S32) ![9] S1.size inb_S32_S1_9).toLoadRect xt0 (Shape.Idx.first (numel1_S1.symm ▸ Nat.one_pos)))) (k0_hw11 : k0_chk11 (tbM0_0.view.readAt (Elt F) (Rect.unit (s := S32) ![10] S1.size inb_S32_S1_10).toLoadRect xt0 (Shape.Idx.first (numel1_S1.symm ▸ Nat.one_pos)))) (k0_hw12 : k0_chk12 (tbM0_0.view.readAt (Elt F) (Rect.unit (s := S32) ![11] S1.size inb_S32_S1_11).toLoadRect xt0 (Shape.Idx.first (numel1_S1.symm ▸ Nat.one_pos)))) (k0_hw13 : k0_chk13 (tbM0_0.view.readAt (Elt F) (Rect.unit (s := S32) ![12] S1.size inb_S32_S1_12).toLoadRect xt0 (Shape.Idx.first (numel1_S1.symm ▸ Nat.one_pos)))) (k0_hw14 : k0_chk14 (tbM0_0.view.readAt (Elt F) (Rect.unit (s := S32) ![13] S1.size inb_S32_S1_13).toLoadRect xt0 (Shape.Idx.first (numel1_S1.symm ▸ Nat.one_pos)))) (k0_hw15 : k0_chk15 (tbM0_0.view.readAt (Elt F) (Rect.unit (s := S32) ![14] S1.size inb_S32_S1_14).toLoadRect xt0 (Shape.Idx.first (numel1_S1.symm ▸ Nat.one_pos)))) (k0_hw16 : k0_chk16 (tbM0_0.view.readAt (Elt F) (Rect.unit (s := S32) ![15] S1.size inb_S32_S1_15).toLoadRect xt0 (Shape.Idx.first (numel1_S1.symm ▸ Nat.one_pos)))) (k0_hw17 : k0_chk17 (tbM0_0.view.readAt (Elt F) (Rect.unit (s := S32) ![16] S1.size inb_S32_S1_16).toLoadRect xt0 (Shape.Idx.first (numel1_S1.symm ▸ Nat.one_pos)))) (k0_hw18 : k0_chk18 (tbM0_0.view.readAt (Elt F) (Rect.unit (s := S32) ![17] S1.size inb_S32_S1_17).toLoadRect xt0 (Shape.Idx.first (numel1_S1.symm ▸ Nat.one_pos)))) (k0_hw19 : k0_chk19 (tbM0_0.view.readAt (Elt F) (Rect.unit (s := S32) ![18] S1.size inb_S32_S1_18).toLoadRect xt0 (Shape.Idx.first (numel1_S1.symm ▸ Nat.one_pos)))) (k0_hw20 : k0_chk20 (tbM0_0.view.readAt (Elt F) (Rect.unit (s := S32) ![19] S1.size inb_S32_S1_19).toLoadRect xt0 (Shape.Idx.first (numel1_S1.symm ▸ Nat.one_pos)))) (k0_hw21 : k0_chk21 (tbM0_0.view.readAt (Elt F) (Rect.unit (s := S32) ![20] S1.size inb_S32_S1_20).toLoadRect xt0 (Shape.Idx.first (numel1_S1.symm ▸ Nat.one_pos)))) (k0_hw22 : k0_chk22 (tbM0_0.view.readAt (Elt F) (Rect.unit (s := S32) ![21] S1.size inb_S32_S1_21).toLoadRect xt0 (Shape.Idx.first (numel1_S1.symm ▸ Nat.one_pos)))) (k0_hw23 : k0_chk23 (tbM0_0.view.readAt (Elt F) (Rect.unit (s := S32) ![22] S1.size inb_S32_S1_22).toLoadRect xt0 (Shape.Idx.first (numel1_S1.symm ▸ Nat.one_pos)))) (k0_hw24 : k0_chk24 (tbM0_0.view.readAt (Elt F) (Rect.unit (s := S32) ![23] S1.size inb_S32_S1_23).toLoadRect xt0 (Shape.Idx.first (numel1_S1.symm ▸ Nat.one_pos)))) (k0_hw25 : k0_chk25 (tbM0_0.view.readAt (Elt F) (Rect.unit (s := S32) ![24] S1.size inb_S32_S1_24).toLoadRect xt0 (Shape.Idx.first (numel1_S1.symm ▸ Nat.one_pos)))) (k0_hw26 : k0_chk26 (tbM0_0.view.readAt (Elt F) (Rect.unit (s := S32) ![25] S1.size inb_S32_S1_25).toLoadRect xt0 (Shape.Idx.first (numel1_S1.symm ▸ Nat.one_pos)))) (k0_hw27 : k0_chk27 (tbM0_0.view.readAt (Elt F) (Rect.unit (s := S32) ![26] S1.size inb_S32_S1_26).toLoadRect xt0 (Shape.Idx.first (numel1_S1.symm ▸ Nat.one_pos)))) (k0_hw28 : k0_chk28 (tbM0_0.view.readAt (Elt F) (Rect.unit (s := S32) ![27] S1.size inb_S32_S1_27).toLoadRect xt0 (Shape.Idx.first (numel1_S1.symm ▸ Nat.one_pos)))) (k0_hw29 : k0_chk29 (tbM0_0.view.readAt (Elt F) (Rect.unit (s := S32) ![28] S1.size inb_S32_S1_28).toLoadRect xt0 (Shape.Idx.first (numel1_S1.symm ▸ Nat.one_pos)))) (k0_hw30 : k0_chk30 (tbM0_0.view.readAt (Elt F) (Rect.unit (s := S32) ![29] S1.size inb_S32_S1_29).toLoadRect xt0 (Shape.Idx.first (numel1_S1.symm ▸ Nat.one_pos)))) (k0_hw31 : k0_chk31 (tbM0_0.view.readAt (Elt F) (Rect.unit (s := S32) ![30] S1.size inb_S32_S1_30).toLoadRect xt0 (Shape.Idx.first (numel1_S1.symm ▸ Nat.one_pos)))) (k0_hw32 : k0_chk32 (tbM0_0.view.readAt (Elt F) (Rect.unit (s := S32) ![31] S1.size inb_S32_S1_31).toLoadRect xt0 (Shape.Idx.first (numel1_S1.symm ▸ Nat.one_pos)))) (h : 24 < 32) :
    (![kernelRun0_A.sl.dma1 c xt0 fh0 k0_hw1, kernelRun0_A.sl.dma2 c xt0 fh0 k0_hw2, kernelRun0_A.sl.dma3 c xt0 fh0 k0_hw3, kernelRun0_A.sl.dma4 c xt0 fh0 k0_hw4, kernelRun0_A.sl.dma5 c xt0 fh0 k0_hw5, kernelRun0_A.sl.dma6 c xt0 fh0 k0_hw6, kernelRun0_A.sl.dma7 c xt0 fh0 k0_hw7, kernelRun0_A.sl.dma8 c xt0 fh0 k0_hw8, kernelRun0_A.sl.dma9 c xt0 fh0 k0_hw9, kernelRun0_A.sl.dma10 c xt0 fh0 k0_hw10, kernelRun0_A.sl.dma11 c xt0 fh0 k0_hw11, kernelRun0_A.sl.dma12 c xt0 fh0 k0_hw12, kernelRun0_A.sl.dma13 c xt0 fh0 k0_hw13, kernelRun0_A.sl.dma14 c xt0 fh0 k0_hw14, kernelRun0_A.sl.dma15 c xt0 fh0 k0_hw15, kernelRun0_A.sl.dma16 c xt0 fh0 k0_hw16, kernelRun0_A.sl.dma17 c xt0 fh0 k0_hw17, kernelRun0_A.sl.dma18 c xt0 fh0 k0_hw18, kernelRun0_A.sl.dma19 c xt0 fh0 k0_hw19, kernelRun0_A.sl.dma20 c xt0 fh0 k0_hw20, kernelRun0_A.sl.dma21 c xt0 fh0 k0_hw21, kernelRun0_A.sl.dma22 c xt0 fh0 k0_hw22, kernelRun0_A.sl.dma23 c xt0 fh0 k0_hw23, kernelRun0_A.sl.dma24 c xt0 fh0 k0_hw24, kernelRun0_A.sl.dma25 c xt0 fh0 k0_hw25, kernelRun0_A.sl.dma26 c xt0 fh0 k0_hw26, kernelRun0_A.sl.dma27 c xt0 fh0 k0_hw27, kernelRun0_A.sl.dma28 c xt0 fh0 k0_hw28, kernelRun0_A.sl.dma29 c xt0 fh0 k0_hw29, kernelRun0_A.sl.dma30 c xt0 fh0 k0_hw30, kernelRun0_A.sl.dma31 c xt0 fh0 k0_hw31, kernelRun0_A.sl.dma32 c xt0 fh0 k0_hw32] : Fin 32 → S512.Idx → Elt F .f32) ⟨24, h⟩ = kernelRun0_A.sl.dma25 c xt0 fh0 k0_hw25 := rfl
theorem look_25 (c : Dev nD) (xt0 : TbBuf0 (F := F) c tbM0_0) (fh0 : HbBuf0 (F := F) c hbM0_0) (k0_hw1 : k0_chk1 (tbM0_0.view.readAt (Elt F) (Rect.unit (s := S32) ![0] S1.size inb_S32_S1_0).toLoadRect xt0 (Shape.Idx.first (numel1_S1.symm ▸ Nat.one_pos)))) (k0_hw2 : k0_chk2 (tbM0_0.view.readAt (Elt F) (Rect.unit (s := S32) ![1] S1.size inb_S32_S1_1).toLoadRect xt0 (Shape.Idx.first (numel1_S1.symm ▸ Nat.one_pos)))) (k0_hw3 : k0_chk3 (tbM0_0.view.readAt (Elt F) (Rect.unit (s := S32) ![2] S1.size inb_S32_S1_2).toLoadRect xt0 (Shape.Idx.first (numel1_S1.symm ▸ Nat.one_pos)))) (k0_hw4 : k0_chk4 (tbM0_0.view.readAt (Elt F) (Rect.unit (s := S32) ![3] S1.size inb_S32_S1_3).toLoadRect xt0 (Shape.Idx.first (numel1_S1.symm ▸ Nat.one_pos)))) (k0_hw5 : k0_chk5 (tbM0_0.view.readAt (Elt F) (Rect.unit (s := S32) ![4] S1.size inb_S32_S1_4).toLoadRect xt0 (Shape.Idx.first (numel1_S1.symm ▸ Nat.one_pos)))) (k0_hw6 : k0_chk6 (tbM0_0.view.readAt (Elt F) (Rect.unit (s := S32) ![5] S1.size inb_S32_S1_5).toLoadRect xt0 (Shape.Idx.first (numel1_S1.symm ▸ Nat.one_pos)))) (k0_hw7 : k0_chk7 (tbM0_0.view.readAt (Elt F) (Rect.unit (s := S32) ![6] S1.size inb_S32_S1_6).toLoadRect xt0 (Shape.Idx.first (numel1_S1.symm ▸ Nat.one_pos)))) (k0_hw8 : k0_chk8 (tbM0_0.view.readAt (Elt F) (Rect.unit (s := S32) ![7] S1.size inb_S32_S1_7).toLoadRect xt0 (Shape.Idx.first (numel1_S1.symm ▸ Nat.one_pos)))) (k0_hw9 : k0_chk9 (tbM0_0.view.readAt (Elt F) (Rect.unit (s := S32) ![8] S1.size inb_S32_S1_8).toLoadRect xt0 (Shape.Idx.first (numel1_S1.symm ▸ Nat.one_pos)))) (k0_hw10 : k0_chk10 (tbM0_0.view.readAt (Elt F) (Rect.unit (s := S32) ![9] S1.size inb_S32_S1_9).toLoadRect xt0 (Shape.Idx.first (numel1_S1.symm ▸ Nat.one_pos)))) (k0_hw11 : k0_chk11 (tbM0_0.view.readAt (Elt F) (Rect.unit (s := S32) ![10] S1.size inb_S32_S1_10).toLoadRect xt0 (Shape.Idx.first (numel1_S1.symm ▸ Nat.one_pos)))) (k0_hw12 : k0_chk12 (tbM0_0.view.readAt (Elt F) (Rect.unit (s := S32) ![11] S1.size inb_S32_S1_11).toLoadRect xt0 (Shape.Idx.first (numel1_S1.symm ▸ Nat.one_pos)))) (k0_hw13 : k0_chk13 (tbM0_0.view.readAt (Elt F) (Rect.unit (s := S32) ![12] S1.size inb_S32_S1_12).toLoadRect xt0 (Shape.Idx.first (numel1_S1.symm ▸ Nat.one_pos)))) (k0_hw14 : k0_chk14 (tbM0_0.view.readAt (Elt F) (Rect.unit (s := S32) ![13] S1.size inb_S32_S1_13).toLoadRect xt0 (Shape.Idx.first (numel1_S1.symm ▸ Nat.one_pos)))) (k0_hw15 : k0_chk15 (tbM0_0.view.readAt (Elt F) (Rect.unit (s := S32) ![14] S1.size inb_S32_S1_14).toLoadRect xt0 (Shape.Idx.first (numel1_S1.symm ▸ Nat.one_pos)))) (k0_hw16 : k0_chk16 (tbM0_0.view.readAt (Elt F) (Rect.unit (s := S32) ![15] S1.size inb_S32_S1_15).toLoadRect xt0 (Shape.Idx.first (numel1_S1.symm ▸ Nat.one_pos)))) (k0_hw17 : k0_chk17 (tbM0_0.view.readAt (Elt F) (Rect.unit (s := S32) ![16] S1.size inb_S32_S1_16).toLoadRect xt0 (Shape.Idx.first (numel1_S1.symm ▸ Nat.one_pos)))) (k0_hw18 : k0_chk18 (tbM0_0.view.readAt (Elt F) (Rect.unit (s := S32) ![17] S1.size inb_S32_S1_17).toLoadRect xt0 (Shape.Idx.first (numel1_S1.symm ▸ Nat.one_pos)))) (k0_hw19 : k0_chk19 (tbM0_0.view.readAt (Elt F) (Rect.unit (s := S32) ![18] S1.size inb_S32_S1_18).toLoadRect xt0 (Shape.Idx.first (numel1_S1.symm ▸ Nat.one_pos)))) (k0_hw20 : k0_chk20 (tbM0_0.view.readAt (Elt F) (Rect.unit (s := S32) ![19] S1.size inb_S32_S1_19).toLoadRect xt0 (Shape.Idx.first (numel1_S1.symm ▸ Nat.one_pos)))) (k0_hw21 : k0_chk21 (tbM0_0.view.readAt (Elt F) (Rect.unit (s := S32) ![20] S1.size inb_S32_S1_20).toLoadRect xt0 (Shape.Idx.first (numel1_S1.symm ▸ Nat.one_pos)))) (k0_hw22 : k0_chk22 (tbM0_0.view.readAt (Elt F) (Rect.unit (s := S32) ![21] S1.size inb_S32_S1_21).toLoadRect xt0 (Shape.Idx.first (numel1_S1.symm ▸ Nat.one_pos)))) (k0_hw23 : k0_chk23 (tbM0_0.view.readAt (Elt F) (Rect.unit (s := S32) ![22] S1.size inb_S32_S1_22).toLoadRect xt0 (Shape.Idx.first (numel1_S1.symm ▸ Nat.one_pos)))) (k0_hw24 : k0_chk24 (tbM0_0.view.readAt (Elt F) (Rect.unit (s := S32) ![23] S1.size inb_S32_S1_23).toLoadRect xt0 (Shape.Idx.first (numel1_S1.symm ▸ Nat.one_pos)))) (k0_hw25 : k0_chk25 (tbM0_0.view.readAt (Elt F) (Rect.unit (s := S32) ![24] S1.size inb_S32_S1_24).toLoadRect xt0 (Shape.Idx.first (numel1_S1.symm ▸ Nat.one_pos)))) (k0_hw26 : k0_chk26 (tbM0_0.view.readAt (Elt F) (Rect.unit (s := S32) ![25] S1.size inb_S32_S1_25).toLoadRect xt0 (Shape.Idx.first (numel1_S1.symm ▸ Nat.one_pos)))) (k0_hw27 : k0_chk27 (tbM0_0.view.readAt (Elt F) (Rect.unit (s := S32) ![26] S1.size inb_S32_S1_26).toLoadRect xt0 (Shape.Idx.first (numel1_S1.symm ▸ Nat.one_pos)))) (k0_hw28 : k0_chk28 (tbM0_0.view.readAt (Elt F) (Rect.unit (s := S32) ![27] S1.size inb_S32_S1_27).toLoadRect xt0 (Shape.Idx.first (numel1_S1.symm ▸ Nat.one_pos)))) (k0_hw29 : k0_chk29 (tbM0_0.view.readAt (Elt F) (Rect.unit (s := S32) ![28] S1.size inb_S32_S1_28).toLoadRect xt0 (Shape.Idx.first (numel1_S1.symm ▸ Nat.one_pos)))) (k0_hw30 : k0_chk30 (tbM0_0.view.readAt (Elt F) (Rect.unit (s := S32) ![29] S1.size inb_S32_S1_29).toLoadRect xt0 (Shape.Idx.first (numel1_S1.symm ▸ Nat.one_pos)))) (k0_hw31 : k0_chk31 (tbM0_0.view.readAt (Elt F) (Rect.unit (s := S32) ![30] S1.size inb_S32_S1_30).toLoadRect xt0 (Shape.Idx.first (numel1_S1.symm ▸ Nat.one_pos)))) (k0_hw32 : k0_chk32 (tbM0_0.view.readAt (Elt F) (Rect.unit (s := S32) ![31] S1.size inb_S32_S1_31).toLoadRect xt0 (Shape.Idx.first (numel1_S1.symm ▸ Nat.one_pos)))) (h : 25 < 32) :
    (![kernelRun0_A.sl.dma1 c xt0 fh0 k0_hw1, kernelRun0_A.sl.dma2 c xt0 fh0 k0_hw2, kernelRun0_A.sl.dma3 c xt0 fh0 k0_hw3, kernelRun0_A.sl.dma4 c xt0 fh0 k0_hw4, kernelRun0_A.sl.dma5 c xt0 fh0 k0_hw5, kernelRun0_A.sl.dma6 c xt0 fh0 k0_hw6, kernelRun0_A.sl.dma7 c xt0 fh0 k0_hw7, kernelRun0_A.sl.dma8 c xt0 fh0 k0_hw8, kernelRun0_A.sl.dma9 c xt0 fh0 k0_hw9, kernelRun0_A.sl.dma10 c xt0 fh0 k0_hw10, kernelRun0_A.sl.dma11 c xt0 fh0 k0_hw11, kernelRun0_A.sl.dma12 c xt0 fh0 k0_hw12, kernelRun0_A.sl.dma13 c xt0 fh0 k0_hw13, kernelRun0_A.sl.dma14 c xt0 fh0 k0_hw14, kernelRun0_A.sl.dma15 c xt0 fh0 k0_hw15, kernelRun0_A.sl.dma16 c xt0 fh0 k0_hw16, kernelRun0_A.sl.dma17 c xt0 fh0 k0_hw17, kernelRun0_A.sl.dma18 c xt0 fh0 k0_hw18, kernelRun0_A.sl.dma19 c xt0 fh0 k0_hw19, kernelRun0_A.sl.dma20 c xt0 fh0 k0_hw20, kernelRun0_A.sl.dma21 c xt0 fh0 k0_hw21, kernelRun0_A.sl.dma22 c xt0 fh0 k0_hw22, kernelRun0_A.sl.dma23 c xt0 fh0 k0_hw23, kernelRun0_A.sl.dma24 c xt0 fh0 k0_hw24, kernelRun0_A.sl.dma25 c xt0 fh0 k0_hw25, kernelRun0_A.sl.dma26 c xt0 fh0 k0_hw26, kernelRun0_A.sl.dma27 c xt0 fh0 k0_hw27, kernelRun0_A.sl.dma28 c xt0 fh0 k0_hw28, kernelRun0_A.sl.dma29 c xt0 fh0 k0_hw29, kernelRun0_A.sl.dma30 c xt0 fh0 k0_hw30, kernelRun0_A.sl.dma31 c xt0 fh0 k0_hw31, kernelRun0_A.sl.dma32 c xt0 fh0 k0_hw32] : Fin 32 → S512.Idx → Elt F .f32) ⟨25, h⟩ = kernelRun0_A.sl.dma26 c xt0 fh0 k0_hw26 := rfl
theorem look_26 (c : Dev nD) (xt0 : TbBuf0 (F := F) c tbM0_0) (fh0 : HbBuf0 (F := F) c hbM0_0) (k0_hw1 : k0_chk1 (tbM0_0.view.readAt (Elt F) (Rect.unit (s := S32) ![0] S1.size inb_S32_S1_0).toLoadRect xt0 (Shape.Idx.first (numel1_S1.symm ▸ Nat.one_pos)))) (k0_hw2 : k0_chk2 (tbM0_0.view.readAt (Elt F) (Rect.unit (s := S32) ![1] S1.size inb_S32_S1_1).toLoadRect xt0 (Shape.Idx.first (numel1_S1.symm ▸ Nat.one_pos)))) (k0_hw3 : k0_chk3 (tbM0_0.view.readAt (Elt F) (Rect.unit (s := S32) ![2] S1.size inb_S32_S1_2).toLoadRect xt0 (Shape.Idx.first (numel1_S1.symm ▸ Nat.one_pos)))) (k0_hw4 : k0_chk4 (tbM0_0.view.readAt (Elt F) (Rect.unit (s := S32) ![3] S1.size inb_S32_S1_3).toLoadRect xt0 (Shape.Idx.first (numel1_S1.symm ▸ Nat.one_pos)))) (k0_hw5 : k0_chk5 (tbM0_0.view.readAt (Elt F) (Rect.unit (s := S32) ![4] S1.size inb_S32_S1_4).toLoadRect xt0 (Shape.Idx.first (numel1_S1.symm ▸ Nat.one_pos)))) (k0_hw6 : k0_chk6 (tbM0_0.view.readAt (Elt F) (Rect.unit (s := S32) ![5] S1.size inb_S32_S1_5).toLoadRect xt0 (Shape.Idx.first (numel1_S1.symm ▸ Nat.one_pos)))) (k0_hw7 : k0_chk7 (tbM0_0.view.readAt (Elt F) (Rect.unit (s := S32) ![6] S1.size inb_S32_S1_6).toLoadRect xt0 (Shape.Idx.first (numel1_S1.symm ▸ Nat.one_pos)))) (k0_hw8 : k0_chk8 (tbM0_0.view.readAt (Elt F) (Rect.unit (s := S32) ![7] S1.size inb_S32_S1_7).toLoadRect xt0 (Shape.Idx.first (numel1_S1.symm ▸ Nat.one_pos)))) (k0_hw9 : k0_chk9 (tbM0_0.view.readAt (Elt F) (Rect.unit (s := S32) ![8] S1.size inb_S32_S1_8).toLoadRect xt0 (Shape.Idx.first (numel1_S1.symm ▸ Nat.one_pos)))) (k0_hw10 : k0_chk10 (tbM0_0.view.readAt (Elt F) (Rect.unit (s := S32) ![9] S1.size inb_S32_S1_9).toLoadRect xt0 (Shape.Idx.first (numel1_S1.symm ▸ Nat.one_pos)))) (k0_hw11 : k0_chk11 (tbM0_0.view.readAt (Elt F) (Rect.unit (s := S32) ![10] S1.size inb_S32_S1_10).toLoadRect xt0 (Shape.Idx.first (numel1_S1.symm ▸ Nat.one_pos)))) (k0_hw12 : k0_chk12 (tbM0_0.view.readAt (Elt F) (Rect.unit (s := S32) ![11] S1.size inb_S32_S1_11).toLoadRect xt0 (Shape.Idx.first (numel1_S1.symm ▸ Nat.one_pos)))) (k0_hw13 : k0_chk13 (tbM0_0.view.readAt (Elt F) (Rect.unit (s := S32) ![12] S1.size inb_S32_S1_12).toLoadRect xt0 (Shape.Idx.first (numel1_S1.symm ▸ Nat.one_pos)))) (k0_hw14 : k0_chk14 (tbM0_0.view.readAt (Elt F) (Rect.unit (s := S32) ![13] S1.size inb_S32_S1_13).toLoadRect xt0 (Shape.Idx.first (numel1_S1.symm ▸ Nat.one_pos)))) (k0_hw15 : k0_chk15 (tbM0_0.view.readAt (Elt F) (Rect.unit (s := S32) ![14] S1.size inb_S32_S1_14).toLoadRect xt0 (Shape.Idx.first (numel1_S1.symm ▸ Nat.one_pos)))) (k0_hw16 : k0_chk16 (tbM0_0.view.readAt (Elt F) (Rect.unit (s := S32) ![15] S1.size inb_S32_S1_15).toLoadRect xt0 (Shape.Idx.first (numel1_S1.symm ▸ Nat.one_pos)))) (k0_hw17 : k0_chk17 (tbM0_0.view.readAt (Elt F) (Rect.unit (s := S32) ![16] S1.size inb_S32_S1_16).toLoadRect xt0 (Shape.Idx.first (numel1_S1.symm ▸ Nat.one_pos)))) (k0_hw18 : k0_chk18 (tbM0_0.view.readAt (Elt F) (Rect.unit (s := S32) ![17] S1.size inb_S32_S1_17).toLoadRect xt0 (Shape.Idx.first (numel1_S1.symm ▸ Nat.one_pos)))) (k0_hw19 : k0_chk19 (tbM0_0.view.readAt (Elt F) (Rect.unit (s := S32) ![18] S1.size inb_S32_S1_18).toLoadRect xt0 (Shape.Idx.first (numel1_S1.symm ▸ Nat.one_pos)))) (k0_hw20 : k0_chk20 (tbM0_0.view.readAt (Elt F) (Rect.unit (s := S32) ![19] S1.size inb_S32_S1_19).toLoadRect xt0 (Shape.Idx.first (numel1_S1.symm ▸ Nat.one_pos)))) (k0_hw21 : k0_chk21 (tbM0_0.view.readAt (Elt F) (Rect.unit (s := S32) ![20] S1.size inb_S32_S1_20).toLoadRect xt0 (Shape.Idx.first (numel1_S1.symm ▸ Nat.one_pos)))) (k0_hw22 : k0_chk22 (tbM0_0.view.readAt (Elt F) (Rect.unit (s := S32) ![21] S1.size inb_S32_S1_21).toLoadRect xt0 (Shape.Idx.first (numel1_S1.symm ▸ Nat.one_pos)))) (k0_hw23 : k0_chk23 (tbM0_0.view.readAt (Elt F) (Rect.unit (s := S32) ![22] S1.size inb_S32_S1_22).toLoadRect xt0 (Shape.Idx.first (numel1_S1.symm ▸ Nat.one_pos)))) (k0_hw24 : k0_chk24 (tbM0_0.view.readAt (Elt F) (Rect.unit (s := S32) ![23] S1.size inb_S32_S1_23).toLoadRect xt0 (Shape.Idx.first (numel1_S1.symm ▸ Nat.one_pos)))) (k0_hw25 : k0_chk25 (tbM0_0.view.readAt (Elt F) (Rect.unit (s := S32) ![24] S1.size inb_S32_S1_24).toLoadRect xt0 (Shape.Idx.first (numel1_S1.symm ▸ Nat.one_pos)))) (k0_hw26 : k0_chk26 (tbM0_0.view.readAt (Elt F) (Rect.unit (s := S32) ![25] S1.size inb_S32_S1_25).toLoadRect xt0 (Shape.Idx.first (numel1_S1.symm ▸ Nat.one_pos)))) (k0_hw27 : k0_chk27 (tbM0_0.view.readAt (Elt F) (Rect.unit (s := S32) ![26] S1.size inb_S32_S1_26).toLoadRect xt0 (Shape.Idx.first (numel1_S1.symm ▸ Nat.one_pos)))) (k0_hw28 : k0_chk28 (tbM0_0.view.readAt (Elt F) (Rect.unit (s := S32) ![27] S1.size inb_S32_S1_27).toLoadRect xt0 (Shape.Idx.first (numel1_S1.symm ▸ Nat.one_pos)))) (k0_hw29 : k0_chk29 (tbM0_0.view.readAt (Elt F) (Rect.unit (s := S32) ![28] S1.size inb_S32_S1_28).toLoadRect xt0 (Shape.Idx.first (numel1_S1.symm ▸ Nat.one_pos)))) (k0_hw30 : k0_chk30 (tbM0_0.view.readAt (Elt F) (Rect.unit (s := S32) ![29] S1.size inb_S32_S1_29).toLoadRect xt0 (Shape.Idx.first (numel1_S1.symm ▸ Nat.one_pos)))) (k0_hw31 : k0_chk31 (tbM0_0.view.readAt (Elt F) (Rect.unit (s := S32) ![30] S1.size inb_S32_S1_30).toLoadRect xt0 (Shape.Idx.first (numel1_S1.symm ▸ Nat.one_pos)))) (k0_hw32 : k0_chk32 (tbM0_0.view.readAt (Elt F) (Rect.unit (s := S32) ![31] S1.size inb_S32_S1_31).toLoadRect xt0 (Shape.Idx.first (numel1_S1.symm ▸ Nat.one_pos)))) (h : 26 < 32) :
    (![kernelRun0_A.sl.dma1 c xt0 fh0 k0_hw1, kernelRun0_A.sl.dma2 c xt0 fh0 k0_hw2, kernelRun0_A.sl.dma3 c xt0 fh0 k0_hw3, kernelRun0_A.sl.dma4 c xt0 fh0 k0_hw4, kernelRun0_A.sl.dma5 c xt0 fh0 k0_hw5, kernelRun0_A.sl.dma6 c xt0 fh0 k0_hw6, kernelRun0_A.sl.dma7 c xt0 fh0 k0_hw7, kernelRun0_A.sl.dma8 c xt0 fh0 k0_hw8, kernelRun0_A.sl.dma9 c xt0 fh0 k0_hw9, kernelRun0_A.sl.dma10 c xt0 fh0 k0_hw10, kernelRun0_A.sl.dma11 c xt0 fh0 k0_hw11, kernelRun0_A.sl.dma12 c xt0 fh0 k0_hw12, kernelRun0_A.sl.dma13 c xt0 fh0 k0_hw13, kernelRun0_A.sl.dma14 c xt0 fh0 k0_hw14, kernelRun0_A.sl.dma15 c xt0 fh0 k0_hw15, kernelRun0_A.sl.dma16 c xt0 fh0 k0_hw16, kernelRun0_A.sl.dma17 c xt0 fh0 k0_hw17, kernelRun0_A.sl.dma18 c xt0 fh0 k0_hw18, kernelRun0_A.sl.dma19 c xt0 fh0 k0_hw19, kernelRun0_A.sl.dma20 c xt0 fh0 k0_hw20, kernelRun0_A.sl.dma21 c xt0 fh0 k0_hw21, kernelRun0_A.sl.dma22 c xt0 fh0 k0_hw22, kernelRun0_A.sl.dma23 c xt0 fh0 k0_hw23, kernelRun0_A.sl.dma24 c xt0 fh0 k0_hw24, kernelRun0_A.sl.dma25 c xt0 fh0 k0_hw25, kernelRun0_A.sl.dma26 c xt0 fh0 k0_hw26, kernelRun0_A.sl.dma27 c xt0 fh0 k0_hw27, kernelRun0_A.sl.dma28 c xt0 fh0 k0_hw28, kernelRun0_A.sl.dma29 c xt0 fh0 k0_hw29, kernelRun0_A.sl.dma30 c xt0 fh0 k0_hw30, kernelRun0_A.sl.dma31 c xt0 fh0 k0_hw31, kernelRun0_A.sl.dma32 c xt0 fh0 k0_hw32] : Fin 32 → S512.Idx → Elt F .f32) ⟨26, h⟩ = kernelRun0_A.sl.dma27 c xt0 fh0 k0_hw27 := rfl
theorem look_27 (c : Dev nD) (xt0 : TbBuf0 (F := F) c tbM0_0) (fh0 : HbBuf0 (F := F) c hbM0_0) (k0_hw1 : k0_chk1 (tbM0_0.view.readAt (Elt F) (Rect.unit (s := S32) ![0] S1.size inb_S32_S1_0).toLoadRect xt0 (Shape.Idx.first (numel1_S1.symm ▸ Nat.one_pos)))) (k0_hw2 : k0_chk2 (tbM0_0.view.readAt (Elt F) (Rect.unit (s := S32) ![1] S1.size inb_S32_S1_1).toLoadRect xt0 (Shape.Idx.first (numel1_S1.symm ▸ Nat.one_pos)))) (k0_hw3 : k0_chk3 (tbM0_0.view.readAt (Elt F) (Rect.unit (s := S32) ![2] S1.size inb_S32_S1_2).toLoadRect xt0 (Shape.Idx.first (numel1_S1.symm ▸ Nat.one_pos)))) (k0_hw4 : k0_chk4 (tbM0_0.view.readAt (Elt F) (Rect.unit (s := S32) ![3] S1.size inb_S32_S1_3).toLoadRect xt0 (Shape.Idx.first (numel1_S1.symm ▸ Nat.one_pos)))) (k0_hw5 : k0_chk5 (tbM0_0.view.readAt (Elt F) (Rect.unit (s := S32) ![4] S1.size inb_S32_S1_4).toLoadRect xt0 (Shape.Idx.first (numel1_S1.symm ▸ Nat.one_pos)))) (k0_hw6 : k0_chk6 (tbM0_0.view.readAt (Elt F) (Rect.unit (s := S32) ![5] S1.size inb_S32_S1_5).toLoadRect xt0 (Shape.Idx.first (numel1_S1.symm ▸ Nat.one_pos)))) (k0_hw7 : k0_chk7 (tbM0_0.view.readAt (Elt F) (Rect.unit (s := S32) ![6] S1.size inb_S32_S1_6).toLoadRect xt0 (Shape.Idx.first (numel1_S1.symm ▸ Nat.one_pos)))) (k0_hw8 : k0_chk8 (tbM0_0.view.readAt (Elt F) (Rect.unit (s := S32) ![7] S1.size inb_S32_S1_7).toLoadRect xt0 (Shape.Idx.first (numel1_S1.symm ▸ Nat.one_pos)))) (k0_hw9 : k0_chk9 (tbM0_0.view.readAt (Elt F) (Rect.unit (s := S32) ![8] S1.size inb_S32_S1_8).toLoadRect xt0 (Shape.Idx.first (numel1_S1.symm ▸ Nat.one_pos)))) (k0_hw10 : k0_chk10 (tbM0_0.view.readAt (Elt F) (Rect.unit (s := S32) ![9] S1.size inb_S32_S1_9).toLoadRect xt0 (Shape.Idx.first (numel1_S1.symm ▸ Nat.one_pos)))) (k0_hw11 : k0_chk11 (tbM0_0.view.readAt (Elt F) (Rect.unit (s := S32) ![10] S1.size inb_S32_S1_10).toLoadRect xt0 (Shape.Idx.first (numel1_S1.symm ▸ Nat.one_pos)))) (k0_hw12 : k0_chk12 (tbM0_0.view.readAt (Elt F) (Rect.unit (s := S32) ![11] S1.size inb_S32_S1_11).toLoadRect xt0 (Shape.Idx.first (numel1_S1.symm ▸ Nat.one_pos)))) (k0_hw13 : k0_chk13 (tbM0_0.view.readAt (Elt F) (Rect.unit (s := S32) ![12] S1.size inb_S32_S1_12).toLoadRect xt0 (Shape.Idx.first (numel1_S1.symm ▸ Nat.one_pos)))) (k0_hw14 : k0_chk14 (tbM0_0.view.readAt (Elt F) (Rect.unit (s := S32) ![13] S1.size inb_S32_S1_13).toLoadRect xt0 (Shape.Idx.first (numel1_S1.symm ▸ Nat.one_pos)))) (k0_hw15 : k0_chk15 (tbM0_0.view.readAt (Elt F) (Rect.unit (s := S32) ![14] S1.size inb_S32_S1_14).toLoadRect xt0 (Shape.Idx.first (numel1_S1.symm ▸ Nat.one_pos)))) (k0_hw16 : k0_chk16 (tbM0_0.view.readAt (Elt F) (Rect.unit (s := S32) ![15] S1.size inb_S32_S1_15).toLoadRect xt0 (Shape.Idx.first (numel1_S1.symm ▸ Nat.one_pos)))) (k0_hw17 : k0_chk17 (tbM0_0.view.readAt (Elt F) (Rect.unit (s := S32) ![16] S1.size inb_S32_S1_16).toLoadRect xt0 (Shape.Idx.first (numel1_S1.symm ▸ Nat.one_pos)))) (k0_hw18 : k0_chk18 (tbM0_0.view.readAt (Elt F) (Rect.unit (s := S32) ![17] S1.size inb_S32_S1_17).toLoadRect xt0 (Shape.Idx.first (numel1_S1.symm ▸ Nat.one_pos)))) (k0_hw19 : k0_chk19 (tbM0_0.view.readAt (Elt F) (Rect.unit (s := S32) ![18] S1.size inb_S32_S1_18).toLoadRect xt0 (Shape.Idx.first (numel1_S1.symm ▸ Nat.one_pos)))) (k0_hw20 : k0_chk20 (tbM0_0.view.readAt (Elt F) (Rect.unit (s := S32) ![19] S1.size inb_S32_S1_19).toLoadRect xt0 (Shape.Idx.first (numel1_S1.symm ▸ Nat.one_pos)))) (k0_hw21 : k0_chk21 (tbM0_0.view.readAt (Elt F) (Rect.unit (s := S32) ![20] S1.size inb_S32_S1_20).toLoadRect xt0 (Shape.Idx.first (numel1_S1.symm ▸ Nat.one_pos)))) (k0_hw22 : k0_chk22 (tbM0_0.view.readAt (Elt F) (Rect.unit (s := S32) ![21] S1.size inb_S32_S1_21).toLoadRect xt0 (Shape.Idx.first (numel1_S1.symm ▸ Nat.one_pos)))) (k0_hw23 : k0_chk23 (tbM0_0.view.readAt (Elt F) (Rect.unit (s := S32) ![22] S1.size inb_S32_S1_22).toLoadRect xt0 (Shape.Idx.first (numel1_S1.symm ▸ Nat.one_pos)))) (k0_hw24 : k0_chk24 (tbM0_0.view.readAt (Elt F) (Rect.unit (s := S32) ![23] S1.size inb_S32_S1_23).toLoadRect xt0 (Shape.Idx.first (numel1_S1.symm ▸ Nat.one_pos)))) (k0_hw25 : k0_chk25 (tbM0_0.view.readAt (Elt F) (Rect.unit (s := S32) ![24] S1.size inb_S32_S1_24).toLoadRect xt0 (Shape.Idx.first (numel1_S1.symm ▸ Nat.one_pos)))) (k0_hw26 : k0_chk26 (tbM0_0.view.readAt (Elt F) (Rect.unit (s := S32) ![25] S1.size inb_S32_S1_25).toLoadRect xt0 (Shape.Idx.first (numel1_S1.symm ▸ Nat.one_pos)))) (k0_hw27 : k0_chk27 (tbM0_0.view.readAt (Elt F) (Rect.unit (s := S32) ![26] S1.size inb_S32_S1_26).toLoadRect xt0 (Shape.Idx.first (numel1_S1.symm ▸ Nat.one_pos)))) (k0_hw28 : k0_chk28 (tbM0_0.view.readAt (Elt F) (Rect.unit (s := S32) ![27] S1.size inb_S32_S1_27).toLoadRect xt0 (Shape.Idx.first (numel1_S1.symm ▸ Nat.one_pos)))) (k0_hw29 : k0_chk29 (tbM0_0.view.readAt (Elt F) (Rect.unit (s := S32) ![28] S1.size inb_S32_S1_28).toLoadRect xt0 (Shape.Idx.first (numel1_S1.symm ▸ Nat.one_pos)))) (k0_hw30 : k0_chk30 (tbM0_0.view.readAt (Elt F) (Rect.unit (s := S32) ![29] S1.size inb_S32_S1_29).toLoadRect xt0 (Shape.Idx.first (numel1_S1.symm ▸ Nat.one_pos)))) (k0_hw31 : k0_chk31 (tbM0_0.view.readAt (Elt F) (Rect.unit (s := S32) ![30] S1.size inb_S32_S1_30).toLoadRect xt0 (Shape.Idx.first (numel1_S1.symm ▸ Nat.one_pos)))) (k0_hw32 : k0_chk32 (tbM0_0.view.readAt (Elt F) (Rect.unit (s := S32) ![31] S1.size inb_S32_S1_31).toLoadRect xt0 (Shape.Idx.first (numel1_S1.symm ▸ Nat.one_pos)))) (h : 27 < 32) :
    (![kernelRun0_A.sl.dma1 c xt0 fh0 k0_hw1, kernelRun0_A.sl.dma2 c xt0 fh0 k0_hw2, kernelRun0_A.sl.dma3 c xt0 fh0 k0_hw3, kernelRun0_A.sl.dma4 c xt0 fh0 k0_hw4, kernelRun0_A.sl.dma5 c xt0 fh0 k0_hw5, kernelRun0_A.sl.dma6 c xt0 fh0 k0_hw6, kernelRun0_A.sl.dma7 c xt0 fh0 k0_hw7, kernelRun0_A.sl.dma8 c xt0 fh0 k0_hw8, kernelRun0_A.sl.dma9 c xt0 fh0 k0_hw9, kernelRun0_A.sl.dma10 c xt0 fh0 k0_hw10, kernelRun0_A.sl.dma11 c xt0 fh0 k0_hw11, kernelRun0_A.sl.dma12 c xt0 fh0 k0_hw12, kernelRun0_A.sl.dma13 c xt0 fh0 k0_hw13, kernelRun0_A.sl.dma14 c xt0 fh0 k0_hw14, kernelRun0_A.sl.dma15 c xt0 fh0 k0_hw15, kernelRun0_A.sl.dma16 c xt0 fh0 k0_hw16, kernelRun0_A.sl.dma17 c xt0 fh0 k0_hw17, kernelRun0_A.sl.dma18 c xt0 fh0 k0_hw18, kernelRun0_A.sl.dma19 c xt0 fh0 k0_hw19, kernelRun0_A.sl.dma20 c xt0 fh0 k0_hw20, kernelRun0_A.sl.dma21 c xt0 fh0 k0_hw21, kernelRun0_A.sl.dma22 c xt0 fh0 k0_hw22, kernelRun0_A.sl.dma23 c xt0 fh0 k0_hw23, kernelRun0_A.sl.dma24 c xt0 fh0 k0_hw24, kernelRun0_A.sl.dma25 c xt0 fh0 k0_hw25, kernelRun0_A.sl.dma26 c xt0 fh0 k0_hw26, kernelRun0_A.sl.dma27 c xt0 fh0 k0_hw27, kernelRun0_A.sl.dma28 c xt0 fh0 k0_hw28, kernelRun0_A.sl.dma29 c xt0 fh0 k0_hw29, kernelRun0_A.sl.dma30 c xt0 fh0 k0_hw30, kernelRun0_A.sl.dma31 c xt0 fh0 k0_hw31, kernelRun0_A.sl.dma32 c xt0 fh0 k0_hw32] : Fin 32 → S512.Idx → Elt F .f32) ⟨27, h⟩ = kernelRun0_A.sl.dma28 c xt0 fh0 k0_hw28 := rfl
theorem look_28 (c : Dev nD) (xt0 : TbBuf0 (F := F) c tbM0_0) (fh0 : HbBuf0 (F := F) c hbM0_0) (k0_hw1 : k0_chk1 (tbM0_0.view.readAt (Elt F) (Rect.unit (s := S32) ![0] S1.size inb_S32_S1_0).toLoadRect xt0 (Shape.Idx.first (numel1_S1.symm ▸ Nat.one_pos)))) (k0_hw2 : k0_chk2 (tbM0_0.view.readAt (Elt F) (Rect.unit (s := S32) ![1] S1.size inb_S32_S1_1).toLoadRect xt0 (Shape.Idx.first (numel1_S1.symm ▸ Nat.one_pos)))) (k0_hw3 : k0_chk3 (tbM0_0.view.readAt (Elt F) (Rect.unit (s := S32) ![2] S1.size inb_S32_S1_2).toLoadRect xt0 (Shape.Idx.first (numel1_S1.symm ▸ Nat.one_pos)))) (k0_hw4 : k0_chk4 (tbM0_0.view.readAt (Elt F) (Rect.unit (s := S32) ![3] S1.size inb_S32_S1_3).toLoadRect xt0 (Shape.Idx.first (numel1_S1.symm ▸ Nat.one_pos)))) (k0_hw5 : k0_chk5 (tbM0_0.view.readAt (Elt F) (Rect.unit (s := S32) ![4] S1.size inb_S32_S1_4).toLoadRect xt0 (Shape.Idx.first (numel1_S1.symm ▸ Nat.one_pos)))) (k0_hw6 : k0_chk6 (tbM0_0.view.readAt (Elt F) (Rect.unit (s := S32) ![5] S1.size inb_S32_S1_5).toLoadRect xt0 (Shape.Idx.first (numel1_S1.symm ▸ Nat.one_pos)))) (k0_hw7 : k0_chk7 (tbM0_0.view.readAt (Elt F) (Rect.unit (s := S32) ![6] S1.size inb_S32_S1_6).toLoadRect xt0 (Shape.Idx.first (numel1_S1.symm ▸ Nat.one_pos)))) (k0_hw8 : k0_chk8 (tbM0_0.view.readAt (Elt F) (Rect.unit (s := S32) ![7] S1.size inb_S32_S1_7).toLoadRect xt0 (Shape.Idx.first (numel1_S1.symm ▸ Nat.one_pos)))) (k0_hw9 : k0_chk9 (tbM0_0.view.readAt (Elt F) (Rect.unit (s := S32) ![8] S1.size inb_S32_S1_8).toLoadRect xt0 (Shape.Idx.first (numel1_S1.symm ▸ Nat.one_pos)))) (k0_hw10 : k0_chk10 (tbM0_0.view.readAt (Elt F) (Rect.unit (s := S32) ![9] S1.size inb_S32_S1_9).toLoadRect xt0 (Shape.Idx.first (numel1_S1.symm ▸ Nat.one_pos)))) (k0_hw11 : k0_chk11 (tbM0_0.view.readAt (Elt F) (Rect.unit (s := S32) ![10] S1.size inb_S32_S1_10).toLoadRect xt0 (Shape.Idx.first (numel1_S1.symm ▸ Nat.one_pos)))) (k0_hw12 : k0_chk12 (tbM0_0.view.readAt (Elt F) (Rect.unit (s := S32) ![11] S1.size inb_S32_S1_11).toLoadRect xt0 (Shape.Idx.first (numel1_S1.symm ▸ Nat.one_pos)))) (k0_hw13 : k0_chk13 (tbM0_0.view.readAt (Elt F) (Rect.unit (s := S32) ![12] S1.size inb_S32_S1_12).toLoadRect xt0 (Shape.Idx.first (numel1_S1.symm ▸ Nat.one_pos)))) (k0_hw14 : k0_chk14 (tbM0_0.view.readAt (Elt F) (Rect.unit (s := S32) ![13] S1.size inb_S32_S1_13).toLoadRect xt0 (Shape.Idx.first (numel1_S1.symm ▸ Nat.one_pos)))) (k0_hw15 : k0_chk15 (tbM0_0.view.readAt (Elt F) (Rect.unit (s := S32) ![14] S1.size inb_S32_S1_14).toLoadRect xt0 (Shape.Idx.first (numel1_S1.symm ▸ Nat.one_pos)))) (k0_hw16 : k0_chk16 (tbM0_0.view.readAt (Elt F) (Rect.unit (s := S32) ![15] S1.size inb_S32_S1_15).toLoadRect xt0 (Shape.Idx.first (numel1_S1.symm ▸ Nat.one_pos)))) (k0_hw17 : k0_chk17 (tbM0_0.view.readAt (Elt F) (Rect.unit (s := S32) ![16] S1.size inb_S32_S1_16).toLoadRect xt0 (Shape.Idx.first (numel1_S1.symm ▸ Nat.one_pos)))) (k0_hw18 : k0_chk18 (tbM0_0.view.readAt (Elt F) (Rect.unit (s := S32) ![17] S1.size inb_S32_S1_17).toLoadRect xt0 (Shape.Idx.first (numel1_S1.symm ▸ Nat.one_pos)))) (k0_hw19 : k0_chk19 (tbM0_0.view.readAt (Elt F) (Rect.unit (s := S32) ![18] S1.size inb_S32_S1_18).toLoadRect xt0 (Shape.Idx.first (numel1_S1.symm ▸ Nat.one_pos)))) (k0_hw20 : k0_chk20 (tbM0_0.view.readAt (Elt F) (Rect.unit (s := S32) ![19] S1.size inb_S32_S1_19).toLoadRect xt0 (Shape.Idx.first (numel1_S1.symm ▸ Nat.one_pos)))) (k0_hw21 : k0_chk21 (tbM0_0.view.readAt (Elt F) (Rect.unit (s := S32) ![20] S1.size inb_S32_S1_20).toLoadRect xt0 (Shape.Idx.first (numel1_S1.symm ▸ Nat.one_pos)))) (k0_hw22 : k0_chk22 (tbM0_0.view.readAt (Elt F) (Rect.unit (s := S32) ![21] S1.size inb_S32_S1_21).toLoadRect xt0 (Shape.Idx.first (numel1_S1.symm ▸ Nat.one_pos)))) (k0_hw23 : k0_chk23 (tbM0_0.view.readAt (Elt F) (Rect.unit (s := S32) ![22] S1.size inb_S32_S1_22).toLoadRect xt0 (Shape.Idx.first (numel1_S1.symm ▸ Nat.one_pos)))) (k0_hw24 : k0_chk24 (tbM0_0.view.readAt (Elt F) (Rect.unit (s := S32) ![23] S1.size inb_S32_S1_23).toLoadRect xt0 (Shape.Idx.first (numel1_S1.symm ▸ Nat.one_pos)))) (k0_hw25 : k0_chk25 (tbM0_0.view.readAt (Elt F) (Rect.unit (s := S32) ![24] S1.size inb_S32_S1_24).toLoadRect xt0 (Shape.Idx.first (numel1_S1.symm ▸ Nat.one_pos)))) (k0_hw26 : k0_chk26 (tbM0_0.view.readAt (Elt F) (Rect.unit (s := S32) ![25] S1.size inb_S32_S1_25).toLoadRect xt0 (Shape.Idx.first (numel1_S1.symm ▸ Nat.one_pos)))) (k0_hw27 : k0_chk27 (tbM0_0.view.readAt (Elt F) (Rect.unit (s := S32) ![26] S1.size inb_S32_S1_26).toLoadRect xt0 (Shape.Idx.first (numel1_S1.symm ▸ Nat.one_pos)))) (k0_hw28 : k0_chk28 (tbM0_0.view.readAt (Elt F) (Rect.unit (s := S32) ![27] S1.size inb_S32_S1_27).toLoadRect xt0 (Shape.Idx.first (numel1_S1.symm ▸ Nat.one_pos)))) (k0_hw29 : k0_chk29 (tbM0_0.view.readAt (Elt F) (Rect.unit (s := S32) ![28] S1.size inb_S32_S1_28).toLoadRect xt0 (Shape.Idx.first (numel1_S1.symm ▸ Nat.one_pos)))) (k0_hw30 : k0_chk30 (tbM0_0.view.readAt (Elt F) (Rect.unit (s := S32) ![29] S1.size inb_S32_S1_29).toLoadRect xt0 (Shape.Idx.first (numel1_S1.symm ▸ Nat.one_pos)))) (k0_hw31 : k0_chk31 (tbM0_0.view.readAt (Elt F) (Rect.unit (s := S32) ![30] S1.size inb_S32_S1_30).toLoadRect xt0 (Shape.Idx.first (numel1_S1.symm ▸ Nat.one_pos)))) (k0_hw32 : k0_chk32 (tbM0_0.view.readAt (Elt F) (Rect.unit (s := S32) ![31] S1.size inb_S32_S1_31).toLoadRect xt0 (Shape.Idx.first (numel1_S1.symm ▸ Nat.one_pos)))) (h : 28 < 32) :
    (![kernelRun0_A.sl.dma1 c xt0 fh0 k0_hw1, kernelRun0_A.sl.dma2 c xt0 fh0 k0_hw2, kernelRun0_A.sl.dma3 c xt0 fh0 k0_hw3, kernelRun0_A.sl.dma4 c xt0 fh0 k0_hw4, kernelRun0_A.sl.dma5 c xt0 fh0 k0_hw5, kernelRun0_A.sl.dma6 c xt0 fh0 k0_hw6, kernelRun0_A.sl.dma7 c xt0 fh0 k0_hw7, kernelRun0_A.sl.dma8 c xt0 fh0 k0_hw8, kernelRun0_A.sl.dma9 c xt0 fh0 k0_hw9, kernelRun0_A.sl.dma10 c xt0 fh0 k0_hw10, kernelRun0_A.sl.dma11 c xt0 fh0 k0_hw11, kernelRun0_A.sl.dma12 c xt0 fh0 k0_hw12, kernelRun0_A.sl.dma13 c xt0 fh0 k0_hw13, kernelRun0_A.sl.dma14 c xt0 fh0 k0_hw14, kernelRun0_A.sl.dma15 c xt0 fh0 k0_hw15, kernelRun0_A.sl.dma16 c xt0 fh0 k0_hw16, kernelRun0_A.sl.dma17 c xt0 fh0 k0_hw17, kernelRun0_A.sl.dma18 c xt0 fh0 k0_hw18, kernelRun0_A.sl.dma19 c xt0 fh0 k0_hw19, kernelRun0_A.sl.dma20 c xt0 fh0 k0_hw20, kernelRun0_A.sl.dma21 c xt0 fh0 k0_hw21, kernelRun0_A.sl.dma22 c xt0 fh0 k0_hw22, kernelRun0_A.sl.dma23 c xt0 fh0 k0_hw23, kernelRun0_A.sl.dma24 c xt0 fh0 k0_hw24, kernelRun0_A.sl.dma25 c xt0 fh0 k0_hw25, kernelRun0_A.sl.dma26 c xt0 fh0 k0_hw26, kernelRun0_A.sl.dma27 c xt0 fh0 k0_hw27, kernelRun0_A.sl.dma28 c xt0 fh0 k0_hw28, kernelRun0_A.sl.dma29 c xt0 fh0 k0_hw29, kernelRun0_A.sl.dma30 c xt0 fh0 k0_hw30, kernelRun0_A.sl.dma31 c xt0 fh0 k0_hw31, kernelRun0_A.sl.dma32 c xt0 fh0 k0_hw32] : Fin 32 → S512.Idx → Elt F .f32) ⟨28, h⟩ = kernelRun0_A.sl.dma29 c xt0 fh0 k0_hw29 := rfl
theorem look_29 (c : Dev nD) (xt0 : TbBuf0 (F := F) c tbM0_0) (fh0 : HbBuf0 (F := F) c hbM0_0) (k0_hw1 : k0_chk1 (tbM0_0.view.readAt (Elt F) (Rect.unit (s := S32) ![0] S1.size inb_S32_S1_0).toLoadRect xt0 (Shape.Idx.first (numel1_S1.symm ▸ Nat.one_pos)))) (k0_hw2 : k0_chk2 (tbM0_0.view.readAt (Elt F) (Rect.unit (s := S32) ![1] S1.size inb_S32_S1_1).toLoadRect xt0 (Shape.Idx.first (numel1_S1.symm ▸ Nat.one_pos)))) (k0_hw3 : k0_chk3 (tbM0_0.view.readAt (Elt F) (Rect.unit (s := S32) ![2] S1.size inb_S32_S1_2).toLoadRect xt0 (Shape.Idx.first (numel1_S1.symm ▸ Nat.one_pos)))) (k0_hw4 : k0_chk4 (tbM0_0.view.readAt (Elt F) (Rect.unit (s := S32) ![3] S1.size inb_S32_S1_3).toLoadRect xt0 (Shape.Idx.first (numel1_S1.symm ▸ Nat.one_pos)))) (k0_hw5 : k0_chk5 (tbM0_0.view.readAt (Elt F) (Rect.unit (s := S32) ![4] S1.size inb_S32_S1_4).toLoadRect xt0 (Shape.Idx.first (numel1_S1.symm ▸ Nat.one_pos)))) (k0_hw6 : k0_chk6 (tbM0_0.view.readAt (Elt F) (Rect.unit (s := S32) ![5] S1.size inb_S32_S1_5).toLoadRect xt0 (Shape.Idx.first (numel1_S1.symm ▸ Nat.one_pos)))) (k0_hw7 : k0_chk7 (tbM0_0.view.readAt (Elt F) (Rect.unit (s := S32) ![6] S1.size inb_S32_S1_6).toLoadRect xt0 (Shape.Idx.first (numel1_S1.symm ▸ Nat.one_pos)))) (k0_hw8 : k0_chk8 (tbM0_0.view.readAt (Elt F) (Rect.unit (s := S32) ![7] S1.size inb_S32_S1_7).toLoadRect xt0 (Shape.Idx.first (numel1_S1.symm ▸ Nat.one_pos)))) (k0_hw9 : k0_chk9 (tbM0_0.view.readAt (Elt F) (Rect.unit (s := S32) ![8] S1.size inb_S32_S1_8).toLoadRect xt0 (Shape.Idx.first (numel1_S1.symm ▸ Nat.one_pos)))) (k0_hw10 : k0_chk10 (tbM0_0.view.readAt (Elt F) (Rect.unit (s := S32) ![9] S1.size inb_S32_S1_9).toLoadRect xt0 (Shape.Idx.first (numel1_S1.symm ▸ Nat.one_pos)))) (k0_hw11 : k0_chk11 (tbM0_0.view.readAt (Elt F) (Rect.unit (s := S32) ![10] S1.size inb_S32_S1_10).toLoadRect xt0 (Shape.Idx.first (numel1_S1.symm ▸ Nat.one_pos)))) (k0_hw12 : k0_chk12 (tbM0_0.view.readAt (Elt F) (Rect.unit (s := S32) ![11] S1.size inb_S32_S1_11).toLoadRect xt0 (Shape.Idx.first (numel1_S1.symm ▸ Nat.one_pos)))) (k0_hw13 : k0_chk13 (tbM0_0.view.readAt (Elt F) (Rect.unit (s := S32) ![12] S1.size inb_S32_S1_12).toLoadRect xt0 (Shape.Idx.first (numel1_S1.symm ▸ Nat.one_pos)))) (k0_hw14 : k0_chk14 (tbM0_0.view.readAt (Elt F) (Rect.unit (s := S32) ![13] S1.size inb_S32_S1_13).toLoadRect xt0 (Shape.Idx.first (numel1_S1.symm ▸ Nat.one_pos)))) (k0_hw15 : k0_chk15 (tbM0_0.view.readAt (Elt F) (Rect.unit (s := S32) ![14] S1.size inb_S32_S1_14).toLoadRect xt0 (Shape.Idx.first (numel1_S1.symm ▸ Nat.one_pos)))) (k0_hw16 : k0_chk16 (tbM0_0.view.readAt (Elt F) (Rect.unit (s := S32) ![15] S1.size inb_S32_S1_15).toLoadRect xt0 (Shape.Idx.first (numel1_S1.symm ▸ Nat.one_pos)))) (k0_hw17 : k0_chk17 (tbM0_0.view.readAt (Elt F) (Rect.unit (s := S32) ![16] S1.size inb_S32_S1_16).toLoadRect xt0 (Shape.Idx.first (numel1_S1.symm ▸ Nat.one_pos)))) (k0_hw18 : k0_chk18 (tbM0_0.view.readAt (Elt F) (Rect.unit (s := S32) ![17] S1.size inb_S32_S1_17).toLoadRect xt0 (Shape.Idx.first (numel1_S1.symm ▸ Nat.one_pos)))) (k0_hw19 : k0_chk19 (tbM0_0.view.readAt (Elt F) (Rect.unit (s := S32) ![18] S1.size inb_S32_S1_18).toLoadRect xt0 (Shape.Idx.first (numel1_S1.symm ▸ Nat.one_pos)))) (k0_hw20 : k0_chk20 (tbM0_0.view.readAt (Elt F) (Rect.unit (s := S32) ![19] S1.size inb_S32_S1_19).toLoadRect xt0 (Shape.Idx.first (numel1_S1.symm ▸ Nat.one_pos)))) (k0_hw21 : k0_chk21 (tbM0_0.view.readAt (Elt F) (Rect.unit (s := S32) ![20] S1.size inb_S32_S1_20).toLoadRect xt0 (Shape.Idx.first (numel1_S1.symm ▸ Nat.one_pos)))) (k0_hw22 : k0_chk22 (tbM0_0.view.readAt (Elt F) (Rect.unit (s := S32) ![21] S1.size inb_S32_S1_21).toLoadRect xt0 (Shape.Idx.first (numel1_S1.symm ▸ Nat.one_pos)))) (k0_hw23 : k0_chk23 (tbM0_0.view.readAt (Elt F) (Rect.unit (s := S32) ![22] S1.size inb_S32_S1_22).toLoadRect xt0 (Shape.Idx.first (numel1_S1.symm ▸ Nat.one_pos)))) (k0_hw24 : k0_chk24 (tbM0_0.view.readAt (Elt F) (Rect.unit (s := S32) ![23] S1.size inb_S32_S1_23).toLoadRect xt0 (Shape.Idx.first (numel1_S1.symm ▸ Nat.one_pos)))) (k0_hw25 : k0_chk25 (tbM0_0.view.readAt (Elt F) (Rect.unit (s := S32) ![24] S1.size inb_S32_S1_24).toLoadRect xt0 (Shape.Idx.first (numel1_S1.symm ▸ Nat.one_pos)))) (k0_hw26 : k0_chk26 (tbM0_0.view.readAt (Elt F) (Rect.unit (s := S32) ![25] S1.size inb_S32_S1_25).toLoadRect xt0 (Shape.Idx.first (numel1_S1.symm ▸ Nat.one_pos)))) (k0_hw27 : k0_chk27 (tbM0_0.view.readAt (Elt F) (Rect.unit (s := S32) ![26] S1.size inb_S32_S1_26).toLoadRect xt0 (Shape.Idx.first (numel1_S1.symm ▸ Nat.one_pos)))) (k0_hw28 : k0_chk28 (tbM0_0.view.readAt (Elt F) (Rect.unit (s := S32) ![27] S1.size inb_S32_S1_27).toLoadRect xt0 (Shape.Idx.first (numel1_S1.symm ▸ Nat.one_pos)))) (k0_hw29 : k0_chk29 (tbM0_0.view.readAt (Elt F) (Rect.unit (s := S32) ![28] S1.size inb_S32_S1_28).toLoadRect xt0 (Shape.Idx.first (numel1_S1.symm ▸ Nat.one_pos)))) (k0_hw30 : k0_chk30 (tbM0_0.view.readAt (Elt F) (Rect.unit (s := S32) ![29] S1.size inb_S32_S1_29).toLoadRect xt0 (Shape.Idx.first (numel1_S1.symm ▸ Nat.one_pos)))) (k0_hw31 : k0_chk31 (tbM0_0.view.readAt (Elt F) (Rect.unit (s := S32) ![30] S1.size inb_S32_S1_30).toLoadRect xt0 (Shape.Idx.first (numel1_S1.symm ▸ Nat.one_pos)))) (k0_hw32 : k0_chk32 (tbM0_0.view.readAt (Elt F) (Rect.unit (s := S32) ![31] S1.size inb_S32_S1_31).toLoadRect xt0 (Shape.Idx.first (numel1_S1.symm ▸ Nat.one_pos)))) (h : 29 < 32) :
    (![kernelRun0_A.sl.dma1 c xt0 fh0 k0_hw1, kernelRun0_A.sl.dma2 c xt0 fh0 k0_hw2, kernelRun0_A.sl.dma3 c xt0 fh0 k0_hw3, kernelRun0_A.sl.dma4 c xt0 fh0 k0_hw4, kernelRun0_A.sl.dma5 c xt0 fh0 k0_hw5, kernelRun0_A.sl.dma6 c xt0 fh0 k0_hw6, kernelRun0_A.sl.dma7 c xt0 fh0 k0_hw7, kernelRun0_A.sl.dma8 c xt0 fh0 k0_hw8, kernelRun0_A.sl.dma9 c xt0 fh0 k0_hw9, kernelRun0_A.sl.dma10 c xt0 fh0 k0_hw10, kernelRun0_A.sl.dma11 c xt0 fh0 k0_hw11, kernelRun0_A.sl.dma12 c xt0 fh0 k0_hw12, kernelRun0_A.sl.dma13 c xt0 fh0 k0_hw13, kernelRun0_A.sl.dma14 c xt0 fh0 k0_hw14, kernelRun0_A.sl.dma15 c xt0 fh0 k0_hw15, kernelRun0_A.sl.dma16 c xt0 fh0 k0_hw16, kernelRun0_A.sl.dma17 c xt0 fh0 k0_hw17, kernelRun0_A.sl.dma18 c xt0 fh0 k0_hw18, kernelRun0_A.sl.dma19 c xt0 fh0 k0_hw19, kernelRun0_A.sl.dma20 c xt0 fh0 k0_hw20, kernelRun0_A.sl.dma21 c xt0 fh0 k0_hw21, kernelRun0_A.sl.dma22 c xt0 fh0 k0_hw22, kernelRun0_A.sl.dma23 c xt0 fh0 k0_hw23, kernelRun0_A.sl.dma24 c xt0 fh0 k0_hw24, kernelRun0_A.sl.dma25 c xt0 fh0 k0_hw25, kernelRun0_A.sl.dma26 c xt0 fh0 k0_hw26, kernelRun0_A.sl.dma27 c xt0 fh0 k0_hw27, kernelRun0_A.sl.dma28 c xt0 fh0 k0_hw28, kernelRun0_A.sl.dma29 c xt0 fh0 k0_hw29, kernelRun0_A.sl.dma30 c xt0 fh0 k0_hw30, kernelRun0_A.sl.dma31 c xt0 fh0 k0_hw31, kernelRun0_A.sl.dma32 c xt0 fh0 k0_hw32] : Fin 32 → S512.Idx → Elt F .f32) ⟨29, h⟩ = kernelRun0_A.sl.dma30 c xt0 fh0 k0_hw30 := rfl
theorem look_30 (c : Dev nD) (xt0 : TbBuf0 (F := F) c tbM0_0) (fh0 : HbBuf0 (F := F) c hbM0_0) (k0_hw1 : k0_chk1 (tbM0_0.view.readAt (Elt F) (Rect.unit (s := S32) ![0] S1.size inb_S32_S1_0).toLoadRect xt0 (Shape.Idx.first (numel1_S1.symm ▸ Nat.one_pos)))) (k0_hw2 : k0_chk2 (tbM0_0.view.readAt (Elt F) (Rect.unit (s := S32) ![1] S1.size inb_S32_S1_1).toLoadRect xt0 (Shape.Idx.first (numel1_S1.symm ▸ Nat.one_pos)))) (k0_hw3 : k0_chk3 (tbM0_0.view.readAt (Elt F) (Rect.unit (s := S32) ![2] S1.size inb_S32_S1_2).toLoadRect xt0 (Shape.Idx.first (numel1_S1.symm ▸ Nat.one_pos)))) (k0_hw4 : k0_chk4 (tbM0_0.view.readAt (Elt F) (Rect.unit (s := S32) ![3] S1.size inb_S32_S1_3).toLoadRect xt0 (Shape.Idx.first (numel1_S1.symm ▸ Nat.one_pos)))) (k0_hw5 : k0_chk5 (tbM0_0.view.readAt (Elt F) (Rect.unit (s := S32) ![4] S1.size inb_S32_S1_4).toLoadRect xt0 (Shape.Idx.first (numel1_S1.symm ▸ Nat.one_pos)))) (k0_hw6 : k0_chk6 (tbM0_0.view.readAt (Elt F) (Rect.unit (s := S32) ![5] S1.size inb_S32_S1_5).toLoadRect xt0 (Shape.Idx.first (numel1_S1.symm ▸ Nat.one_pos)))) (k0_hw7 : k0_chk7 (tbM0_0.view.readAt (Elt F) (Rect.unit (s := S32) ![6] S1.size inb_S32_S1_6).toLoadRect xt0 (Shape.Idx.first (numel1_S1.symm ▸ Nat.one_pos)))) (k0_hw8 : k0_chk8 (tbM0_0.view.readAt (Elt F) (Rect.unit (s := S32) ![7] S1.size inb_S32_S1_7).toLoadRect xt0 (Shape.Idx.first (numel1_S1.symm ▸ Nat.one_pos)))) (k0_hw9 : k0_chk9 (tbM0_0.view.readAt (Elt F) (Rect.unit (s := S32) ![8] S1.size inb_S32_S1_8).toLoadRect xt0 (Shape.Idx.first (numel1_S1.symm ▸ Nat.one_pos)))) (k0_hw10 : k0_chk10 (tbM0_0.view.readAt (Elt F) (Rect.unit (s := S32) ![9] S1.size inb_S32_S1_9).toLoadRect xt0 (Shape.Idx.first (numel1_S1.symm ▸ Nat.one_pos)))) (k0_hw11 : k0_chk11 (tbM0_0.view.readAt (Elt F) (Rect.unit (s := S32) ![10] S1.size inb_S32_S1_10).toLoadRect xt0 (Shape.Idx.first (numel1_S1.symm ▸ Nat.one_pos)))) (k0_hw12 : k0_chk12 (tbM0_0.view.readAt (Elt F) (Rect.unit (s := S32) ![11] S1.size inb_S32_S1_11).toLoadRect xt0 (Shape.Idx.first (numel1_S1.symm ▸ Nat.one_pos)))) (k0_hw13 : k0_chk13 (tbM0_0.view.readAt (Elt F) (Rect.unit (s := S32) ![12] S1.size inb_S32_S1_12).toLoadRect xt0 (Shape.Idx.first (numel1_S1.symm ▸ Nat.one_pos)))) (k0_hw14 : k0_chk14 (tbM0_0.view.readAt (Elt F) (Rect.unit (s := S32) ![13] S1.size inb_S32_S1_13).toLoadRect xt0 (Shape.Idx.first (numel1_S1.symm ▸ Nat.one_pos)))) (k0_hw15 : k0_chk15 (tbM0_0.view.readAt (Elt F) (Rect.unit (s := S32) ![14] S1.size inb_S32_S1_14).toLoadRect xt0 (Shape.Idx.first (numel1_S1.symm ▸ Nat.one_pos)))) (k0_hw16 : k0_chk16 (tbM0_0.view.readAt (Elt F) (Rect.unit (s := S32) ![15] S1.size inb_S32_S1_15).toLoadRect xt0 (Shape.Idx.first (numel1_S1.symm ▸ Nat.one_pos)))) (k0_hw17 : k0_chk17 (tbM0_0.view.readAt (Elt F) (Rect.unit (s := S32) ![16] S1.size inb_S32_S1_16).toLoadRect xt0 (Shape.Idx.first (numel1_S1.symm ▸ Nat.one_pos)))) (k0_hw18 : k0_chk18 (tbM0_0.view.readAt (Elt F) (Rect.unit (s := S32) ![17] S1.size inb_S32_S1_17).toLoadRect xt0 (Shape.Idx.first (numel1_S1.symm ▸ Nat.one_pos)))) (k0_hw19 : k0_chk19 (tbM0_0.view.readAt (Elt F) (Rect.unit (s := S32) ![18] S1.size inb_S32_S1_18).toLoadRect xt0 (Shape.Idx.first (numel1_S1.symm ▸ Nat.one_pos)))) (k0_hw20 : k0_chk20 (tbM0_0.view.readAt (Elt F) (Rect.unit (s := S32) ![19] S1.size inb_S32_S1_19).toLoadRect xt0 (Shape.Idx.first (numel1_S1.symm ▸ Nat.one_pos)))) (k0_hw21 : k0_chk21 (tbM0_0.view.readAt (Elt F) (Rect.unit (s := S32) ![20] S1.size inb_S32_S1_20).toLoadRect xt0 (Shape.Idx.first (numel1_S1.symm ▸ Nat.one_pos)))) (k0_hw22 : k0_chk22 (tbM0_0.view.readAt (Elt F) (Rect.unit (s := S32) ![21] S1.size inb_S32_S1_21).toLoadRect xt0 (Shape.Idx.first (numel1_S1.symm ▸ Nat.one_pos)))) (k0_hw23 : k0_chk23 (tbM0_0.view.readAt (Elt F) (Rect.unit (s := S32) ![22] S1.size inb_S32_S1_22).toLoadRect xt0 (Shape.Idx.first (numel1_S1.symm ▸ Nat.one_pos)))) (k0_hw24 : k0_chk24 (tbM0_0.view.readAt (Elt F) (Rect.unit (s := S32) ![23] S1.size inb_S32_S1_23).toLoadRect xt0 (Shape.Idx.first (numel1_S1.symm ▸ Nat.one_pos)))) (k0_hw25 : k0_chk25 (tbM0_0.view.readAt (Elt F) (Rect.unit (s := S32) ![24] S1.size inb_S32_S1_24).toLoadRect xt0 (Shape.Idx.first (numel1_S1.symm ▸ Nat.one_pos)))) (k0_hw26 : k0_chk26 (tbM0_0.view.readAt (Elt F) (Rect.unit (s := S32) ![25] S1.size inb_S32_S1_25).toLoadRect xt0 (Shape.Idx.first (numel1_S1.symm ▸ Nat.one_pos)))) (k0_hw27 : k0_chk27 (tbM0_0.view.readAt (Elt F) (Rect.unit (s := S32) ![26] S1.size inb_S32_S1_26).toLoadRect xt0 (Shape.Idx.first (numel1_S1.symm ▸ Nat.one_pos)))) (k0_hw28 : k0_chk28 (tbM0_0.view.readAt (Elt F) (Rect.unit (s := S32) ![27] S1.size inb_S32_S1_27).toLoadRect xt0 (Shape.Idx.first (numel1_S1.symm ▸ Nat.one_pos)))) (k0_hw29 : k0_chk29 (tbM0_0.view.readAt (Elt F) (Rect.unit (s := S32) ![28] S1.size inb_S32_S1_28).toLoadRect xt0 (Shape.Idx.first (numel1_S1.symm ▸ Nat.one_pos)))) (k0_hw30 : k0_chk30 (tbM0_0.view.readAt (Elt F) (Rect.unit (s := S32) ![29] S1.size inb_S32_S1_29).toLoadRect xt0 (Shape.Idx.first (numel1_S1.symm ▸ Nat.one_pos)))) (k0_hw31 : k0_chk31 (tbM0_0.view.readAt (Elt F) (Rect.unit (s := S32) ![30] S1.size inb_S32_S1_30).toLoadRect xt0 (Shape.Idx.first (numel1_S1.symm ▸ Nat.one_pos)))) (k0_hw32 : k0_chk32 (tbM0_0.view.readAt (Elt F) (Rect.unit (s := S32) ![31] S1.size inb_S32_S1_31).toLoadRect xt0 (Shape.Idx.first (numel1_S1.symm ▸ Nat.one_pos)))) (h : 30 < 32) :
    (![kernelRun0_A.sl.dma1 c xt0 fh0 k0_hw1, kernelRun0_A.sl.dma2 c xt0 fh0 k0_hw2, kernelRun0_A.sl.dma3 c xt0 fh0 k0_hw3, kernelRun0_A.sl.dma4 c xt0 fh0 k0_hw4, kernelRun0_A.sl.dma5 c xt0 fh0 k0_hw5, kernelRun0_A.sl.dma6 c xt0 fh0 k0_hw6, kernelRun0_A.sl.dma7 c xt0 fh0 k0_hw7, kernelRun0_A.sl.dma8 c xt0 fh0 k0_hw8, kernelRun0_A.sl.dma9 c xt0 fh0 k0_hw9, kernelRun0_A.sl.dma10 c xt0 fh0 k0_hw10, kernelRun0_A.sl.dma11 c xt0 fh0 k0_hw11, kernelRun0_A.sl.dma12 c xt0 fh0 k0_hw12, kernelRun0_A.sl.dma13 c xt0 fh0 k0_hw13, kernelRun0_A.sl.dma14 c xt0 fh0 k0_hw14, kernelRun0_A.sl.dma15 c xt0 fh0 k0_hw15, kernelRun0_A.sl.dma16 c xt0 fh0 k0_hw16, kernelRun0_A.sl.dma17 c xt0 fh0 k0_hw17, kernelRun0_A.sl.dma18 c xt0 fh0 k0_hw18, kernelRun0_A.sl.dma19 c xt0 fh0 k0_hw19, kernelRun0_A.sl.dma20 c xt0 fh0 k0_hw20, kernelRun0_A.sl.dma21 c xt0 fh0 k0_hw21, kernelRun0_A.sl.dma22 c xt0 fh0 k0_hw22, kernelRun0_A.sl.dma23 c xt0 fh0 k0_hw23, kernelRun0_A.sl.dma24 c xt0 fh0 k0_hw24, kernelRun0_A.sl.dma25 c xt0 fh0 k0_hw25, kernelRun0_A.sl.dma26 c xt0 fh0 k0_hw26, kernelRun0_A.sl.dma27 c xt0 fh0 k0_hw27, kernelRun0_A.sl.dma28 c xt0 fh0 k0_hw28, kernelRun0_A.sl.dma29 c xt0 fh0 k0_hw29, kernelRun0_A.sl.dma30 c xt0 fh0 k0_hw30, kernelRun0_A.sl.dma31 c xt0 fh0 k0_hw31, kernelRun0_A.sl.dma32 c xt0 fh0 k0_hw32] : Fin 32 → S512.Idx → Elt F .f32) ⟨30, h⟩ = kernelRun0_A.sl.dma31 c xt0 fh0 k0_hw31 := rfl
theorem look_31 (c : Dev nD) (xt0 : TbBuf0 (F := F) c tbM0_0) (fh0 : HbBuf0 (F := F) c hbM0_0) (k0_hw1 : k0_chk1 (tbM0_0.view.readAt (Elt F) (Rect.unit (s := S32) ![0] S1.size inb_S32_S1_0).toLoadRect xt0 (Shape.Idx.first (numel1_S1.symm ▸ Nat.one_pos)))) (k0_hw2 : k0_chk2 (tbM0_0.view.readAt (Elt F) (Rect.unit (s := S32) ![1] S1.size inb_S32_S1_1).toLoadRect xt0 (Shape.Idx.first (numel1_S1.symm ▸ Nat.one_pos)))) (k0_hw3 : k0_chk3 (tbM0_0.view.readAt (Elt F) (Rect.unit (s := S32) ![2] S1.size inb_S32_S1_2).toLoadRect xt0 (Shape.Idx.first (numel1_S1.symm ▸ Nat.one_pos)))) (k0_hw4 : k0_chk4 (tbM0_0.view.readAt (Elt F) (Rect.unit (s := S32) ![3] S1.size inb_S32_S1_3).toLoadRect xt0 (Shape.Idx.first (numel1_S1.symm ▸ Nat.one_pos)))) (k0_hw5 : k0_chk5 (tbM0_0.view.readAt (Elt F) (Rect.unit (s := S32) ![4] S1.size inb_S32_S1_4).toLoadRect xt0 (Shape.Idx.first (numel1_S1.symm ▸ Nat.one_pos)))) (k0_hw6 : k0_chk6 (tbM0_0.view.readAt (Elt F) (Rect.unit (s := S32) ![5] S1.size inb_S32_S1_5).toLoadRect xt0 (Shape.Idx.first (numel1_S1.symm ▸ Nat.one_pos)))) (k0_hw7 : k0_chk7 (tbM0_0.view.readAt (Elt F) (Rect.unit (s := S32) ![6] S1.size inb_S32_S1_6).toLoadRect xt0 (Shape.Idx.first (numel1_S1.symm ▸ Nat.one_pos)))) (k0_hw8 : k0_chk8 (tbM0_0.view.readAt (Elt F) (Rect.unit (s := S32) ![7] S1.size inb_S32_S1_7).toLoadRect xt0 (Shape.Idx.first (numel1_S1.symm ▸ Nat.one_pos)))) (k0_hw9 : k0_chk9 (tbM0_0.view.readAt (Elt F) (Rect.unit (s := S32) ![8] S1.size inb_S32_S1_8).toLoadRect xt0 (Shape.Idx.first (numel1_S1.symm ▸ Nat.one_pos)))) (k0_hw10 : k0_chk10 (tbM0_0.view.readAt (Elt F) (Rect.unit (s := S32) ![9] S1.size inb_S32_S1_9).toLoadRect xt0 (Shape.Idx.first (numel1_S1.symm ▸ Nat.one_pos)))) (k0_hw11 : k0_chk11 (tbM0_0.view.readAt (Elt F) (Rect.unit (s := S32) ![10] S1.size inb_S32_S1_10).toLoadRect xt0 (Shape.Idx.first (numel1_S1.symm ▸ Nat.one_pos)))) (k0_hw12 : k0_chk12 (tbM0_0.view.readAt (Elt F) (Rect.unit (s := S32) ![11] S1.size inb_S32_S1_11).toLoadRect xt0 (Shape.Idx.first (numel1_S1.symm ▸ Nat.one_pos)))) (k0_hw13 : k0_chk13 (tbM0_0.view.readAt (Elt F) (Rect.unit (s := S32) ![12] S1.size inb_S32_S1_12).toLoadRect xt0 (Shape.Idx.first (numel1_S1.symm ▸ Nat.one_pos)))) (k0_hw14 : k0_chk14 (tbM0_0.view.readAt (Elt F) (Rect.unit (s := S32) ![13] S1.size inb_S32_S1_13).toLoadRect xt0 (Shape.Idx.first (numel1_S1.symm ▸ Nat.one_pos)))) (k0_hw15 : k0_chk15 (tbM0_0.view.readAt (Elt F) (Rect.unit (s := S32) ![14] S1.size inb_S32_S1_14).toLoadRect xt0 (Shape.Idx.first (numel1_S1.symm ▸ Nat.one_pos)))) (k0_hw16 : k0_chk16 (tbM0_0.view.readAt (Elt F) (Rect.unit (s := S32) ![15] S1.size inb_S32_S1_15).toLoadRect xt0 (Shape.Idx.first (numel1_S1.symm ▸ Nat.one_pos)))) (k0_hw17 : k0_chk17 (tbM0_0.view.readAt (Elt F) (Rect.unit (s := S32) ![16] S1.size inb_S32_S1_16).toLoadRect xt0 (Shape.Idx.first (numel1_S1.symm ▸ Nat.one_pos)))) (k0_hw18 : k0_chk18 (tbM0_0.view.readAt (Elt F) (Rect.unit (s := S32) ![17] S1.size inb_S32_S1_17).toLoadRect xt0 (Shape.Idx.first (numel1_S1.symm ▸ Nat.one_pos)))) (k0_hw19 : k0_chk19 (tbM0_0.view.readAt (Elt F) (Rect.unit (s := S32) ![18] S1.size inb_S32_S1_18).toLoadRect xt0 (Shape.Idx.first (numel1_S1.symm ▸ Nat.one_pos)))) (k0_hw20 : k0_chk20 (tbM0_0.view.readAt (Elt F) (Rect.unit (s := S32) ![19] S1.size inb_S32_S1_19).toLoadRect xt0 (Shape.Idx.first (numel1_S1.symm ▸ Nat.one_pos)))) (k0_hw21 : k0_chk21 (tbM0_0.view.readAt (Elt F) (Rect.unit (s := S32) ![20] S1.size inb_S32_S1_20).toLoadRect xt0 (Shape.Idx.first (numel1_S1.symm ▸ Nat.one_pos)))) (k0_hw22 : k0_chk22 (tbM0_0.view.readAt (Elt F) (Rect.unit (s := S32) ![21] S1.size inb_S32_S1_21).toLoadRect xt0 (Shape.Idx.first (numel1_S1.symm ▸ Nat.one_pos)))) (k0_hw23 : k0_chk23 (tbM0_0.view.readAt (Elt F) (Rect.unit (s := S32) ![22] S1.size inb_S32_S1_22).toLoadRect xt0 (Shape.Idx.first (numel1_S1.symm ▸ Nat.one_pos)))) (k0_hw24 : k0_chk24 (tbM0_0.view.readAt (Elt F) (Rect.unit (s := S32) ![23] S1.size inb_S32_S1_23).toLoadRect xt0 (Shape.Idx.first (numel1_S1.symm ▸ Nat.one_pos)))) (k0_hw25 : k0_chk25 (tbM0_0.view.readAt (Elt F) (Rect.unit (s := S32) ![24] S1.size inb_S32_S1_24).toLoadRect xt0 (Shape.Idx.first (numel1_S1.symm ▸ Nat.one_pos)))) (k0_hw26 : k0_chk26 (tbM0_0.view.readAt (Elt F) (Rect.unit (s := S32) ![25] S1.size inb_S32_S1_25).toLoadRect xt0 (Shape.Idx.first (numel1_S1.symm ▸ Nat.one_pos)))) (k0_hw27 : k0_chk27 (tbM0_0.view.readAt (Elt F) (Rect.unit (s := S32) ![26] S1.size inb_S32_S1_26).toLoadRect xt0 (Shape.Idx.first (numel1_S1.symm ▸ Nat.one_pos)))) (k0_hw28 : k0_chk28 (tbM0_0.view.readAt (Elt F) (Rect.unit (s := S32) ![27] S1.size inb_S32_S1_27).toLoadRect xt0 (Shape.Idx.first (numel1_S1.symm ▸ Nat.one_pos)))) (k0_hw29 : k0_chk29 (tbM0_0.view.readAt (Elt F) (Rect.unit (s := S32) ![28] S1.size inb_S32_S1_28).toLoadRect xt0 (Shape.Idx.first (numel1_S1.symm ▸ Nat.one_pos)))) (k0_hw30 : k0_chk30 (tbM0_0.view.readAt (Elt F) (Rect.unit (s := S32) ![29] S1.size inb_S32_S1_29).toLoadRect xt0 (Shape.Idx.first (numel1_S1.symm ▸ Nat.one_pos)))) (k0_hw31 : k0_chk31 (tbM0_0.view.readAt (Elt F) (Rect.unit (s := S32) ![30] S1.size inb_S32_S1_30).toLoadRect xt0 (Shape.Idx.first (numel1_S1.symm ▸ Nat.one_pos)))) (k0_hw32 : k0_chk32 (tbM0_0.view.readAt (Elt F) (Rect.unit (s := S32) ![31] S1.size inb_S32_S1_31).toLoadRect xt0 (Shape.Idx.first (numel1_S1.symm ▸ Nat.one_pos)))) (h : 31 < 32) :
    (![kernelRun0_A.sl.dma1 c xt0 fh0 k0_hw1, kernelRun0_A.sl.dma2 c xt0 fh0 k0_hw2, kernelRun0_A.sl.dma3 c xt0 fh0 k0_hw3, kernelRun0_A.sl.dma4 c xt0 fh0 k0_hw4, kernelRun0_A.sl.dma5 c xt0 fh0 k0_hw5, kernelRun0_A.sl.dma6 c xt0 fh0 k0_hw6, kernelRun0_A.sl.dma7 c xt0 fh0 k0_hw7, kernelRun0_A.sl.dma8 c xt0 fh0 k0_hw8, kernelRun0_A.sl.dma9 c xt0 fh0 k0_hw9, kernelRun0_A.sl.dma10 c xt0 fh0 k0_hw10, kernelRun0_A.sl.dma11 c xt0 fh0 k0_hw11, kernelRun0_A.sl.dma12 c xt0 fh0 k0_hw12, kernelRun0_A.sl.dma13 c xt0 fh0 k0_hw13, kernelRun0_A.sl.dma14 c xt0 fh0 k0_hw14, kernelRun0_A.sl.dma15 c xt0 fh0 k0_hw15, kernelRun0_A.sl.dma16 c xt0 fh0 k0_hw16, kernelRun0_A.sl.dma17 c xt0 fh0 k0_hw17, kernelRun0_A.sl.dma18 c xt0 fh0 k0_hw18, kernelRun0_A.sl.dma19 c xt0 fh0 k0_hw19, kernelRun0_A.sl.dma20 c xt0 fh0 k0_hw20, kernelRun0_A.sl.dma21 c xt0 fh0 k0_hw21, kernelRun0_A.sl.dma22 c xt0 fh0 k0_hw22, kernelRun0_A.sl.dma23 c xt0 fh0 k0_hw23, kernelRun0_A.sl.dma24 c xt0 fh0 k0_hw24, kernelRun0_A.sl.dma25 c xt0 fh0 k0_hw25, kernelRun0_A.sl.dma26 c xt0 fh0 k0_hw26, kernelRun0_A.sl.dma27 c xt0 fh0 k0_hw27, kernelRun0_A.sl.dma28 c xt0 fh0 k0_hw28, kernelRun0_A.sl.dma29 c xt0 fh0 k0_hw29, kernelRun0_A.sl.dma30 c xt0 fh0 k0_hw30, kernelRun0_A.sl.dma31 c xt0 fh0 k0_hw31, kernelRun0_A.sl.dma32 c xt0 fh0 k0_hw32] : Fin 32 → S512.Idx → Elt F .f32) ⟨31, h⟩ = kernelRun0_A.sl.dma32 c xt0 fh0 k0_hw32 := rfl

end Lookup

/-- EVERY PAYLOAD, row by row: payload b under column y is x[b, table b, y]. -/
theorem pays_apply (c : Dev nD) (xt0 : TbBuf0 (F := F) c tbM0_0) (fh0 : HbBuf0 (F := F) c hbM0_0) (k0_hw1 : k0_chk1 (tbM0_0.view.readAt (Elt F) (Rect.unit (s := S32) ![0] S1.size inb_S32_S1_0).toLoadRect xt0 (Shape.Idx.first (numel1_S1.symm ▸ Nat.one_pos)))) (k0_hw2 : k0_chk2 (tbM0_0.view.readAt (Elt F) (Rect.unit (s := S32) ![1] S1.size inb_S32_S1_1).toLoadRect xt0 (Shape.Idx.first (numel1_S1.symm ▸ Nat.one_pos)))) (k0_hw3 : k0_chk3 (tbM0_0.view.readAt (Elt F) (Rect.unit (s := S32) ![2] S1.size inb_S32_S1_2).toLoadRect xt0 (Shape.Idx.first (numel1_S1.symm ▸ Nat.one_pos)))) (k0_hw4 : k0_chk4 (tbM0_0.view.readAt (Elt F) (Rect.unit (s := S32) ![3] S1.size inb_S32_S1_3).toLoadRect xt0 (Shape.Idx.first (numel1_S1.symm ▸ Nat.one_pos)))) (k0_hw5 : k0_chk5 (tbM0_0.view.readAt (Elt F) (Rect.unit (s := S32) ![4] S1.size inb_S32_S1_4).toLoadRect xt0 (Shape.Idx.first (numel1_S1.symm ▸ Nat.one_pos)))) (k0_hw6 : k0_chk6 (tbM0_0.view.readAt (Elt F) (Rect.unit (s := S32) ![5] S1.size inb_S32_S1_5).toLoadRect xt0 (Shape.Idx.first (numel1_S1.symm ▸ Nat.one_pos)))) (k0_hw7 : k0_chk7 (tbM0_0.view.readAt (Elt F) (Rect.unit (s := S32) ![6] S1.size inb_S32_S1_6).toLoadRect xt0 (Shape.Idx.first (numel1_S1.symm ▸ Nat.one_pos)))) (k0_hw8 : k0_chk8 (tbM0_0.view.readAt (Elt F) (Rect.unit (s := S32) ![7] S1.size inb_S32_S1_7).toLoadRect xt0 (Shape.Idx.first (numel1_S1.symm ▸ Nat.one_pos)))) (k0_hw9 : k0_chk9 (tbM0_0.view.readAt (Elt F) (Rect.unit (s := S32) ![8] S1.size inb_S32_S1_8).toLoadRect xt0 (Shape.Idx.first (numel1_S1.symm ▸ Nat.one_pos)))) (k0_hw10 : k0_chk10 (tbM0_0.view.readAt (Elt F) (Rect.unit (s := S32) ![9] S1.size inb_S32_S1_9).toLoadRect xt0 (Shape.Idx.first (numel1_S1.symm ▸ Nat.one_pos)))) (k0_hw11 : k0_chk11 (tbM0_0.view.readAt (Elt F) (Rect.unit (s := S32) ![10] S1.size inb_S32_S1_10).toLoadRect xt0 (Shape.Idx.first (numel1_S1.symm ▸ Nat.one_pos)))) (k0_hw12 : k0_chk12 (tbM0_0.view.readAt (Elt F) (Rect.unit (s := S32) ![11] S1.size inb_S32_S1_11).toLoadRect xt0 (Shape.Idx.first (numel1_S1.symm ▸ Nat.one_pos)))) (k0_hw13 : k0_chk13 (tbM0_0.view.readAt (Elt F) (Rect.unit (s := S32) ![12] S1.size inb_S32_S1_12).toLoadRect xt0 (Shape.Idx.first (numel1_S1.symm ▸ Nat.one_pos)))) (k0_hw14 : k0_chk14 (tbM0_0.view.readAt (Elt F) (Rect.unit (s := S32) ![13] S1.size inb_S32_S1_13).toLoadRect xt0 (Shape.Idx.first (numel1_S1.symm ▸ Nat.one_pos)))) (k0_hw15 : k0_chk15 (tbM0_0.view.readAt (Elt F) (Rect.unit (s := S32) ![14] S1.size inb_S32_S1_14).toLoadRect xt0 (Shape.Idx.first (numel1_S1.symm ▸ Nat.one_pos)))) (k0_hw16 : k0_chk16 (tbM0_0.view.readAt (Elt F) (Rect.unit (s := S32) ![15] S1.size inb_S32_S1_15).toLoadRect xt0 (Shape.Idx.first (numel1_S1.symm ▸ Nat.one_pos)))) (k0_hw17 : k0_chk17 (tbM0_0.view.readAt (Elt F) (Rect.unit (s := S32) ![16] S1.size inb_S32_S1_16).toLoadRect xt0 (Shape.Idx.first (numel1_S1.symm ▸ Nat.one_pos)))) (k0_hw18 : k0_chk18 (tbM0_0.view.readAt (Elt F) (Rect.unit (s := S32) ![17] S1.size inb_S32_S1_17).toLoadRect xt0 (Shape.Idx.first (numel1_S1.symm ▸ Nat.one_pos)))) (k0_hw19 : k0_chk19 (tbM0_0.view.readAt (Elt F) (Rect.unit (s := S32) ![18] S1.size inb_S32_S1_18).toLoadRect xt0 (Shape.Idx.first (numel1_S1.symm ▸ Nat.one_pos)))) (k0_hw20 : k0_chk20 (tbM0_0.view.readAt (Elt F) (Rect.unit (s := S32) ![19] S1.size inb_S32_S1_19).toLoadRect xt0 (Shape.Idx.first (numel1_S1.symm ▸ Nat.one_pos)))) (k0_hw21 : k0_chk21 (tbM0_0.view.readAt (Elt F) (Rect.unit (s := S32) ![20] S1.size inb_S32_S1_20).toLoadRect xt0 (Shape.Idx.first (numel1_S1.symm ▸ Nat.one_pos)))) (k0_hw22 : k0_chk22 (tbM0_0.view.readAt (Elt F) (Rect.unit (s := S32) ![21] S1.size inb_S32_S1_21).toLoadRect xt0 (Shape.Idx.first (numel1_S1.symm ▸ Nat.one_pos)))) (k0_hw23 : k0_chk23 (tbM0_0.view.readAt (Elt F) (Rect.unit (s := S32) ![22] S1.size inb_S32_S1_22).toLoadRect xt0 (Shape.Idx.first (numel1_S1.symm ▸ Nat.one_pos)))) (k0_hw24 : k0_chk24 (tbM0_0.view.readAt (Elt F) (Rect.unit (s := S32) ![23] S1.size inb_S32_S1_23).toLoadRect xt0 (Shape.Idx.first (numel1_S1.symm ▸ Nat.one_pos)))) (k0_hw25 : k0_chk25 (tbM0_0.view.readAt (Elt F) (Rect.unit (s := S32) ![24] S1.size inb_S32_S1_24).toLoadRect xt0 (Shape.Idx.first (numel1_S1.symm ▸ Nat.one_pos)))) (k0_hw26 : k0_chk26 (tbM0_0.view.readAt (Elt F) (Rect.unit (s := S32) ![25] S1.size inb_S32_S1_25).toLoadRect xt0 (Shape.Idx.first (numel1_S1.symm ▸ Nat.one_pos)))) (k0_hw27 : k0_chk27 (tbM0_0.view.readAt (Elt F) (Rect.unit (s := S32) ![26] S1.size inb_S32_S1_26).toLoadRect xt0 (Shape.Idx.first (numel1_S1.symm ▸ Nat.one_pos)))) (k0_hw28 : k0_chk28 (tbM0_0.view.readAt (Elt F) (Rect.unit (s := S32) ![27] S1.size inb_S32_S1_27).toLoadRect xt0 (Shape.Idx.first (numel1_S1.symm ▸ Nat.one_pos)))) (k0_hw29 : k0_chk29 (tbM0_0.view.readAt (Elt F) (Rect.unit (s := S32) ![28] S1.size inb_S32_S1_28).toLoadRect xt0 (Shape.Idx.first (numel1_S1.symm ▸ Nat.one_pos)))) (k0_hw30 : k0_chk30 (tbM0_0.view.readAt (Elt F) (Rect.unit (s := S32) ![29] S1.size inb_S32_S1_29).toLoadRect xt0 (Shape.Idx.first (numel1_S1.symm ▸ Nat.one_pos)))) (k0_hw31 : k0_chk31 (tbM0_0.view.readAt (Elt F) (Rect.unit (s := S32) ![30] S1.size inb_S32_S1_30).toLoadRect xt0 (Shape.Idx.first (numel1_S1.symm ▸ Nat.one_pos)))) (k0_hw32 : k0_chk32 (tbM0_0.view.readAt (Elt F) (Rect.unit (s := S32) ![31] S1.size inb_S32_S1_31).toLoadRect xt0 (Shape.Idx.first (numel1_S1.symm ▸ Nat.one_pos)))) (hlt : ∀ j : S32.Idx, (xt0 j).toNat < 4096) (b : Fin 32) (y : S512.Idx) :
    (![kernelRun0_A.sl.dma1 c xt0 fh0 k0_hw1, kernelRun0_A.sl.dma2 c xt0 fh0 k0_hw2, kernelRun0_A.sl.dma3 c xt0 fh0 k0_hw3, kernelRun0_A.sl.dma4 c xt0 fh0 k0_hw4, kernelRun0_A.sl.dma5 c xt0 fh0 k0_hw5, kernelRun0_A.sl.dma6 c xt0 fh0 k0_hw6, kernelRun0_A.sl.dma7 c xt0 fh0 k0_hw7, kernelRun0_A.sl.dma8 c xt0 fh0 k0_hw8, kernelRun0_A.sl.dma9 c xt0 fh0 k0_hw9, kernelRun0_A.sl.dma10 c xt0 fh0 k0_hw10, kernelRun0_A.sl.dma11 c xt0 fh0 k0_hw11, kernelRun0_A.sl.dma12 c xt0 fh0 k0_hw12, kernelRun0_A.sl.dma13 c xt0 fh0 k0_hw13, kernelRun0_A.sl.dma14 c xt0 fh0 k0_hw14, kernelRun0_A.sl.dma15 c xt0 fh0 k0_hw15, kernelRun0_A.sl.dma16 c xt0 fh0 k0_hw16, kernelRun0_A.sl.dma17 c xt0 fh0 k0_hw17, kernelRun0_A.sl.dma18 c xt0 fh0 k0_hw18, kernelRun0_A.sl.dma19 c xt0 fh0 k0_hw19, kernelRun0_A.sl.dma20 c xt0 fh0 k0_hw20, kernelRun0_A.sl.dma21 c xt0 fh0 k0_hw21, kernelRun0_A.sl.dma22 c xt0 fh0 k0_hw22, kernelRun0_A.sl.dma23 c xt0 fh0 k0_hw23, kernelRun0_A.sl.dma24 c xt0 fh0 k0_hw24, kernelRun0_A.sl.dma25 c xt0 fh0 k0_hw25, kernelRun0_A.sl.dma26 c xt0 fh0 k0_hw26, kernelRun0_A.sl.dma27 c xt0 fh0 k0_hw27, kernelRun0_A.sl.dma28 c xt0 fh0 k0_hw28, kernelRun0_A.sl.dma29 c xt0 fh0 k0_hw29, kernelRun0_A.sl.dma30 c xt0 fh0 k0_hw30, kernelRun0_A.sl.dma31 c xt0 fh0 k0_hw31, kernelRun0_A.sl.dma32 c xt0 fh0 k0_hw32] : Fin 32 → S512.Idx → Elt F .f32) b y = fh0 (at3 b.val (xt0 (row1 b.val b.isLt)).toNat b.isLt (hlt _) y) :=
  match b with
  | ⟨0, h⟩ => (congrFun (look_0 c xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 h) y).trans (pay_0 c xt0 fh0 k0_hw1 hlt y)
  | ⟨1, h⟩ => (congrFun (look_1 c xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 h) y).trans (pay_1 c xt0 fh0 k0_hw2 hlt y)
  | ⟨2, h⟩ => (congrFun (look_2 c xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 h) y).trans (pay_2 c xt0 fh0 k0_hw3 hlt y)
  | ⟨3, h⟩ => (congrFun (look_3 c xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 h) y).trans (pay_3 c xt0 fh0 k0_hw4 hlt y)
  | ⟨4, h⟩ => (congrFun (look_4 c xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 h) y).trans (pay_4 c xt0 fh0 k0_hw5 hlt y)
  | ⟨5, h⟩ => (congrFun (look_5 c xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 h) y).trans (pay_5 c xt0 fh0 k0_hw6 hlt y)
  | ⟨6, h⟩ => (congrFun (look_6 c xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 h) y).trans (pay_6 c xt0 fh0 k0_hw7 hlt y)
  | ⟨7, h⟩ => (congrFun (look_7 c xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 h) y).trans (pay_7 c xt0 fh0 k0_hw8 hlt y)
  | ⟨8, h⟩ => (congrFun (look_8 c xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 h) y).trans (pay_8 c xt0 fh0 k0_hw9 hlt y)
  | ⟨9, h⟩ => (congrFun (look_9 c xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 h) y).trans (pay_9 c xt0 fh0 k0_hw10 hlt y)
  | ⟨10, h⟩ => (congrFun (look_10 c xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 h) y).trans (pay_10 c xt0 fh0 k0_hw11 hlt y)
  | ⟨11, h⟩ => (congrFun (look_11 c xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 h) y).trans (pay_11 c xt0 fh0 k0_hw12 hlt y)
  | ⟨12, h⟩ => (congrFun (look_12 c xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 h) y).trans (pay_12 c xt0 fh0 k0_hw13 hlt y)
  | ⟨13, h⟩ => (congrFun (look_13 c xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 h) y).trans (pay_13 c xt0 fh0 k0_hw14 hlt y)
  | ⟨14, h⟩ => (congrFun (look_14 c xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 h) y).trans (pay_14 c xt0 fh0 k0_hw15 hlt y)
  | ⟨15, h⟩ => (congrFun (look_15 c xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 h) y).trans (pay_15 c xt0 fh0 k0_hw16 hlt y)
  | ⟨16, h⟩ => (congrFun (look_16 c xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 h) y).trans (pay_16 c xt0 fh0 k0_hw17 hlt y)
  | ⟨17, h⟩ => (congrFun (look_17 c xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 h) y).trans (pay_17 c xt0 fh0 k0_hw18 hlt y)
  | ⟨18, h⟩ => (congrFun (look_18 c xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 h) y).trans (pay_18 c xt0 fh0 k0_hw19 hlt y)
  | ⟨19, h⟩ => (congrFun (look_19 c xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 h) y).trans (pay_19 c xt0 fh0 k0_hw20 hlt y)
  | ⟨20, h⟩ => (congrFun (look_20 c xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 h) y).trans (pay_20 c xt0 fh0 k0_hw21 hlt y)
  | ⟨21, h⟩ => (congrFun (look_21 c xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 h) y).trans (pay_21 c xt0 fh0 k0_hw22 hlt y)
  | ⟨22, h⟩ => (congrFun (look_22 c xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 h) y).trans (pay_22 c xt0 fh0 k0_hw23 hlt y)
  | ⟨23, h⟩ => (congrFun (look_23 c xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 h) y).trans (pay_23 c xt0 fh0 k0_hw24 hlt y)
  | ⟨24, h⟩ => (congrFun (look_24 c xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 h) y).trans (pay_24 c xt0 fh0 k0_hw25 hlt y)
  | ⟨25, h⟩ => (congrFun (look_25 c xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 h) y).trans (pay_25 c xt0 fh0 k0_hw26 hlt y)
  | ⟨26, h⟩ => (congrFun (look_26 c xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 h) y).trans (pay_26 c xt0 fh0 k0_hw27 hlt y)
  | ⟨27, h⟩ => (congrFun (look_27 c xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 h) y).trans (pay_27 c xt0 fh0 k0_hw28 hlt y)
  | ⟨28, h⟩ => (congrFun (look_28 c xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 h) y).trans (pay_28 c xt0 fh0 k0_hw29 hlt y)
  | ⟨29, h⟩ => (congrFun (look_29 c xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 h) y).trans (pay_29 c xt0 fh0 k0_hw30 hlt y)
  | ⟨30, h⟩ => (congrFun (look_30 c xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 h) y).trans (pay_30 c xt0 fh0 k0_hw31 hlt y)
  | ⟨31, h⟩ => (congrFun (look_31 c xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 h) y).trans (pay_31 c xt0 fh0 k0_hw32 hlt y)
  | ⟨n + 32, h⟩ => absurd h (by omega)

end Cert.KernelIdeal.BlockP

end
-- ==== Proof.KernelIdealValue.lean ====
/-
  The kernel's result, read off its frame run over the extended reals.

  The grid has one point, whose block is the whole [32, 512] result. What the point writes back is the block the body
  leaves (Proof/KernelIdealBlock.lean): at (b, h) the float `x[b, table b, h]`; and the table holds at row b the clamped index
  `min 4095 (max 0 (n b - 1))` of row b's count (Proof/KernelIdealTable.lean). That is `LastToken.lastToken` of the arguments,
  and since the one block covers the result array, the array ends holding it.
-/
import proofs.«400635_j8967891714565_3_alg».proof.Proof.KernelIdealPayCases

set_option maxRecDepth 16384

noncomputable section

namespace Cert.KernelIdeal.ValueP

open Cert.KernelIdeal Cert.KernelIdeal.Gen Cert.KernelIdeal.GenP Cert.KernelIdeal.Source Cert.KernelIdeal.BlockP Cert.LastToken
open Idealize.ShloMosaic Idealize.ShloMosaic.TcCoe Idealize.ShloMosaic.Tactic Idealize.SL.Sem
open Idealize.ShloMosaic.Pipeline (Dat Cfg Window)

section Block

variable {F : FTy → Type} [FloatOps F]

/-- THE BLOCK AT AN INDEX (b, h): `x[b, table b, h]`. -/
theorem out_apply (c : Dev nD) (i : grid0.Coords) (arg3 : Memref sig .tc .vmem S32x512 .f32) (harg3 : arg3.IsWhole) (arg4 : Memref sig .tc .vmem S32x512 .f32) (harg4 : arg4.IsWhole) (xt0 : TbBuf0 (F := F) c tbM0_0) (fh0 : HbBuf0 (F := F) c hbM0_0) (k0_hw1 : k0_chk1 (tbM0_0.view.readAt (Elt F) (Rect.unit (s := S32) ![0] S1.size inb_S32_S1_0).toLoadRect xt0 (Shape.Idx.first (numel1_S1.symm ▸ Nat.one_pos)))) (k0_hw2 : k0_chk2 (tbM0_0.view.readAt (Elt F) (Rect.unit (s := S32) ![1] S1.size inb_S32_S1_1).toLoadRect xt0 (Shape.Idx.first (numel1_S1.symm ▸ Nat.one_pos)))) (k0_hw3 : k0_chk3 (tbM0_0.view.readAt (Elt F) (Rect.unit (s := S32) ![2] S1.size inb_S32_S1_2).toLoadRect xt0 (Shape.Idx.first (numel1_S1.symm ▸ Nat.one_pos)))) (k0_hw4 : k0_chk4 (tbM0_0.view.readAt (Elt F) (Rect.unit (s := S32) ![3] S1.size inb_S32_S1_3).toLoadRect xt0 (Shape.Idx.first (numel1_S1.symm ▸ Nat.one_pos)))) (k0_hw5 : k0_chk5 (tbM0_0.view.readAt (Elt F) (Rect.unit (s := S32) ![4] S1.size inb_S32_S1_4).toLoadRect xt0 (Shape.Idx.first (numel1_S1.symm ▸ Nat.one_pos)))) (k0_hw6 : k0_chk6 (tbM0_0.view.readAt (Elt F) (Rect.unit (s := S32) ![5] S1.size inb_S32_S1_5).toLoadRect xt0 (Shape.Idx.first (numel1_S1.symm ▸ Nat.one_pos)))) (k0_hw7 : k0_chk7 (tbM0_0.view.readAt (Elt F) (Rect.unit (s := S32) ![6] S1.size inb_S32_S1_6).toLoadRect xt0 (Shape.Idx.first (numel1_S1.symm ▸ Nat.one_pos)))) (k0_hw8 : k0_chk8 (tbM0_0.view.readAt (Elt F) (Rect.unit (s := S32) ![7] S1.size inb_S32_S1_7).toLoadRect xt0 (Shape.Idx.first (numel1_S1.symm ▸ Nat.one_pos)))) (k0_hw9 : k0_chk9 (tbM0_0.view.readAt (Elt F) (Rect.unit (s := S32) ![8] S1.size inb_S32_S1_8).toLoadRect xt0 (Shape.Idx.first (numel1_S1.symm ▸ Nat.one_pos)))) (k0_hw10 : k0_chk10 (tbM0_0.view.readAt (Elt F) (Rect.unit (s := S32) ![9] S1.size inb_S32_S1_9).toLoadRect xt0 (Shape.Idx.first (numel1_S1.symm ▸ Nat.one_pos)))) (k0_hw11 : k0_chk11 (tbM0_0.view.readAt (Elt F) (Rect.unit (s := S32) ![10] S1.size inb_S32_S1_10).toLoadRect xt0 (Shape.Idx.first (numel1_S1.symm ▸ Nat.one_pos)))) (k0_hw12 : k0_chk12 (tbM0_0.view.readAt (Elt F) (Rect.unit (s := S32) ![11] S1.size inb_S32_S1_11).toLoadRect xt0 (Shape.Idx.first (numel1_S1.symm ▸ Nat.one_pos)))) (k0_hw13 : k0_chk13 (tbM0_0.view.readAt (Elt F) (Rect.unit (s := S32) ![12] S1.size inb_S32_S1_12).toLoadRect xt0 (Shape.Idx.first (numel1_S1.symm ▸ Nat.one_pos)))) (k0_hw14 : k0_chk14 (tbM0_0.view.readAt (Elt F) (Rect.unit (s := S32) ![13] S1.size inb_S32_S1_13).toLoadRect xt0 (Shape.Idx.first (numel1_S1.symm ▸ Nat.one_pos)))) (k0_hw15 : k0_chk15 (tbM0_0.view.readAt (Elt F) (Rect.unit (s := S32) ![14] S1.size inb_S32_S1_14).toLoadRect xt0 (Shape.Idx.first (numel1_S1.symm ▸ Nat.one_pos)))) (k0_hw16 : k0_chk16 (tbM0_0.view.readAt (Elt F) (Rect.unit (s := S32) ![15] S1.size inb_S32_S1_15).toLoadRect xt0 (Shape.Idx.first (numel1_S1.symm ▸ Nat.one_pos)))) (k0_hw17 : k0_chk17 (tbM0_0.view.readAt (Elt F) (Rect.unit (s := S32) ![16] S1.size inb_S32_S1_16).toLoadRect xt0 (Shape.Idx.first (numel1_S1.symm ▸ Nat.one_pos)))) (k0_hw18 : k0_chk18 (tbM0_0.view.readAt (Elt F) (Rect.unit (s := S32) ![17] S1.size inb_S32_S1_17).toLoadRect xt0 (Shape.Idx.first (numel1_S1.symm ▸ Nat.one_pos)))) (k0_hw19 : k0_chk19 (tbM0_0.view.readAt (Elt F) (Rect.unit (s := S32) ![18] S1.size inb_S32_S1_18).toLoadRect xt0 (Shape.Idx.first (numel1_S1.symm ▸ Nat.one_pos)))) (k0_hw20 : k0_chk20 (tbM0_0.view.readAt (Elt F) (Rect.unit (s := S32) ![19] S1.size inb_S32_S1_19).toLoadRect xt0 (Shape.Idx.first (numel1_S1.symm ▸ Nat.one_pos)))) (k0_hw21 : k0_chk21 (tbM0_0.view.readAt (Elt F) (Rect.unit (s := S32) ![20] S1.size inb_S32_S1_20).toLoadRect xt0 (Shape.Idx.first (numel1_S1.symm ▸ Nat.one_pos)))) (k0_hw22 : k0_chk22 (tbM0_0.view.readAt (Elt F) (Rect.unit (s := S32) ![21] S1.size inb_S32_S1_21).toLoadRect xt0 (Shape.Idx.first (numel1_S1.symm ▸ Nat.one_pos)))) (k0_hw23 : k0_chk23 (tbM0_0.view.readAt (Elt F) (Rect.unit (s := S32) ![22] S1.size inb_S32_S1_22).toLoadRect xt0 (Shape.Idx.first (numel1_S1.symm ▸ Nat.one_pos)))) (k0_hw24 : k0_chk24 (tbM0_0.view.readAt (Elt F) (Rect.unit (s := S32) ![23] S1.size inb_S32_S1_23).toLoadRect xt0 (Shape.Idx.first (numel1_S1.symm ▸ Nat.one_pos)))) (k0_hw25 : k0_chk25 (tbM0_0.view.readAt (Elt F) (Rect.unit (s := S32) ![24] S1.size inb_S32_S1_24).toLoadRect xt0 (Shape.Idx.first (numel1_S1.symm ▸ Nat.one_pos)))) (k0_hw26 : k0_chk26 (tbM0_0.view.readAt (Elt F) (Rect.unit (s := S32) ![25] S1.size inb_S32_S1_25).toLoadRect xt0 (Shape.Idx.first (numel1_S1.symm ▸ Nat.one_pos)))) (k0_hw27 : k0_chk27 (tbM0_0.view.readAt (Elt F) (Rect.unit (s := S32) ![26] S1.size inb_S32_S1_26).toLoadRect xt0 (Shape.Idx.first (numel1_S1.symm ▸ Nat.one_pos)))) (k0_hw28 : k0_chk28 (tbM0_0.view.readAt (Elt F) (Rect.unit (s := S32) ![27] S1.size inb_S32_S1_27).toLoadRect xt0 (Shape.Idx.first (numel1_S1.symm ▸ Nat.one_pos)))) (k0_hw29 : k0_chk29 (tbM0_0.view.readAt (Elt F) (Rect.unit (s := S32) ![28] S1.size inb_S32_S1_28).toLoadRect xt0 (Shape.Idx.first (numel1_S1.symm ▸ Nat.one_pos)))) (k0_hw30 : k0_chk30 (tbM0_0.view.readAt (Elt F) (Rect.unit (s := S32) ![29] S1.size inb_S32_S1_29).toLoadRect xt0 (Shape.Idx.first (numel1_S1.symm ▸ Nat.one_pos)))) (k0_hw31 : k0_chk31 (tbM0_0.view.readAt (Elt F) (Rect.unit (s := S32) ![30] S1.size inb_S32_S1_30).toLoadRect xt0 (Shape.Idx.first (numel1_S1.symm ▸ Nat.one_pos)))) (k0_hw32 : k0_chk32 (tbM0_0.view.readAt (Elt F) (Rect.unit (s := S32) ![31] S1.size inb_S32_S1_31).toLoadRect xt0 (Shape.Idx.first (numel1_S1.symm ▸ Nat.one_pos)))) (hlt : ∀ j : S32.Idx, (xt0 j).toNat < 4096) (j : S32x512.Idx) :
    out0_A_0 c i arg3 harg3 arg4 harg4 xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 j
      = fh0 (at3 (j 0).val (xt0 (row1 (j 0).val (j 0).isLt)).toNat (j 0).isLt (hlt _) (Rows.colOf j)) := by
  rw [out_eq]
  exact pays_apply c xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 hlt ⟨(j 0).val, (j 0).isLt⟩ (Rows.colOf j)

end Block

variable (m : (ℓ : Loc nD τ sig) → Buf (Elt Ideal) ℓ) (ρ : Dev nD → PrngReg)

/-- The result: at (b, h), `x[b, p_b, h]` with `p_b` the clamped index of row b's count. -/
def result (c : Dev nD) : Buf (Elt Ideal) ((c.tc : Thread nD τ).loc main_v4) :=
  lastToken (m ((c.tc : Thread nD τ).loc main_arg0)) (Table.count m)

/-- Entry (b, p, h) of `x`, named from a result index with coordinates (b, h) in two ways. -/
theorem idx_eq (i j : S32x512.Idx) (p p' : Nat) (hp : p < 4096) (hp' : p' < 4096) (h0 : (i 0).val = (j 0).val)
    (h1 : (i 1).val = (j 1).val) (e : p = p') :
    rowAt i ⟨p, hp⟩ = at3 (j 0).val p' (j 0).isLt hp' (Rows.colOf j) := by
  subst e
  funext a
  apply Fin.ext
  match a with
  | ⟨0, _⟩ => exact h0
  | ⟨1, _⟩ => rfl
  | ⟨2, _⟩ => exact h1

/-- The result at an index with the coordinates of (b, h), spelt with the entry of `x` the body's copy reads. -/
theorem result_at (c : Dev nD) (i j : S32x512.Idx) (h0 : (i 0).val = (j 0).val) (h1 : (i 1).val = (j 1).val) :
    result m c i = m ((c.tc : Thread nD τ).loc main_arg0)
      (at3 (j 0).val (kerWord (Table.count m (row1 (j 0).val (j 0).isLt))).toNat (j 0).isLt (kerWord_lt _) (Rows.colOf j)) := by
  have hrow : batchAt i = row1 (j 0).val (j 0).isLt :=
    funext fun a => Fin.ext (by match a with | ⟨0, _⟩ => exact h0)
  unfold result lastToken
  exact congrArg (m ((c.tc : Thread nD τ).loc main_arg0)) (idx_eq i j _ _ _ _ h0 h1 (by rw [hrow]))

set_option maxHeartbeats 2000000 in
/-- The block the body leaves at the table and the array `x` the region finds, at an index `jj`, is the result at any
    index `ee` with the same coordinates. -/
theorem block_eq (c : Dev nD) (t : Fin (cfgM m (Table.ok m)).N) (jj ee : S32x512.Idx)
    (h0 : (ee 0).val = (jj 0).val) (h1 : (ee 1).val = (jj 1).val) :
    out0_A_0 c (grid0.coords t) (ms0_0 m (Table.ok m) t) (hs0_0 m (Table.ok m) t) scM0_0 (Memref.isWhole_whole _) (tbl m 0) (V m c main_arg0) (Hyps.c0 (Table.hyps m (Table.ok m)) c t) (Hyps.c1 (Table.hyps m (Table.ok m)) c t) (Hyps.c2 (Table.hyps m (Table.ok m)) c t) (Hyps.c3 (Table.hyps m (Table.ok m)) c t) (Hyps.c4 (Table.hyps m (Table.ok m)) c t) (Hyps.c5 (Table.hyps m (Table.ok m)) c t) (Hyps.c6 (Table.hyps m (Table.ok m)) c t) (Hyps.c7 (Table.hyps m (Table.ok m)) c t) (Hyps.c8 (Table.hyps m (Table.ok m)) c t) (Hyps.c9 (Table.hyps m (Table.ok m)) c t) (Hyps.c10 (Table.hyps m (Table.ok m)) c t) (Hyps.c11 (Table.hyps m (Table.ok m)) c t) (Hyps.c12 (Table.hyps m (Table.ok m)) c t) (Hyps.c13 (Table.hyps m (Table.ok m)) c t) (Hyps.c14 (Table.hyps m (Table.ok m)) c t) (Hyps.c15 (Table.hyps m (Table.ok m)) c t) (Hyps.c16 (Table.hyps m (Table.ok m)) c t) (Hyps.c17 (Table.hyps m (Table.ok m)) c t) (Hyps.c18 (Table.hyps m (Table.ok m)) c t) (Hyps.c19 (Table.hyps m (Table.ok m)) c t) (Hyps.c20 (Table.hyps m (Table.ok m)) c t) (Hyps.c21 (Table.hyps m (Table.ok m)) c t) (Hyps.c22 (Table.hyps m (Table.ok m)) c t) (Hyps.c23 (Table.hyps m (Table.ok m)) c t) (Hyps.c24 (Table.hyps m (Table.ok m)) c t) (Hyps.c25 (Table.hyps m (Table.ok m)) c t) (Hyps.c26 (Table.hyps m (Table.ok m)) c t) (Hyps.c27 (Table.hyps m (Table.ok m)) c t) (Hyps.c28 (Table.hyps m (Table.ok m)) c t) (Hyps.c29 (Table.hyps m (Table.ok m)) c t) (Hyps.c30 (Table.hyps m (Table.ok m)) c t) (Hyps.c31 (Table.hyps m (Table.ok m)) c t) jj
      = result m c ee := by
  rw [out_apply c (grid0.coords t) (ms0_0 m (Table.ok m) t) (hs0_0 m (Table.ok m) t) scM0_0 (Memref.isWhole_whole _) (tbl m 0) (V m c main_arg0) (Hyps.c0 (Table.hyps m (Table.ok m)) c t) (Hyps.c1 (Table.hyps m (Table.ok m)) c t) (Hyps.c2 (Table.hyps m (Table.ok m)) c t) (Hyps.c3 (Table.hyps m (Table.ok m)) c t) (Hyps.c4 (Table.hyps m (Table.ok m)) c t) (Hyps.c5 (Table.hyps m (Table.ok m)) c t) (Hyps.c6 (Table.hyps m (Table.ok m)) c t) (Hyps.c7 (Table.hyps m (Table.ok m)) c t) (Hyps.c8 (Table.hyps m (Table.ok m)) c t) (Hyps.c9 (Table.hyps m (Table.ok m)) c t) (Hyps.c10 (Table.hyps m (Table.ok m)) c t) (Hyps.c11 (Table.hyps m (Table.ok m)) c t) (Hyps.c12 (Table.hyps m (Table.ok m)) c t) (Hyps.c13 (Table.hyps m (Table.ok m)) c t) (Hyps.c14 (Table.hyps m (Table.ok m)) c t) (Hyps.c15 (Table.hyps m (Table.ok m)) c t) (Hyps.c16 (Table.hyps m (Table.ok m)) c t) (Hyps.c17 (Table.hyps m (Table.ok m)) c t) (Hyps.c18 (Table.hyps m (Table.ok m)) c t) (Hyps.c19 (Table.hyps m (Table.ok m)) c t) (Hyps.c20 (Table.hyps m (Table.ok m)) c t) (Hyps.c21 (Table.hyps m (Table.ok m)) c t) (Hyps.c22 (Table.hyps m (Table.ok m)) c t) (Hyps.c23 (Table.hyps m (Table.ok m)) c t) (Hyps.c24 (Table.hyps m (Table.ok m)) c t) (Hyps.c25 (Table.hyps m (Table.ok m)) c t) (Hyps.c26 (Table.hyps m (Table.ok m)) c t) (Hyps.c27 (Table.hyps m (Table.ok m)) c t) (Hyps.c28 (Table.hyps m (Table.ok m)) c t) (Hyps.c29 (Table.hyps m (Table.ok m)) c t) (Hyps.c30 (Table.hyps m (Table.ok m)) c t) (Hyps.c31 (Table.hyps m (Table.ok m)) c t) (Table.tbl_lt m) jj,
    result_at m c ee jj h0 h1, V_main_arg0]
  have ht : tbl m 0 (row1 (jj 0).val (jj 0).isLt) = kerWord (Table.count m (row1 (jj 0).val (jj 0).isLt)) :=
    congrFun (Table.tbl_eq m) _
  exact congrArg _ (at3_congr _ _ _ (congrArg BitVec.toNat ht) _ _ _ _)

set_option maxHeartbeats 2000000 in
/-- WHAT THE ONE POINT WRITES BACK is the result, read through the point's block (the whole array). -/
theorem flushed_eq (c : Dev nD) (t : Fin (cfgM m (Table.ok m)).N) :
    (dats m (Table.ok m) (Table.hyps m _) 0 c).flushed 0 t
      = (((cfgM m (Table.ok m)).win 0).blk t).view.read (Elt Ideal) (result m c) := by
  show ((cfgM m (Table.ok m)).win 0).cut (grid0.coords t) ((dats m (Table.ok m) (Table.hyps m _) 0 c).after 0 t) = _
  rw [after0_0]
  unfold outsAt0
  funext j
  revert j
  show ∀ j : S32x512.Idx, out0_A_0 c (grid0.coords t) (ms0_0 m (Table.ok m) t) (hs0_0 m (Table.ok m) t) scM0_0 (Memref.isWhole_whole _) (tbl m 0) (V m c main_arg0) (Hyps.c0 (Table.hyps m (Table.ok m)) c t) (Hyps.c1 (Table.hyps m (Table.ok m)) c t) (Hyps.c2 (Table.hyps m (Table.ok m)) c t) (Hyps.c3 (Table.hyps m (Table.ok m)) c t) (Hyps.c4 (Table.hyps m (Table.ok m)) c t) (Hyps.c5 (Table.hyps m (Table.ok m)) c t) (Hyps.c6 (Table.hyps m (Table.ok m)) c t) (Hyps.c7 (Table.hyps m (Table.ok m)) c t) (Hyps.c8 (Table.hyps m (Table.ok m)) c t) (Hyps.c9 (Table.hyps m (Table.ok m)) c t) (Hyps.c10 (Table.hyps m (Table.ok m)) c t) (Hyps.c11 (Table.hyps m (Table.ok m)) c t) (Hyps.c12 (Table.hyps m (Table.ok m)) c t) (Hyps.c13 (Table.hyps m (Table.ok m)) c t) (Hyps.c14 (Table.hyps m (Table.ok m)) c t) (Hyps.c15 (Table.hyps m (Table.ok m)) c t) (Hyps.c16 (Table.hyps m (Table.ok m)) c t) (Hyps.c17 (Table.hyps m (Table.ok m)) c t) (Hyps.c18 (Table.hyps m (Table.ok m)) c t) (Hyps.c19 (Table.hyps m (Table.ok m)) c t) (Hyps.c20 (Table.hyps m (Table.ok m)) c t) (Hyps.c21 (Table.hyps m (Table.ok m)) c t) (Hyps.c22 (Table.hyps m (Table.ok m)) c t) (Hyps.c23 (Table.hyps m (Table.ok m)) c t) (Hyps.c24 (Table.hyps m (Table.ok m)) c t) (Hyps.c25 (Table.hyps m (Table.ok m)) c t) (Hyps.c26 (Table.hyps m (Table.ok m)) c t) (Hyps.c27 (Table.hyps m (Table.ok m)) c t) (Hyps.c28 (Table.hyps m (Table.ok m)) c t) (Hyps.c29 (Table.hyps m (Table.ok m)) c t) (Hyps.c30 (Table.hyps m (Table.ok m)) c t) (Hyps.c31 (Table.hyps m (Table.ok m)) c t) j
    = result m c ((((cfgM m (Table.ok m)).win 0).blk t).view.emb j)
  intro j
  refine block_eq m c t j _ ?_ ?_
  · show 0 * 32 + 1 * (j 0).val = (j 0).val; omega
  · show 0 * 512 + 1 * (j 1).val = (j 1).val; omega

/-- The one point's block covers the whole result. -/
theorem cover (c : Dev nD) (i : ((((cfgM m (Table.ok m)).win 0).arr.view.loc (c.tc : Thread nD τ))).2.ty.Idx) :
    ∃ t : Fin (cfgM m (Table.ok m)).N, ((cfgM m (Table.ok m)).win 0).flush t = true ∧ i ∈ (((cfgM m (Table.ok m)).win 0).blk t).view.set := by
  have hN : 0 < (cfgM m (Table.ok m)).N := by show 0 < grid0.N; rw [N_0]; exact Nat.one_pos
  refine ⟨⟨0, hN⟩, flush0_0 _ _, ?_⟩
  revert i
  show ∀ i : S32x512.Idx, i ∈ (((cfgM m (Table.ok m)).win 0).blk ⟨0, hN⟩).view.set
  intro i
  unfold View.set
  refine Finset.mem_map.2 ⟨i, Finset.mem_univ _, ?_⟩
  funext a
  apply Fin.ext
  match a with
  | ⟨0, _⟩ => show 0 * 32 + 1 * (i 0).val = (i 0).val; omega
  | ⟨1, _⟩ => show 0 * 512 + 1 * (i 1).val = (i 1).val; omega

/-- THE ARRAY after the run is the result. -/
theorem final (c : Dev nD) : (dats m (Table.ok m) (Table.hyps m _) 0 c).arrAt 0 (cfgM m (Table.ok m)).N = result m c :=
  (dats m (Table.ok m) (Table.hyps m _) 0 c).arrAt_eq_of_cover 0 (result m c) (fun t _ => flushed_eq m c t) (cover m c)

/-- THE RUN: every weakly fair execution ends with the result array at `result` and the arguments as launched. -/
theorem run : θ_run defs (onTc (τ := τ) (main (F := Ideal))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 0).trans (final m c),
      ((h c).2 main_arg0 (by decide : main_arg0 ∈ Pipeline.restRefs sig spec0)).trans (V_main_arg0 m c),
      ((h c).2 main_arg1 (by decide : main_arg1 ∈ Pipeline.restRefs sig spec0)).trans (V_main_arg1 m c)⟩)
    (run_main m ρ (Table.ok m) (Table.hyps m _))

end Cert.KernelIdeal.ValueP

end
-- ==== Proof.lean ====
/-
  The kernel gathers, for each of the 32 rows b, the 512 floats `x[b, p_b, :]` with `p_b = min 4095 (max 0 (n_b - 1))`,
  `n_b` the word sum of row b of the mask; the reference forms `max (n_b - 1) 0`, turns it into a one-hot row over the 4096
  positions and sums `x[b, k, :] * onehot[b, k]` over k. Under the precondition (every float finite, every mask entry the
  word 0 or 1) `n_b ≤ 4096`, so the two indices are one word below 4096, and over the extended reals the one-hot sum is
  the single term at that position: both programs end with `LastToken.lastToken` of the arguments.

  The frames: the kernel's side conditions (each copied row lies inside `x`) hold of every launch memory, because the
  clamped index is below 4096 (Proof/KernelTable.lean, Proof/KernelIdealTable.lean); the reference's frame is its run
  with the result dropped. No operation was idealized, so `preserves` is trivial.
-/
import proofs.«400635_j8967891714565_3_alg».proof.Defs
import proofs.«400635_j8967891714565_3_alg».proof.Proof.Gen.Kernel
import proofs.«400635_j8967891714565_3_alg».proof.Proof.Gen.KernelIdeal
import proofs.«400635_j8967891714565_3_alg».proof.Proof.Gen.ReferenceIdeal
import proofs.«400635_j8967891714565_3_alg».proof.Proof.Gen.Pre_finite_inputs
import proofs.«400635_j8967891714565_3_alg».proof.Proof.RefRun
import proofs.«400635_j8967891714565_3_alg».proof.Proof.RefRead
import proofs.«400635_j8967891714565_3_alg».proof.Proof.KernelFrameP
import proofs.«400635_j8967891714565_3_alg».proof.Proof.KernelTable
import proofs.«400635_j8967891714565_3_alg».proof.Proof.KernelIdealFrameP
import proofs.«400635_j8967891714565_3_alg».proof.Proof.KernelIdealTable
import proofs.«400635_j8967891714565_3_alg».proof.Proof.MaskDomain
import proofs.«400635_j8967891714565_3_alg».proof.Proof.RefValue
import proofs.«400635_j8967891714565_3_alg».proof.Proof.KernelIdealValue
import Idealize.ShloMosaic.Adequacy
import Idealize.ShloMosaic.Init

noncomputable section

namespace Cert.Proof

open Idealize.ShloMosaic Idealize.SL.Sem

section
variable [hPre : Cert.Pre_finite_inputs.Facts]

/-- The word-level kernel runs and keeps its arguments: its generated frame, whose side conditions hold of every memory. -/
theorem frame_kernel [Cert.Kernel.Facts] : Cert.frame_Kernel := fun m ρ _ =>
  Cert.Kernel.GenP.frame m ρ (Cert.Kernel.Table.ok m) (Cert.Kernel.Table.hyps m _)

/-- The same for the kernel read over the extended reals. -/
theorem frame_kernelIdeal [Cert.KernelIdeal.Facts] : Cert.frame_KernelIdeal := fun m ρ _ =>
  Cert.KernelIdeal.GenP.frame m ρ (Cert.KernelIdeal.Table.ok m) (Cert.KernelIdeal.Table.hyps m _)

/-- The reference's frame: its run, the result forgotten. -/
theorem frame_referenceIdeal [Cert.ReferenceIdeal.Facts] : Cert.frame_ReferenceIdeal := fun m ρ _ =>
  (θ_run Cert.ReferenceIdeal.defs _ _).mono (fun _ h c => (h c).2) (Cert.ReferenceIdeal.ValueP.run (F := Ideal) m ρ)
end

/-- The reference's count of a row and the kernel's are one word (the same sum of the same mask, on the one device), so
    `lastToken` over the reference's count is the kernel's result. -/
theorem result_bridge (m : (ℓ : Loc Cert.KernelIdeal.nD Cert.KernelIdeal.τ Cert.KernelIdeal.sig) → Buf (Elt Ideal) ℓ) (c : Dev Cert.KernelIdeal.nD) :
    Cert.LastToken.lastToken (m ((c.tc : Thread Cert.KernelIdeal.nD Cert.KernelIdeal.τ).loc Cert.KernelIdeal.main_arg0))
        (Cert.ReferenceIdeal.ReadP.val_main_v0 (F := Ideal) (m ((c.tc : Thread Cert.KernelIdeal.nD Cert.KernelIdeal.τ).loc Cert.KernelIdeal.main_arg1)))
      = Cert.KernelIdeal.ValueP.result m c := by
  obtain rfl : c = 0 := Subsingleton.elim _ _
  rfl

/-- Both idealized programs end with `lastToken` of the arguments: the kernel by its run read as a value, the reference by
    its run, its stages read at an index, and the one-hot sum on a 0/1 mask; the arguments agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.ValueP.result m c, Cert.KernelIdeal.ValueP.run m ρ, ?_⟩
  refine (θ_run Cert.ReferenceIdeal.defs _ _).mono (fun _ h c => ⟨(h c).1.trans ?_, (h c).2⟩)
    (Cert.ReferenceIdeal.ValueP.run (F := Ideal) m' ρ')
  have hbin : Cert.LastToken.Binary (m' ((c.tc : Thread Cert.ReferenceIdeal.nD Cert.ReferenceIdeal.τ).loc Cert.ReferenceIdeal.main_arg1)) := by
    rw [(hagree c).2]; exact Cert.LastToken.binary_of_pre _ _ (hpre c)
  rw [Cert.ReferenceIdeal.ReadP.val_main_v9_eq, Cert.LastToken.Ref.ref_eq _ _ hbin, (hagree c).1, (hagree c).2]
  exact result_bridge m c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
